-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v98)) (v1 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_v94) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_v184) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3072 : Shape := ⟨2, ![8192, 3072]⟩
abbrev S8192 : Shape := ⟨1, ![8192]⟩
abbrev S8x512x3072 : Shape := ⟨3, ![8, 512, 3072]⟩
abbrev S8x512 : Shape := ⟨2, ![8, 512]⟩
abbrev S8x3072x512 : Shape := ⟨3, ![8, 3072, 512]⟩
abbrev S8x3072 : Shape := ⟨2, ![8, 3072]⟩
abbrev S_ : Shape := ⟨0, ![]⟩

class Facts : Prop where
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S8x512x3072 : S_.BroadcastsInDim S8x512x3072 (![] : Fin 0 → Fin S8x512x3072.rank)
  reducesTo_S8x512x3072_S_d0_1_2 : S8x512x3072.ReducesTo [0, 1, 2] S_
  bcast_S_S8x512 : S_.BroadcastsInDim S8x512 (![] : Fin 0 → Fin S8x512.rank)
  reducesTo_S8x512_S_d0_1 : S8x512.ReducesTo [0, 1] S_
  bcast_S_S8x3072x512 : S_.BroadcastsInDim S8x3072x512 (![] : Fin 0 → Fin S8x3072x512.rank)
  reducesTo_S8x3072x512_S_d0_1_2 : S8x3072x512.ReducesTo [0, 1, 2] S_
  bcast_S_S8x3072 : S_.BroadcastsInDim S8x3072 (![] : Fin 0 → Fin S8x3072.rank)
  reducesTo_S8x3072_S_d0_1 : S8x3072.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg1 : IVec S8192 32) (main_arg5 : FVec F S8x3072 .f32) (main_v13 : IVec S_ 1) (main_v16 : IVec S8x3072x512 1) : IVec S_ 1 :=
  let main_c_5 : IVec S_ 1 := constantI S_ 1 1#1
  let main_v17 : IVec S_ 1 := (fun x v => Host.reduce IntOp.andi x v reducesTo_S8x3072x512_S_d0_1_2 h_S_) main_v16 main_c_5
  let main_v18 : IVec S_ 1 := andi main_v13 main_v17
  let main_v19 : FVec F S8x3072 .f32 := Host.absf main_arg5
  let main_cst_6 : FVec F S_ .f32 := constant S_ .f32 0x7F800000#32
  let main_v20 : FVec F S8x3072 .f32 := broadcastInDim S8x3072 ![] bcast_S_S8x3072 main_cst_6
  let main_v21 : IVec S8x3072 1 := cmpf .olt main_v19 main_v20
  let main_c_7 : IVec S_ 1 := constantI S_ 1 1#1
  let main_v22 : IVec S_ 1 := (fun x v => Host.reduce IntOp.andi x v reducesTo_S8x3072_S_d0_1 h_S_) main_v21 main_c_7
  let main_v23 : IVec S_ 1 := andi main_v18 main_v22
  let main_c_8 : IVec S_ 32 := constantI S_ 32 0#32
  let main_v24 : IVec S8192 32 := broadcastInDim S8192 ![] bcast_S_S8192 main_c_8
  let main_v25 : IVec S8192 1 := cmpi .sge main_arg1 main_v24
  let main_c_9 : IVec S_ 32 := constantI S_ 32 8#32
  let main_v26 : IVec S8192 32 := broadcastInDim S8192 ![] bcast_S_S8192 main_c_9
  let main_v27 : IVec S8192 1 := cmpi .slt main_arg1 main_v26
  let main_v28 : IVec S8192 1 := andi main_v25 main_v27
  let main_c_10 : IVec S_ 1 := constantI S_ 1 1#1
  let main_v29 : IVec S_ 1 := (fun x v => Host.reduce IntOp.andi x v reducesTo_S8192_S_d0 h_S_) main_v28 main_c_10
  let main_v30 : IVec S_ 1 := andi main_v23 main_v29
  main_v30

def fn {F : FTy → Type} [FloatOps F] (main_arg0 : FVec F S8192x3072 .f32) (main_arg1 : IVec S8192 32) (main_arg2 : FVec F S8x512x3072 .f32) (main_arg3 : FVec F S8x512 .f32) (main_arg4 : FVec F S8x3072x512 .f32) (main_arg5 : FVec F S8x3072 .f32) : IVec S_ 1 :=
  let main_v0 : FVec F S8192x3072 .f32 := Host.absf main_arg0
  let main_cst : FVec F S_ .f32 := constant S_ .f32 0x7F800000#32
  let main_v1 : FVec F S8192x3072 .f32 := broadcastInDim S8192x3072 ![] bcast_S_S8192x3072 main_cst
  let main_v2 : IVec S8192x3072 1 := cmpf .olt main_v0 main_v1
  let main_c : IVec S_ 1 := constantI S_ 1 1#1
  let main_v3 : IVec S_ 1 := (fun x v => Host.reduce IntOp.andi x v reducesTo_S8192x3072_S_d0_1 h_S_) main_v2 main_c
  let main_v4 : FVec F S8x512x3072 .f32 := Host.absf main_arg2
  let main_cst_0 : FVec F S_ .f32 := constant S_ .f32 0x7F800000#32
  let main_v5 : FVec F S8x512x3072 .f32 := broadcastInDim S8x512x3072 ![] bcast_S_S8x512x3072 main_cst_0
  let main_v6 : IVec S8x512x3072 1 := cmpf .olt main_v4 main_v5
  let main_c_1 : IVec S_ 1 := constantI S_ 1 1#1
  let main_v7 : IVec S_ 1 := (fun x v => Host.reduce IntOp.andi x v reducesTo_S8x512x3072_S_d0_1_2 h_S_) main_v6 main_c_1
  let main_v8 : IVec S_ 1 := andi main_v3 main_v7
  let main_v9 : FVec F S8x512 .f32 := Host.absf main_arg3
  let main_cst_2 : FVec F S_ .f32 := constant S_ .f32 0x7F800000#32
  let main_v10 : FVec F S8x512 .f32 := broadcastInDim S8x512 ![] bcast_S_S8x512 main_cst_2
  let main_v11 : IVec S8x512 1 := cmpf .olt main_v9 main_v10
  let main_c_3 : IVec S_ 1 := constantI S_ 1 1#1
  let main_v12 : IVec S_ 1 := (fun x v => Host.reduce IntOp.andi x v reducesTo_S8x512_S_d0_1 h_S_) main_v11 main_c_3
  let main_v13 : IVec S_ 1 := andi main_v8 main_v12
  let main_v14 : FVec F S8x3072x512 .f32 := Host.absf main_arg4
  let main_cst_4 : FVec F S_ .f32 := constant S_ .f32 0x7F800000#32
  let main_v15 : FVec F S8x3072x512 .f32 := broadcastInDim S8x3072x512 ![] bcast_S_S8x3072x512 main_cst_4
  let main_v16 : IVec S8x3072x512 1 := cmpf .olt main_v14 main_v15
  fn_part1 (F := F) main_arg1 main_arg5 main_v13 main_v16
-- ==== Kernel.lean ====
abbrev S8192x3072 : Shape := ⟨2, ![8192, 3072]⟩
abbrev S8192 : Shape := ⟨1, ![8192]⟩
abbrev S8x512x3072 : Shape := ⟨3, ![8, 512, 3072]⟩
abbrev S8x512 : Shape := ⟨2, ![8, 512]⟩
abbrev S8x3072x512 : Shape := ⟨3, ![8, 3072, 512]⟩
abbrev S8x3072 : Shape := ⟨2, ![8, 3072]⟩
abbrev S_ : Shape := ⟨0, ![]⟩
abbrev S8192x1 : Shape := ⟨2, ![8192, 1]⟩
abbrev S8 : Shape := ⟨1, ![8]⟩
abbrev S10240x3072 : Shape := ⟨2, ![10240, 3072]⟩
abbrev S40 : Shape := ⟨1, ![40]⟩
abbrev S40x1 : Shape := ⟨2, ![40, 1]⟩
abbrev S1x8 : Shape := ⟨2, ![1, 8]⟩
abbrev S40x8 : Shape := ⟨2, ![40, 8]⟩
abbrev S8x1x512 : Shape := ⟨3, ![8, 1, 512]⟩
abbrev S8x1x3072 : Shape := ⟨3, ![8, 1, 3072]⟩
abbrev S256x3072 : Shape := ⟨2, ![256, 3072]⟩
abbrev S1x3072x512 : Shape := ⟨3, ![1, 3072, 512]⟩
abbrev S1 : Shape := ⟨1, ![1]⟩
abbrev S1x1x512 : Shape := ⟨3, ![1, 1, 512]⟩
abbrev S1x512x3072 : Shape := ⟨3, ![1, 512, 3072]⟩
abbrev S1x1x3072 : Shape := ⟨3, ![1, 1, 3072]⟩
abbrev S3072x512 : Shape := ⟨2, ![3072, 512]⟩
abbrev S256x512 : Shape := ⟨2, ![256, 512]⟩
abbrev S1x512 : Shape := ⟨2, ![1, 512]⟩
abbrev S512x3072 : Shape := ⟨2, ![512, 3072]⟩
abbrev S1x3072 : Shape := ⟨2, ![1, 3072]⟩

abbrev nBuf : Space → Nat
  | .hbm => 182
  | .vmem => 12
  | .smem => 1
  | _ => 0

abbrev hbmTy0_0 (i : Nat) : BufTy := match i % 128 with
  | 0 => ⟨S8192x3072, .f32⟩
  | 1 => ⟨S8192, .i32⟩
  | 2 => ⟨S8x512x3072, .f32⟩
  | 3 => ⟨S8x512, .f32⟩
  | 4 => ⟨S8x3072x512, .f32⟩
  | 5 => ⟨S8x3072, .f32⟩
  | 6 => ⟨S8192, .i32⟩
  | 7 => ⟨S8192, .i32⟩
  | 8 => ⟨S8192, .i32⟩
  | 9 => ⟨S_, .i32⟩
  | 10 => ⟨S8192, .i32⟩
  | 11 => ⟨S8192, .i1⟩
  | 12 => ⟨S_, .i32⟩
  | 13 => ⟨S8192, .i32⟩
  | 14 => ⟨S8192, .i32⟩
  | 15 => ⟨S8192, .i32⟩
  | 16 => ⟨S8192x1, .i32⟩
  | 17 => ⟨S8192, .i32⟩
  | 18 => ⟨S_, .i32⟩
  | 19 => ⟨S8, .i32⟩
  | 20 => ⟨S_, .i32⟩
  | 21 => ⟨S_, .i32⟩
  | 22 => ⟨S8192, .i32⟩
  | 23 => ⟨S8192, .i32⟩
  | 24 => ⟨S_, .i32⟩
  | 25 => ⟨S8192, .i32⟩
  | 26 => ⟨S8192, .i1⟩
  | 27 => ⟨S_, .i32⟩
  | 28 => ⟨S8192, .i32⟩
  | 29 => ⟨S8192, .i32⟩
  | 30 => ⟨S8192, .i32⟩
  | 31 => ⟨S8192x1, .i32⟩
  | 32 => ⟨S_, .i32⟩
  | 33 => ⟨S8192, .i32⟩
  | 34 => ⟨S8, .i32⟩
  | 35 => ⟨S_, .i32⟩
  | 36 => ⟨S8, .i32⟩
  | 37 => ⟨S8, .i32⟩
  | 38 => ⟨S_, .i32⟩
  | 39 => ⟨S8, .i32⟩
  | 40 => ⟨S8, .i32⟩
  | 41 => ⟨S_, .i32⟩
  | 42 => ⟨S_, .i32⟩
  | 43 => ⟨S8, .i32⟩
  | 44 => ⟨S8, .i32⟩
  | 45 => ⟨S8, .i32⟩
  | 46 => ⟨S_, .i32⟩
  | 47 => ⟨S8, .i32⟩
  | 48 => ⟨S8, .i1⟩
  | 49 => ⟨S8, .i32⟩
  | 50 => ⟨S8, .i32⟩
  | 51 => ⟨S_, .i32⟩
  | 52 => ⟨S8, .i32⟩
  | 53 => ⟨S8, .i1⟩
  | 54 => ⟨S8, .i1⟩
  | 55 => ⟨S_, .i32⟩
  | 56 => ⟨S8, .i32⟩
  | 57 => ⟨S8, .i32⟩
  | 58 => ⟨S8, .i32⟩
  | 59 => ⟨S_, .i32⟩
  | 60 => ⟨S8, .i32⟩
  | 61 => ⟨S8, .i32⟩
  | 62 => ⟨S_, .i32⟩
  | 63 => ⟨S_, .i32⟩
  | 64 => ⟨S8, .i32⟩
  | 65 => ⟨S8, .i32⟩
  | 66 => ⟨S_, .i32⟩
  | 67 => ⟨S_, .i32⟩
  | 68 => ⟨S8, .i32⟩
  | 69 => ⟨S8, .i32⟩
  | 70 => ⟨S_, .i32⟩
  | 71 => ⟨S8192, .i32⟩
  | 72 => ⟨S8192, .i1⟩
  | 73 => ⟨S_, .i32⟩
  | 74 => ⟨S8192, .i32⟩
  | 75 => ⟨S8192, .i32⟩
  | 76 => ⟨S8192, .i32⟩
  | 77 => ⟨S8192x1, .i32⟩
  | 78 => ⟨S8192, .i32⟩
  | 79 => ⟨S_, .i32⟩
  | 80 => ⟨S8192, .i32⟩
  | 81 => ⟨S8192, .i1⟩
  | 82 => ⟨S_, .i32⟩
  | 83 => ⟨S8192, .i32⟩
  | 84 => ⟨S8192, .i32⟩
  | 85 => ⟨S8192, .i32⟩
  | 86 => ⟨S8192x1, .i32⟩
  | 87 => ⟨S8192, .i32⟩
  | 88 => ⟨S8192, .i32⟩
  | 89 => ⟨S8192, .i32⟩
  | 90 => ⟨S8192, .i32⟩
  | 91 => ⟨S8192x3072, .bf16⟩
  | 92 => ⟨S_, .i32⟩
  | 93 => ⟨S8192, .i32⟩
  | 94 => ⟨S8192, .i1⟩
  | 95 => ⟨S_, .i32⟩
  | 96 => ⟨S8192, .i32⟩
  | 97 => ⟨S8192, .i32⟩
  | 98 => ⟨S8192, .i32⟩
  | 99 => ⟨S8192x1, .i32⟩
  | 100 => ⟨S8192x3072, .bf16⟩
  | 101 => ⟨S_, .bf16⟩
  | 102 => ⟨S10240x3072, .bf16⟩
  | 103 => ⟨S_, .i32⟩
  | 104 => ⟨S8192, .i32⟩
  | 105 => ⟨S8192, .i1⟩
  | 106 => ⟨S_, .i32⟩
  | 107 => ⟨S8192, .i32⟩
  | 108 => ⟨S8192, .i32⟩
  | 109 => ⟨S8192, .i32⟩
  | 110 => ⟨S8192x1, .i32⟩
  | 111 => ⟨S10240x3072, .bf16⟩
  | 112 => ⟨S_, .i32⟩
  | 113 => ⟨S_, .i32⟩
  | 114 => ⟨S8, .i32⟩
  | 115 => ⟨S8, .i32⟩
  | 116 => ⟨S8, .i32⟩
  | 117 => ⟨S_, .i32⟩
  | 118 => ⟨S8, .i32⟩
  | 119 => ⟨S8, .i1⟩
  | 120 => ⟨S8, .i32⟩
  | 121 => ⟨S8, .i32⟩
  | 122 => ⟨S_, .i32⟩
  | 123 => ⟨S8, .i32⟩
  | 124 => ⟨S8, .i1⟩
  | 125 => ⟨S8, .i1⟩
  | 126 => ⟨S_, .i32⟩
  | 127 => ⟨S8, .i32⟩
  | _ => ⟨S8192x3072, .f32⟩

abbrev hbmTy0_1 (i : Nat) : BufTy := match i % 128 with
  | 0 => ⟨S8, .i32⟩
  | 1 => ⟨S8, .i32⟩
  | 2 => ⟨S_, .i32⟩
  | 3 => ⟨S_, .i32⟩
  | 4 => ⟨S8, .i32⟩
  | 5 => ⟨S40, .i32⟩
  | 6 => ⟨S40x1, .i32⟩
  | 7 => ⟨S1x8, .i32⟩
  | 8 => ⟨S40x8, .i32⟩
  | 9 => ⟨S40x8, .i32⟩
  | 10 => ⟨S40x8, .i1⟩
  | 11 => ⟨S40x8, .i32⟩
  | 12 => ⟨S_, .i32⟩
  | 13 => ⟨S40, .i32⟩
  | 14 => ⟨S_, .i32⟩
  | 15 => ⟨S_, .i32⟩
  | 16 => ⟨S_, .i32⟩
  | 17 => ⟨S40, .i32⟩
  | 18 => ⟨S40, .i32⟩
  | 19 => ⟨S_, .i32⟩
  | 20 => ⟨S40, .i32⟩
  | 21 => ⟨S8x3072x512, .f32⟩
  | 22 => ⟨S8x3072x512, .bf16⟩
  | 23 => ⟨S8x512x3072, .f32⟩
  | 24 => ⟨S8x512x3072, .bf16⟩
  | 25 => ⟨S8x1x512, .f32⟩
  | 26 => ⟨S8x1x3072, .f32⟩
  | 27 => ⟨S10240x3072, .f32⟩
  | 28 => ⟨S_, .i32⟩
  | 29 => ⟨S8192, .i32⟩
  | 30 => ⟨S8192, .i1⟩
  | 31 => ⟨S_, .i32⟩
  | 32 => ⟨S8192, .i32⟩
  | 33 => ⟨S8192, .i32⟩
  | 34 => ⟨S8192, .i32⟩
  | 35 => ⟨S8192x1, .i32⟩
  | 36 => ⟨S8192x3072, .f32⟩
  | 37 => ⟨S_, .f32⟩
  | 38 => ⟨S8192x3072, .f32⟩
  | 39 => ⟨S_, .i32⟩
  | 40 => ⟨S8192, .i32⟩
  | 41 => ⟨S8192, .i1⟩
  | 42 => ⟨S_, .i32⟩
  | 43 => ⟨S8192, .i32⟩
  | 44 => ⟨S8192, .i32⟩
  | 45 => ⟨S8192, .i32⟩
  | 46 => ⟨S8192x1, .i32⟩
  | 47 => ⟨S8192x3072, .f32⟩
  | 48 => ⟨S8192x3072, .f32⟩
  | 49 => ⟨S8192x3072, .f32⟩
  | 50 => ⟨S_, .f32⟩
  | 51 => ⟨S_, .f32⟩
  | 52 => ⟨S_, .f32⟩
  | 53 => ⟨S_, .f32⟩
  | _ => ⟨S8192x3072, .f32⟩

abbrev hbmTy (i : Nat) : BufTy := match i / 128 with
  | 0 => hbmTy0_0 i
  | 1 => hbmTy0_1 i
  | _ => ⟨S8192x3072, .f32⟩

abbrev bufTy : (tb : Table) → Fin (tcTables nBuf tb) → BufTy
  | .hbm, ⟨i, _⟩ => hbmTy i
  | .local _ .vmem, ⟨0, _⟩ => ⟨S256x3072, .bf16⟩
  | .local _ .vmem, ⟨1, _⟩ => ⟨S256x3072, .bf16⟩
  | .local _ .vmem, ⟨2, _⟩ => ⟨S1x3072x512, .bf16⟩
  | .local _ .vmem, ⟨3, _⟩ => ⟨S1x3072x512, .bf16⟩
  | .local _ .vmem, ⟨4, _⟩ => ⟨S1x1x512, .f32⟩
  | .local _ .vmem, ⟨5, _⟩ => ⟨S1x1x512, .f32⟩
  | .local _ .vmem, ⟨6, _⟩ => ⟨S1x512x3072, .bf16⟩
  | .local _ .vmem, ⟨7, _⟩ => ⟨S1x512x3072, .bf16⟩
  | .local _ .vmem, ⟨8, _⟩ => ⟨S1x1x3072, .f32⟩
  | .local _ .vmem, ⟨9, _⟩ => ⟨S1x1x3072, .f32⟩
  | .local _ .vmem, ⟨10, _⟩ => ⟨S256x3072, .f32⟩
  | .local _ .vmem, ⟨11, _⟩ => ⟨S256x3072, .f32⟩
  | .local _ .smem, ⟨0, _⟩ => ⟨S40, .i32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1_0 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_c_2 : Ref sig .tc := ⟨.hbm, 20, rfl⟩
abbrev main_call1_v0 : Ref sig .tc := ⟨.hbm, 21, rfl⟩
abbrev main_call1_v1 : Ref sig .tc := ⟨.hbm, 22, rfl⟩
abbrev main_v9 : Ref sig .tc := ⟨.hbm, 23, rfl⟩
abbrev main_c_3 : Ref sig .tc := ⟨.hbm, 24, rfl⟩
abbrev main_v10 : Ref sig .tc := ⟨.hbm, 25, rfl⟩
abbrev main_v11 : Ref sig .tc := ⟨.hbm, 26, rfl⟩
abbrev main_c_4 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_5 : Ref sig .tc := ⟨.hbm, 32, rfl⟩
abbrev main_v16 : Ref sig .tc := ⟨.hbm, 33, rfl⟩
abbrev main_v17 : Ref sig .tc := ⟨.hbm, 34, rfl⟩
abbrev main_c_6 : Ref sig .tc := ⟨.hbm, 35, rfl⟩
abbrev main_v18 : Ref sig .tc := ⟨.hbm, 36, rfl⟩
abbrev main_v19 : Ref sig .tc := ⟨.hbm, 37, rfl⟩
abbrev main_c_7 : Ref sig .tc := ⟨.hbm, 38, rfl⟩
abbrev main_v20 : Ref sig .tc := ⟨.hbm, 39, rfl⟩
abbrev main_v21 : Ref sig .tc := ⟨.hbm, 40, rfl⟩
abbrev main_c_8 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_v6 : Ref sig .tc := ⟨.hbm, 48, rfl⟩
abbrev main_call2_v7 : Ref sig .tc := ⟨.hbm, 49, rfl⟩
abbrev main_call2_v8 : Ref sig .tc := ⟨.hbm, 50, rfl⟩
abbrev main_call2_c : Ref sig .tc := ⟨.hbm, 51, rfl⟩
abbrev main_call2_v9 : Ref sig .tc := ⟨.hbm, 52, rfl⟩
abbrev main_call2_v10 : Ref sig .tc := ⟨.hbm, 53, rfl⟩
abbrev main_call2_v11 : Ref sig .tc := ⟨.hbm, 54, rfl⟩
abbrev main_call2_c_0 : Ref sig .tc := ⟨.hbm, 55, rfl⟩
abbrev main_call2_v12 : Ref sig .tc := ⟨.hbm, 56, rfl⟩
abbrev main_call2_v13 : Ref sig .tc := ⟨.hbm, 57, rfl⟩
abbrev main_v22 : Ref sig .tc := ⟨.hbm, 58, rfl⟩
abbrev main_c_9 : Ref sig .tc := ⟨.hbm, 59, rfl⟩
abbrev main_v23 : Ref sig .tc := ⟨.hbm, 60, rfl⟩
abbrev main_v24 : Ref sig .tc := ⟨.hbm, 61, rfl⟩
abbrev main_call3_call0_c : Ref sig .tc := ⟨.hbm, 62, rfl⟩
abbrev main_call3_call0_v0 : Ref sig .tc := ⟨.hbm, 63, rfl⟩
abbrev main_v25 : Ref sig .tc := ⟨.hbm, 64, rfl⟩
abbrev main_v26 : Ref sig .tc := ⟨.hbm, 65, rfl⟩
abbrev main_call4_call0_c : Ref sig .tc := ⟨.hbm, 66, rfl⟩
abbrev main_call4_call0_v0 : Ref sig .tc := ⟨.hbm, 67, rfl⟩
abbrev main_v27 : Ref sig .tc := ⟨.hbm, 68, rfl⟩
abbrev main_v28 : Ref sig .tc := ⟨.hbm, 69, rfl⟩
abbrev main_c_10 : Ref sig .tc := ⟨.hbm, 70, rfl⟩
abbrev main_v29 : Ref sig .tc := ⟨.hbm, 71, rfl⟩
abbrev main_v30 : Ref sig .tc := ⟨.hbm, 72, rfl⟩
abbrev main_c_11 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_c_12 : Ref sig .tc := ⟨.hbm, 79, rfl⟩
abbrev main_v36 : Ref sig .tc := ⟨.hbm, 80, rfl⟩
abbrev main_v37 : Ref sig .tc := ⟨.hbm, 81, rfl⟩
abbrev main_c_13 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_c_14 : Ref sig .tc := ⟨.hbm, 92, rfl⟩
abbrev main_v47 : Ref sig .tc := ⟨.hbm, 93, rfl⟩
abbrev main_v48 : Ref sig .tc := ⟨.hbm, 94, rfl⟩
abbrev main_c_15 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_cst : Ref sig .tc := ⟨.hbm, 101, rfl⟩
abbrev main_v54 : Ref sig .tc := ⟨.hbm, 102, rfl⟩
abbrev main_c_16 : Ref sig .tc := ⟨.hbm, 103, rfl⟩
abbrev main_v55 : Ref sig .tc := ⟨.hbm, 104, rfl⟩
abbrev main_v56 : Ref sig .tc := ⟨.hbm, 105, rfl⟩
abbrev main_c_17 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_c_18 : Ref sig .tc := ⟨.hbm, 112, rfl⟩
abbrev main_call5_v0 : Ref sig .tc := ⟨.hbm, 113, rfl⟩
abbrev main_call5_v1 : Ref sig .tc := ⟨.hbm, 114, rfl⟩
abbrev main_call5_v2 : Ref sig .tc := ⟨.hbm, 115, rfl⟩
abbrev main_call5_v3 : Ref sig .tc := ⟨.hbm, 116, rfl⟩
abbrev main_call5_v4 : Ref sig .tc := ⟨.hbm, 117, rfl⟩
abbrev main_call5_v5 : Ref sig .tc := ⟨.hbm, 118, rfl⟩
abbrev main_call5_v6 : Ref sig .tc := ⟨.hbm, 119, rfl⟩
abbrev main_call5_v7 : Ref sig .tc := ⟨.hbm, 120, rfl⟩
abbrev main_call5_v8 : Ref sig .tc := ⟨.hbm, 121, rfl⟩
abbrev main_call5_c : Ref sig .tc := ⟨.hbm, 122, rfl⟩
abbrev main_call5_v9 : Ref sig .tc := ⟨.hbm, 123, rfl⟩
abbrev main_call5_v10 : Ref sig .tc := ⟨.hbm, 124, rfl⟩
abbrev main_call5_v11 : Ref sig .tc := ⟨.hbm, 125, rfl⟩
abbrev main_call5_c_0 : Ref sig .tc := ⟨.hbm, 126, rfl⟩
abbrev main_call5_v12 : Ref sig .tc := ⟨.hbm, 127, rfl⟩
abbrev main_call5_v13 : Ref sig .tc := ⟨.hbm, 128, rfl⟩
abbrev main_v62 : Ref sig .tc := ⟨.hbm, 129, rfl⟩
abbrev main_call6_call0_c : Ref sig .tc := ⟨.hbm, 130, rfl⟩
abbrev main_call6_call0_v0 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_c_19 : Ref sig .tc := ⟨.hbm, 140, rfl⟩
abbrev main_v71 : Ref sig .tc := ⟨.hbm, 141, rfl⟩
abbrev main_c_20 : Ref sig .tc := ⟨.hbm, 142, rfl⟩
abbrev main_c_21 : Ref sig .tc := ⟨.hbm, 143, rfl⟩
abbrev main_call7_v0 : Ref sig .tc := ⟨.hbm, 144, rfl⟩
abbrev main_call7_v1 : Ref sig .tc := ⟨.hbm, 145, rfl⟩
abbrev main_call7_v2 : Ref sig .tc := ⟨.hbm, 146, rfl⟩
abbrev main_call7_v3 : Ref sig .tc := ⟨.hbm, 147, rfl⟩
abbrev main_call7_v4 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_c_22 : Ref sig .tc := ⟨.hbm, 156, rfl⟩
abbrev main_v80 : Ref sig .tc := ⟨.hbm, 157, rfl⟩
abbrev main_v81 : Ref sig .tc := ⟨.hbm, 158, rfl⟩
abbrev main_c_23 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_cst_24 : Ref sig .tc := ⟨.hbm, 165, rfl⟩
abbrev main_v87 : Ref sig .tc := ⟨.hbm, 166, rfl⟩
abbrev main_c_25 : Ref sig .tc := ⟨.hbm, 167, rfl⟩
abbrev main_v88 : Ref sig .tc := ⟨.hbm, 168, rfl⟩
abbrev main_v89 : Ref sig .tc := ⟨.hbm, 169, rfl⟩
abbrev main_c_26 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev main_cst_27 : Ref sig .tc := ⟨.hbm, 178, rfl⟩
abbrev main_v97 : Ref sig .tc := ⟨.hbm, 179, rfl⟩
abbrev main_cst_28 : Ref sig .tc := ⟨.hbm, 180, rfl⟩
abbrev main_v98 : Ref sig .tc := ⟨.hbm, 181, rfl⟩
abbrev main_v72 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![40], ![false]⟩

abbrev pre0 : Pipeline.Prefetch sig := ⟨1, ![main_v72.idx], fun | 0 => main_v72.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S40) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S40) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S40) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S40) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3072x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8 : S_.BroadcastsInDim S8 (![] : Fin 0 → Fin S8.rank)
  bcast_S_S_ : S_.BroadcastsInDim S_ (![] : Fin 0 → Fin S_.rank)
  reduceWindows_S8_S8_w8s1p7_0 : S8.ReduceWindows (![8] : Fin 1 → Nat) ![1] ![7] ![0] S8
  h_S_ : 0 < S_.numel
  bitsLt_bf16_f32 : FTy.bits .bf16 < FTy.bits .f32
  bcast_S_S10240x3072 : S_.BroadcastsInDim S10240x3072 (![] : Fin 0 → Fin S10240x3072.rank)
  bcast_S40_S40x1_0 : S40.BroadcastsInDim S40x1 (![0] : Fin 1 → Fin S40x1.rank)
  bcast_S8_S1x8_1 : S8.BroadcastsInDim S1x8 (![1] : Fin 1 → Fin S1x8.rank)
  bcast_S40x1_S40x8_0_1 : S40x1.BroadcastsInDim S40x8 (![0, 1] : Fin 2 → Fin S40x8.rank)
  bcast_S1x8_S40x8_0_1 : S1x8.BroadcastsInDim S40x8 (![0, 1] : Fin 2 → Fin S40x8.rank)
  natLt_1_32 : 1 < 32
  reducesTo_S40x8_S40_d1 : S40x8.ReducesTo [1] S40
  bcast_S_S40 : S_.BroadcastsInDim S40 (![] : Fin 0 → Fin S40.rank)
  transposes_S8x512x3072_S8x3072x512_0_2_1 : S8x512x3072.Transposes [0, 2, 1] S8x3072x512
  transposes_S8x3072x512_S8x512x3072_0_2_1 : S8x3072x512.Transposes [0, 2, 1] S8x512x3072
  shapeCasts_S8x512_S8x1x512 : S8x512.ShapeCasts S8x1x512
  shapeCasts_S8x3072_S8x1x3072 : S8x3072.ShapeCasts S8x1x3072
  numel1_S1 : S1.numel = 1
  inb_S256x3072_S256x3072_0_0 : ∀ a, (![0, 0] : Fin 2 → Nat) a + S256x3072.size a ≤ S256x3072.size a
  h_S256x3072 : 0 < S256x3072.numel
  shapeCasts_S256x3072_S256x3072 : S256x3072.ShapeCasts S256x3072
  inb_S1x3072x512_S1x3072x512_0_0_0 : ∀ a, (![0, 0, 0] : Fin 3 → Nat) a + S1x3072x512.size a ≤ S1x3072x512.size a
  h_S1x3072x512 : 0 < S1x3072x512.numel
  shapeCasts_S1x3072x512_S3072x512 : S1x3072x512.ShapeCasts S3072x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S256x512 : S1x512.Broadcasts S256x512
  inb_S1x512x3072_S1x512x3072_0_0_0 : ∀ a, (![0, 0, 0] : Fin 3 → Nat) a + S1x512x3072.size a ≤ S1x512x3072.size a
  h_S1x512x3072 : 0 < S1x512x3072.numel
  shapeCasts_S1x512x3072_S512x3072 : S1x512x3072.ShapeCasts S512x3072
  inb_S1x1x3072_S1x1x3072_0_0_0 : ∀ a, (![0, 0, 0] : Fin 3 → Nat) a + S1x1x3072.size a ≤ S1x1x3072.size a
  h_S1x1x3072 : 0 < S1x1x3072.numel
  shapeCasts_S1x1x3072_S1x3072 : S1x1x3072.ShapeCasts S1x3072
  broadcasts_S1x3072_S256x3072 : S1x3072.Broadcasts S256x3072
  bcast_S_S8192x3072 : S_.BroadcastsInDim S8192x3072 (![] : Fin 0 → Fin S8192x3072.rank)
  reducesTo_S8192x3072_S_d0_1 : S8192x3072.ReducesTo [0, 1] S_
  gather_S8192_S8192x1_S8192_n_0_n_n_0_1_1_wf : GatherDims.WF S8192 S8192x1 S8192 [] [0] [] [0] [] 1 ![1]
  scatter_S8_S8192x1_S8192_n_0_0_1_wf : ScatterDims.WF S8 S8192x1 S8192 [] [0] [0] 1
  gather_S8_S8192x1_S8192_n_0_n_n_0_1_1_wf : GatherDims.WF S8 S8192x1 S8192 [] [0] [] [0] [] 1 ![1]
  gather_S8192x3072_S8192x1_S8192x3072_1_0_n_n_0_1_13072_wf : GatherDims.WF S8192x3072 S8192x1 S8192x3072 [1] [0] [] [0] [] 1 ![1, 3072]
  scatter_S10240x3072_S8192x1_S8192x3072_1_0_0_1_wf : ScatterDims.WF S10240x3072 S8192x1 S8192x3072 [1] [0] [0] 1
  dot_S256x3072_S3072x512_S256x512_1_0_0_1_n_n_wf : DotDims.WF S256x3072 S3072x512 S256x512 [1] [0] [0] [1] [] []
  dot_S256x512_S512x3072_S256x3072_1_0_0_1_n_n_wf : DotDims.WF S256x512 S512x3072 S256x3072 [1] [0] [0] [1] [] []
  gather_S10240x3072_S8192x1_S8192x3072_1_0_n_n_0_1_13072_wf : GatherDims.WF S10240x3072 S8192x1 S8192x3072 [1] [0] [] [0] [] 1 ![1, 3072]
  scatter_S8192x3072_S8192x1_S8192x3072_1_0_0_1_wf : ScatterDims.WF S8192x3072 S8192x1 S8192x3072 [1] [0] [0] 1
  hrank0 : 0 < grid0.rank
  k0_off1_inb : ∀ i : grid0.Coords, ∀ a, (k0_off1 i) a + S1.size a ≤ S40.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3072.size a ≤ S10240x3072.size a
  hwx0_0 : ∀ i : grid0.Coords, EltTy.bits .bf16 = 32 ∨ (Rect.block (s := S10240x3072) S256x3072.size (cc0_transform_0 i) (hinb0_0 i)).WholeWords (EltTy.packing .bf16)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ {F : FTy → Type} [FloatOps F] (pf : pre0.Contents (Elt F)) (i i' : grid0.Coords), (∀ a, reads0_4 a = true → i a = i' a) → cc0_transform_4 k0_off1_inb numel1_S1 pf i = cc0_transform_4 k0_off1_inb numel1_S1 pf i'
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x3072.size a ≤ S10240x3072.size a
  hwx0_5 : ∀ i : grid0.Coords, EltTy.bits .f32 = 32 ∨ (Rect.block (s := S10240x3072) S256x3072.size (cc0_transform_5 i) (hinb0_5 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S8192_S8192x1_S8192_n_0_n_n_0_1_1 : GatherDims S8192 S8192x1 S8192 where
  offsetDims := []
  collapsedSliceDims := [0]
  operandBatchingDims := []
  startIndicesBatchingDims := []
  startIndexMap := [0]
  indexVectorDim := 1
  sliceSizes := ![1]
  wf := gather_S8192_S8192x1_S8192_n_0_n_n_0_1_1_wf
def scatter_S8_S8192x1_S8192_n_0_0_1 : ScatterDims S8 S8192x1 S8192 where
  updateWindowDims := []
  insertedWindowDims := [0]
  scatterDimsToOperandDims := [0]
  indexVectorDim := 1
  wf := scatter_S8_S8192x1_S8192_n_0_0_1_wf
def gather_S8_S8192x1_S8192_n_0_n_n_0_1_1 : GatherDims S8 S8192x1 S8192 where
  offsetDims := []
  collapsedSliceDims := [0]
  operandBatchingDims := []
  startIndicesBatchingDims := []
  startIndexMap := [0]
  indexVectorDim := 1
  sliceSizes := ![1]
  wf := gather_S8_S8192x1_S8192_n_0_n_n_0_1_1_wf
def gather_S8192x3072_S8192x1_S8192x3072_1_0_n_n_0_1_13072 : GatherDims S8192x3072 S8192x1 S8192x3072 where
  offsetDims := [1]
  collapsedSliceDims := [0]
  operandBatchingDims := []
  startIndicesBatchingDims := []
  startIndexMap := [0]
  indexVectorDim := 1
  sliceSizes := ![1, 3072]
  wf := gather_S8192x3072_S8192x1_S8192x3072_1_0_n_n_0_1_13072_wf
def scatter_S10240x3072_S8192x1_S8192x3072_1_0_0_1 : ScatterDims S10240x3072 S8192x1 S8192x3072 where
  updateWindowDims := [1]
  insertedWindowDims := [0]
  scatterDimsToOperandDims := [0]
  indexVectorDim := 1
  wf := scatter_S10240x3072_S8192x1_S8192x3072_1_0_0_1_wf
def dot_S256x3072_S3072x512_S256x512_1_0_0_1_n_n : DotDims S256x3072 S3072x512 S256x512 where
  lhsContracting := [1]
  rhsContracting := [0]
  lhsNonContracting := [0]
  rhsNonContracting := [1]
  lhsBatch := []
  rhsBatch := []
  wf := dot_S256x3072_S3072x512_S256x512_1_0_0_1_n_n_wf
def dot_S256x512_S512x3072_S256x3072_1_0_0_1_n_n : DotDims S256x512 S512x3072 S256x3072 where
  lhsContracting := [1]
  rhsContracting := [0]
  lhsNonContracting := [0]
  rhsNonContracting := [1]
  lhsBatch := []
  rhsBatch := []
  wf := dot_S256x512_S512x3072_S256x3072_1_0_0_1_n_n_wf
def gather_S10240x3072_S8192x1_S8192x3072_1_0_n_n_0_1_13072 : GatherDims S10240x3072 S8192x1 S8192x3072 where
  offsetDims := [1]
  collapsedSliceDims := [0]
  operandBatchingDims := []
  startIndicesBatchingDims := []
  startIndexMap := [0]
  indexVectorDim := 1
  sliceSizes := ![1, 3072]
  wf := gather_S10240x3072_S8192x1_S8192x3072_1_0_n_n_0_1_13072_wf
def scatter_S8192x3072_S8192x1_S8192x3072_1_0_0_1 : ScatterDims S8192x3072 S8192x1 S8192x3072 where
  updateWindowDims := [1]
  insertedWindowDims := [0]
  scatterDimsToOperandDims := [0]
  indexVectorDim := 1
  wf := scatter_S8192x3072_S8192x1_S8192x3072_1_0_0_1_wf

abbrev spec0_0 : Pipeline.WinSpec sig grid0.rank :=
  Pipeline.WinSpec.ofSpec (Memref.whole main_v61) S256x3072.size reads0_0 false false 2 stage0_0 sem0_0 nbuf0_0 hstage0_0

abbrev spec0_1 : Pipeline.WinSpec sig grid0.rank :=
  Pipeline.WinSpec.ofSpec (Memref.whole main_v74) S1x3072x512.size reads0_1 false false 2 stage0_1 sem0_1 nbuf0_1 hstage0_1

abbrev spec0_2 : Pipeline.WinSpec sig grid0.rank :=
  Pipeline.WinSpec.ofSpec (Memref.whole main_v77) S1x1x512.size reads0_2 false false 2 stage0_2 sem0_2 nbuf0_2 hstage0_2

abbrev spec0_3 : Pipeline.WinSpec sig grid0.rank :=
  Pipeline.WinSpec.ofSpec (Memref.whole main_v76) S1x512x3072.size reads0_3 false false 2 stage0_3 sem0_3 nbuf0_3 hstage0_3

abbrev spec0_4 : Pipeline.WinSpec sig grid0.rank :=
  Pipeline.WinSpec.ofSpec (Memref.whole main_v78) S1x1x3072.size reads0_4 false false 2 stage0_4 sem0_4 nbuf0_4 hstage0_4

abbrev spec0_5 : Pipeline.WinSpec sig grid0.rank :=
  Pipeline.WinSpec.ofSpec (Memref.whole main_v79) S256x3072.size reads0_5 true false 2 stage0_5 sem0_5 nbuf0_5 hstage0_5

abbrev spec0 : Fin 6 → Pipeline.WinSpec sig grid0.rank := fun | 0 => spec0_0 | 1 => spec0_1 | 2 => spec0_2 | 3 => spec0_3 | 4 => spec0_4 | 5 => spec0_5 | ⟨_ + 6, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | ⟨_ + 6, h⟩ => absurd h (Nat.not_lt.2 (Nat.le_add_left _ _))
abbrev ix0 (pf : pre0.Contents (Elt F)) : (w : Fin 6) → grid0.Coords → Fin (spec0 w).shape.rank → Nat := fun | 0 => cc0_transform_0 | 1 => cc0_transform_1 k0_off1_inb numel1_S1 pf | 2 => cc0_transform_2 k0_off1_inb numel1_S1 pf | 3 => cc0_transform_3 k0_off1_inb numel1_S1 pf | 4 => cc0_transform_4 k0_off1_inb numel1_S1 pf | 5 => cc0_transform_5 | ⟨_ + 6, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 pf | 3 => hreads0_3 pf | 4 => hreads0_4 pf | 5 => hreads0_5 | ⟨_ + 6, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x3072x512.size a ≤ S8x3072x512.size a), EltTy.bits .bf16 = 32 ∨ (Rect.block (s := S8x3072x512) S1x3072x512.size (cc0_transform_1 k0_off1_inb numel1_S1 pf i) h).WholeWords (EltTy.packing .bf16)) ∧
  (∀ i : grid0.Coords, ∃ h : (∀ a, (cc0_transform_2 k0_off1_inb numel1_S1 pf i a + 1) * S1x1x512.size a ≤ S8x1x512.size a), EltTy.bits .f32 = 32 ∨ (Rect.block (s := S8x1x512) S1x1x512.size (cc0_transform_2 k0_off1_inb numel1_S1 pf i) h).WholeWords (EltTy.packing .f32)) ∧
  (∀ i : grid0.Coords, ∃ h : (∀ a, (cc0_transform_3 k0_off1_inb numel1_S1 pf i a + 1) * S1x512x3072.size a ≤ S8x512x3072.size a), EltTy.bits .bf16 = 32 ∨ (Rect.block (s := S8x512x3072) S1x512x3072.size (cc0_transform_3 k0_off1_inb numel1_S1 pf i) h).WholeWords (EltTy.packing .bf16)) ∧
  (∀ i : grid0.Coords, ∃ h : (∀ a, (cc0_transform_4 k0_off1_inb numel1_S1 pf i a + 1) * S1x1x3072.size a ≤ S8x1x3072.size a), EltTy.bits .f32 = 32 ∨ (Rect.block (s := S8x1x3072) S1x1x3072.size (cc0_transform_4 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok.1 i).elim fun h _ => h a | 2 => fun i a => (hok.2.1 i).elim fun h _ => h a | 3 => fun i a => (hok.2.2.1 i).elim fun h _ => h a | 4 => fun i a => (hok.2.2.2 i).elim fun h _ => h a | 5 => hinb0_5 | ⟨_ + 6, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok.1 i).elim fun _ h => h | 2 => fun i => (hok.2.1 i).elim fun _ h => h | 3 => fun i => (hok.2.2.1 i).elim fun _ h => h | 4 => fun i => (hok.2.2.2 i).elim fun _ h => h | 5 => hwx0_5 | ⟨_ + 6, h⟩ => absurd h (Nat.not_lt.2 (Nat.le_add_left _ _))

class Facts : Prop extends Facts₀ where
  harr0 : ∀ w, (spec0 w).arr.IsWhole

variable [Facts]
-- ==== ReferenceIdeal.lean ====
abbrev S8192x3072 : Shape := ⟨2, ![8192, 3072]⟩
abbrev S8192 : Shape := ⟨1, ![8192]⟩
abbrev S8x512x3072 : Shape := ⟨3, ![8, 512, 3072]⟩
abbrev S8x512 : Shape := ⟨2, ![8, 512]⟩
abbrev S8x3072x512 : Shape := ⟨3, ![8, 3072, 512]⟩
abbrev S8x3072 : Shape := ⟨2, ![8, 3072]⟩
abbrev S_ : Shape := ⟨0, ![]⟩
abbrev S1x512x3072 : Shape := ⟨3, ![1, 512, 3072]⟩
abbrev S512x3072 : Shape := ⟨2, ![512, 3072]⟩
abbrev S3072x512 : Shape := ⟨2, ![3072, 512]⟩
abbrev S8192x512 : Shape := ⟨2, ![8192, 512]⟩
abbrev S1x512 : Shape := ⟨2, ![1, 512]⟩
abbrev S512 : Shape := ⟨1, ![512]⟩
abbrev S1x3072x512 : Shape := ⟨3, ![1, 3072, 512]⟩
abbrev S1x3072 : Shape := ⟨2, ![1, 3072]⟩
abbrev S3072 : Shape := ⟨1, ![3072]⟩
abbrev S8192x1 : Shape := ⟨2, ![8192, 1]⟩

abbrev nBuf : Space → Nat
  | .hbm => 230
  | .vmem => 0
  | .smem => 0
  | _ => 0

abbrev hbmTy0_0 (i : Nat) : BufTy := match i % 128 with
  | 0 => ⟨S8192x3072, .f32⟩
  | 1 => ⟨S8192, .i32⟩
  | 2 => ⟨S8x512x3072, .f32⟩
  | 3 => ⟨S8x512, .f32⟩
  | 4 => ⟨S8x3072x512, .f32⟩
  | 5 => ⟨S8x3072, .f32⟩
  | 6 => ⟨S_, .f32⟩
  | 7 => ⟨S8192x3072, .f32⟩
  | 8 => ⟨S1x512x3072, .f32⟩
  | 9 => ⟨S512x3072, .f32⟩
  | 10 => ⟨S3072x512, .f32⟩
  | 11 => ⟨S8192x512, .f32⟩
  | 12 => ⟨S1x512, .f32⟩
  | 13 => ⟨S512, .f32⟩
  | 14 => ⟨S1x512, .f32⟩
  | 15 => ⟨S8192x512, .f32⟩
  | 16 => ⟨S8192x512, .f32⟩
  | 17 => ⟨S_, .f32⟩
  | 18 => ⟨S8192x512, .f32⟩
  | 19 => ⟨S8192x512, .f32⟩
  | 20 => ⟨S1x3072x512, .f32⟩
  | 21 => ⟨S3072x512, .f32⟩
  | 22 => ⟨S512x3072, .f32⟩
  | 23 => ⟨S8192x3072, .f32⟩
  | 24 => ⟨S1x3072, .f32⟩
  | 25 => ⟨S3072, .f32⟩
  | 26 => ⟨S1x3072, .f32⟩
  | 27 => ⟨S8192x3072, .f32⟩
  | 28 => ⟨S8192x3072, .f32⟩
  | 29 => ⟨S_, .i32⟩
  | 30 => ⟨S8192, .i32⟩
  | 31 => ⟨S8192, .i1⟩
  | 32 => ⟨S8192x1, .i1⟩
  | 33 => ⟨S8192x3072, .i1⟩
  | 34 => ⟨S8192x3072, .f32⟩
  | 35 => ⟨S1x512x3072, .f32⟩
  | 36 => ⟨S512x3072, .f32⟩
  | 37 => ⟨S3072x512, .f32⟩
  | 38 => ⟨S8192x512, .f32⟩
  | 39 => ⟨S1x512, .f32⟩
  | 40 => ⟨S512, .f32⟩
  | 41 => ⟨S1x512, .f32⟩
  | 42 => ⟨S8192x512, .f32⟩
  | 43 => ⟨S8192x512, .f32⟩
  | 44 => ⟨S_, .f32⟩
  | 45 => ⟨S8192x512, .f32⟩
  | 46 => ⟨S8192x512, .f32⟩
  | 47 => ⟨S1x3072x512, .f32⟩
  | 48 => ⟨S3072x512, .f32⟩
  | 49 => ⟨S512x3072, .f32⟩
  | 50 => ⟨S8192x3072, .f32⟩
  | 51 => ⟨S1x3072, .f32⟩
  | 52 => ⟨S3072, .f32⟩
  | 53 => ⟨S1x3072, .f32⟩
  | 54 => ⟨S8192x3072, .f32⟩
  | 55 => ⟨S8192x3072, .f32⟩
  | 56 => ⟨S_, .i32⟩
  | 57 => ⟨S8192, .i32⟩
  | 58 => ⟨S8192, .i1⟩
  | 59 => ⟨S8192x1, .i1⟩
  | 60 => ⟨S8192x3072, .i1⟩
  | 61 => ⟨S8192x3072, .f32⟩
  | 62 => ⟨S1x512x3072, .f32⟩
  | 63 => ⟨S512x3072, .f32⟩
  | 64 => ⟨S3072x512, .f32⟩
  | 65 => ⟨S8192x512, .f32⟩
  | 66 => ⟨S1x512, .f32⟩
  | 67 => ⟨S512, .f32⟩
  | 68 => ⟨S1x512, .f32⟩
  | 69 => ⟨S8192x512, .f32⟩
  | 70 => ⟨S8192x512, .f32⟩
  | 71 => ⟨S_, .f32⟩
  | 72 => ⟨S8192x512, .f32⟩
  | 73 => ⟨S8192x512, .f32⟩
  | 74 => ⟨S1x3072x512, .f32⟩
  | 75 => ⟨S3072x512, .f32⟩
  | 76 => ⟨S512x3072, .f32⟩
  | 77 => ⟨S8192x3072, .f32⟩
  | 78 => ⟨S1x3072, .f32⟩
  | 79 => ⟨S3072, .f32⟩
  | 80 => ⟨S1x3072, .f32⟩
  | 81 => ⟨S8192x3072, .f32⟩
  | 82 => ⟨S8192x3072, .f32⟩
  | 83 => ⟨S_, .i32⟩
  | 84 => ⟨S8192, .i32⟩
  | 85 => ⟨S8192, .i1⟩
  | 86 => ⟨S8192x1, .i1⟩
  | 87 => ⟨S8192x3072, .i1⟩
  | 88 => ⟨S8192x3072, .f32⟩
  | 89 => ⟨S1x512x3072, .f32⟩
  | 90 => ⟨S512x3072, .f32⟩
  | 91 => ⟨S3072x512, .f32⟩
  | 92 => ⟨S8192x512, .f32⟩
  | 93 => ⟨S1x512, .f32⟩
  | 94 => ⟨S512, .f32⟩
  | 95 => ⟨S1x512, .f32⟩
  | 96 => ⟨S8192x512, .f32⟩
  | 97 => ⟨S8192x512, .f32⟩
  | 98 => ⟨S_, .f32⟩
  | 99 => ⟨S8192x512, .f32⟩
  | 100 => ⟨S8192x512, .f32⟩
  | 101 => ⟨S1x3072x512, .f32⟩
  | 102 => ⟨S3072x512, .f32⟩
  | 103 => ⟨S512x3072, .f32⟩
  | 104 => ⟨S8192x3072, .f32⟩
  | 105 => ⟨S1x3072, .f32⟩
  | 106 => ⟨S3072, .f32⟩
  | 107 => ⟨S1x3072, .f32⟩
  | 108 => ⟨S8192x3072, .f32⟩
  | 109 => ⟨S8192x3072, .f32⟩
  | 110 => ⟨S_, .i32⟩
  | 111 => ⟨S8192, .i32⟩
  | 112 => ⟨S8192, .i1⟩
  | 113 => ⟨S8192x1, .i1⟩
  | 114 => ⟨S8192x3072, .i1⟩
  | 115 => ⟨S8192x3072, .f32⟩
  | 116 => ⟨S1x512x3072, .f32⟩
  | 117 => ⟨S512x3072, .f32⟩
  | 118 => ⟨S3072x512, .f32⟩
  | 119 => ⟨S8192x512, .f32⟩
  | 120 => ⟨S1x512, .f32⟩
  | 121 => ⟨S512, .f32⟩
  | 122 => ⟨S1x512, .f32⟩
  | 123 => ⟨S8192x512, .f32⟩
  | 124 => ⟨S8192x512, .f32⟩
  | 125 => ⟨S_, .f32⟩
  | 126 => ⟨S8192x512, .f32⟩
  | 127 => ⟨S8192x512, .f32⟩
  | _ => ⟨S8192x3072, .f32⟩

abbrev hbmTy0_1 (i : Nat) : BufTy := match i % 128 with
  | 0 => ⟨S1x3072x512, .f32⟩
  | 1 => ⟨S3072x512, .f32⟩
  | 2 => ⟨S512x3072, .f32⟩
  | 3 => ⟨S8192x3072, .f32⟩
  | 4 => ⟨S1x3072, .f32⟩
  | 5 => ⟨S3072, .f32⟩
  | 6 => ⟨S1x3072, .f32⟩
  | 7 => ⟨S8192x3072, .f32⟩
  | 8 => ⟨S8192x3072, .f32⟩
  | 9 => ⟨S_, .i32⟩
  | 10 => ⟨S8192, .i32⟩
  | 11 => ⟨S8192, .i1⟩
  | 12 => ⟨S8192x1, .i1⟩
  | 13 => ⟨S8192x3072, .i1⟩
  | 14 => ⟨S8192x3072, .f32⟩
  | 15 => ⟨S1x512x3072, .f32⟩
  | 16 => ⟨S512x3072, .f32⟩
  | 17 => ⟨S3072x512, .f32⟩
  | 18 => ⟨S8192x512, .f32⟩
  | 19 => ⟨S1x512, .f32⟩
  | 20 => ⟨S512, .f32⟩
  | 21 => ⟨S1x512, .f32⟩
  | 22 => ⟨S8192x512, .f32⟩
  | 23 => ⟨S8192x512, .f32⟩
  | 24 => ⟨S_, .f32⟩
  | 25 => ⟨S8192x512, .f32⟩
  | 26 => ⟨S8192x512, .f32⟩
  | 27 => ⟨S1x3072x512, .f32⟩
  | 28 => ⟨S3072x512, .f32⟩
  | 29 => ⟨S512x3072, .f32⟩
  | 30 => ⟨S8192x3072, .f32⟩
  | 31 => ⟨S1x3072, .f32⟩
  | 32 => ⟨S3072, .f32⟩
  | 33 => ⟨S1x3072, .f32⟩
  | 34 => ⟨S8192x3072, .f32⟩
  | 35 => ⟨S8192x3072, .f32⟩
  | 36 => ⟨S_, .i32⟩
  | 37 => ⟨S8192, .i32⟩
  | 38 => ⟨S8192, .i1⟩
  | 39 => ⟨S8192x1, .i1⟩
  | 40 => ⟨S8192x3072, .i1⟩
  | 41 => ⟨S8192x3072, .f32⟩
  | 42 => ⟨S1x512x3072, .f32⟩
  | 43 => ⟨S512x3072, .f32⟩
  | 44 => ⟨S3072x512, .f32⟩
  | 45 => ⟨S8192x512, .f32⟩
  | 46 => ⟨S1x512, .f32⟩
  | 47 => ⟨S512, .f32⟩
  | 48 => ⟨S1x512, .f32⟩
  | 49 => ⟨S8192x512, .f32⟩
  | 50 => ⟨S8192x512, .f32⟩
  | 51 => ⟨S_, .f32⟩
  | 52 => ⟨S8192x512, .f32⟩
  | 53 => ⟨S8192x512, .f32⟩
  | 54 => ⟨S1x3072x512, .f32⟩
  | 55 => ⟨S3072x512, .f32⟩
  | 56 => ⟨S512x3072, .f32⟩
  | 57 => ⟨S8192x3072, .f32⟩
  | 58 => ⟨S1x3072, .f32⟩
  | 59 => ⟨S3072, .f32⟩
  | 60 => ⟨S1x3072, .f32⟩
  | 61 => ⟨S8192x3072, .f32⟩
  | 62 => ⟨S8192x3072, .f32⟩
  | 63 => ⟨S_, .i32⟩
  | 64 => ⟨S8192, .i32⟩
  | 65 => ⟨S8192, .i1⟩
  | 66 => ⟨S8192x1, .i1⟩
  | 67 => ⟨S8192x3072, .i1⟩
  | 68 => ⟨S8192x3072, .f32⟩
  | 69 => ⟨S1x512x3072, .f32⟩
  | 70 => ⟨S512x3072, .f32⟩
  | 71 => ⟨S3072x512, .f32⟩
  | 72 => ⟨S8192x512, .f32⟩
  | 73 => ⟨S1x512, .f32⟩
  | 74 => ⟨S512, .f32⟩
  | 75 => ⟨S1x512, .f32⟩
  | 76 => ⟨S8192x512, .f32⟩
  | 77 => ⟨S8192x512, .f32⟩
  | 78 => ⟨S_, .f32⟩
  | 79 => ⟨S8192x512, .f32⟩
  | 80 => ⟨S8192x512, .f32⟩
  | 81 => ⟨S1x3072x512, .f32⟩
  | 82 => ⟨S3072x512, .f32⟩
  | 83 => ⟨S512x3072, .f32⟩
  | 84 => ⟨S8192x3072, .f32⟩
  | 85 => ⟨S1x3072, .f32⟩
  | 86 => ⟨S3072, .f32⟩
  | 87 => ⟨S1x3072, .f32⟩
  | 88 => ⟨S8192x3072, .f32⟩
  | 89 => ⟨S8192x3072, .f32⟩
  | 90 => ⟨S_, .i32⟩
  | 91 => ⟨S8192, .i32⟩
  | 92 => ⟨S8192, .i1⟩
  | 93 => ⟨S8192x1, .i1⟩
  | 94 => ⟨S8192x3072, .i1⟩
  | 95 => ⟨S8192x3072, .f32⟩
  | 96 => ⟨S8192x3072, .f32⟩
  | 97 => ⟨S8192x3072, .f32⟩
  | 98 => ⟨S_, .f32⟩
  | 99 => ⟨S_, .f32⟩
  | 100 => ⟨S_, .f32⟩
  | 101 => ⟨S_, .f32⟩
  | _ => ⟨S8192x3072, .f32⟩

abbrev hbmTy (i : Nat) : BufTy := match i / 128 with
  | 0 => hbmTy0_0 i
  | 1 => hbmTy0_1 i
  | _ => ⟨S8192x3072, .f32⟩

abbrev bufTy : (tb : Table) → Fin (tcTables nBuf tb) → BufTy
  | .hbm, ⟨i, _⟩ => hbmTy i
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_cst : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call1_v0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_call2_cst : Ref sig .tc := ⟨.hbm, 44, rfl⟩
abbrev main_call2_v0 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_0 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_call3_v0 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_call4_cst : Ref sig .tc := ⟨.hbm, 71, rfl⟩
abbrev main_call4_v0 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_c_1 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_call5_v0 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_call6_cst : Ref sig .tc := ⟨.hbm, 98, rfl⟩
abbrev main_call6_v0 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_c_2 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_call7_v0 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_call8_cst : Ref sig .tc := ⟨.hbm, 125, rfl⟩
abbrev main_call8_v0 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_c_3 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_call9_v0 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_call10_cst : Ref sig .tc := ⟨.hbm, 152, rfl⟩
abbrev main_call10_v0 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_c_4 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_call11_v0 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_call12_cst : Ref sig .tc := ⟨.hbm, 179, rfl⟩
abbrev main_call12_v0 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_c_5 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_call13_v0 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_call14_cst : Ref sig .tc := ⟨.hbm, 206, rfl⟩
abbrev main_call14_v0 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_c_6 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_call15_v0 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_cst_7 : Ref sig .tc := ⟨.hbm, 226, rfl⟩
abbrev main_v187 : Ref sig .tc := ⟨.hbm, 227, rfl⟩
abbrev main_cst_8 : Ref sig .tc := ⟨.hbm, 228, rfl⟩
abbrev main_v188 : Ref sig .tc := ⟨.hbm, 229, rfl⟩

abbrev nD : Nat := 1
abbrev τ : Topo := Topo.v7x

variable {F : FTy → Type} [FloatOps F]

class Facts₀ : Prop where
  bcast_S_S8192x3072 : S_.BroadcastsInDim S8192x3072 (![] : Fin 0 → Fin S8192x3072.rank)
  slices_S8x512x3072_S1x512x3072_0_0_0 : S8x512x3072.Slices ![0, 0, 0] S1x512x3072
  shapeCasts_S1x512x3072_S512x3072 : S1x512x3072.ShapeCasts S512x3072
  transposes_S512x3072_S3072x512_1_0 : S512x3072.Transposes [1, 0] S3072x512
  slices_S8x512_S1x512_0_0 : S8x512.Slices ![0, 0] S1x512
  shapeCasts_S1x512_S512 : S1x512.ShapeCasts S512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  slices_S8x3072x512_S1x3072x512_0_0_0 : S8x3072x512.Slices ![0, 0, 0] S1x3072x512
  shapeCasts_S1x3072x512_S3072x512 : S1x3072x512.ShapeCasts S3072x512
  transposes_S3072x512_S512x3072_1_0 : S3072x512.Transposes [1, 0] S512x3072
  slices_S8x3072_S1x3072_0_0 : S8x3072.Slices ![0, 0] S1x3072
  shapeCasts_S1x3072_S3072 : S1x3072.ShapeCasts S3072
  bcast_S3072_S1x3072_1 : S3072.BroadcastsInDim S1x3072 (![1] : Fin 1 → Fin S1x3072.rank)
  bcast_S1x3072_S8192x3072_0_1 : S1x3072.BroadcastsInDim S8192x3072 (![0, 1] : Fin 2 → Fin S8192x3072.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x3072_0_1 : S8192x1.BroadcastsInDim S8192x3072 (![0, 1] : Fin 2 → Fin S8192x3072.rank)
  slices_S8x512x3072_S1x512x3072_1_0_0 : S8x512x3072.Slices ![1, 0, 0] S1x512x3072
  slices_S8x512_S1x512_1_0 : S8x512.Slices ![1, 0] S1x512
  slices_S8x3072x512_S1x3072x512_1_0_0 : S8x3072x512.Slices ![1, 0, 0] S1x3072x512
  slices_S8x3072_S1x3072_1_0 : S8x3072.Slices ![1, 0] S1x3072
  slices_S8x512x3072_S1x512x3072_2_0_0 : S8x512x3072.Slices ![2, 0, 0] S1x512x3072
  slices_S8x512_S1x512_2_0 : S8x512.Slices ![2, 0] S1x512
  slices_S8x3072x512_S1x3072x512_2_0_0 : S8x3072x512.Slices ![2, 0, 0] S1x3072x512
  slices_S8x3072_S1x3072_2_0 : S8x3072.Slices ![2, 0] S1x3072
  slices_S8x512x3072_S1x512x3072_3_0_0 : S8x512x3072.Slices ![3, 0, 0] S1x512x3072
  slices_S8x512_S1x512_3_0 : S8x512.Slices ![3, 0] S1x512
  slices_S8x3072x512_S1x3072x512_3_0_0 : S8x3072x512.Slices ![3, 0, 0] S1x3072x512
  slices_S8x3072_S1x3072_3_0 : S8x3072.Slices ![3, 0] S1x3072
  slices_S8x512x3072_S1x512x3072_4_0_0 : S8x512x3072.Slices ![4, 0, 0] S1x512x3072
  slices_S8x512_S1x512_4_0 : S8x512.Slices ![4, 0] S1x512
  slices_S8x3072x512_S1x3072x512_4_0_0 : S8x3072x512.Slices ![4, 0, 0] S1x3072x512
  slices_S8x3072_S1x3072_4_0 : S8x3072.Slices ![4, 0] S1x3072
  slices_S8x512x3072_S1x512x3072_5_0_0 : S8x512x3072.Slices ![5, 0, 0] S1x512x3072
  slices_S8x512_S1x512_5_0 : S8x512.Slices ![5, 0] S1x512
  slices_S8x3072x512_S1x3072x512_5_0_0 : S8x3072x512.Slices ![5, 0, 0] S1x3072x512
  slices_S8x3072_S1x3072_5_0 : S8x3072.Slices ![5, 0] S1x3072
  slices_S8x512x3072_S1x512x3072_6_0_0 : S8x512x3072.Slices ![6, 0, 0] S1x512x3072
  slices_S8x512_S1x512_6_0 : S8x512.Slices ![6, 0] S1x512
  slices_S8x3072x512_S1x3072x512_6_0_0 : S8x3072x512.Slices ![6, 0, 0] S1x3072x512
  slices_S8x3072_S1x3072_6_0 : S8x3072.Slices ![6, 0] S1x3072
  slices_S8x512x3072_S1x512x3072_7_0_0 : S8x512x3072.Slices ![7, 0, 0] S1x512x3072
  slices_S8x512_S1x512_7_0 : S8x512.Slices ![7, 0] S1x512
  slices_S8x3072x512_S1x3072x512_7_0_0 : S8x3072x512.Slices ![7, 0, 0] S1x3072x512
  slices_S8x3072_S1x3072_7_0 : S8x3072.Slices ![7, 0] S1x3072
  reducesTo_S8192x3072_S_d0_1 : S8192x3072.ReducesTo [0, 1] S_
  h_S_ : 0 < S_.numel
  dot_S8192x3072_S3072x512_S8192x512_1_0_0_1_n_n_wf : DotDims.WF S8192x3072 S3072x512 S8192x512 [1] [0] [0] [1] [] []
  dot_S8192x512_S512x3072_S8192x3072_1_0_0_1_n_n_wf : DotDims.WF S8192x512 S512x3072 S8192x3072 [1] [0] [0] [1] [] []

variable [Facts₀]

def dot_S8192x3072_S3072x512_S8192x512_1_0_0_1_n_n : DotDims S8192x3072 S3072x512 S8192x512 where
  lhsContracting := [1]
  rhsContracting := [0]
  lhsNonContracting := [0]
  rhsNonContracting := [1]
  lhsBatch := []
  rhsBatch := []
  wf := dot_S8192x3072_S3072x512_S8192x512_1_0_0_1_n_n_wf
def dot_S8192x512_S512x3072_S8192x3072_1_0_0_1_n_n : DotDims S8192x512 S512x3072 S8192x3072 where
  lhsContracting := [1]
  rhsContracting := [0]
  lhsNonContracting := [0]
  rhsNonContracting := [1]
  lhsBatch := []
  rhsBatch := []
  wf := dot_S8192x512_S512x3072_S8192x3072_1_0_0_1_n_n_wf

class Facts : Prop extends Facts₀ where

variable [Facts]
-- ==== Proof.KReadBits.lean ====
/-
  The host lines before the region, one stretch at a time.  @main's lines before the pallas_call come in fifteen
  stretches; the contents after stretch k are named U k, each the next stretch's lines run from the one before, and
  the contents the region finds are the last.  A buffer is then read off the stretch that writes it, in terms of
  the contents after the stretch before, so that a value used many times (the sorted labels) stays one name.
-/
import proofs.«407060_j11527692222992_3_alg».proof.Proof.Gen.Kernel.Frame
import Idealize.ShloMosaic.Lib.StableHlo.Run

set_option maxRecDepth 16384

noncomputable section

namespace Cert.Kernel.Moe

open Cert.Kernel Cert.Kernel.Gen
open Idealize.ShloMosaic Idealize.ShloMosaic.TcCoe Idealize.SL.Sem

variable {F : FTy → Type} [FloatOps F]

theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

variable (m : (ℓ : Loc nD τ sig) → Buf (Elt F) ℓ) (c : Dev nD)

def U0 : Valuation τ sig (Elt F) := StableHlo.after hostOps0 (fun b => m (c, b))
def U1 : Valuation τ sig (Elt F) := StableHlo.after hostOps0_1 (U0 m c)
def U2 : Valuation τ sig (Elt F) := StableHlo.after hostOps0_2 (U1 m c)
def U3 : Valuation τ sig (Elt F) := StableHlo.after hostOps0_3 (U2 m c)
def U4 : Valuation τ sig (Elt F) := StableHlo.after hostOps0_4 (U3 m c)
def U5 : Valuation τ sig (Elt F) := StableHlo.after hostOps0_5 (U4 m c)
def U6 : Valuation τ sig (Elt F) := StableHlo.after hostOps0_6 (U5 m c)
def U7 : Valuation τ sig (Elt F) := StableHlo.after hostOps0_7 (U6 m c)
def U8 : Valuation τ sig (Elt F) := StableHlo.after hostOps0_8 (U7 m c)
def U9 : Valuation τ sig (Elt F) := StableHlo.after hostOps0_9 (U8 m c)
def U10 : Valuation τ sig (Elt F) := StableHlo.after hostOps0_10 (U9 m c)
def U11 : Valuation τ sig (Elt F) := StableHlo.after hostOps0_11 (U10 m c)
def U12 : Valuation τ sig (Elt F) := StableHlo.after hostOps0_12 (U11 m c)
def U13 : Valuation τ sig (Elt F) := StableHlo.after hostOps0_13 (U12 m c)
def U14 : Valuation τ sig (Elt F) := StableHlo.after hostOps0_14 (U13 m c)

theorem V0_eq : V0 m c = U14 m c := by
  unfold U14 U13 U12 U11 U10 U9 U8 U7 U6 U5 U4 U3 U2 U1 U0
  dsimp only [V0]
  simp only [List.flatten_cons, List.flatten_nil, List.append_nil, after_append]

theorem V_eq (b : Ref sig .tc) : V m c b = U14 m c (Proc.devRef .tc b) := by
  show V0 m c (Proc.devRef .tc b) = _
  rw [V0_eq]

end Cert.Kernel.Moe

end
-- ==== Proof.OkBits.lean ====
/-
  The pipeline's side condition on the prefetched tile table holds for every launch memory.

  The table is the last line of the host prefix: a clip of a count into [0, 7].  Whatever the count, the word is
  between 0 and 7, so the block (word, 0, 0) of each per-expert array lies inside it; and a block that is whole along
  the second-to-last axis, at offset 0, moves whole words.
-/
import proofs.«407060_j11527692222992_3_alg».proof.Proof.KReadBits

set_option maxRecDepth 16384

noncomputable section

namespace Cert.Kernel.Moe

open Cert.Kernel Cert.Kernel.Gen
open Idealize.ShloMosaic Idealize.ShloMosaic.TcCoe Idealize.SL.Sem

variable {F : FTy → Type} [FloatOps F]

/-- A word clipped into [0, 7] (signed) is below 8. -/
theorem clip_toNat_lt (w : BitVec 32) : (IntOp.minsi 7#32 (IntOp.maxsi 0#32 w)).toNat < 8 := by
  unfold IntOp.minsi IntOp.maxsi
  have h32 := w.isLt
  by_cases h1 : w.slt 0#32 = true
  · rw [if_pos h1]
    by_cases h2 : (7#32 : BitVec 32).slt 0#32 = true
    · rw [if_pos h2]; decide
    · rw [if_neg h2]; decide
  · rw [if_neg h1]
    by_cases h2 : (7#32 : BitVec 32).slt w = true
    · rw [if_pos h2]; decide
    · rw [if_neg h2]
      simp only [BitVec.slt, decide_eq_true_eq, BitVec.toInt] at h1 h2
      simp at h1 h2
      omega

variable (m : (ℓ : Loc nD τ sig) → Buf (Elt F) ℓ) (c : Dev nD)

/-- The table as the last two lines of the prefix leave it: the count clipped into [0, 7]. -/
theorem tile_table_read : V m c main_v72 = minsi (broadcastInDim S40 ![] bcast_S_S40 (constantI S_ 32 7#32))
    (maxsi (broadcastInDim S40 ![] bcast_S_S40 (constantI S_ 32 0#32)) (U12 m c (Proc.devRef .tc main_v71))) := by
  rw [V_eq]
  unfold U14; after_results
  unfold U13; after_results
  unfold U12; after_results
  rfl

/-- Every word of the table is below 8. -/
theorem tbl_lt (x : S40.Idx) : (tbl m 0 x).toNat < 8 := by
  show (V m 0 main_v72 x).toNat < 8
  rw [tile_table_read]
  exact clip_toNat_lt _

/-- A block (w, 0, 0) of a [8, A, B] array cut into [1, A, B] blocks lies inside it when w < 8, and is whole along
    the second-to-last axis. -/
theorem block_ok (A B : Nat) (p : Nat) (ix : Fin 3 → Nat) (w : Nat) (hw : w < 8) (e : ix = ![w, 0, 0]) :
    ∃ h : (∀ a, (ix a + 1) * (⟨3, ![1, A, B]⟩ : Shape).size a ≤ (⟨3, ![8, A, B]⟩ : Shape).size a),
      (Rect.block (s := ⟨3, ![8, A, B]⟩) (⟨3, ![1, A, B]⟩ : Shape).size ix h).WholeWords p := by
  subst e
  refine ⟨fun a => ?_, Or.inr ⟨(by show (2 : Nat) ≤ 3; decide), rfl, ?_, rfl⟩⟩
  · match a with
    | ⟨0, _⟩ => show (w + 1) * 1 ≤ 8; omega
    | ⟨1, _⟩ => show (0 + 1) * A ≤ A; omega
    | ⟨2, _⟩ => show (0 + 1) * B ≤ B; omega
  · show 0 * A = 0; omega

/-- The side condition, for every launch memory. -/
theorem ok_all : Ok m := by
  have hl : ∀ x, (tbl m 0 x).toNat < 8 := tbl_lt m
  refine ⟨fun i => ?_, fun i => ?_, fun i => ?_, fun i => ?_⟩
  · obtain ⟨w, hw, e⟩ : ∃ w : BitVec 32, w.toNat < 8 ∧ cc0_transform_1 k0_off1_inb numel1_S1 (tbl m) i = ![w.toNat, 0, 0] :=
      ⟨_, hl _, rfl⟩
    obtain ⟨h, hww⟩ := block_ok 3072 512 (EltTy.packing .bf16) _ w.toNat hw e
    exact ⟨h, Or.inr hww⟩
  · obtain ⟨w, hw, e⟩ : ∃ w : BitVec 32, w.toNat < 8 ∧ cc0_transform_2 k0_off1_inb numel1_S1 (tbl m) i = ![w.toNat, 0, 0] :=
      ⟨_, hl _, rfl⟩
    obtain ⟨h, hww⟩ := block_ok 1 512 (EltTy.packing .f32) _ w.toNat hw e
    exact ⟨h, Or.inl rfl⟩
  · obtain ⟨w, hw, e⟩ : ∃ w : BitVec 32, w.toNat < 8 ∧ cc0_transform_3 k0_off1_inb numel1_S1 (tbl m) i = ![w.toNat, 0, 0] :=
      ⟨_, hl _, rfl⟩
    obtain ⟨h, hww⟩ := block_ok 512 3072 (EltTy.packing .bf16) _ w.toNat hw e
    exact ⟨h, Or.inr hww⟩
  · obtain ⟨w, hw, e⟩ : ∃ w : BitVec 32, w.toNat < 8 ∧ cc0_transform_4 k0_off1_inb numel1_S1 (tbl m) i = ![w.toNat, 0, 0] :=
      ⟨_, hl _, rfl⟩
    obtain ⟨h, hww⟩ := block_ok 1 3072 (EltTy.packing .f32) _ w.toNat hw e
    exact ⟨h, Or.inl rfl⟩

end Cert.Kernel.Moe

end
-- ==== Proof.KRead.lean ====
/-
  The host lines before the region, one stretch at a time.  @main's lines before the pallas_call come in fifteen
  stretches; the contents after stretch k are named U k, each the next stretch's lines run from the one before, and
  the contents the region finds are the last.  A buffer is then read off the stretch that writes it, in terms of
  the contents after the stretch before, so that a value used many times (the sorted labels) stays one name.
-/
import proofs.«407060_j11527692222992_3_alg».proof.Proof.Gen.KernelIdeal.Frame
import Idealize.ShloMosaic.Lib.StableHlo.Run

set_option maxRecDepth 16384

noncomputable section

namespace Cert.KernelIdeal.Moe

open Cert.KernelIdeal Cert.KernelIdeal.Gen
open Idealize.ShloMosaic Idealize.ShloMosaic.TcCoe Idealize.SL.Sem

variable {F : FTy → Type} [FloatOps F]

theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

variable (m : (ℓ : Loc nD τ sig) → Buf (Elt F) ℓ) (c : Dev nD)

def U0 : Valuation τ sig (Elt F) := StableHlo.after hostOps0 (fun b => m (c, b))
def U1 : Valuation τ sig (Elt F) := StableHlo.after hostOps0_1 (U0 m c)
def U2 : Valuation τ sig (Elt F) := StableHlo.after hostOps0_2 (U1 m c)
def U3 : Valuation τ sig (Elt F) := StableHlo.after hostOps0_3 (U2 m c)
def U4 : Valuation τ sig (Elt F) := StableHlo.after hostOps0_4 (U3 m c)
def U5 : Valuation τ sig (Elt F) := StableHlo.after hostOps0_5 (U4 m c)
def U6 : Valuation τ sig (Elt F) := StableHlo.after hostOps0_6 (U5 m c)
def U7 : Valuation τ sig (Elt F) := StableHlo.after hostOps0_7 (U6 m c)
def U8 : Valuation τ sig (Elt F) := StableHlo.after hostOps0_8 (U7 m c)
def U9 : Valuation τ sig (Elt F) := StableHlo.after hostOps0_9 (U8 m c)
def U10 : Valuation τ sig (Elt F) := StableHlo.after hostOps0_10 (U9 m c)
def U11 : Valuation τ sig (Elt F) := StableHlo.after hostOps0_11 (U10 m c)
def U12 : Valuation τ sig (Elt F) := StableHlo.after hostOps0_12 (U11 m c)
def U13 : Valuation τ sig (Elt F) := StableHlo.after hostOps0_13 (U12 m c)
def U14 : Valuation τ sig (Elt F) := StableHlo.after hostOps0_14 (U13 m c)

theorem V0_eq : V0 m c = U14 m c := by
  unfold U14 U13 U12 U11 U10 U9 U8 U7 U6 U5 U4 U3 U2 U1 U0
  dsimp only [V0]
  simp only [List.flatten_cons, List.flatten_nil, List.append_nil, after_append]

theorem V_eq (b : Ref sig .tc) : V m c b = U14 m c (Proc.devRef .tc b) := by
  show V0 m c (Proc.devRef .tc b) = _
  rw [V0_eq]

end Cert.KernelIdeal.Moe

end
-- ==== Proof.OkIdeal.lean ====
/-
  The pipeline's side condition on the prefetched tile table holds for every launch memory.

  The table is the last line of the host prefix: a clip of a count into [0, 7].  Whatever the count, the word is
  between 0 and 7, so the block (word, 0, 0) of each per-expert array lies inside it; and a block that is whole along
  the second-to-last axis, at offset 0, moves whole words.
-/
import proofs.«407060_j11527692222992_3_alg».proof.Proof.KRead

set_option maxRecDepth 16384

noncomputable section

namespace Cert.KernelIdeal.Moe

open Cert.KernelIdeal Cert.KernelIdeal.Gen
open Idealize.ShloMosaic Idealize.ShloMosaic.TcCoe Idealize.SL.Sem

variable {F : FTy → Type} [FloatOps F]

/-- A word clipped into [0, 7] (signed) is below 8. -/
theorem clip_toNat_lt (w : BitVec 32) : (IntOp.minsi 7#32 (IntOp.maxsi 0#32 w)).toNat < 8 := by
  unfold IntOp.minsi IntOp.maxsi
  have h32 := w.isLt
  by_cases h1 : w.slt 0#32 = true
  · rw [if_pos h1]
    by_cases h2 : (7#32 : BitVec 32).slt 0#32 = true
    · rw [if_pos h2]; decide
    · rw [if_neg h2]; decide
  · rw [if_neg h1]
    by_cases h2 : (7#32 : BitVec 32).slt w = true
    · rw [if_pos h2]; decide
    · rw [if_neg h2]
      simp only [BitVec.slt, decide_eq_true_eq, BitVec.toInt] at h1 h2
      simp at h1 h2
      omega

variable (m : (ℓ : Loc nD τ sig) → Buf (Elt F) ℓ) (c : Dev nD)

/-- The table as the last two lines of the prefix leave it: the count clipped into [0, 7]. -/
theorem tile_table_read : V m c main_v72 = minsi (broadcastInDim S40 ![] bcast_S_S40 (constantI S_ 32 7#32))
    (maxsi (broadcastInDim S40 ![] bcast_S_S40 (constantI S_ 32 0#32)) (U12 m c (Proc.devRef .tc main_v71))) := by
  rw [V_eq]
  unfold U14; after_results
  unfold U13; after_results
  unfold U12; after_results
  rfl

/-- Every word of the table is below 8. -/
theorem tbl_lt (x : S40.Idx) : (tbl m 0 x).toNat < 8 := by
  show (V m 0 main_v72 x).toNat < 8
  rw [tile_table_read]
  exact clip_toNat_lt _

/-- A block (w, 0, 0) of a [8, A, B] array cut into [1, A, B] blocks lies inside it when w < 8, and is whole along
    the second-to-last axis. -/
theorem block_ok (A B : Nat) (p : Nat) (ix : Fin 3 → Nat) (w : Nat) (hw : w < 8) (e : ix = ![w, 0, 0]) :
    ∃ h : (∀ a, (ix a + 1) * (⟨3, ![1, A, B]⟩ : Shape).size a ≤ (⟨3, ![8, A, B]⟩ : Shape).size a),
      (Rect.block (s := ⟨3, ![8, A, B]⟩) (⟨3, ![1, A, B]⟩ : Shape).size ix h).WholeWords p := by
  subst e
  refine ⟨fun a => ?_, Or.inr ⟨(by show (2 : Nat) ≤ 3; decide), rfl, ?_, rfl⟩⟩
  · match a with
    | ⟨0, _⟩ => show (w + 1) * 1 ≤ 8; omega
    | ⟨1, _⟩ => show (0 + 1) * A ≤ A; omega
    | ⟨2, _⟩ => show (0 + 1) * B ≤ B; omega
  · show 0 * A = 0; omega

/-- The side condition, for every launch memory. -/
theorem ok_all : Ok m := by
  have hl : ∀ x, (tbl m 0 x).toNat < 8 := tbl_lt m
  refine ⟨fun i => ?_, fun i => ?_, fun i => ?_, fun i => ?_⟩
  · obtain ⟨w, hw, e⟩ : ∃ w : BitVec 32, w.toNat < 8 ∧ cc0_transform_1 k0_off1_inb numel1_S1 (tbl m) i = ![w.toNat, 0, 0] :=
      ⟨_, hl _, rfl⟩
    obtain ⟨h, hww⟩ := block_ok 3072 512 (EltTy.packing .bf16) _ w.toNat hw e
    exact ⟨h, Or.inr hww⟩
  · obtain ⟨w, hw, e⟩ : ∃ w : BitVec 32, w.toNat < 8 ∧ cc0_transform_2 k0_off1_inb numel1_S1 (tbl m) i = ![w.toNat, 0, 0] :=
      ⟨_, hl _, rfl⟩
    obtain ⟨h, hww⟩ := block_ok 1 512 (EltTy.packing .f32) _ w.toNat hw e
    exact ⟨h, Or.inl rfl⟩
  · obtain ⟨w, hw, e⟩ : ∃ w : BitVec 32, w.toNat < 8 ∧ cc0_transform_3 k0_off1_inb numel1_S1 (tbl m) i = ![w.toNat, 0, 0] :=
      ⟨_, hl _, rfl⟩
    obtain ⟨h, hww⟩ := block_ok 512 3072 (EltTy.packing .bf16) _ w.toNat hw e
    exact ⟨h, Or.inr hww⟩
  · obtain ⟨w, hw, e⟩ : ∃ w : BitVec 32, w.toNat < 8 ∧ cc0_transform_4 k0_off1_inb numel1_S1 (tbl m) i = ![w.toNat, 0, 0] :=
      ⟨_, hl _, rfl⟩
    obtain ⟨h, hww⟩ := block_ok 1 3072 (EltTy.packing .f32) _ w.toNat hw e
    exact ⟨h, Or.inl rfl⟩

end Cert.KernelIdeal.Moe

end
-- ==== Proof.PreLabel.lean ====
/-
  The added precondition read back: every label word is in [0, 8), so as a natural it is below 8.

  The precondition is a conjunction; its last conjunct is the `all` of (label ≥ 0) ∧ (label < 8), signed, over the
  8192 labels.  An `all` that is 1 had a 1 at every index, and a word between 0 and 8 signed is below 8 unsigned.
-/
import proofs.«407060_j11527692222992_3_alg».proof.Pre_finite_inputs
import Idealize.ShloMosaic.Lib.ReduceAll
import Idealize.ShloMosaic.Lib.ValueIdx

set_option maxRecDepth 16384

noncomputable section

namespace Cert.Moe

open Idealize.ShloMosaic Idealize.ShloMosaic.ValueIdx

instance : Subsingleton (Cert.Pre_finite_inputs.S_.Idx) := ⟨fun a b => funext fun d => d.elim0⟩

/-- A word in [0, 8) signed is below 8 as a natural. -/
theorem toNat_lt_of_signed (w : BitVec 32) (h0 : (0 : Int) ≤ w.toInt) (h8 : w.toInt < 8) : w.toNat < 8 := by
  have h32 := w.isLt
  unfold BitVec.toInt at h0 h8
  split at h8 <;> simp at h0 h8 <;> omega

/-- The precondition's label conjunct, at one label. -/
theorem label_lt_of_pre {F : FTy → Type} [FloatOps F] [Cert.Pre_finite_inputs.Facts]
    (a0 : FVec F Cert.Pre_finite_inputs.S8192x3072 .f32) (a1 : IVec Cert.Pre_finite_inputs.S8192 32)
    (a2 : FVec F Cert.Pre_finite_inputs.S8x512x3072 .f32) (a3 : FVec F Cert.Pre_finite_inputs.S8x512 .f32)
    (a4 : FVec F Cert.Pre_finite_inputs.S8x3072x512 .f32) (a5 : FVec F Cert.Pre_finite_inputs.S8x3072 .f32)
    (h : Cert.Pre_finite_inputs.fn (F := F) a0 a1 a2 a3 a4 a5 = fun _ => 1#1) (p : Fin 8192) :
    (a1 (ix1 p)).toNat < 8 := by
  have e := congrFun h ValueIdx.ix0
  dsimp only [Cert.Pre_finite_inputs.fn, Cert.Pre_finite_inputs.fn_part1] at e
  simp only [andi, IntOp.andi_eq_one] at e
  obtain ⟨-, hall⟩ := e
  have hp := Host.reduce_andi_all _ _ _ _ _ hall (ix1 p)
  simp only [andi, cmpi, broadcastInDim, constantI, IntOp.andi_eq_one, IntOp.cmpi_sge, IntOp.cmpi_slt] at hp
  exact toNat_lt_of_signed _ (by simpa using hp.1) (by simpa using hp.2)

end Cert.Moe

end
-- ==== Proof.Spec.lean ====
/-
  The mathematics both programs compute, stated once over literal shapes.

  A row x of the image goes through ONE expert e: the code is relu(x · W_enc[e]ᵀ + b_enc[e]) (512 entries) and the
  decoded row is code · W_dec[e]ᵀ + b_dec[e] (3072 entries).  The expert of row p is its label.  The loss is the mean
  of the squared differences between the decoded array and the image.  Everything is over the extended reals: sums
  and products are the exact ones, relu is max(·, 0).
-/
import Idealize.ShloMosaic.PureOps.Ideal
import Idealize.ShloMosaic.PureOps.Contract
import Idealize.ShloMosaic.Lib.ValueIdx

noncomputable section

namespace Cert.Moe

open Idealize.ShloMosaic Idealize.ShloMosaic.ValueIdx

/-- One row through one expert's encoder and decoder, at output column q:
    (Σ_k max((Σ_j x_j · We(k, j)) + be(k), 0) · Wd(q, k)) + bd(q). -/
def decRow (x : Fin 3072 → EReal) (We : Fin 512 → Fin 3072 → EReal) (be : Fin 512 → EReal)
    (Wd : Fin 3072 → Fin 512 → EReal) (bd : Fin 3072 → EReal) (q : Fin 3072) : EReal :=
  (∑ k : Fin 512, max ((∑ j : Fin 3072, x j * We k j) + be k) 0 * Wd q k) + bd q

/-- The expert a label word names (labels are in [0, 8); the remainder makes the function total). -/
def expert (w : BitVec 32) : Fin 8 := ⟨w.toNat % 8, Nat.mod_lt _ (by decide)⟩

theorem expert_of_lt (w : BitVec 32) (h : w.toNat < 8) : (expert w).val = w.toNat := Nat.mod_eq_of_lt h

/-- Row p of the image through expert e, at column q. -/
def rowThrough (img : (⟨2, ![8192, 3072]⟩ : Shape).Idx → EReal)
    (Wenc : (⟨3, ![8, 512, 3072]⟩ : Shape).Idx → EReal) (benc : (⟨2, ![8, 512]⟩ : Shape).Idx → EReal)
    (Wdec : (⟨3, ![8, 3072, 512]⟩ : Shape).Idx → EReal) (bdec : (⟨2, ![8, 3072]⟩ : Shape).Idx → EReal)
    (e : Fin 8) (p : Fin 8192) (q : Fin 3072) : EReal :=
  decRow (fun j => img (ix2 p j)) (fun k j => Wenc (ix3 e k j)) (fun k => benc (ix2 e k))
    (fun d k => Wdec (ix3 e d k)) (fun d => bdec (ix2 e d)) q

/-- The decoded array at (p, q): row p through the expert its label names. -/
def decoded (img : (⟨2, ![8192, 3072]⟩ : Shape).Idx → EReal) (lab : (⟨1, ![8192]⟩ : Shape).Idx → BitVec 32)
    (Wenc : (⟨3, ![8, 512, 3072]⟩ : Shape).Idx → EReal) (benc : (⟨2, ![8, 512]⟩ : Shape).Idx → EReal)
    (Wdec : (⟨3, ![8, 3072, 512]⟩ : Shape).Idx → EReal) (bdec : (⟨2, ![8, 3072]⟩ : Shape).Idx → EReal)
    (p : Fin 8192) (q : Fin 3072) : EReal :=
  rowThrough img Wenc benc Wdec bdec (expert (lab (ix1 p))) p q

/-- The decoded array as an array. -/
def decodedArr (img : (⟨2, ![8192, 3072]⟩ : Shape).Idx → EReal) (lab : (⟨1, ![8192]⟩ : Shape).Idx → BitVec 32)
    (Wenc : (⟨3, ![8, 512, 3072]⟩ : Shape).Idx → EReal) (benc : (⟨2, ![8, 512]⟩ : Shape).Idx → EReal)
    (Wdec : (⟨3, ![8, 3072, 512]⟩ : Shape).Idx → EReal) (bdec : (⟨2, ![8, 3072]⟩ : Shape).Idx → EReal) :
    (⟨2, ![8192, 3072]⟩ : Shape).Idx → EReal :=
  fun i => decoded img lab Wenc benc Wdec bdec (i 0) (i 1)

theorem decodedArr_ix2 (img lab Wenc benc Wdec bdec) (p : Fin 8192) (q : Fin 3072) :
    decodedArr img lab Wenc benc Wdec bdec (ix2 p q) = decoded img lab Wenc benc Wdec bdec p q := rfl

/-- The loss both programs compute from a decoded array d and the image: the sum over all entries of (d − img)²,
    divided by the number of entries 8192 · 3072 (the word 0x4BC00000). -/
def lossOf (h : (⟨2, ![8192, 3072]⟩ : Shape).ReducesTo [0, 1] ⟨0, ![]⟩) (hu : 0 < (⟨0, ![]⟩ : Shape).numel)
    (d img : FVec Ideal ⟨2, ![8192, 3072]⟩ .f32) : FVec Ideal ⟨0, ![]⟩ .f32 :=
  Host.divf
    (Host.reduceAdd (F := Ideal) (mulf (subf d img) (subf d img)) (constant (F := Ideal) ⟨0, ![]⟩ .f32 0x00000000#32) h hu)
    (constant (F := Ideal) ⟨0, ![]⟩ .f32 0x4BC00000#32)

end Cert.Moe

end
-- ==== Proof.DispatchMath.lean ====
/-
  The arithmetic of the sorted, padded dispatch, over the naturals.

  ls j is the label (expert) of the j-th row in sorted order, a nondecreasing sequence of 8192 values below 8.
  cnt e counts the rows of expert e; each expert's group is padded up to a multiple of the tile height 256 (pc e);
  startOf e and pstart e are the exclusive prefix sums of the counts and of the padded counts; the row at sorted
  position j goes to row destN j = pstart (ls j) + (j − startOf (ls j)) of the padded image; tile t belongs to the
  expert teN t = min 7 #{e < 8 | cumTiles e ≤ t}, cumTiles the inclusive prefix sum of the tiles per expert.
-/
import Idealize.ShloMosaic.Lib.ValueIdx
import Mathlib.Order.Interval.Finset.Fin
import Mathlib.Algebra.Order.BigOperators.Group.Finset

namespace Cert.Moe.Dispatch

/-- rows of expert e -/
def cnt (ls : Fin 8192 → Nat) (e : Nat) : Nat := (Finset.univ.filter (fun j : Fin 8192 => ls j = e)).card
/-- the count padded up to a multiple of 256 -/
def pc (ls : Fin 8192 → Nat) (e : Nat) : Nat := (cnt ls e + 255) / 256 * 256
/-- rows of experts below e -/
def startOf (ls : Fin 8192 → Nat) (e : Nat) : Nat := ∑ e' ∈ Finset.range e, cnt ls e'
/-- padded rows of experts below e -/
def pstart (ls : Fin 8192 → Nat) (e : Nat) : Nat := ∑ e' ∈ Finset.range e, pc ls e'
/-- tiles of experts up to and including e -/
def cumTiles (ls : Fin 8192 → Nat) (e : Nat) : Nat := ∑ e' ∈ Finset.range (e + 1), pc ls e' / 256
/-- the padded row the j-th sorted row goes to -/
def destN (ls : Fin 8192 → Nat) (j : Fin 8192) : Nat := pstart ls (ls j) + (j.val - startOf ls (ls j))
/-- the expert of tile t -/
def teN (ls : Fin 8192 → Nat) (t : Nat) : Nat := min 7 ((Finset.range 8).filter (fun e => cumTiles ls e ≤ t)).card

variable (ls : Fin 8192 → Nat) (hmono : ∀ i j : Fin 8192, i ≤ j → ls i ≤ ls j) (hlt : ∀ j, ls j < 8)

/-! ### Prefix sums, one step at a time -/

theorem startOf_succ (e : Nat) : startOf ls (e + 1) = startOf ls e + cnt ls e :=
  Finset.sum_range_succ _ _

theorem pstart_succ (e : Nat) : pstart ls (e + 1) = pstart ls e + pc ls e :=
  Finset.sum_range_succ _ _

theorem pstart_mono {a b : Nat} (h : a ≤ b) : pstart ls a ≤ pstart ls b :=
  Finset.sum_le_sum_of_subset (Finset.range_mono h)

/-- padding only adds rows, fewer than one tile of them -/
theorem cnt_le_pc (e : Nat) : cnt ls e ≤ pc ls e := by
  unfold pc; omega

theorem pc_le_cnt_add (e : Nat) : pc ls e ≤ cnt ls e + 255 := by
  unfold pc; omega

/-- a padded count is a whole number of tiles -/
theorem pc_eq_tiles (e : Nat) : pc ls e = 256 * (pc ls e / 256) := by
  unfold pc; omega

/-- the exclusive prefix sum of the counts is the number of rows with a smaller label -/
theorem startOf_eq_card (e : Nat) :
    startOf ls e = (Finset.univ.filter (fun j : Fin 8192 => ls j < e)).card := by
  induction e with
  | zero => simp [startOf]
  | succ n ih =>
    rw [startOf_succ, ih, cnt, ← Finset.card_union_of_disjoint]
    · congr 1
      ext j
      simp only [Finset.mem_union, Finset.mem_filter, Finset.mem_univ, true_and]
      omega
    · rw [Finset.disjoint_filter]
      intro j _ h1 h2
      omega

include hmono in
/-- in a sorted sequence the group of ls j starts at or before j -/
theorem startOf_le (j : Fin 8192) : startOf ls (ls j) ≤ j.val := by
  rw [startOf_eq_card]
  -- a row with a smaller label stands before j, else monotonicity would give ls j ≤ its label
  calc (Finset.univ.filter (fun j' : Fin 8192 => ls j' < ls j)).card
      ≤ (Finset.Iio j).card := by
        apply Finset.card_le_card
        intro j' hj'
        rw [Finset.mem_filter] at hj'
        rw [Finset.mem_Iio]
        by_contra hc
        have := hmono j j' (not_lt.mp hc)
        omega
    _ = j.val := Fin.card_Iio j

include hmono in
/-- … and ends after j: the rows up to j all have labels ≤ ls j -/
theorem lt_startOf_succ (j : Fin 8192) : j.val < startOf ls (ls j + 1) := by
  rw [startOf_eq_card]
  have h : j.val + 1 ≤ (Finset.univ.filter (fun j' : Fin 8192 => ls j' < ls j + 1)).card :=
    calc j.val + 1 = (Finset.Iic j).card := (Fin.card_Iic j).symm
      _ ≤ _ := by
        apply Finset.card_le_card
        intro j' hj'
        rw [Finset.mem_Iic] at hj'
        rw [Finset.mem_filter]
        exact ⟨Finset.mem_univ _, Nat.lt_succ_of_le (hmono j' j hj')⟩
  exact h

include hmono in
/-- the rank of row j inside its group is below the group's count -/
theorem rank_lt (j : Fin 8192) : j.val - startOf ls (ls j) < cnt ls (ls j) := by
  have h0 := startOf_le ls hmono j
  have h1 := lt_startOf_succ ls hmono j
  rw [startOf_succ] at h1
  omega

include hmono in
/-- a row lands inside the padded block of its expert -/
theorem destN_lt_pstart_succ (j : Fin 8192) : destN ls j < pstart ls (ls j + 1) := by
  have h1 := rank_lt ls hmono j
  have h2 := cnt_le_pc ls (ls j)
  rw [pstart_succ]
  unfold destN
  omega

theorem pstart_le_destN (j : Fin 8192) : pstart ls (ls j) ≤ destN ls j := Nat.le_add_right _ _

/-- the padded prefix exceeds the plain one by less than a tile per expert -/
theorem pstart_le_startOf_add (e : Nat) : pstart ls e ≤ startOf ls e + 255 * e := by
  induction e with
  | zero => simp [pstart]
  | succ n ih =>
    rw [pstart_succ, startOf_succ]
    have := pc_le_cnt_add ls n
    omega

/-! ### Tiles -/

/-- tiles of experts below e -/
def tilesBelow (ls : Fin 8192 → Nat) (e : Nat) : Nat := ∑ e' ∈ Finset.range e, pc ls e' / 256

theorem cumTiles_eq (e : Nat) : cumTiles ls e = tilesBelow ls (e + 1) := rfl

theorem tilesBelow_succ (e : Nat) : tilesBelow ls (e + 1) = tilesBelow ls e + pc ls e / 256 :=
  Finset.sum_range_succ _ _

theorem tilesBelow_mono {a b : Nat} (h : a ≤ b) : tilesBelow ls a ≤ tilesBelow ls b :=
  Finset.sum_le_sum_of_subset (Finset.range_mono h)

/-- the padded block of expert e starts at a tile boundary -/
theorem pstart_eq_tiles (e : Nat) : pstart ls e = 256 * tilesBelow ls e := by
  induction e with
  | zero => simp [pstart, tilesBelow]
  | succ n ih =>
    rw [pstart_succ, tilesBelow_succ, ih]
    have := pc_eq_tiles ls n
    omega

/-! ### The statements the other parts cite -/

theorem startOf_le_total (e : Nat) : startOf ls e ≤ 8192 := by
  rw [startOf_eq_card]
  exact (Finset.card_filter_le _ _).trans (by simp)

include hmono hlt in
theorem destN_lt (j : Fin 8192) : destN ls j < 10240 := by
  have h1 := destN_lt_pstart_succ ls hmono j
  have h2 := pstart_mono ls (show ls j + 1 ≤ 8 from hlt j)
  have h3 := pstart_le_startOf_add ls 8
  have h4 := startOf_le_total ls 8
  omega

include hmono hlt in
theorem destN_inj : Function.Injective (destN ls) := by
  intro j j' h
  -- rows of a smaller label land in an earlier padded block
  have key : ∀ a b : Fin 8192, ls a < ls b → destN ls a < destN ls b := by
    intro a b hab
    have h1 := destN_lt_pstart_succ ls hmono a
    have h2 := pstart_mono ls (show ls a + 1 ≤ ls b from hab)
    have h3 := pstart_le_destN ls b
    omega
  rcases Nat.lt_trichotomy (ls j) (ls j') with hl | he | hg
  · have := key j j' hl; omega
  · -- same label: the destinations differ by the difference of the positions
    have h1 := startOf_le ls hmono j
    have h2 := startOf_le ls hmono j'
    unfold destN at h
    rw [he] at h h1
    apply Fin.ext
    omega
  · have := key j' j hg; omega

include hmono hlt in
/-- the tile a row lands in belongs to the row's expert -/
theorem teN_dest (j : Fin 8192) : teN ls (destN ls j / 256) = ls j := by
  have he := hlt j
  have hlo : tilesBelow ls (ls j) ≤ destN ls j / 256 := by
    have h1 := pstart_le_destN ls j
    rw [pstart_eq_tiles] at h1
    omega
  have hhi : destN ls j / 256 < tilesBelow ls (ls j + 1) := by
    have h1 := destN_lt_pstart_succ ls hmono j
    rw [pstart_eq_tiles] at h1
    omega
  -- the inclusive tile prefix of e' is at most the row's tile exactly when e' is below the row's expert
  have hfil : (Finset.range 8).filter (fun e => cumTiles ls e ≤ destN ls j / 256) = Finset.range (ls j) := by
    ext a
    simp only [Finset.mem_filter, Finset.mem_range]
    rw [cumTiles_eq]
    constructor
    · rintro ⟨_, h⟩
      by_contra hc
      have := tilesBelow_mono ls (show ls j + 1 ≤ a + 1 by omega)
      omega
    · intro h
      refine ⟨by omega, ?_⟩
      have := tilesBelow_mono ls (show a + 1 ≤ ls j by omega)
      omega
  unfold teN
  rw [hfil, Finset.card_range]
  exact Nat.min_eq_right (by omega)

/-- bounds the word-level reading needs: every quantity stays far below 2^31 -/
theorem cnt_le (e : Nat) : cnt ls e ≤ 8192 := by
  unfold cnt
  exact (Finset.card_filter_le _ _).trans (by simp)
theorem pc_le (e : Nat) : pc ls e ≤ 8192 + 255 := by
  have h1 := pc_le_cnt_add ls e
  have h2 := cnt_le ls e
  omega
include hlt in
theorem pstart_le (e : Nat) (he : e ≤ 8) : pstart ls e ≤ 10240 := by
  have h1 := pstart_le_startOf_add ls e
  have h2 := startOf_le_total ls e
  omega
include hlt in
theorem cumTiles_le (e : Nat) (he : e < 8) : cumTiles ls e ≤ 40 := by
  rw [cumTiles_eq]
  have h1 := tilesBelow_mono ls (show e + 1 ≤ 8 from he)
  have h2 := pstart_le_startOf_add ls 8
  have h3 := startOf_le_total ls 8
  rw [pstart_eq_tiles] at h2
  omega

end Cert.Moe.Dispatch
-- ==== Proof.Iface.lean ====
/-
  What the parts of the kernel-side proof hand each other, stated once.

  The kernel sorts the rows by label, pads each expert's group to whole tiles, runs every tile through its expert
  and scatters the rows back.  The pieces: the sorting permutation σ and the sorted labels; the per-expert counts and
  their prefix sums as words; the destination row of each sorted row and the expert of each tile as words.  Each is
  a record of equations about the buffers the region finds (Gen.V), so that a part that uses them takes the record as
  a hypothesis and the part that proves them builds it.
-/
import proofs.«407060_j11527692222992_3_alg».proof.Proof.Gen.KernelIdeal.Frame
import proofs.«407060_j11527692222992_3_alg».proof.Proof.Spec
import proofs.«407060_j11527692222992_3_alg».proof.Proof.DispatchMath

noncomputable section

namespace Cert.KernelIdeal.Moe

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (c : Dev nD)

/-- The label word of row p. -/
def labW (p : Fin 8192) : BitVec 32 := m ((c : Thread nD τ).loc main_arg1) (ix1 p)

/-- The sorted labels (the buffer the gather of the labels at the sorting permutation writes), as naturals. -/
def lsN (j : Fin 8192) : Nat := (V m c main_v7 (ix1 j)).toNat

/-- The sort: the argsort buffer holds a permutation σ of the rows, the sorted-label buffer the labels along it,
    and the labels along it do not decrease. -/
structure SortI where
  σ : Fin 8192 → Fin 8192
  bij : Function.Bijective σ
  v0_eq : ∀ j : Fin 8192, V m c main_v0 (ix1 j) = BitVec.ofNat 32 (σ j).val
  v7_eq : ∀ j : Fin 8192, V m c main_v7 (ix1 j) = labW m c (σ j)
  mono : ∀ i j : Fin 8192, i ≤ j → (labW m c (σ i)).toNat ≤ (labW m c (σ j)).toNat

/-- The three vectors of eight words the destinations and the tile table are computed from. -/
structure CountsI : Prop where
  v26_eq : ∀ e : Fin 8, V m c main_v26 (ix1 e) = BitVec.ofNat 32 (Cert.Moe.Dispatch.startOf (lsN m c) e.val)
  v28_eq : ∀ e : Fin 8, V m c main_v28 (ix1 e) = BitVec.ofNat 32 (Cert.Moe.Dispatch.pstart (lsN m c) e.val)
  v63_eq : ∀ e : Fin 8, V m c main_v63 (ix1 e) = BitVec.ofNat 32 (Cert.Moe.Dispatch.cumTiles (lsN m c) e.val)

/-- The destination rows and the tile table as words. -/
structure DestI : Prop where
  v45_eq : ∀ j : Fin 8192, V m c main_v45 (ix1 j) = BitVec.ofNat 32 (Cert.Moe.Dispatch.destN (lsN m c) j)
  v72_eq : ∀ t : Fin 40, V m c main_v72 (ix1 t) = BitVec.ofNat 32 (Cert.Moe.Dispatch.teN (lsN m c) t.val)

end Cert.KernelIdeal.Moe

end
-- ==== Proof.LibGatherVec.lean ====
/-
  A `stablehlo.gather` that takes single entries of a vector: what `x[idx]` lowers to when `x` has one axis and
  `idx` is a list of positions on it.  The start indices are the list as an [n × 1] column; the operand's only axis
  is collapsed and start-indexed, so there is no offset axis and the result has one (batch) axis.  Result entry `j`
  is the operand's entry at the `j`-th start index read as a signed integer and clamped into the entries that exist
  (StableHLO's clamp): a negative index reads entry 0, one past the end reads the last entry.
-/
import Idealize.ShloMosaic.Lib.ValueIdx

noncomputable section

namespace Cert.GatherVec

open Idealize.ShloMosaic Idealize.ShloMosaic.ValueIdx

/-- Entries of a vector: `[N]` at `[n, 1]` start indices gives `[n]`; entry `j` is the operand's at the clamped
    start index `j`.  The hypotheses are the printed dimension numbers, each by `rfl`. -/
theorem gather_vec {α : Type} {N n w : Nat} (hN : 0 < N)
    (d : GatherDims ⟨1, ![N]⟩ ⟨2, ![n, 1]⟩ ⟨1, ![n]⟩)
    (hoff : d.offsetDims = []) (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (j : Fin n) :
    Host.gather d x idx (ix1 j)
      = x (ix1 ⟨min (idx (ix2 j (0 : Fin 1))).toInt.toNat (N - 1), by omega⟩) := by
  unfold Host.gather
  congr 1
  funext a
  refine Fin.ext ?_
  have hb : ∀ a : Fin 1, a ∉ d.operandBatchingDims := fun a => by rw [hob]; exact List.not_mem_nil
  -- the result's only axis is a batch axis
  have hbd : d.batchDims = [0] := by
    show (List.finRange 1).filter (· ∉ d.offsetDims) = _
    rw [hoff]; rfl
  match a with
  | ⟨0, _⟩ =>
    -- the only operand axis: collapsed and start-indexed, so no offset or batching part, a slice of one entry, and
    -- the start index clamped into the entries; the start index read is the column's entry at the result's position
    have hk : (0 : Fin 1) ∉ d.sKept := by rw [GatherDims.mem_sKept, hcoll]; simp
    have hm : (0 : Fin 1) ∈ d.startIndexMap := by rw [hsim]; exact List.mem_singleton.mpr rfl
    have hsl : d.sliceSizes 0 = 1 := d.slice_collapsed 0 (by rw [hcoll]; exact List.mem_singleton.mpr rfl)
    show d.start (ix1 j) idx 0 + d.batchCoord (ix1 j) 0 + d.offCoord (ix1 j) 0 = _
    rw [GatherDims.batchCoord_eq_zero _ _ _ (hb 0), GatherDims.offCoord_eq_zero _ _ _ hk]
    simp only [Nat.add_zero]
    unfold GatherDims.start
    rw [dif_pos hm]
    have e : ∀ X : Fin 1, X ∈ d.batchDims → ((ix1 j : (⟨1, ![n]⟩ : Shape).Idx) X).val = j.val := fun X hX => by
      rw [hbd] at hX
      obtain rfl := List.mem_singleton.mp hX
      rfl
    have hsi : d.siIdx (ix1 j) ⟨List.idxOf (0 : Fin 1) d.startIndexMap, List.idxOf_lt_length_iff.2 hm⟩
        = ix2 j (0 : Fin 1) := by
      funext b
      refine Fin.ext ?_
      match b with
      | ⟨0, _⟩ =>
        unfold GatherDims.siIdx
        rw [dif_neg (by rw [hivd]; exact Nat.zero_ne_one)]
        unfold GatherDims.siCoord
        simp only [Fin.val_cast]
        exact e _ (List.getElem_mem _)
      | ⟨1, _⟩ =>
        unfold GatherDims.siIdx
        rw [dif_pos (by rw [hivd])]
        show List.idxOf (0 : Fin 1) d.startIndexMap = 0
        rw [hsim]; simp
    rw [hsi, hsl]
    rfl

end Cert.GatherVec

end
-- ==== Proof.SortRead.lean ====
/-
  The sort.  The program sorts the pairs (label, row) by "label signed-less-than" with a stable sort and keeps the
  rows: that vector is the sorting permutation σ, as words.  It then takes the labels at σ (a negative index wrapped
  by the length first, which never happens here since a row number is not negative), which gives the labels in
  sorted order.  Three facts are proved about the stable insertion sort at ANY length, the label vector a variable:
  it is a bijection of the positions; a sort of (words, positions) returns the permutation's positions; and a later
  position's word is never signed-below an earlier one's, so that labels in [0, 8), which read the same signed and
  unsigned, do not decrease along σ.  Then the two buffers are read off the host lines that write them and the
  record of the sort is assembled.  The permutation is named and made irreducible at the end: nothing downstream
  should ever compute with it.
-/
import proofs.«407060_j11527692222992_3_alg».proof.Proof.Iface
import proofs.«407060_j11527692222992_3_alg».proof.Proof.KRead
import proofs.«407060_j11527692222992_3_alg».proof.Proof.LibGatherVec
import Idealize.ShloMosaic.Lib.SortFacts
import Idealize.ShloMosaic.Lib.StableHlo.Predicate

set_option maxRecDepth 16384

noncomputable section

namespace Cert.KernelIdeal.Moe

open Cert.KernelIdeal Cert.KernelIdeal.Gen
open Idealize.ShloMosaic Idealize.ShloMosaic.TcCoe Idealize.ShloMosaic.ValueIdx Idealize.SL.Sem

/-! ## The stable sort of a vector of words by signed less-than, at any length -/

section generic

/-- The rank-1 index at coordinate k, in the two spellings in use. -/
theorem ofFin_eq_ix1 {n : Nat} (k : Fin n) : (Shape.Idx.ofFin k : (⟨1, ![n]⟩ : Shape).Idx) = ix1 k := by
  funext a
  have : a = 0 := Subsingleton.elim _ _
  subst this
  exact Fin.ext rfl

/-- The second result of a two-operand sort of vectors, read at position j: the second operand at the position the
    stable sort of the pairs puts there. -/
theorem sort2_snd_rank1 {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
            (x (Shape.Idx.ofFin k'), y (Shape.Idx.ofFin k')) == 1#1) (j 0))) := by
  unfold Host.sort2
  simp

/-- "Before" for two words under the comparator: signed less-than, as a decision on the signed values. -/
theorem slt_beq (x y : BitVec 32) : (IntOp.cmpi .slt x y == 1#1) = decide (x.toInt < y.toInt) := by
  show (BitVec.ofBool (x.slt y) == 1#1) = _
  unfold BitVec.slt
  cases decide (x.toInt < y.toInt) <;> rfl

/-- The position whose word the stable sort by signed less-than puts at position j. -/
def argsortPerm {n : Nat} (lab : Fin n → BitVec 32) : Fin n → Fin n :=
  sortedFrom (fun k k' => IntOp.cmpi .slt (lab k) (lab k') == 1#1)

theorem argsortPerm_bijective {n : Nat} (lab : Fin n → BitVec 32) : Function.Bijective (argsortPerm lab) :=
  ⟨sortedFrom_injective _, sortedFrom_surjective _⟩

/-- No inversion: a later position's word is not signed-below an earlier position's. Signed less-than is asymmetric
    and "not below" is transitive, which is all the insertion sort needs. -/
theorem argsortPerm_toInt_le {n : Nat} (lab : Fin n → BitVec 32) (i j : Fin n) (hij : i < j) :
    (lab (argsortPerm lab i)).toInt ≤ (lab (argsortPerm lab j)).toInt := by
  have h : (IntOp.cmpi .slt (lab (argsortPerm lab j)) (lab (argsortPerm lab i)) == 1#1) = false :=
    sortedFrom_noInversion (fun k k' => IntOp.cmpi .slt (lab k) (lab k') == 1#1)
    (fun k k' => IntOp.cmpi .slt (lab k) (lab k') == 1#1)
    (fun a b hab => by
      simp only [slt_beq, decide_eq_true_eq, decide_eq_false_iff_not] at hab ⊢; omega)
    (fun _ _ hab => hab)
    (fun a b d hab hbd => by
      simp only [slt_beq, decide_eq_false_iff_not] at hab hbd ⊢; omega)
    i j hij
  simp only [slt_beq, decide_eq_false_iff_not] at h
  exact Int.not_lt.mp h

/-- Words below 2³¹ read the same signed and unsigned, so along the sort their values do not decrease. -/
theorem argsortPerm_mono {n : Nat} (lab : Fin n → BitVec 32) (hlab : ∀ p, (lab p).toNat < 2 ^ 31) (i j : Fin n)
    (hij : i ≤ j) : (lab (argsortPerm lab i)).toNat ≤ (lab (argsortPerm lab j)).toNat := by
  rcases eq_or_lt_of_le hij with rfl | hlt
  · exact le_refl _
  · have h := argsortPerm_toInt_le lab i j hlt
    rw [StableHlo.Predicate.toInt_eq_toNat_of_lt (hlab _), StableHlo.Predicate.toInt_eq_toNat_of_lt (hlab _)] at h
    exact Int.ofNat_le.mp h

/-- An argsort: the sort of (words, positions) by signed less-than on the words returns, as its second result, the
    sorting permutation's positions as words. -/
theorem argsort_snd {n : Nat} (x : (⟨1, ![n]⟩ : Shape).Idx → BitVec 32) (j : Fin n) :
    (Host.sort2 ⟨1, ![n]⟩ 0 comparator_i32_i32_d0 x (iotaInDim ⟨1, ![n]⟩ 32 0)).2 (ix1 j)
      = BitVec.ofNat 32 (argsortPerm (fun k => x (ix1 k)) j).val := by
  rw [sort2_snd_rank1]
  simp only [ofFin_eq_ix1]
  rfl

end generic

/-! ## The words of the wrapped start index, and the take, over any vectors -/

section pointwise

/-- An [n, 1] column made from a vector reads, at (p, 0), the vector at p. -/
theorem bcast_col_at {α : Type} {n : Nat} (h₁ : (⟨1, ![n]⟩ : Shape).BroadcastsInDim ⟨2, ![n, 1]⟩ ![0])
    (v : (⟨1, ![n]⟩ : Shape).Idx → α) (p : Fin n) :
    broadcastInDim ⟨2, ![n, 1]⟩ ![0] h₁ v (ix2 p (0 : Fin 1)) = v (ix1 p) := by
  have e : (ix2 p (0 : Fin 1) : (⟨2, ![n, 1]⟩ : Shape).Idx) = StableHlo.Predicate.ixP p := by
    funext a
    match a with
    | ⟨0, _⟩ => rfl
    | ⟨1, _⟩ => rfl
  rw [e, StableHlo.Predicate.bcast_col1, ofFin_eq_ix1]

/-- A position word k < 8192 is not negative, so "k + 8192 if k < 0 else k" is k. -/
theorem wrap_pos (k : Nat) (hk : k < 8192) :
    Scalar.select (IntOp.cmpi .slt (BitVec.ofNat 32 k) 0#32) (IntOp.addi (BitVec.ofNat 32 k) 8192#32) (BitVec.ofNat 32 k)
      = BitVec.ofNat 32 k := by
  have h : IntOp.cmpi .slt (BitVec.ofNat 32 k) 0#32 = 0#1 := by
    show BitVec.ofBool ((BitVec.ofNat 32 k).slt 0#32) = 0#1
    unfold BitVec.slt
    rw [StableHlo.Predicate.toInt_ofNat_small k (by omega), BitVec.toInt_zero]
    have : ¬ ((k : Int) < 0) := by omega
    simp [this]
  rw [h]
  exact select_zero _ _

/-- The start index a position word k < 8192 names, read signed and clamped to [0, 8191], is k. -/
theorem clamp_pos (k : Nat) (hk : k < 8192) : min (BitVec.ofNat 32 k).toInt.toNat (8192 - 1) = k := by
  rw [StableHlo.Predicate.toInt_ofNat_small k (by omega), Int.toNat_natCast]
  omega

/-- The take x[v], a negative index wrapped by the length, at a position j where v holds the word of k < 8192:
    x at k. -/
theorem take_at (x : (⟨1, ![8192]⟩ : Shape).Idx → BitVec 32) (v : IVec ⟨1, ![8192]⟩ 32) (j k : Fin 8192)
    (hv : v (ix1 j) = BitVec.ofNat 32 k.val) :
    Host.gather gather_S8192_S8192x1_S8192_n_0_n_n_0_1_1 x
        (broadcastInDim S8192x1 ![0] bcast_S8192_S8192x1_0
          (select (cmpi .slt v (broadcastInDim S8192 ![] bcast_S_S8192 (constantI S_ 32 0#32)))
            (addi v (broadcastInDim S8192 ![] bcast_S_S8192 (constantI S_ 32 8192#32))) v)) (ix1 j)
      = x (ix1 k) := by
  rw [Cert.GatherVec.gather_vec (by decide) gather_S8192_S8192x1_S8192_n_0_n_n_0_1_1 rfl rfl rfl rfl rfl]
  have hsel : select (cmpi .slt v (broadcastInDim S8192 ![] bcast_S_S8192 (constantI S_ 32 0#32)))
      (addi v (broadcastInDim S8192 ![] bcast_S_S8192 (constantI S_ 32 8192#32))) v (ix1 j) = BitVec.ofNat 32 k.val := by
    show Scalar.select (IntOp.cmpi .slt (v (ix1 j)) 0#32) (IntOp.addi (v (ix1 j)) 8192#32) (v (ix1 j)) = _
    rw [hv]
    exact wrap_pos k.val k.isLt
  refine congrArg x (congrArg (fun a : Fin 8192 => ix1 a) (Fin.ext ?_))
  show min (BitVec.toInt _).toNat (8192 - 1) = k.val
  rw [bcast_col_at, hsel]
  exact clamp_pos k.val k.isLt

end pointwise

variable (m : (ℓ : Loc nD τ sig) → Buf (Elt Ideal) ℓ) (c : Dev nD)

/-! ## The buffers, read off the host lines that write them -/

/-- The argsort buffer is written by the first stretch and by no later one. -/
theorem v0_U0 : V m c main_v0 = U0 m c (Proc.devRef .tc main_v0) := by
  rw [V_eq]
  unfold U14; after_results
  unfold U13; after_results
  unfold U12; after_results
  unfold U11; after_results
  unfold U10; after_results
  unfold U9; after_results
  unfold U8; after_results
  unfold U7; after_results
  unfold U6; after_results
  unfold U5; after_results
  unfold U4; after_results
  unfold U3; after_results
  unfold U2; after_results
  unfold U1; after_results
  all_goals rfl

/-- The first stretch: the second result of the sort of (labels, positions). -/
theorem v0_read : U0 m c (Proc.devRef .tc main_v0)
    = (Host.sort2 S8192 0 comparator_i32_i32_d0 (m ((c : Thread nD τ).loc main_arg1)) (iotaInDim S8192 32 0)).2 := by
  unfold U0; after_results
  all_goals rfl

/-- The labels are an argument: the first stretch leaves them. -/
theorem arg1_U0 : U0 m c (Proc.devRef .tc main_arg1) = m ((c : Thread nD τ).loc main_arg1) := by
  unfold U0; after_results
  all_goals rfl

/-- The sorted-label buffer: the take of the labels at the argsort, negative indices wrapped. -/
theorem v7_read : V m c main_v7
    = Host.gather gather_S8192_S8192x1_S8192_n_0_n_n_0_1_1 (U0 m c (Proc.devRef .tc main_arg1))
        (broadcastInDim S8192x1 ![0] bcast_S8192_S8192x1_0
          (select (cmpi .slt (U0 m c (Proc.devRef .tc main_v0)) (broadcastInDim S8192 ![] bcast_S_S8192 (constantI S_ 32 0#32)))
            (addi (U0 m c (Proc.devRef .tc main_v0)) (broadcastInDim S8192 ![] bcast_S_S8192 (constantI S_ 32 8192#32)))
            (U0 m c (Proc.devRef .tc main_v0)))) := by
  rw [V_eq]
  unfold U14; after_results
  unfold U13; after_results
  unfold U12; after_results
  unfold U11; after_results
  unfold U10; after_results
  unfold U9; after_results
  unfold U8; after_results
  unfold U7; after_results
  unfold U6; after_results
  unfold U5; after_results
  unfold U4; after_results
  unfold U3; after_results
  unfold U2; after_results
  unfold U1; after_results
  all_goals rfl

/-! ## The sort -/

/-- The sorting permutation: sorted position j holds row σ j. -/
def sortσ : Fin 8192 → Fin 8192 := argsortPerm (labW m c)

theorem v0_at (j : Fin 8192) : V m c main_v0 (ix1 j) = BitVec.ofNat 32 (sortσ m c j).val := by
  rw [v0_U0, v0_read]
  exact argsort_snd (n := 8192) (m ((c : Thread nD τ).loc main_arg1)) j

theorem v7_at (j : Fin 8192) : V m c main_v7 (ix1 j) = labW m c (sortσ m c j) := by
  have hv := v0_at m c j
  rw [v0_U0] at hv
  rw [v7_read, arg1_U0]
  exact take_at _ _ j _ hv

/-- The sort: the argsort buffer holds the permutation, the sorted-label buffer the labels along it, and labels
    in [0, 8) do not decrease along it. -/
def sortI (hlab : ∀ p : Fin 8192, (labW m c p).toNat < 8) : SortI m c where
  σ := sortσ m c
  bij := argsortPerm_bijective _
  v0_eq := v0_at m c
  v7_eq := v7_at m c
  mono := fun i j hij => argsortPerm_mono (labW m c) (fun p => by have := hlab p; omega) i j hij

attribute [irreducible] sortσ argsortPerm

end Cert.KernelIdeal.Moe

end
-- ==== Proof.LibCumsum8.lean ====
/-
  The running sum of a vector of eight words.  A cumulative sum along a vector of length 8 is written as a
  windowed sum: a window of 8 positions sliding by 1 over the vector padded with 7 zeros in front, so that the
  window at position e covers padded positions e … e + 7, that is the vector's positions e − 7 … e, of which the
  ones below 0 are padding.  This file proves that reading: the windowed sum at e is the sum of the vector's
  entries 0 … e (word addition), for any vector of words and any zero initial value; and, when the entries are the
  words of natural numbers, that it is the word of the sum of those numbers.
-/
import Idealize.ShloMosaic.PureOps.Contract
import Idealize.ShloMosaic.Lib.ValueIdx
import Mathlib.Data.BitVec

noncomputable section

namespace Cert.Cumsum8

open Idealize.ShloMosaic Idealize.ShloMosaic.ValueIdx

/-- Two case distinctions on equivalent conditions with equal branches agree. -/
theorem dite_congr_iff {A B : Prop} [Decidable A] [Decidable B] {α : Type} (hAB : A ↔ B) (t : A → α) (t' : B → α) (d : α)
    (ht : ∀ a b, t a = t' b) : dite A t (fun _ => d) = dite B t' (fun _ => d) := by
  by_cases hA : A
  · rw [dif_pos hA, dif_pos (hAB.mp hA)]; exact ht _ _
  · rw [dif_neg hA, dif_neg (fun hB => hA (hAB.mpr hB))]

/-- The word of a sum of naturals is the sum of the words. -/
theorem ofNat_sum_range (f : Nat → Nat) (n : Nat) :
    BitVec.ofNat 32 (∑ k ∈ Finset.range n, f k) = ∑ k ∈ Finset.range n, BitVec.ofNat 32 (f k) := by
  induction n with
  | zero => rfl
  | succ n ih => rw [Finset.sum_range_succ, Finset.sum_range_succ, BitVec.ofNat_add, ih]

/-- The window at e, over positions k = 0 … 7, reads entry e + k − 7 where that is not padding; summed, that is the
    entries 0 … e.  The entries as a function of a natural, zero from 8 on, so that no case needs a bound. -/
theorem window_sum (y : Nat → BitVec 32) (e : Nat) (he : e < 8) :
    ∑ k ∈ Finset.range 8, (if 7 ≤ e + k ∧ e + k - 7 < 8 then y (e + k - 7) else 0) = ∑ e' ∈ Finset.range (e + 1), y e' := by
  interval_cases e <;> simp [Finset.sum_range_succ]

/-- THE RUNNING SUM: the windowed sum (window 8, stride 1, 7 zeros in front) of a vector of eight words from a zero
    initial value is, at e, the sum of the entries 0 … e. -/
theorem cumsum8 (x : (⟨1, ![8]⟩ : Shape).Idx → BitVec 32) (v : (⟨0, ![]⟩ : Shape).Idx → BitVec 32)
    (h : (⟨1, ![8]⟩ : Shape).ReduceWindows ![8] ![1] ![7] ![0] ⟨1, ![8]⟩) (hu : 0 < (⟨0, ![]⟩ : Shape).numel)
    (hv : v (Shape.Idx.first hu) = 0#32) (e : Fin 8) :
    Host.reduceWindow IntOp.addi ![8] ![1] ![7] ![0] x v h hu (ix1 e)
      = ∑ e' ∈ Finset.range (e.val + 1), (if he : e' < 8 then x (ix1 ⟨e', he⟩) else 0) := by
  unfold Host.reduceWindow
  dsimp only
  rw [hv]
  -- the window position n, as a natural
  have hval : ∀ n : Fin (⟨1, ![8]⟩ : Shape).numel, ((⟨1, ![8]⟩ : Shape).rowMajor.symm n 0).val = n.val := by
    intro n
    have := Shape.rowMajor_val_one ((⟨1, ![8]⟩ : Shape).rowMajor.symm n)
    rw [Equiv.apply_symm_apply] at this
    exact this.symm
  -- one step of the fold adds the entry the window position reads, or zero
  have hstep := List.foldl_ext
    (fun (r : BitVec 32) (n : Fin (⟨1, ![8]⟩ : Shape).numel) =>
      IntOp.addi r
        (if hin : ∀ a : Fin 1, ![7] a ≤ (ix1 e (Fin.cast h.1.symm a)).val * ![1] a + ((⟨1, ![8]⟩ : Shape).rowMajor.symm n a).val ∧
            (ix1 e (Fin.cast h.1.symm a)).val * ![1] a + ((⟨1, ![8]⟩ : Shape).rowMajor.symm n a).val - ![7] a < ![8] a then
          x fun a => ⟨(ix1 e (Fin.cast h.1.symm a)).val * ![1] a + ((⟨1, ![8]⟩ : Shape).rowMajor.symm n a).val - ![7] a, (hin a).2⟩
        else 0#32))
    (fun r n => r + (if 7 ≤ e.val + n.val ∧ e.val + n.val - 7 < 8 then
        (if he : e.val + n.val - 7 < 8 then x (ix1 ⟨e.val + n.val - 7, he⟩) else 0) else 0))
    (0#32) (l := List.finRange (⟨1, ![8]⟩ : Shape).numel) (by
      intro r n _
      show r + _ = r + _
      congr 1
      rw [← dite_eq_ite]
      refine dite_congr_iff ⟨fun hin => ?_, fun hB a => ?_⟩ _ _ _ (fun hin hB => ?_)
      · have h0 := hin 0
        change 7 ≤ e.val * 1 + ((⟨1, ![8]⟩ : Shape).rowMajor.symm n 0).val
          ∧ e.val * 1 + ((⟨1, ![8]⟩ : Shape).rowMajor.symm n 0).val - 7 < 8 at h0
        rw [hval] at h0
        omega
      · obtain rfl : a = 0 := Subsingleton.elim _ _
        show 7 ≤ e.val * 1 + ((⟨1, ![8]⟩ : Shape).rowMajor.symm n 0).val
          ∧ e.val * 1 + ((⟨1, ![8]⟩ : Shape).rowMajor.symm n 0).val - 7 < 8
        rw [hval]
        omega
      · rw [dif_pos hB.2]
        refine congrArg x (funext fun a => ?_)
        obtain rfl : a = 0 := Subsingleton.elim _ _
        apply Fin.ext
        show e.val * 1 + ((⟨1, ![8]⟩ : Shape).rowMajor.symm n 0).val - 7 = e.val + n.val - 7
        rw [hval]
        omega)
  refine hstep.trans ?_
  -- the fold is a sum over the window's eight positions
  have hnum : (⟨1, ![8]⟩ : Shape).numel = 8 := by decide
  rw [← List.foldl_map (f := fun n : Fin (⟨1, ![8]⟩ : Shape).numel =>
        if 7 ≤ e.val + n.val ∧ e.val + n.val - 7 < 8 then
          (if he : e.val + n.val - 7 < 8 then x (ix1 ⟨e.val + n.val - 7, he⟩) else 0) else (0 : BitVec 32))
      (g := fun (r : BitVec 32) y => r + y)]
  refine (List.sum_eq_foldl (α := BitVec 32)).symm.trans ?_
  rw [← Fin.sum_univ_def,
    Fin.sum_univ_eq_sum_range (fun k => if 7 ≤ e.val + k ∧ e.val + k - 7 < 8 then
          (if he : e.val + k - 7 < 8 then x (ix1 ⟨e.val + k - 7, he⟩) else 0) else (0 : BitVec 32)), hnum]
  exact window_sum (fun k => if he : k < 8 then x (ix1 ⟨k, he⟩) else 0) e.val e.isLt

/-- The running sum of the words of eight naturals is the word of the running sum of the naturals. -/
theorem cumsum8_ofNat (x : (⟨1, ![8]⟩ : Shape).Idx → BitVec 32) (f : Nat → Nat)
    (hx : ∀ e : Fin 8, x (ix1 e) = BitVec.ofNat 32 (f e.val)) (v : (⟨0, ![]⟩ : Shape).Idx → BitVec 32)
    (h : (⟨1, ![8]⟩ : Shape).ReduceWindows ![8] ![1] ![7] ![0] ⟨1, ![8]⟩) (hu : 0 < (⟨0, ![]⟩ : Shape).numel)
    (hv : v (Shape.Idx.first hu) = 0#32) (e : Fin 8) :
    Host.reduceWindow IntOp.addi ![8] ![1] ![7] ![0] x v h hu (ix1 e)
      = BitVec.ofNat 32 (∑ e' ∈ Finset.range (e.val + 1), f e') := by
  rw [cumsum8 x v h hu hv e, ofNat_sum_range]
  refine Finset.sum_congr rfl fun e' he' => ?_
  have h8 : e' < 8 := by have := Finset.mem_range.mp he'; have := e.isLt; omega
  rw [dif_pos h8, hx ⟨e', h8⟩]

end Cert.Cumsum8

end
-- ==== Proof.LibScatterRead.lean ====
/-
  Reading a scatter whose body returns the update ("set") at an index.

  `Host.scatter d (fun _ b => b) x idx upd` is a left fold of point updates over the update indices in row-major
  order.  At a result index that no update index lands on, the fold leaves the operand's element; at a result index
  that exactly one update index lands on, it leaves that update's element, wherever in the order it stands.
  The element type is arbitrary: the same two facts read a float array and a boolean mask.
-/
import Idealize.ShloMosaic.PureOps.ShapeOps

namespace Cert.LibScatterRead

open Idealize.ShloMosaic

variable {s si u : Shape} {w : Nat} {α : Type}

/-- One step of the fold: the point update of update number `n`. -/
def step (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

theorem scatter_eq_foldl (d : ScatterDims s si u) (x : s.Idx → α) (idx : IVec si w) (upd : u.Idx → α) :
    Host.scatter d (fun _ b => b) x idx upd = (List.finRange u.numel).foldl (step d idx upd) x := rfl

/-- A step whose update lands elsewhere (or nowhere) leaves the element at `i'`. -/
theorem step_miss (d : ScatterDims s si u) (idx : IVec si w) (upd : u.Idx → α) (r : s.Idx → α) (n : Fin u.numel)
    (i' : s.Idx) (h : d.resultIdx? (u.rowMajor.symm n) idx ≠ some i') : step d idx upd r n i' = r i' := by
  unfold step
  cases hr : d.resultIdx? (u.rowMajor.symm n) idx with
  | none => rfl
  | some i =>
    have hne : i' ≠ i := fun e => h (by rw [hr, e])
    simp only [if_neg hne]

/-- A step whose update lands at `i'` leaves the update's element there. -/
theorem step_hit (d : ScatterDims s si u) (idx : IVec si w) (upd : u.Idx → α) (r : s.Idx → α) (n : Fin u.numel)
    (i' : s.Idx) (h : d.resultIdx? (u.rowMajor.symm n) idx = some i') :
    step d idx upd r n i' = upd (u.rowMajor.symm n) := by
  unfold step
  rw [h]
  exact if_pos rfl

theorem foldl_miss (d : ScatterDims s si u) (idx : IVec si w) (upd : u.Idx → α) (i' : s.Idx) :
    ∀ (l : List (Fin u.numel)) (r : s.Idx → α), (∀ n ∈ l, d.resultIdx? (u.rowMajor.symm n) idx ≠ some i') →
      l.foldl (step d idx upd) r i' = r i'
  | [], _, _ => rfl
  | a :: t, r, h => by
    rw [List.foldl_cons, foldl_miss d idx upd i' t _ (fun n hn => h n (List.mem_cons_of_mem _ hn)),
      step_miss d idx upd r a i' (h a List.mem_cons_self)]

theorem foldl_hit (d : ScatterDims s si u) (idx : IVec si w) (upd : u.Idx → α) (i' : s.Idx) (n0 : Fin u.numel)
    (h0 : d.resultIdx? (u.rowMajor.symm n0) idx = some i') :
    ∀ (l : List (Fin u.numel)) (r : s.Idx → α), n0 ∈ l →
      (∀ n ∈ l, d.resultIdx? (u.rowMajor.symm n) idx = some i' → n = n0) →
      l.foldl (step d idx upd) r i' = upd (u.rowMajor.symm n0)
  | [], _, hm, _ => absurd hm List.not_mem_nil
  | a :: t, r, hm, hu => by
    rw [List.foldl_cons]
    by_cases ht : n0 ∈ t
    · exact foldl_hit d idx upd i' n0 h0 t _ ht (fun n hn => hu n (List.mem_cons_of_mem _ hn))
    · have ha : a = n0 := by
        rcases List.mem_cons.1 hm with e | e
        · exact e.symm
        · exact absurd e ht
      rw [foldl_miss d idx upd i' t _ (fun n hn e => ht (hu n (List.mem_cons_of_mem _ hn) e ▸ hn)), ha,
        step_hit d idx upd r n0 i' h0]

/-- At a result index no update lands on, the scatter leaves the operand's element. -/
theorem scatter_set_miss (d : ScatterDims s si u) (x : s.Idx → α) (idx : IVec si w) (upd : u.Idx → α) (i' : s.Idx)
    (h : ∀ j : u.Idx, d.resultIdx? j idx ≠ some i') :
    Host.scatter d (fun _ b => b) x idx upd i' = x i' := by
  rw [scatter_eq_foldl]
  exact foldl_miss d idx upd i' _ x (fun n _ => h _)

/-- At a result index exactly one update index `j` lands on, the scatter leaves that update's element. -/
theorem scatter_set_hit (d : ScatterDims s si u) (x : s.Idx → α) (idx : IVec si w) (upd : u.Idx → α) (i' : s.Idx)
    (j : u.Idx) (hj : d.resultIdx? j idx = some i') (huniq : ∀ j' : u.Idx, d.resultIdx? j' idx = some i' → j' = j) :
    Host.scatter d (fun _ b => b) x idx upd i' = upd j := by
  rw [scatter_eq_foldl]
  have h0 : d.resultIdx? (u.rowMajor.symm (u.rowMajor j)) idx = some i' := by rw [Equiv.symm_apply_apply]; exact hj
  have := foldl_hit d idx upd i' (u.rowMajor j) h0 (List.finRange u.numel) x (List.mem_finRange _)
    (fun n _ e => by
      have := huniq _ e
      rw [← this, Equiv.apply_symm_apply])
  rw [this, Equiv.symm_apply_apply]

/-- Update index `j` lands at `i'` exactly when on every axis `i'` is the start plus the window coordinate. -/
theorem resultIdx?_eq_some_iff (d : ScatterDims s si u) (j : u.Idx) (idx : IVec si w) (i' : s.Idx) :
    d.resultIdx? j idx = some i' ↔ ∀ a, ((i' a).val : Int) = d.start j idx a + d.window j a := by
  unfold ScatterDims.resultIdx?
  split
  · rename_i h
    rw [Option.some.injEq]
    constructor
    · rintro rfl a
      have := (h a).1
      simp only [Int.toNat_of_nonneg this]
    · intro hi
      funext a
      apply Fin.ext
      have := hi a
      simp only
      omega
  · rename_i h
    constructor
    · intro hh; cases hh
    · intro hi
      exfalso
      apply h
      intro a
      have := hi a
      have := (i' a).isLt
      omega

end Cert.LibScatterRead
-- ==== Proof.LibScatterRows.lean ====
/-
  A scatter that adds whole rows, read at an index.

  The operand has rows i < N of C columns; the scatter indices are a column of n start rows; update row e is added to
  the operand's row at the e-th start index read as a signed integer, column by column, and dropped when that row does
  not exist.  So entry (i, k) of the result is the operand's entry plus the sum, over the update rows e whose start
  index is i, of the update's entry (e, k).  Stated for the exact float sum and for the integer fold.
-/
import Idealize.ShloMosaic.Lib.ValueIdx
import Idealize.ShloMosaic.PureOps.Ideal
import Idealize.ShloMosaic.PureOps.Contract
import Mathlib.Data.BitVec
import proofs.«407060_j11527692222992_3_alg».proof.Proof.LibScatterRead

noncomputable section

namespace Cert.ScatterRows

open Idealize.ShloMosaic Idealize.ShloMosaic.ValueIdx

variable {N C n w : Nat}

/-- Update entry (e, k) lands on operand entry (i, k') exactly when the e-th start index, read signed, is i and the
    columns agree.  The hypotheses are the printed dimension numbers, each by `rfl`. -/
theorem resultIdx?_rows2 (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (idx : IVec ⟨2, ![n, 1]⟩ w) (e : Fin n) (k : Fin C) (i : Fin N) (k' : Fin C) :
    d.resultIdx? (ix2 e k) idx = some (ix2 i k') ↔ (idx (ix2 e (0 : Fin 1))).toInt = (i.val : ℤ) ∧ k = k' := by
  rw [Cert.LibScatterRead.resultIdx?_eq_some_iff]
  -- the operand's kept axis is its second; the update's scatter axis is its first
  have hsk : d.sKept = [1] := by
    show (List.finRange 2).filter (· ∉ d.insertedWindowDims) = _
    rw [hiw]; rfl
  have hus : d.uScatter = [0] := by
    show (List.finRange 2).filter (· ∉ d.updateWindowDims) = _
    rw [huw]; rfl
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [hsk]; simp
  have hk1 : (1 : Fin 2) ∈ d.sKept := by rw [hsk]; simp
  -- the start index read for update row e is the column's entry at e
  have hsi : d.siIdx (ix2 e k) ⟨List.idxOf (0 : Fin 2) d.scatterDimsToOperandDims, List.idxOf_lt_length_iff.2 hm0⟩
      = ix2 e (0 : Fin 1) := by
    funext b
    refine Fin.ext ?_
    match b with
    | ⟨0, _⟩ =>
      unfold ScatterDims.siIdx
      rw [dif_neg (by rw [hivd]; exact Nat.zero_ne_one)]
      unfold ScatterDims.siCoord
      simp only [Fin.val_cast]
      have e' : ∀ X : Fin 2, X ∈ d.uScatter → ((ix2 e k : (⟨2, ![n, C]⟩ : Shape).Idx) X).val = e.val := fun X hX => by
        rw [hus] at hX
        obtain rfl := List.mem_singleton.mp hX
        rfl
      exact e' _ (List.getElem_mem _)
    | ⟨1, _⟩ =>
      unfold ScatterDims.siIdx
      rw [dif_pos (by rw [hivd])]
      show List.idxOf (0 : Fin 2) d.scatterDimsToOperandDims = 0
      rw [hsd]; simp
  -- the row axis: start-indexed and inserted; the column axis: not start-indexed, the window's own coordinate
  have hs0 : d.start (ix2 e k) idx 0 = (idx (ix2 e (0 : Fin 1))).toInt := by
    unfold ScatterDims.start
    rw [dif_pos hm0, hsi]
  have hs1 : d.start (ix2 e k) idx 1 = 0 := by
    unfold ScatterDims.start
    rw [dif_neg hm1]
  have hw0 : d.window (ix2 e k) 0 = 0 := by
    unfold ScatterDims.window
    rw [dif_neg hk0]
  have hw1 : d.window (ix2 e k) 1 = k.val := by
    unfold ScatterDims.window
    rw [dif_pos hk1]
    have e' : ∀ X : Fin 2, X ∈ d.updateWindowDims → ((ix2 e k : (⟨2, ![n, C]⟩ : Shape).Idx) X).val = k.val := fun X hX => by
      rw [huw] at hX
      obtain rfl := List.mem_singleton.mp hX
      rfl
    exact e' _ (List.getElem_mem _)
  have hi0 : (((ix2 i k' : (⟨2, ![N, C]⟩ : Shape).Idx) 0).val : Int) = (i.val : Int) := rfl
  have hi1 : (((ix2 i k' : (⟨2, ![N, C]⟩ : Shape).Idx) 1).val : Int) = (k'.val : Int) := rfl
  constructor
  · intro h
    have h0 := h 0
    have h1 := h 1
    rw [hs0, hw0, hi0] at h0
    rw [hs1, hw1, hi1] at h1
    refine ⟨by omega, Fin.ext (by omega)⟩
  · rintro ⟨h0, rfl⟩ a
    match a with
    | ⟨0, _⟩ =>
      show (((ix2 i k : (⟨2, ![N, C]⟩ : Shape).Idx) 0).val : Int) = d.start (ix2 e k) idx 0 + d.window (ix2 e k) 0
      rw [hs0, hw0, hi0, h0]; simp
    | ⟨1, _⟩ =>
      show (((ix2 i k : (⟨2, ![N, C]⟩ : Shape).Idx) 1).val : Int) = d.start (ix2 e k) idx 1 + d.window (ix2 e k) 1
      rw [hs1, hw1, hi1]; simp

/-- The update indices that land on operand entry (i, k) are the (e, k) whose start index is i, so a sum over them
    is a sum over those rows e. -/
theorem sum_landing_rows2 {M : Type} [AddCommMonoid M] (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (idx : IVec ⟨2, ![n, 1]⟩ w) (upd : (⟨2, ![n, C]⟩ : Shape).Idx → M)
    (i : Fin N) (k : Fin C) :
    ∑ j ∈ Finset.univ.filter (fun j => d.resultIdx? j idx = some (ix2 i k)), upd j
      = ∑ e ∈ Finset.univ.filter (fun e : Fin n => (idx (ix2 e (0 : Fin 1))).toInt = (i.val : ℤ)),
          upd (ix2 e k) := by
  symm
  refine Finset.sum_bij (fun e _ => ix2 e k) ?_ ?_ ?_ ?_
  · intro e he
    rw [Finset.mem_filter] at he ⊢
    exact ⟨Finset.mem_univ _, (resultIdx?_rows2 d huw hiw hsd hivd idx e k i k).2 ⟨he.2, rfl⟩⟩
  · intro e1 _ e2 _ h
    exact congrFun h 0
  · intro j hj
    rw [Finset.mem_filter] at hj
    have hj2 := hj.2
    rw [eq_ix2 j] at hj2
    obtain ⟨h0, h1⟩ := (resultIdx?_rows2 d huw hiw hsd hivd idx (j 0) (j 1) i k).1 hj2
    refine ⟨j 0, ?_, ?_⟩
    · exact Finset.mem_filter.2 ⟨Finset.mem_univ _, h0⟩
    · rw [← h1]; exact (eq_ix2 j).symm
  · intro e _; rfl

/-- A scatter whose body adds, in a commutative monoid, read at one result index: the operand's element plus the sum
    of the update elements that land there.  The fold visits the update indices in row-major order, each exactly
    once, and the order does not matter to the sum. -/
theorem scatter_add_eq {M : Type} [AddCommMonoid M] {s si u : Shape} (d : ScatterDims s si u) (x : s.Idx → M)
    (idx : IVec si w) (upd : u.Idx → M) (i' : s.Idx) :
    Host.scatter d (fun a b => a + b) x idx upd i'
      = x i' + ∑ j ∈ Finset.univ.filter (fun j => d.resultIdx? j idx = some i'), upd j := by
  have hfold : ∀ (l : List (Fin u.numel)) (r : s.Idx → M),
      l.foldl (fun r n =>
          match d.resultIdx? (u.rowMajor.symm n) idx with
          | some i => fun i' => if i' = i then r i + upd (u.rowMajor.symm n) else r i'
          | none => r) r i'
        = r i' + (l.map fun n =>
            if d.resultIdx? (u.rowMajor.symm n) idx = some i' then upd (u.rowMajor.symm n) else 0).sum := by
    intro l
    induction l with
    | nil => intro r; simp
    | cons a t ih =>
      intro r
      rw [List.foldl_cons, ih, List.map_cons, List.sum_cons]
      cases hr : d.resultIdx? (u.rowMajor.symm a) idx with
      | none => simp
      | some i =>
        by_cases hi : i = i'
        · subst hi; simp [add_assoc]
        · have hi' : i' ≠ i := fun e => hi e.symm
          simp [hi, hi']
  refine (hfold (List.finRange u.numel) x).trans ?_
  rw [← Fin.sum_univ_def, Finset.sum_filter]
  congr 1
  exact Equiv.sum_comp u.rowMajor.symm (fun j => if d.resultIdx? j idx = some i' then upd j else 0)

/-- The exact float scatter-add of rows at entry (i, k). -/
theorem scatterAdd_rows2 {φ : FTy} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (x : FVec Ideal ⟨2, ![N, C]⟩ φ) (idx : IVec ⟨2, ![n, 1]⟩ w)
    (upd : FVec Ideal ⟨2, ![n, C]⟩ φ) (i : Fin N) (k : Fin C) :
    Host.scatterAdd d x idx upd (ix2 i k)
      = x (ix2 i k) + ∑ e ∈ Finset.univ.filter (fun e : Fin n => (idx (ix2 e (0 : Fin 1))).toInt = (i.val : ℤ)),
          upd (ix2 e k) := by
  show Ideal.hostScatterAdd d x idx upd (ix2 i k) = _
  unfold Ideal.hostScatterAdd
  rw [sum_landing_rows2 d huw hiw hsd hivd idx upd i k]

/-- The integer scatter-add of rows (the fold of wrapping additions in row-major order) at entry (i, k). -/
theorem scatter_addi_rows2 {v : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (x : IVec ⟨2, ![N, C]⟩ v) (idx : IVec ⟨2, ![n, 1]⟩ w)
    (upd : IVec ⟨2, ![n, C]⟩ v) (i : Fin N) (k : Fin C) :
    Host.scatter d IntOp.addi x idx upd (ix2 i k)
      = x (ix2 i k) + ∑ e ∈ Finset.univ.filter (fun e : Fin n => (idx (ix2 e (0 : Fin 1))).toInt = (i.val : ℤ)),
          upd (ix2 e k) := by
  show Host.scatter d (fun a b => a + b) x idx upd (ix2 i k) = _
  rw [scatter_add_eq, sum_landing_rows2 d huw hiw hsd hivd idx upd i k]

/-- Counting in 32-bit words does not wrap below 2^31: the sum of s.card ones over zero, read signed, is s.card. -/
theorem toInt_count (hn : n < 2 ^ 31) (s : Finset (Fin n)) :
    (0#32 + ∑ _e ∈ s, (1#32 : BitVec 32)).toInt = (s.card : ℤ) := by
  have hc : s.card ≤ n := by
    have := Finset.card_le_univ s
    rwa [Fintype.card_fin] at this
  have hsum : (0#32 + ∑ _e ∈ s, (1#32 : BitVec 32)) = BitVec.ofNat 32 s.card := by
    rw [Finset.sum_const, nsmul_eq_mul, BitVec.natCast_eq_ofNat]
    simp
  rw [hsum, BitVec.toInt_eq_toNat_of_lt, BitVec.toNat_ofNat, Nat.mod_eq_of_lt (by omega)]
  rw [BitVec.toNat_ofNat, Nat.mod_eq_of_lt (by omega)]
  omega

end Cert.ScatterRows

end
-- ==== Proof.LibScatterRows1.lean ====
/-
  A scatter that adds scalars into a rank-1 operand at a column of start indices, read at an entry.

  The operand is a vector of N entries; the scatter indices are an [n, 1] column of start positions of any word width;
  update entry e is added to the operand's entry at the e-th start index read as a signed integer, and dropped when
  that entry does not exist.  So entry i of the result is the operand's entry plus the sum, over the update entries e
  whose start index is i, of the update's entry e.  General in N, n and the index width; stated for the exact float
  sum, with the landing condition and the re-indexed sum as separate lemmas.
-/
import Idealize.ShloMosaic.Lib.ValueIdx
import Idealize.ShloMosaic.PureOps.Ideal
import Idealize.ShloMosaic.PureOps.Ideal.Laws
import Idealize.ShloMosaic.PureOps.Contract
import Mathlib.Data.BitVec
import proofs.«407060_j11527692222992_3_alg».proof.Proof.LibScatterRead
import proofs.«407060_j11527692222992_3_alg».proof.Proof.LibScatterRows

noncomputable section

namespace Cert.ScatterRows1

open Idealize.ShloMosaic Idealize.ShloMosaic.ValueIdx

variable {N n w : Nat}

/-- Update entry e lands on operand entry i exactly when the e-th start index, read signed, is i.  The hypotheses are
    the printed dimension numbers, each by rfl. -/
theorem resultIdx?_rows1 (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (e : Fin n) (i : Fin N) :
    d.resultIdx? (ix1 e) idx = some (ix1 i) ↔ (idx (ix2 e (0 : Fin 1))).toInt = (i.val : ℤ) := by
  rw [Cert.LibScatterRead.resultIdx?_eq_some_iff]
  -- the operand keeps no axis; the update's one axis is its scatter axis
  have hsk : d.sKept = [] := by
    show (List.finRange 1).filter (· ∉ d.insertedWindowDims) = _
    rw [hiw]; rfl
  have hus : d.uScatter = [0] := by
    show (List.finRange 1).filter (· ∉ d.updateWindowDims) = _
    rw [huw]; rfl
  have hm0 : (0 : Fin 1) ∈ d.scatterDimsToOperandDims := by rw [hsd]; exact List.mem_singleton.mpr rfl
  have hk0 : (0 : Fin 1) ∉ d.sKept := by rw [hsk]; simp
  -- the start index read for update entry e is the column's entry at e
  have hsi : d.siIdx (ix1 e) ⟨List.idxOf (0 : Fin 1) d.scatterDimsToOperandDims, List.idxOf_lt_length_iff.2 hm0⟩
      = ix2 e (0 : Fin 1) := by
    funext b
    refine Fin.ext ?_
    match b with
    | ⟨0, _⟩ =>
      unfold ScatterDims.siIdx
      rw [dif_neg (by rw [hivd]; exact Nat.zero_ne_one)]
      unfold ScatterDims.siCoord
      simp only [Fin.val_cast]
      have e' : ∀ X : Fin 1, X ∈ d.uScatter → ((ix1 e : (⟨1, ![n]⟩ : Shape).Idx) X).val = e.val := fun X hX => by
        rw [hus] at hX
        obtain rfl := List.mem_singleton.mp hX
        rfl
      exact e' _ (List.getElem_mem _)
    | ⟨1, _⟩ =>
      unfold ScatterDims.siIdx
      rw [dif_pos (by rw [hivd])]
      show List.idxOf (0 : Fin 1) d.scatterDimsToOperandDims = 0
      rw [hsd]; simp
  have hs0 : d.start (ix1 e) idx 0 = (idx (ix2 e (0 : Fin 1))).toInt := by
    unfold ScatterDims.start
    rw [dif_pos hm0, hsi]
  have hw0 : d.window (ix1 e) 0 = 0 := by
    unfold ScatterDims.window
    rw [dif_neg hk0]
  have hi0 : (((ix1 i : (⟨1, ![N]⟩ : Shape).Idx) 0).val : Int) = (i.val : Int) := rfl
  constructor
  · intro h
    have h0 := h 0
    rw [hs0, hw0, hi0] at h0
    omega
  · intro h0 a
    match a with
    | ⟨0, _⟩ =>
      show (((ix1 i : (⟨1, ![N]⟩ : Shape).Idx) 0).val : Int) = d.start (ix1 e) idx 0 + d.window (ix1 e) 0
      rw [hs0, hw0, hi0, h0]; simp

/-- The update indices that land on operand entry i are the e whose start index is i. -/
theorem sum_landing_rows1 {M : Type} [AddCommMonoid M] (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (upd : (⟨1, ![n]⟩ : Shape).Idx → M) (i : Fin N) :
    ∑ j ∈ Finset.univ.filter (fun j => d.resultIdx? j idx = some (ix1 i)), upd j
      = ∑ e ∈ Finset.univ.filter (fun e : Fin n => (idx (ix2 e (0 : Fin 1))).toInt = (i.val : ℤ)),
          upd (ix1 e) := by
  symm
  refine Finset.sum_bij (fun e _ => ix1 e) ?_ ?_ ?_ ?_
  · intro e he
    rw [Finset.mem_filter] at he ⊢
    exact ⟨Finset.mem_univ _, (resultIdx?_rows1 d huw hiw hsd hivd idx e i).2 he.2⟩
  · intro e1 _ e2 _ h
    exact congrFun h 0
  · intro j hj
    rw [Finset.mem_filter] at hj
    have hj2 := hj.2
    rw [eq_ix1 j] at hj2
    have h0 := (resultIdx?_rows1 d huw hiw hsd hivd idx (j 0) i).1 hj2
    refine ⟨j 0, ?_, ?_⟩
    · exact Finset.mem_filter.2 ⟨Finset.mem_univ _, h0⟩
    · exact (eq_ix1 j).symm
  · intro e _; rfl

/-- The exact float scatter-add of entries at entry i. -/
theorem scatterAdd_rows1 {φ : FTy} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1) (x : FVec Ideal ⟨1, ![N]⟩ φ) (idx : IVec ⟨2, ![n, 1]⟩ w)
    (upd : FVec Ideal ⟨1, ![n]⟩ φ) (i : Fin N) :
    Host.scatterAdd d x idx upd (ix1 i)
      = x (ix1 i) + ∑ e ∈ Finset.univ.filter (fun e : Fin n => (idx (ix2 e (0 : Fin 1))).toInt = (i.val : ℤ)),
          upd (ix1 e) := by
  show Ideal.hostScatterAdd d x idx upd (ix1 i) = _
  unfold Ideal.hostScatterAdd
  rw [sum_landing_rows1 d huw hiw hsd hivd idx upd i]

end Cert.ScatterRows1

end
-- ==== Proof.LibBincount.lean ====
/-
  A scatter that adds ones into zeros at a column of start indices counts the indices.

  The operand is a vector of N words, all zero; the scatter indices are an [n, 1] column of start positions of any
  word width; the update is a vector of n words, all one; the body is word addition.  Update entry e lands on the
  operand's entry at the e-th start index read as a signed integer, and is dropped when that entry does not exist.  So
  entry i of the result is the number of update entries whose start index is i, as a 32-bit word (the sum of that many
  ones, in the ring of words).  General in N, n and the index width.
-/
import Idealize.ShloMosaic.Lib.ValueIdx
import Idealize.ShloMosaic.PureOps.Contract
import Mathlib.Data.BitVec
import proofs.«407060_j11527692222992_3_alg».proof.Proof.LibScatterRead
import proofs.«407060_j11527692222992_3_alg».proof.Proof.LibScatterRows
import proofs.«407060_j11527692222992_3_alg».proof.Proof.LibScatterRows1

noncomputable section

namespace Cert.Bincount

open Idealize.ShloMosaic Idealize.ShloMosaic.ValueIdx

variable {N n w : Nat}

/-- A sum of s.card ones in the ring of 32-bit words is the word of s.card. -/
theorem sum_ones {ι : Type} (s : Finset ι) : ∑ _e ∈ s, (1#32 : BitVec 32) = BitVec.ofNat 32 s.card := by
  rw [Finset.sum_const, nsmul_eq_mul, BitVec.natCast_eq_ofNat]
  simp

/-- Entry i of a scatter that adds ones into zeros is the number of start indices equal to i.  The four hypotheses on
    the dimension numbers are the printed ones, each by rfl. -/
theorem scatter_ones_count (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (x : IVec ⟨1, ![N]⟩ 32) (u : IVec ⟨1, ![n]⟩ 32)
    (hx : ∀ i, x i = 0#32) (hu : ∀ j, u j = 1#32) (i : Fin N) :
    Host.scatter d IntOp.addi x idx u (ix1 i)
      = BitVec.ofNat 32 ((Finset.univ.filter (fun e : Fin n => (idx (ix2 e (0 : Fin 1))).toInt = (i.val : ℤ))).card) := by
  -- the body is addition in the commutative ring of words
  show Host.scatter d (fun a b => a + b) x idx u (ix1 i) = _
  rw [Cert.ScatterRows.scatter_add_eq, Cert.ScatterRows1.sum_landing_rows1 d huw hiw hsd hivd idx u i, hx,
    Finset.sum_congr rfl (fun e _ => hu (ix1 e)), sum_ones, BitVec.zero_add]

end Cert.Bincount

end
-- ==== Proof.CountsRead.lean ====
/-
  The counts.  From the sorted labels (words below 8) the host lines count the rows of each expert with a scatter of
  ones added into eight zeros (jnp.bincount: the labels clipped below at zero, negative indices wrapped by 8, both the
  identity on words below 8), and take the exclusive running sum of the counts (jnp.cumsum, minus the counts).  Entry e
  of the count vector is the word of the number of sorted positions labelled e; entry e of the exclusive running sum
  is the word of the number of positions with a smaller label.  With the padded counts and their running sums these
  make up the record of the three vectors the destinations and the tile table are computed from.
-/
import proofs.«407060_j11527692222992_3_alg».proof.Proof.Iface
import proofs.«407060_j11527692222992_3_alg».proof.Proof.KRead
import proofs.«407060_j11527692222992_3_alg».proof.Proof.LibCumsum8
import proofs.«407060_j11527692222992_3_alg».proof.Proof.LibBincount
import Idealize.ShloMosaic.Lib.StableHlo.Predicate
set_option maxRecDepth 16384

noncomputable section

namespace Cert.KernelIdeal.Moe

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (c : Dev nD)

namespace CountsRead

/-! ### Words below 2^31 -/

theorem ofNat_sub_of_le {a b : Nat} (hba : b ≤ a) (ha : a < 2 ^ 32) :
    BitVec.ofNat 32 a - BitVec.ofNat 32 b = BitVec.ofNat 32 (a - b) := by
  apply BitVec.eq_of_toNat_eq
  simp only [BitVec.toNat_sub, BitVec.toNat_ofNat]
  omega

/-- The larger, read signed, of zero and a non-negative word is the word. -/
theorem maxsi_zero_left {w : BitVec 32} (hw : w.toNat < 2 ^ 31) : IntOp.maxsi 0#32 w = w := by
  have hti : w.toInt = w.toNat := StableHlo.Predicate.toInt_eq_toNat_of_lt hw
  have h0 : (0#32 : BitVec 32).toInt = 0 := by decide
  unfold IntOp.maxsi
  split <;> rename_i hc <;> simp only [BitVec.slt, hti, h0, decide_eq_true_eq] at hc
  · omega
  · rfl

/-- A non-negative word is not below zero. -/
theorem slt_zero_of_lt {w : BitVec 32} (hw : w.toNat < 2 ^ 31) : IntOp.cmpi .slt w 0#32 = 0#1 := by
  have hti : w.toInt = w.toNat := StableHlo.Predicate.toInt_eq_toNat_of_lt hw
  have h0 : (0#32 : BitVec 32).toInt = 0 := by decide
  unfold IntOp.cmpi
  have : w.slt 0#32 = false := by
    simp only [BitVec.slt, hti, h0, decide_eq_false_iff_not]; omega
  simp only [this]; rfl

/-- On a word below 8 the clip at zero and the wrap of a negative index by 8 are the identity. -/
theorem wrap_word {w : BitVec 32} (hw : w.toNat < 8) :
    Scalar.select (IntOp.cmpi .slt (IntOp.maxsi 0#32 w) 0#32) (IntOp.addi (IntOp.maxsi 0#32 w) 8#32) (IntOp.maxsi 0#32 w) = w := by
  have hw' : w.toNat < 2 ^ 31 := by omega
  rw [maxsi_zero_left hw', slt_zero_of_lt hw', select_zero]

/-- A vector laid as a column reads, at row p, the vector at p. -/
theorem col_apply {α : Type} {n : Nat} (h₁ : (⟨1, ![n]⟩ : Shape).BroadcastsInDim ⟨2, ![n, 1]⟩ ![0])
    (v : (⟨1, ![n]⟩ : Shape).Idx → α) (p : Fin n) :
    broadcastInDim ⟨2, ![n, 1]⟩ ![0] h₁ v (ix2 p (0 : Fin 1)) = v (ix1 p) := by
  simp only [broadcastInDim]
  congr 1
  funext a
  have ha : a = 0 := Subsingleton.elim _ _
  subst ha
  apply Fin.ext
  have hp := p.isLt
  split
  · next h1 => change n = 1 at h1; show (0 : Nat) = p.val; omega
  · rfl

/-- The column of start indices the count scatters at: the clipped, wrapped labels; at row j the label word itself. -/
theorem startCol_apply (W : IVec S8192 32) (j : Fin 8192) (hw : (W (ix1 j)).toNat < 8) :
    broadcastInDim S8192x1 ![0] bcast_S8192_S8192x1_0
        (select (cmpi .slt (maxsi (broadcastInDim S8192 ![] bcast_S_S8192 (constantI S_ 32 0#32)) W)
            (broadcastInDim S8192 ![] bcast_S_S8192 (constantI S_ 32 0#32)))
          (addi (maxsi (broadcastInDim S8192 ![] bcast_S_S8192 (constantI S_ 32 0#32)) W)
            (broadcastInDim S8192 ![] bcast_S_S8192 (constantI S_ 32 8#32)))
          (maxsi (broadcastInDim S8192 ![] bcast_S_S8192 (constantI S_ 32 0#32)) W)) (ix2 j (0 : Fin 1))
      = W (ix1 j) := by
  rw [col_apply]
  exact wrap_word hw

/-! ### The buffers, one stretch at a time

The sorted labels are named by the contents after the stretch that gathers them; each later vector is read off the
stretch that writes it, its inputs named by the contents after the stretch that wrote them. -/

set_option maxHeartbeats 2000000 in
/-- The sorted labels are not written after the stretch that gathers them. -/
theorem U1_v7 : U1 m c (Proc.devRef .tc main_v7) = V m c main_v7 := by
  rw [V_eq m c main_v7]
  unfold U14; after_results; unfold U13; after_results; unfold U12; after_results; unfold U11; after_results
  unfold U10; after_results; unfold U9; after_results; unfold U8; after_results; unfold U7; after_results
  unfold U6; after_results; unfold U5; after_results; unfold U4; after_results; unfold U3; after_results
  unfold U2; after_results

theorem U1_c2 : U1 m c (Proc.devRef .tc main_c_2) = constantI S_ 32 0#32 := by
  unfold U1; after_results

theorem U1_v8 : U1 m c (Proc.devRef .tc main_v8) = broadcastInDim S8 ![] bcast_S_S8 (constantI S_ 32 0#32) := by
  unfold U1; after_results

/-- jnp.bincount first clips the labels below at zero. -/
theorem U2_v9 : U2 m c (Proc.devRef .tc main_v9)
    = maxsi (broadcastInDim S8192 ![] bcast_S_S8192 (constantI S_ 32 0#32)) (U1 m c (Proc.devRef .tc main_v7)) := by
  unfold U2; after_results; rw [U1_c2]; rfl

theorem U2_v8 : U2 m c (Proc.devRef .tc main_v8) = broadcastInDim S8 ![] bcast_S_S8 (constantI S_ 32 0#32) := by
  unfold U2; after_results; exact U1_v8 m c

/-- The counts: ones scattered with addition into eight zeros at the clipped, wrapped labels. -/
theorem U3_v17 : U3 m c (Proc.devRef .tc main_v17)
    = Host.scatter scatter_S8_S8192x1_S8192_n_0_0_1 IntOp.addi (U2 m c (Proc.devRef .tc main_v8))
        (broadcastInDim S8192x1 ![0] bcast_S8192_S8192x1_0
          (select (cmpi .slt (U2 m c (Proc.devRef .tc main_v9)) (broadcastInDim S8192 ![] bcast_S_S8192 (constantI S_ 32 0#32)))
            (addi (U2 m c (Proc.devRef .tc main_v9)) (broadcastInDim S8192 ![] bcast_S_S8192 (constantI S_ 32 8#32)))
            (U2 m c (Proc.devRef .tc main_v9))))
        (broadcastInDim S8192 ![] bcast_S_S8192 (constantI S_ 32 1#32)) := by
  unfold U3; after_results

set_option maxHeartbeats 2000000 in
/-- The counts are not written after the stretch that scatters them. -/
theorem U14_v17 : U14 m c (Proc.devRef .tc main_v17) = U3 m c (Proc.devRef .tc main_v17) := by
  unfold U14; after_results; unfold U13; after_results; unfold U12; after_results; unfold U11; after_results
  unfold U10; after_results; unfold U9; after_results; unfold U8; after_results; unfold U7; after_results
  unfold U6; after_results; unfold U5; after_results; unfold U4; after_results

/-! Contents at a value's type and at its buffer's type are the same thing for a literal buffer. -/
theorem toBuf_v25 (p1 p2 p3) (R : (⟨S8, .i32⟩ : BufTy).Contents (Elt Ideal)) :
    (StableHlo.TRef.of main_v25 p1 p2 p3 : StableHlo.TRef sig ⟨S8, .i32⟩).toBuf R = R := rfl
theorem ofBuf_v17 (p1 p2 p3) (X : (Proc.devRef (τ := τ) .tc main_v17 : DevRef τ sig).ty.Contents (Elt Ideal)) :
    (StableHlo.TRef.of main_v17 p1 p2 p3 : StableHlo.TRef sig ⟨S8, .i32⟩).ofBuf X = X := rfl
theorem toBuf_c3v0 (p1 p2 p3) (R : (⟨S_, .i32⟩ : BufTy).Contents (Elt Ideal)) :
    (StableHlo.TRef.of main_call3_call0_v0 p1 p2 p3 : StableHlo.TRef sig ⟨S_, .i32⟩).toBuf R = R := rfl
theorem ofBuf_c3v0 (p1 p2 p3) (R : (⟨S_, .i32⟩ : BufTy).Contents (Elt Ideal)) :
    (StableHlo.TRef.of main_call3_call0_v0 p1 p2 p3 : StableHlo.TRef sig ⟨S_, .i32⟩).ofBuf R = R := rfl
theorem toBuf_c3c (p1 p2 p3) (R : (⟨S_, .i32⟩ : BufTy).Contents (Elt Ideal)) :
    (StableHlo.TRef.of main_call3_call0_c p1 p2 p3 : StableHlo.TRef sig ⟨S_, .i32⟩).toBuf R = R := rfl
theorem ofBuf_c3c (p1 p2 p3) (R : (⟨S_, .i32⟩ : BufTy).Contents (Elt Ideal)) :
    (StableHlo.TRef.of main_call3_call0_c p1 p2 p3 : StableHlo.TRef sig ⟨S_, .i32⟩).ofBuf R = R := rfl

/-- The exclusive running sum of the counts: their running sum (jnp.cumsum) minus the counts themselves. -/
theorem U7_v26 : U7 m c (Proc.devRef .tc main_v26)
    = subi (Host.reduceWindow IntOp.addi ![8] ![1] ![7] ![0] (U3 m c (Proc.devRef .tc main_v17))
        (broadcastInDim S_ ![] bcast_S_S_ (constantI S_ 32 0#32)) reduceWindows_S8_S8_w8s1p7_0 h_S_)
      (U3 m c (Proc.devRef .tc main_v17)) := by
  unfold U7; after_results; unfold U6; after_results; unfold U5; after_results; unfold U4; after_results
  generalize U3 m c (Proc.devRef .tc main_v17) = X
  rw [toBuf_v25, ofBuf_v17, ofBuf_c3v0, toBuf_c3v0, ofBuf_c3c, toBuf_c3c]

set_option maxHeartbeats 2000000 in
/-- The exclusive running sum is not written after its stretch. -/
theorem U14_v26 : U14 m c (Proc.devRef .tc main_v26) = U7 m c (Proc.devRef .tc main_v26) := by
  unfold U14; after_results; unfold U13; after_results; unfold U12; after_results; unfold U11; after_results
  unfold U10; after_results; unfold U9; after_results; unfold U8; after_results

/-! ### The values -/

/-- The sorted label of position j is the value of its word. -/
theorem lsN_eq (j : Fin 8192) : lsN m c j = (U1 m c (Proc.devRef .tc main_v7) (ix1 j)).toNat :=
  congrArg (fun v : IVec S8192 32 => (v (ix1 j)).toNat) (U1_v7 m c).symm

theorem word_lt (hls : ∀ j : Fin 8192, lsN m c j < 8) (j : Fin 8192) :
    (U1 m c (Proc.devRef .tc main_v7) (ix1 j)).toNat < 8 := by
  rw [← lsN_eq]; exact hls j

/-- Entry e of the count vector is the word of the number of sorted positions labelled e. -/
theorem U3_v17_at (hls : ∀ j : Fin 8192, lsN m c j < 8) (e : Fin 8) :
    U3 m c (Proc.devRef .tc main_v17) (ix1 e) = BitVec.ofNat 32 (Cert.Moe.Dispatch.cnt (lsN m c) e.val) := by
  rw [U3_v17, U2_v8, U2_v9]
  refine (Cert.Bincount.scatter_ones_count scatter_S8_S8192x1_S8192_n_0_0_1 rfl rfl rfl rfl _ _ _
    (fun _ => rfl) (fun _ => rfl) e).trans ?_
  refine congrArg (fun s : Finset (Fin 8192) => BitVec.ofNat 32 s.card) ?_
  refine Finset.filter_congr fun j _ => ?_
  have hw := word_lt m c hls j
  rw [startCol_apply _ j hw, StableHlo.Predicate.toInt_eq_toNat_of_lt (by omega), lsN_eq]
  exact Int.natCast_inj

/-- Entry e of the exclusive running sum of the counts is the word of the number of positions with a smaller label. -/
theorem U7_v26_at (hls : ∀ j : Fin 8192, lsN m c j < 8) (e : Fin 8) :
    U7 m c (Proc.devRef .tc main_v26) (ix1 e) = BitVec.ofNat 32 (Cert.Moe.Dispatch.startOf (lsN m c) e.val) := by
  rw [U7_v26]
  have hX := U3_v17_at m c hls
  generalize U3 m c (Proc.devRef .tc main_v17) = X at hX ⊢
  show IntOp.subi (Host.reduceWindow IntOp.addi ![8] ![1] ![7] ![0] X
      (broadcastInDim S_ ![] bcast_S_S_ (constantI S_ 32 0#32)) reduceWindows_S8_S8_w8s1p7_0 h_S_ (ix1 e)) (X (ix1 e)) = _
  rw [Cert.Cumsum8.cumsum8_ofNat X (Cert.Moe.Dispatch.cnt (lsN m c)) hX
    (broadcastInDim S_ ![] bcast_S_S_ (constantI S_ 32 0#32)) reduceWindows_S8_S8_w8s1p7_0 h_S_ rfl e, hX e]
  -- the running sum up to and including e is the running sum below e plus the count of e, and stays below 2^32
  have hs : ∑ e' ∈ Finset.range (e.val + 1), Cert.Moe.Dispatch.cnt (lsN m c) e'
      = Cert.Moe.Dispatch.startOf (lsN m c) e.val + Cert.Moe.Dispatch.cnt (lsN m c) e.val := Finset.sum_range_succ _ _
  have hb : ∑ e' ∈ Finset.range (e.val + 1), Cert.Moe.Dispatch.cnt (lsN m c) e' ≤ 8192 :=
    Cert.Moe.Dispatch.startOf_le_total (lsN m c) (e.val + 1)
  show BitVec.ofNat 32 _ - BitVec.ofNat 32 _ = _
  rw [ofNat_sub_of_le (by omega) (by omega), hs, Nat.add_sub_cancel]

end CountsRead

/-- The count vector: entry e is the word of the number of sorted positions labelled e. -/
theorem v17_at (hls : ∀ j : Fin 8192, lsN m c j < 8) (e : Fin 8) :
    V m c main_v17 (ix1 e) = BitVec.ofNat 32 (Cert.Moe.Dispatch.cnt (lsN m c) e.val) := by
  rw [V_eq m c main_v17, CountsRead.U14_v17]
  exact CountsRead.U3_v17_at m c hls e

/-- The group starts: entry e is the word of the number of sorted positions with a label below e. -/
theorem v26_at (hls : ∀ j : Fin 8192, lsN m c j < 8) (e : Fin 8) :
    V m c main_v26 (ix1 e) = BitVec.ofNat 32 (Cert.Moe.Dispatch.startOf (lsN m c) e.val) := by
  rw [V_eq m c main_v26, CountsRead.U14_v26]
  exact CountsRead.U7_v26_at m c hls e

/-- The record of the three vectors, from the group starts above and the two vectors computed from the padded counts. -/
theorem countsI_of (hls : ∀ j : Fin 8192, lsN m c j < 8)
    (h28 : ∀ e : Fin 8, V m c main_v28 (ix1 e) = BitVec.ofNat 32 (Cert.Moe.Dispatch.pstart (lsN m c) e.val))
    (h63 : ∀ e : Fin 8, V m c main_v63 (ix1 e) = BitVec.ofNat 32 (Cert.Moe.Dispatch.cumTiles (lsN m c) e.val)) :
    CountsI m c :=
  ⟨v26_at m c hls, h28, h63⟩

end Cert.KernelIdeal.Moe

end
-- ==== Proof.CountsPad.lean ====
/-
  The padded counts from the counts.

  The host pads each expert's row count up to a whole number of tiles of height 256: it adds 256 and takes 1 away,
  floor-divides by 256 as jnp does (the truncating signed quotient, lowered by one when dividend and divisor differ in
  sign and the remainder is not zero) and multiplies by 256. A count n is at most 8192, so n + 255 is a small
  non-negative word: it has the divisor's sign (or is zero with remainder zero), no correction happens, signed
  division is the division of the naturals, and every word operation is the natural-number one. Entry e of the padded
  counts is therefore the word of (n + 255) / 256 · 256 (`v24_at`).

  The word facts come first; then the padding as one function of the vector of counts, read at an entry (`pad_at`);
  then the host lines: each buffer is read off the stretch of lines that writes it, in terms of the contents the
  stretch before leaves, and the lines after it leave it alone.
-/
import proofs.«407060_j11527692222992_3_alg».proof.Proof.Iface
import proofs.«407060_j11527692222992_3_alg».proof.Proof.KRead
import Idealize.ShloMosaic.Lib.StableHlo.Predicate
import Idealize.ShloMosaic.Lib.Pipeline.Value

set_option maxRecDepth 16384

noncomputable section

namespace Cert.KernelIdeal.Moe

open Cert.KernelIdeal Cert.KernelIdeal.Gen Idealize.ShloMosaic Idealize.ShloMosaic.TcCoe Idealize.ShloMosaic.ValueIdx
  Idealize.SL.Sem Idealize.ShloMosaic.StableHlo

variable (m : (ℓ : Loc nD τ sig) → Buf (Elt Ideal) ℓ) (c : Dev nD)

namespace CountsPad

/-! ## Words below 2^31 -/

theorem toNat_ofNat_lt {n : Nat} (h : n < 2 ^ 32) : (BitVec.ofNat 32 n).toNat = n := by
  rw [BitVec.toNat_ofNat]; exact Nat.mod_eq_of_lt h

/-- Adding 256 and taking 1 away, on words, is adding 255 on the naturals. -/
theorem add_256_sub_1 (n : Nat) : IntOp.subi (IntOp.addi (BitVec.ofNat 32 n) 256#32) 1#32 = BitVec.ofNat 32 (n + 255) := by
  apply BitVec.eq_of_toNat_eq
  simp only [IntOp.subi, IntOp.addi, BitVec.toNat_sub, BitVec.toNat_add, BitVec.toNat_ofNat]
  omega

/-- Signed division of a non-negative word by 256 is the division of the values. -/
theorem divsi_256 (d : BitVec 32) (hd : d.toNat < 2 ^ 31) : IntOp.divsi .host d 256#32 = BitVec.ofNat 32 (d.toNat / 256) := by
  have hcorner : ¬ IntOp.SDivCorner d 256#32 := by
    intro hc; rcases hc with hc | ⟨_, hc⟩ <;> exact absurd hc (by decide)
  have hm : d.msb = false := BitVec.msb_eq_false_iff_two_mul_lt.mpr (by omega)
  apply BitVec.eq_of_toNat_eq
  simp only [IntOp.divsi, if_neg hcorner, BitVec.sdiv_eq, hm, show (256#32 : BitVec 32).msb = false from by decide, BitVec.udiv_eq,
    BitVec.toNat_udiv, BitVec.toNat_ofNat, Nat.reducePow, Nat.reduceMod]
  omega

/-- jnp's floor division by 256 of a non-negative word at one element: the truncating quotient, corrected by one when
    the signs of dividend and divisor differ and the remainder is not zero. A positive dividend has the divisor's
    sign and a zero dividend has remainder zero, so no correction happens. -/
theorem floorDiv_256 (d : BitVec 32) (hd : d.toNat < 2 ^ 31) (sd s256 : BitVec 32)
    (hsd : sd = if d = 0 then 0 else if d.msb then -1 else 1) (hs256 : s256 = 1#32) :
    Scalar.select (IntOp.andi (IntOp.cmpi .ne sd s256) (IntOp.cmpi .ne (IntOp.remsi .host d 256#32) 0#32))
        (IntOp.subi (IntOp.divsi .host d 256#32) 1#32) (IntOp.divsi .host d 256#32)
      = BitVec.ofNat 32 (d.toNat / 256) := by
  have hm : d.msb = false := BitVec.msb_eq_false_iff_two_mul_lt.mpr (by omega)
  have hc : IntOp.andi (IntOp.cmpi .ne sd s256) (IntOp.cmpi .ne (IntOp.remsi .host d 256#32) 0#32) = 0#1 := by
    by_cases h0 : d = 0
    · subst h0
      have : IntOp.cmpi .ne (IntOp.remsi .host (0 : BitVec 32) 256#32) 0#32 = 0#1 := by decide
      rw [this]
      unfold IntOp.andi
      exact BitVec.and_zero
    · have : IntOp.cmpi .ne sd s256 = 0#1 := by
        rw [hsd, hs256, if_neg h0, hm]; decide
      rw [this]
      unfold IntOp.andi
      exact BitVec.zero_and
  rw [hc, select_zero, divsi_256 d hd]

/-- A quotient times 256, on words. -/
theorem muli_256 (k : Nat) : IntOp.muli (BitVec.ofNat 32 k) 256#32 = BitVec.ofNat 32 (k * 256) := by
  apply BitVec.eq_of_toNat_eq
  simp only [IntOp.muli, BitVec.toNat_mul, BitVec.toNat_ofNat]
  omega

/-! ## The padding as a function of the counts -/

/-- jnp's floor division of a vector of eight words by the scalar word s, as the host lines compute it. -/
def fdivF (a : IVec S8 32) (s : IVec S_ 32) : IVec S8 32 :=
  select
    (andi (cmpi .ne (signi a) (broadcastInDim S8 ![] bcast_S_S8 (signi s)))
      (cmpi .ne (Host.remsi a (broadcastInDim S8 ![] bcast_S_S8 s)) (broadcastInDim S8 ![] bcast_S_S8 (constantI S_ 32 0#32))))
    (subi (Host.divsi a (broadcastInDim S8 ![] bcast_S_S8 s)) (broadcastInDim S8 ![] bcast_S_S8 (constantI S_ 32 1#32)))
    (Host.divsi a (broadcastInDim S8 ![] bcast_S_S8 s))

/-- A scalar word spread over the eight entries reads the scalar. -/
theorem bcast8_apply (z : IVec S_ 32) (i : S8.Idx) : broadcastInDim S8 ![] bcast_S_S8 z i = z ValueIdx.ix0 :=
  broadcastInDim_apply _ bcast_S_S8 z i ValueIdx.ix0 (fun a => a.elim0)

/-- Entry e of ((x + 256 − 1) floor-divided by 256) · 256, for an entry x(e) = n at most 8192: n padded up to a
    multiple of 256. -/
theorem pad_at (x : IVec S8 32) (n : Nat) (hn : n ≤ 8192) (e : Fin 8) (hx : x (ix1 e) = BitVec.ofNat 32 n) :
    muli
        (fdivF
          (subi (addi x (broadcastInDim S8 ![] bcast_S_S8 (constantI S_ 32 256#32)))
            (broadcastInDim S8 ![] bcast_S_S8 (constantI S_ 32 1#32)))
          (constantI S_ 32 256#32))
        (broadcastInDim S8 ![] bcast_S_S8 (constantI S_ 32 256#32)) (ix1 e)
      = BitVec.ofNat 32 ((n + 255) / 256 * 256) := by
  generalize hA : subi (addi x (broadcastInDim S8 ![] bcast_S_S8 (constantI S_ 32 256#32)))
      (broadcastInDim S8 ![] bcast_S_S8 (constantI S_ 32 1#32)) = A
  have ha : A (ix1 e) = BitVec.ofNat 32 (n + 255) := by
    rw [← hA]
    show IntOp.subi (IntOp.addi (x (ix1 e)) (broadcastInDim S8 ![] bcast_S_S8 (constantI S_ 32 256#32) (ix1 e)))
      (broadcastInDim S8 ![] bcast_S_S8 (constantI S_ 32 1#32) (ix1 e)) = _
    rw [bcast8_apply, bcast8_apply, hx]
    exact add_256_sub_1 n
  have hd : (A (ix1 e)).toNat = n + 255 := by rw [ha]; exact toNat_ofNat_lt (by omega)
  have hq : fdivF A (constantI S_ 32 256#32) (ix1 e) = BitVec.ofNat 32 ((n + 255) / 256) := by
    show Scalar.select
      (IntOp.andi
        (IntOp.cmpi .ne (signi A (ix1 e)) (broadcastInDim S8 ![] bcast_S_S8 (signi (constantI S_ 32 256#32)) (ix1 e)))
        (IntOp.cmpi .ne (IntOp.remsi .host (A (ix1 e)) (broadcastInDim S8 ![] bcast_S_S8 (constantI S_ 32 256#32) (ix1 e)))
          (broadcastInDim S8 ![] bcast_S_S8 (constantI S_ 32 0#32) (ix1 e))))
      (IntOp.subi (IntOp.divsi .host (A (ix1 e)) (broadcastInDim S8 ![] bcast_S_S8 (constantI S_ 32 256#32) (ix1 e)))
        (broadcastInDim S8 ![] bcast_S_S8 (constantI S_ 32 1#32) (ix1 e)))
      (IntOp.divsi .host (A (ix1 e)) (broadcastInDim S8 ![] bcast_S_S8 (constantI S_ 32 256#32) (ix1 e))) = _
    simp only [bcast8_apply]
    refine (floorDiv_256 (A (ix1 e)) (by rw [hd]; omega) (signi A (ix1 e))
      (signi (constantI S_ 32 256#32) ValueIdx.ix0) rfl (by decide)).trans ?_
    rw [hd]
  show IntOp.muli (fdivF A (constantI S_ 32 256#32) (ix1 e))
    (broadcastInDim S8 ![] bcast_S_S8 (constantI S_ 32 256#32) (ix1 e)) = _
  rw [bcast8_apply, hq]
  exact muli_256 _

/-! ## The host lines, one stretch at a time -/

/-- The counts as the host lines compute them from the contents two stretches earlier: ones added up at the labels
    (a negative label first moved up by 8). -/
def countsExpr : IVec S8 32 :=
  Host.scatter scatter_S8_S8192x1_S8192_n_0_0_1 IntOp.addi (U2 m c (Proc.devRef .tc main_v8))
    (broadcastInDim S8192x1 ![0] bcast_S8192_S8192x1_0
      (select
        (cmpi CmpIPredicate.slt (U2 m c (Proc.devRef .tc main_v9))
          (broadcastInDim S8192 ![] bcast_S_S8192 (constantI S_ 32 0#32)))
        (addi (U2 m c (Proc.devRef .tc main_v9)) (broadcastInDim S8192 ![] bcast_S_S8192 (constantI S_ 32 8#32)))
        (U2 m c (Proc.devRef .tc main_v9))))
    (broadcastInDim S8192 ![] bcast_S_S8192 (constantI S_ 32 1#32))

/-- The padded counts are written by the sixth stretch; the later lines leave them alone. -/
theorem v24_U5 : V m c main_v24 = U5 m c (Proc.devRef .tc main_v24) := by
  rw [V_eq]
  unfold U14; after_results
  unfold U13; after_results
  unfold U12; after_results
  unfold U11; after_results
  unfold U10; after_results
  unfold U9; after_results_simp
  unfold U8; after_results
  unfold U7; after_results
  unfold U6; after_results

/-- The counts are written in the fourth stretch; the later lines leave them alone. -/
theorem v17_U3 : V m c main_v17 = U3 m c (Proc.devRef .tc main_v17) := by
  rw [V_eq]
  unfold U14; after_results
  unfold U13; after_results
  unfold U12; after_results
  unfold U11; after_results
  unfold U10; after_results
  unfold U9; after_results_simp
  unfold U8; after_results
  unfold U7; after_results
  unfold U6; after_results
  unfold U5; after_results
  unfold U4; after_results

/-- The padded counts are the quotients times 256. -/
theorem U5_v24 : U5 m c (Proc.devRef .tc main_v24)
    = muli (U4 m c (Proc.devRef .tc main_v22)) (broadcastInDim S8 ![] bcast_S_S8 (constantI S_ 32 256#32)) := by
  unfold U5; after_results

/-- The quotients are the floor division of the dividend by the scalar the fourth stretch leaves. -/
theorem U4_v22 : U4 m c (Proc.devRef .tc main_v22)
    = fdivF (U3 m c (Proc.devRef .tc main_v21)) (U3 m c (Proc.devRef .tc main_c_8)) := by
  unfold U4; after_results
  generalize U3 m c (Proc.devRef .tc main_v21) = a
  generalize U3 m c (Proc.devRef .tc main_c_8) = s
  rfl

/-- The counts, read off the fourth stretch. -/
theorem U3_v17 : U3 m c (Proc.devRef .tc main_v17) = countsExpr m c := by
  unfold U3 countsExpr; after_results

/-- The dividend is the counts plus 256 minus 1. -/
theorem U3_v21 : U3 m c (Proc.devRef .tc main_v21)
    = subi (addi (countsExpr m c) (broadcastInDim S8 ![] bcast_S_S8 (constantI S_ 32 256#32)))
        (broadcastInDim S8 ![] bcast_S_S8 (constantI S_ 32 1#32)) := by
  unfold U3 countsExpr; after_results

/-- The divisor is the scalar 256. -/
theorem U3_c8 : U3 m c (Proc.devRef .tc main_c_8) = constantI S_ 32 256#32 := by
  unfold U3; after_results

end CountsPad

open CountsPad in
/-- The padded count of expert e as a word: the count padded up to a multiple of 256. -/
theorem v24_at (h17 : ∀ e : Fin 8, V m c main_v17 (ix1 e) = BitVec.ofNat 32 (Cert.Moe.Dispatch.cnt (lsN m c) e.val)) (e : Fin 8) :
    V m c main_v24 (ix1 e) = BitVec.ofNat 32 (Cert.Moe.Dispatch.pc (lsN m c) e.val) := by
  have hx : countsExpr m c (ix1 e) = BitVec.ofNat 32 (Cert.Moe.Dispatch.cnt (lsN m c) e.val) := by
    rw [← U3_v17, ← v17_U3]; exact h17 e
  rw [v24_U5, U5_v24, U4_v22, U3_v21, U3_c8]
  exact pad_at (countsExpr m c) _ (Cert.Moe.Dispatch.cnt_le (lsN m c) e.val) e hx

end Cert.KernelIdeal.Moe

end
-- ==== Proof.CountsTiles.lean ====
/-
  The padded rows before each expert and the tiles up to each expert, as words.  From the padded counts pc e (each
  a multiple of the tile height 256, at most 8447) held as words, the program computes: their running sum and, less
  the count itself, the padded rows of the experts below e (pstart e); the tiles of each expert pc e / 256 by a
  division rounding toward minus infinity (quotient toward zero, less one where the signs differ and the remainder
  is not zero: never taken here, the remainder being zero); and the running sum of the tiles (cumTiles e).  The
  running sums are the windowed sums read in the general file on eight-word vectors; word addition and subtraction
  follow the naturals with no bound needed, the division needs the dividend below 2³¹.
-/
import proofs.«407060_j11527692222992_3_alg».proof.Proof.Iface
import proofs.«407060_j11527692222992_3_alg».proof.Proof.KRead
import proofs.«407060_j11527692222992_3_alg».proof.Proof.LibCumsum8
import Idealize.ShloMosaic.Lib.StableHlo.Predicate

set_option maxRecDepth 16384

noncomputable section

namespace Cert.KernelIdeal.Moe

open Cert.KernelIdeal Cert.KernelIdeal.Gen
open Idealize.ShloMosaic Idealize.ShloMosaic.TcCoe Idealize.ShloMosaic.ValueIdx Idealize.SL.Sem

namespace CountsTiles

/-! ## Words: a small multiple of 256 divided by 256, rounding toward minus infinity -/

section words

/-- A non-negative word divided (signed, toward zero) by 256: the quotient of the values; no corner of the signed
    division is met. -/
theorem divsi_256 (n : Nat) (hn : n < 2 ^ 31) :
    IntOp.divsi .host (BitVec.ofNat 32 n) 256#32 = BitVec.ofNat 32 (n / 256) := by
  have hcorner : ¬ IntOp.SDivCorner (BitVec.ofNat 32 n) 256#32 := by
    intro hc
    rcases hc with hc | ⟨_, hc⟩ <;> exact absurd hc (by decide)
  have hN : (BitVec.ofNat 32 n).toNat = n := by rw [BitVec.toNat_ofNat]; omega
  have hm : (BitVec.ofNat 32 n).msb = false := BitVec.msb_eq_false_iff_two_mul_lt.mpr (by rw [hN]; omega)
  have hd : IntOp.divsi .host (BitVec.ofNat 32 n) 256#32 = BitVec.ofNat 32 n / 256#32 := by
    simp only [IntOp.divsi, if_neg hcorner, BitVec.sdiv_eq, hm, show (256#32 : BitVec 32).msb = false from by decide,
      BitVec.udiv_eq]
  rw [hd]
  apply BitVec.eq_of_toNat_eq
  rw [BitVec.toNat_udiv, hN, show (256#32 : BitVec 32).toNat = 256 from rfl, BitVec.toNat_ofNat]
  omega

/-- The floor division by 256 of a vector of words, at an entry holding a non-negative multiple of 256: the remainder
    is zero, so the correction "less one where the signs differ and the remainder is not zero" is never taken. -/
theorem floordiv256_at (p : IVec ⟨1, ![8]⟩ 32) (e : Fin 8) (n : Nat) (hp : p (ix1 e) = BitVec.ofNat 32 n)
    (hn : n < 2 ^ 31) (hdiv : 256 ∣ n) :
    select
        (andi
          (cmpi .ne (signi p) (broadcastInDim S8 ![] bcast_S_S8 (signi (constantI S_ 32 256#32))))
          (cmpi .ne (Host.remsi p (broadcastInDim S8 ![] bcast_S_S8 (constantI S_ 32 256#32)))
            (broadcastInDim S8 ![] bcast_S_S8 (constantI S_ 32 0#32))))
        (subi (Host.divsi p (broadcastInDim S8 ![] bcast_S_S8 (constantI S_ 32 256#32)))
          (broadcastInDim S8 ![] bcast_S_S8 (constantI S_ 32 1#32)))
        (Host.divsi p (broadcastInDim S8 ![] bcast_S_S8 (constantI S_ 32 256#32))) (ix1 e)
      = BitVec.ofNat 32 (n / 256) := by
  show Scalar.select
      (IntOp.andi _ (IntOp.cmpi .ne (IntOp.remsi .host (p (ix1 e)) 256#32) 0#32))
      (IntOp.subi (IntOp.divsi .host (p (ix1 e)) 256#32) 1#32) (IntOp.divsi .host (p (ix1 e)) 256#32) = _
  rw [hp]
  have hN : (BitVec.ofNat 32 n).toNat = n := by rw [BitVec.toNat_ofNat]; omega
  have hr : IntOp.remsi .host (BitVec.ofNat 32 n) 256#32 = 0#32 :=
    (IntOp.remsi_eq_zero_iff .host (by rw [hN]; omega) 256 (by decide) (by decide)).mpr (by rw [hN]; exact hdiv)
  rw [hr, show IntOp.cmpi .ne (0#32 : BitVec 32) 0#32 = 0#1 from by decide]
  generalize (cmpi .ne (signi p) (broadcastInDim S8 ![] bcast_S_S8 (signi (constantI S_ 32 256#32)))) (ix1 e) = a
  rw [show IntOp.andi a 0#1 = 0#1 from by revert a; decide, select_zero, divsi_256 n hn]

end words

variable (m : (ℓ : Loc nD τ sig) → Buf (Elt Ideal) ℓ) (c : Dev nD)

/-! ## The buffers, each read off the host line that writes it

A buffer is first carried back to the contents after the stretch that writes it (no later line writes it), then read
off that stretch in terms of the contents before it. -/

/-- The padded counts are written before the first running sum and by no later line. -/
theorem v24_U7 : V m c main_v24 = U7 m c (Proc.devRef .tc main_v24) := by
  rw [V_eq]
  unfold U14; after_results
  unfold U13; after_results
  unfold U12; after_results
  unfold U11; after_results
  unfold U10; after_results
  unfold U9; after_results
  unfold U8; after_results
  try simp only [cast_eq]
  all_goals rfl

theorem v24_U8 : U8 m c (Proc.devRef .tc main_v24) = U7 m c (Proc.devRef .tc main_v24) := by
  unfold U8; after_results
  try simp only [cast_eq]
  all_goals rfl

theorem v27_U8 : V m c main_v27 = U8 m c (Proc.devRef .tc main_v27) := by
  rw [V_eq]
  unfold U14; after_results
  unfold U13; after_results
  unfold U12; after_results
  unfold U11; after_results
  unfold U10; after_results
  unfold U9; after_results
  try simp only [cast_eq]
  all_goals rfl

theorem v27_step : U8 m c (Proc.devRef .tc main_v27)
    = Host.reduceWindow IntOp.addi ![8] ![1] ![7] ![0] (U7 m c (Proc.devRef .tc main_v24))
        (broadcastInDim S_ ![] bcast_S_S_ (constantI S_ 32 0#32)) reduceWindows_S8_S8_w8s1p7_0 h_S_ := by
  unfold U8; after_results
  try simp only [cast_eq]
  all_goals rfl

/-- The running sum of the padded counts. -/
theorem v27_read : V m c main_v27
    = Host.reduceWindow IntOp.addi ![8] ![1] ![7] ![0] (V m c main_v24)
        (broadcastInDim S_ ![] bcast_S_S_ (constantI S_ 32 0#32)) reduceWindows_S8_S8_w8s1p7_0 h_S_ := by
  rw [v27_U8, v27_step, ← v24_U7]

theorem v28_step : V m c main_v28
    = subi (U8 m c (Proc.devRef .tc main_v27)) (U8 m c (Proc.devRef .tc main_v24)) := by
  rw [V_eq]
  unfold U14; after_results
  unfold U13; after_results
  unfold U12; after_results
  unfold U11; after_results
  unfold U10; after_results
  unfold U9; after_results
  try simp only [cast_eq]
  all_goals rfl

/-- The running sum less the count itself: the sum of the counts before. -/
theorem v28_read : V m c main_v28 = subi (V m c main_v27) (V m c main_v24) := by
  rw [v28_step, v24_U8, ← v24_U7, ← v27_U8]

set_option maxHeartbeats 1000000 in
theorem v62_step : V m c main_v62
    = select
        (andi
          (cmpi .ne (signi (U8 m c (Proc.devRef .tc main_v24))) (broadcastInDim S8 ![] bcast_S_S8 (signi (constantI S_ 32 256#32))))
          (cmpi .ne (Host.remsi (U8 m c (Proc.devRef .tc main_v24)) (broadcastInDim S8 ![] bcast_S_S8 (constantI S_ 32 256#32)))
            (broadcastInDim S8 ![] bcast_S_S8 (constantI S_ 32 0#32))))
        (subi (Host.divsi (U8 m c (Proc.devRef .tc main_v24)) (broadcastInDim S8 ![] bcast_S_S8 (constantI S_ 32 256#32)))
          (broadcastInDim S8 ![] bcast_S_S8 (constantI S_ 32 1#32)))
        (Host.divsi (U8 m c (Proc.devRef .tc main_v24)) (broadcastInDim S8 ![] bcast_S_S8 (constantI S_ 32 256#32))) := by
  rw [V_eq]
  unfold U14; after_results
  unfold U13; after_results
  unfold U12; after_results
  unfold U11; after_results
  unfold U10; after_results
  unfold U9; after_results
  try simp only [cast_eq]
  all_goals rfl

/-- The padded counts divided by the tile height, rounding toward minus infinity: the quotient toward zero, less one
    where the signs differ and the remainder is not zero. -/
theorem v62_read : V m c main_v62
    = select
        (andi
          (cmpi .ne (signi (V m c main_v24)) (broadcastInDim S8 ![] bcast_S_S8 (signi (constantI S_ 32 256#32))))
          (cmpi .ne (Host.remsi (V m c main_v24) (broadcastInDim S8 ![] bcast_S_S8 (constantI S_ 32 256#32)))
            (broadcastInDim S8 ![] bcast_S_S8 (constantI S_ 32 0#32))))
        (subi (Host.divsi (V m c main_v24) (broadcastInDim S8 ![] bcast_S_S8 (constantI S_ 32 256#32)))
          (broadcastInDim S8 ![] bcast_S_S8 (constantI S_ 32 1#32)))
        (Host.divsi (V m c main_v24) (broadcastInDim S8 ![] bcast_S_S8 (constantI S_ 32 256#32))) := by
  rw [v62_step, v24_U8, ← v24_U7]

theorem v62_U10 : V m c main_v62 = U10 m c (Proc.devRef .tc main_v62) := by
  rw [V_eq]
  unfold U14; after_results
  unfold U13; after_results
  unfold U12; after_results
  unfold U11; after_results
  try simp only [cast_eq]
  all_goals rfl

theorem v63_step : V m c main_v63
    = Host.reduceWindow IntOp.addi ![8] ![1] ![7] ![0] (U10 m c (Proc.devRef .tc main_v62))
        (broadcastInDim S_ ![] bcast_S_S_ (constantI S_ 32 0#32)) reduceWindows_S8_S8_w8s1p7_0 h_S_ := by
  rw [V_eq]
  unfold U14; after_results
  unfold U13; after_results
  unfold U12; after_results
  unfold U11; after_results
  try simp only [cast_eq]
  all_goals rfl

/-- The running sum of the tiles per expert. -/
theorem v63_read : V m c main_v63
    = Host.reduceWindow IntOp.addi ![8] ![1] ![7] ![0] (V m c main_v62)
        (broadcastInDim S_ ![] bcast_S_S_ (constantI S_ 32 0#32)) reduceWindows_S8_S8_w8s1p7_0 h_S_ := by
  rw [v63_step, ← v62_U10]

/-! ## The running sum of the padded counts, and the tiles of each expert, as words -/

open Cert.Moe.Dispatch in
/-- The running sum of the padded counts as words. -/
theorem v27_at (h24 : ∀ e : Fin 8, V m c main_v24 (ix1 e) = BitVec.ofNat 32 (pc (lsN m c) e.val)) (e : Fin 8) :
    V m c main_v27 (ix1 e) = BitVec.ofNat 32 (∑ e' ∈ Finset.range (e.val + 1), pc (lsN m c) e') := by
  rw [v27_read]
  exact Cert.Cumsum8.cumsum8_ofNat (V m c main_v24) (fun e' => pc (lsN m c) e') h24 _ _ _ rfl e

open Cert.Moe.Dispatch in
/-- The tiles of expert e: its padded count, a multiple of 256 below 2³¹, divided by 256. -/
theorem v62_at (h24 : ∀ e : Fin 8, V m c main_v24 (ix1 e) = BitVec.ofNat 32 (pc (lsN m c) e.val)) (e : Fin 8) :
    V m c main_v62 (ix1 e) = BitVec.ofNat 32 (pc (lsN m c) e.val / 256) := by
  rw [v62_read]
  exact floordiv256_at (V m c main_v24) e _ (h24 e) (by have := pc_le (lsN m c) e.val; omega)
    ⟨_, pc_eq_tiles (lsN m c) e.val⟩

end CountsTiles

open CountsTiles

variable (m : (ℓ : Loc nD τ sig) → Buf (Elt Ideal) ℓ) (c : Dev nD)

/-! ## The two vectors of eight words -/

open Cert.Moe.Dispatch in
/-- The padded rows of the experts below e: the running sum up to e less e's own padded count.  Word subtraction
    undoes word addition, so no bound is needed. -/
theorem v28_at (h24 : ∀ e : Fin 8, V m c main_v24 (ix1 e) = BitVec.ofNat 32 (pc (lsN m c) e.val))
    (hls : ∀ j, lsN m c j < 8) (e : Fin 8) :
    V m c main_v28 (ix1 e) = BitVec.ofNat 32 (pstart (lsN m c) e.val) := by
  rw [v28_read]
  show IntOp.subi (V m c main_v27 (ix1 e)) (V m c main_v24 (ix1 e)) = _
  rw [v27_at m c h24 e, h24 e]
  show BitVec.ofNat 32 (pstart (lsN m c) (e.val + 1)) - BitVec.ofNat 32 (pc (lsN m c) e.val) = _
  rw [pstart_succ, BitVec.ofNat_add]
  exact add_sub_cancel_right _ _

open Cert.Moe.Dispatch in
/-- The tiles of the experts up to and including e. -/
theorem v63_at (h24 : ∀ e : Fin 8, V m c main_v24 (ix1 e) = BitVec.ofNat 32 (pc (lsN m c) e.val))
    (hls : ∀ j, lsN m c j < 8) (e : Fin 8) :
    V m c main_v63 (ix1 e) = BitVec.ofNat 32 (cumTiles (lsN m c) e.val) := by
  rw [v63_read]
  exact Cert.Cumsum8.cumsum8_ofNat (V m c main_v62) (fun e' => pc (lsN m c) e' / 256) (v62_at m c h24) _ _ _ rfl e

end Cert.KernelIdeal.Moe

end
-- ==== Proof.DestRead.lean ====
/-
  The destination rows and the tile table, as words.

  The sorted labels ls are below 8 and do not decrease.  The host lines look up, for each sorted position j, the start
  of its label's group (start[ls j]) and the start of the group's padded block (pstart[ls j]) in two tables of eight
  words, and send position j to row pstart[ls j] + (j − start[ls j]) of the padded image; as start[ls j] ≤ j in a
  sorted sequence, the word arithmetic is the natural numbers'.  The tile table compares each tile number t with the
  eight inclusive tile counts, counts the experts whose count is at most t and clips the count to [0, 7].  Both are
  read here off the lines that compute them, down to the three vectors of eight words they start from.
-/
import proofs.«407060_j11527692222992_3_alg».proof.Proof.Iface
import proofs.«407060_j11527692222992_3_alg».proof.Proof.KRead
import proofs.«407060_j11527692222992_3_alg».proof.Proof.LibGatherVec
import Idealize.ShloMosaic.Lib.StableHlo.Predicate

set_option maxRecDepth 16384

noncomputable section

namespace Cert.KernelIdeal.Moe

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (c : Dev nD)

/-! ## Reading the buffers off the stretches that write them -/

macro "down9" : tactic => `(tactic| (unfold U14; after_results; unfold U13; after_results; unfold U12; after_results; unfold U11; after_results; unfold U10; after_results; unfold U9; after_results))
macro "down12" : tactic => `(tactic| (unfold U14; after_results; unfold U13; after_results; unfold U12; after_results))

/-- A vector of label words made non-negative the way array indexing does: `x < 0 ? x + 8 : x`. -/
def wrap8 (x : IVec S8192 32) : IVec S8192 32 :=
  select (cmpi .slt x (broadcastInDim S8192 ![] bcast_S_S8192 (constantI S_ 32 0#32)))
    (addi x (broadcastInDim S8192 ![] bcast_S_S8192 (constantI S_ 32 8#32))) x

/-- `tbl[x]` for a table of eight words and 8192 positions: the positions wrapped, laid as a column, gathered. -/
def take8 (tbl : IVec S8 32) (x : IVec S8192 32) : IVec S8192 32 :=
  Host.gather gather_S8_S8192x1_S8192_n_0_n_n_0_1_1 tbl (broadcastInDim S8192x1 ![0] bcast_S8192_S8192x1_0 (wrap8 x))

set_option maxHeartbeats 4000000 in
/-- The sorted labels are not written again after the stretch that computes them. -/
theorem v7_U8 : V m c main_v7 = U8 m c (Proc.devRef .tc main_v7) := by
  rw [V_eq m c main_v7]
  down9

set_option maxHeartbeats 4000000 in
/-- Nor are the group starts. -/
theorem v26_U8 : V m c main_v26 = U8 m c (Proc.devRef .tc main_v26) := by
  rw [V_eq m c main_v26]
  down9

set_option maxHeartbeats 4000000 in
/-- The padded group starts are the first line of the stretch that computes the destinations. -/
theorem v28_U8 : V m c main_v28 = subi (U8 m c (Proc.devRef .tc main_v27)) (U8 m c (Proc.devRef .tc main_v24)) := by
  rw [V_eq m c main_v28]
  down9

set_option maxHeartbeats 4000000 in
/-- The destinations: `pstart[ls] + (iota − start[ls])`. -/
theorem v45_read : V m c main_v45
    = addi (take8 (V m c main_v28) (V m c main_v7))
        (subi (iotaInDim S8192 32 0) (take8 (V m c main_v26) (V m c main_v7))) := by
  rw [v28_U8, v26_U8, v7_U8, V_eq m c main_v45]
  down9
  rfl

set_option maxHeartbeats 4000000 in
/-- The inclusive tile counts are not written again after the stretch that computes them. -/
theorem v63_U11 : V m c main_v63 = U11 m c (Proc.devRef .tc main_v63) := by
  rw [V_eq m c main_v63]
  down12

set_option maxHeartbeats 4000000 in
/-- The tile table: the number of experts whose inclusive tile count is at most the tile's number, clipped to [0, 7]. -/
theorem v72_read : V m c main_v72
    = minsi (broadcastInDim S40 ![] bcast_S_S40 (constantI S_ 32 7#32))
        (maxsi (broadcastInDim S40 ![] bcast_S_S40 (constantI S_ 32 0#32))
          (Host.reduce IntOp.addi
            (extui 32
              (cmpi .sge
                (broadcastInDim S40x8 ![0, 1] bcast_S40x1_S40x8_0_1 (broadcastInDim S40x1 ![0] bcast_S40_S40x1_0 (iotaInDim S40 32 0)))
                (broadcastInDim S40x8 ![0, 1] bcast_S1x8_S40x8_0_1 (broadcastInDim S1x8 ![1] bcast_S8_S1x8_1 (V m c main_v63))))
              natLt_1_32)
            (constantI S_ 32 0#32) reducesTo_S40x8_S40_d1 h_S_)) := by
  rw [v63_U11, V_eq m c main_v72]
  down12
  rfl

/-! ## Words -/

section Words

open Idealize.ShloMosaic.StableHlo

/-- A small non-negative word is not below zero, so the wrap leaves it alone. -/
theorem wrap_small (w : BitVec 32) (h : w.toNat < 8) :
    Scalar.select (IntOp.cmpi .slt w 0#32) (IntOp.addi w 8#32) w = w := by
  have hne : ¬ IntOp.cmpi .slt w 0#32 = 1#1 := by
    rw [Predicate.slt_iff_toNat (by omega) (by decide)]
    simp
  rw [eq_zero_of_ne_one hne]
  exact select_zero _ _

/-- A word below 8 read signed and clamped into [0, 7] is its value. -/
theorem clamp8_small (w : BitVec 32) (h : w.toNat < 8) : min w.toInt.toNat (8 - 1) = w.toNat := by
  rw [Predicate.toInt_eq_toNat_of_lt (by omega), Int.toNat_natCast]
  exact Nat.min_eq_left (by omega)

/-- `a + (b − c)` on words is the natural number's when `c ≤ b`. -/
theorem add_sub_ofNat (a b c : Nat) (h : c ≤ b) :
    IntOp.addi (BitVec.ofNat 32 a) (IntOp.subi (BitVec.ofNat 32 b) (BitVec.ofNat 32 c)) = BitVec.ofNat 32 (a + (b - c)) := by
  unfold IntOp.addi IntOp.subi
  apply BitVec.eq_of_toNat_eq
  simp only [BitVec.toNat_add, BitVec.toNat_sub, BitVec.toNat_ofNat]
  omega

/-- The clip to [0, 7] of a non-negative word is the smaller of 7 and its value. -/
theorem clip7 (w : BitVec 32) (h : w.toNat < 2 ^ 31) :
    IntOp.minsi 7#32 (IntOp.maxsi 0#32 w) = BitVec.ofNat 32 (min 7 w.toNat) := by
  have hti : w.toInt = w.toNat := Predicate.toInt_eq_toNat_of_lt h
  have h0 : (0#32 : BitVec 32).toInt = 0 := by decide
  have h7 : (7#32 : BitVec 32).toInt = 7 := by decide
  have hmax : IntOp.maxsi 0#32 w = w := by
    unfold IntOp.maxsi
    rw [if_neg]
    simp only [BitVec.slt, hti, h0, decide_eq_true_eq]
    omega
  rw [hmax]
  unfold IntOp.minsi
  by_cases hc : (7#32 : BitVec 32).slt w = true
  · rw [if_pos hc]
    simp only [BitVec.slt, hti, h7, decide_eq_true_eq] at hc
    have e : min 7 w.toNat = 7 := Nat.min_eq_left (by omega)
    rw [e]
  · rw [if_neg hc]
    simp only [BitVec.slt, hti, h7, decide_eq_true_eq] at hc
    have e : min 7 w.toNat = w.toNat := Nat.min_eq_right (by omega)
    rw [e]
    apply BitVec.eq_of_toNat_eq
    rw [BitVec.toNat_ofNat]
    exact (Nat.mod_eq_of_lt w.isLt).symm

/-- Counting over `Fin n` and over `range n` agree. -/
theorem card_fin_eq_range (n : Nat) (p : Nat → Prop) [DecidablePred p] :
    (Finset.univ.filter (fun q : Fin n => p q.val)).card = ((Finset.range n).filter p).card := by
  rw [Finset.card_filter, Finset.card_filter]
  exact Fin.sum_univ_eq_sum_range (fun i => if p i then 1 else 0) n

end Words

/-! ## Indices -/

section Indices

open Idealize.ShloMosaic.StableHlo

theorem ofFin_eq_ix1 {n : Nat} (k : Fin n) : Shape.Idx.ofFin k = ix1 k := (Shape.Idx.eq_ofFin (ix1 k)).symm

/-- A vector kept as an [n × 1] column reads, at (p, 0), the vector at p. -/
theorem bcast_col_ix {α : Type} {n : Nat} (h₁ : (⟨1, ![n]⟩ : Shape).BroadcastsInDim ⟨2, ![n, 1]⟩ ![0])
    (v : (⟨1, ![n]⟩ : Shape).Idx → α) (p : Fin n) :
    broadcastInDim ⟨2, ![n, 1]⟩ ![0] h₁ v (ix2 p (0 : Fin 1)) = v (ix1 p) := by
  have e : ix2 p (0 : Fin 1) = Predicate.ixP p := by
    funext a
    match a with
    | ⟨0, _⟩ => rfl
    | ⟨1, _⟩ => rfl
  rw [e, Predicate.bcast_col1, ofFin_eq_ix1]

end Indices

/-! ## The destinations -/

section Dest

open Idealize.ShloMosaic.StableHlo Cert.Moe

/-- The wrapped vector at a position whose word is below 8 is that word. -/
theorem wrap8_apply (x : IVec S8192 32) (j : Fin 8192) (h : (x (ix1 j)).toNat < 8) : wrap8 x (ix1 j) = x (ix1 j) :=
  wrap_small _ h

/-- The table lookup at a position whose word is below 8 reads the table at that word. -/
theorem take8_apply (tbl : IVec S8 32) (x : IVec S8192 32) (j : Fin 8192) (h : (x (ix1 j)).toNat < 8) :
    take8 tbl x (ix1 j) = tbl (ix1 ⟨(x (ix1 j)).toNat, h⟩) := by
  unfold take8
  rw [Cert.GatherVec.gather_vec (by decide) _ rfl rfl rfl rfl rfl]
  refine congrArg (fun e : Fin 8 => tbl (ix1 e)) (Fin.ext ?_)
  show min (broadcastInDim S8192x1 ![0] bcast_S8192_S8192x1_0 (wrap8 x) (ix2 j (0 : Fin 1))).toInt.toNat (8 - 1) = (x (ix1 j)).toNat
  rw [bcast_col_ix, wrap8_apply x j h]
  exact clamp8_small _ h

/-- The destination of the j-th sorted row, as a word. -/
theorem v45_val (C : CountsI m c) (hls : ∀ j : Fin 8192, lsN m c j < 8)
    (hmono : ∀ i j : Fin 8192, i ≤ j → lsN m c i ≤ lsN m c j) (j : Fin 8192) :
    V m c main_v45 (ix1 j) = BitVec.ofNat 32 (Dispatch.destN (lsN m c) j) := by
  have hj : (V m c main_v7 (ix1 j)).toNat < 8 := hls j
  rw [v45_read]
  show IntOp.addi (take8 (V m c main_v28) (V m c main_v7) (ix1 j))
      (IntOp.subi (BitVec.ofNat 32 j.val) (take8 (V m c main_v26) (V m c main_v7) (ix1 j))) = _
  rw [take8_apply _ _ j hj, take8_apply _ _ j hj, C.v28_eq, C.v26_eq]
  exact add_sub_ofNat _ _ _ (Dispatch.startOf_le (lsN m c) hmono j)

end Dest

/-! ## The tile table -/

section Tiles

open Idealize.ShloMosaic.StableHlo Cert.Moe

/-- The comparison mask of the tile table: tile t against expert q's inclusive tile count. -/
def tileMask : IVec S40x8 1 :=
  cmpi .sge
    (broadcastInDim S40x8 ![0, 1] bcast_S40x1_S40x8_0_1 (broadcastInDim S40x1 ![0] bcast_S40_S40x1_0 (iotaInDim S40 32 0)))
    (broadcastInDim S40x8 ![0, 1] bcast_S1x8_S40x8_0_1 (broadcastInDim S1x8 ![1] bcast_S8_S1x8_1 (V m c main_v63)))

/-- The mask's bit at (t, q) is set exactly when expert q's inclusive tile count is at most t. -/
theorem tileMask_iff (C : CountsI m c) (hls : ∀ j : Fin 8192, lsN m c j < 8) (t : Fin 40) (q : Fin 8) :
    tileMask m c (Predicate.ij t q) = 1#1 ↔ Dispatch.cumTiles (lsN m c) q.val ≤ t.val := by
  have hb := Dispatch.cumTiles_le (lsN m c) hls q.val q.isLt
  have ht := t.isLt
  show IntOp.cmpi .sge
      (broadcastInDim S40x8 ![0, 1] bcast_S40x1_S40x8_0_1 (broadcastInDim S40x1 ![0] bcast_S40_S40x1_0 (iotaInDim S40 32 0)) (Predicate.ij t q))
      (broadcastInDim S40x8 ![0, 1] bcast_S1x8_S40x8_0_1 (broadcastInDim S1x8 ![1] bcast_S8_S1x8_1 (V m c main_v63)) (Predicate.ij t q)) = 1#1 ↔ _
  rw [Predicate.bcast_rows, Predicate.bcast_cols, Predicate.iota_apply, ofFin_eq_ix1, C.v63_eq,
    Predicate.sge_iff_toNat (by rw [BitVec.toNat_ofNat]; omega) (by rw [BitVec.toNat_ofNat]; omega),
    BitVec.toNat_ofNat, BitVec.toNat_ofNat, Nat.mod_eq_of_lt (by omega), Nat.mod_eq_of_lt (by omega)]

/-- The expert of tile t, as a word. -/
theorem v72_val (C : CountsI m c) (hls : ∀ j : Fin 8192, lsN m c j < 8) (t : Fin 40) :
    V m c main_v72 (ix1 t) = BitVec.ofNat 32 (Dispatch.teN (lsN m c) t.val) := by
  rw [v72_read]
  show IntOp.minsi 7#32 (IntOp.maxsi 0#32
      (Host.reduce IntOp.addi (extui 32 (tileMask m c) natLt_1_32) (constantI S_ 32 0#32) reducesTo_S40x8_S40_d1 h_S_ (ix1 t))) = _
  have hcnt : (Host.reduce IntOp.addi (extui 32 (tileMask m c) natLt_1_32) (constantI S_ 32 0#32) reducesTo_S40x8_S40_d1 h_S_ (ix1 t)).toNat
      = ((Finset.range 8).filter (fun e => Dispatch.cumTiles (lsN m c) e ≤ t.val)).card := by
    rw [Predicate.toNat_reduce_count_cols (by decide) (tileMask m c) natLt_1_32 reducesTo_S40x8_S40_d1 h_S_ (ix1 t),
      ← card_fin_eq_range 8 (fun e => Dispatch.cumTiles (lsN m c) e ≤ t.val)]
    refine congrArg Finset.card (Finset.filter_congr fun q _ => ?_)
    exact tileMask_iff m c C hls t q
  have hle : ((Finset.range 8).filter (fun e => Dispatch.cumTiles (lsN m c) e ≤ t.val)).card ≤ 8 :=
    (Finset.card_filter_le _ _).trans (by rw [Finset.card_range])
  rw [clip7 _ (by rw [hcnt]; omega), hcnt]
  rfl

end Tiles

/-- The destinations and the tile table, from the three vectors of eight words. -/
theorem destI (C : CountsI m c) (hls : ∀ j : Fin 8192, lsN m c j < 8)
    (hmono : ∀ i j : Fin 8192, i ≤ j → lsN m c i ≤ lsN m c j) : DestI m c :=
  ⟨v45_val m c C hls hmono, v72_val m c C hls⟩

end Cert.KernelIdeal.Moe

end
-- ==== Proof.LibPlainDot.lean ====
/-
  A plain matrix product read at an index.

  For the dimension numbers of an M × K by K × N product (contract the left operand's columns with the right
  operand's rows, no batch axis), the sum over the contraction index that a matmul or a dot_general denotes at the
  ideal values is the familiar one: at row p and column q, the sum over k of l (p, k) · r (k, q). General in M, K, N;
  a program's own record of these dimension numbers is this one up to its proof field.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

theorem contr_rank : (DotDims.plain M K N).contr.rank = 1 := rfl
theorem contr_size : (DotDims.plain M K N).contr.size ⟨0, by rw [contr_rank]; exact Nat.one_pos⟩ = K := rfl

/-- The contraction index of a plain product is its one coordinate, a column of the left operand. -/
abbrev kEquiv : (DotDims.plain M K N).contr.Idx ≃ Fin K := contrEquiv1 (DotDims.plain M K N) K (contr_rank M K N) (contr_size M K N)

/-- The left operand is read at (row of the result, k). -/
theorem lhsIdx_eq (j : (⟨2, ![M, N]⟩ : Shape).Idx) (k : Fin K) :
    (DotDims.plain M K N).lhsIdx j ((kEquiv M K N).symm k) = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand is read at (k, column of the result). -/
theorem rhsIdx_eq (j : (⟨2, ![M, N]⟩ : Shape).Idx) (k : Fin K) :
    (DotDims.plain M K N).rhsIdx j ((kEquiv M K N).symm k) = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The contraction sum of a plain product, over the column index. -/
theorem sum_eq (l : (⟨2, ![M, K]⟩ : Shape).Idx → EReal) (r : (⟨2, ![K, N]⟩ : Shape).Idx → EReal) (j : (⟨2, ![M, N]⟩ : Shape).Idx) :
    (∑ kk : (DotDims.plain M K N).contr.Idx, l ((DotDims.plain M K N).lhsIdx j kk) * r ((DotDims.plain M K N).rhsIdx j kk))
      = ∑ k : Fin K, l (ix2 (j 0) k) * r (ix2 k (j 1)) := by
  rw [← Equiv.sum_comp (kEquiv M K N).symm]
  exact Finset.sum_congr rfl fun k _ =>
    congrArg₂ (· * ·) (congrArg l (lhsIdx_eq M K N j k)) (congrArg r (rhsIdx_eq M K N j k))

variable {φ₁ φ₂ : FTy}

/-- A kernel's matmul into the zero accumulator, at (p, q). -/
theorem matmul_zero_apply (prec : Option ContractPrecision) (l : FVec Ideal ⟨2, ![M, K]⟩ φ₁) (r : FVec Ideal ⟨2, ![K, N]⟩ φ₂)
    (p : Fin M) (q : Fin N) :
    matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (sum_eq M K N l r (ix2 p q))

/-- The host's dot_general, at (p, q). -/
theorem dotGeneral_apply (prec : Option ContractPrecision) (l : FVec Ideal ⟨2, ![M, K]⟩ φ₁) (r : FVec Ideal ⟨2, ![K, N]⟩ φ₂)
    (p : Fin M) (q : Fin N) :
    Host.dotGeneral (DotDims.plain M K N) prec l r (ix2 p q) = ∑ k : Fin K, l (ix2 p k) * r (ix2 k q) :=
  (Ideal.dotGeneral_apply (DotDims.plain M K N) prec _ l r (ix2 p q)).trans (sum_eq M K N l r (ix2 p q))

end Idealize.ShloMosaic.PlainDot

end
-- ==== Proof.RegionBody.lean ====
/-
  What one run of the kernel body computes.

  The body loads its five input blocks whole — 256 rows of the padded image, one expert's encoder matrix (as
  3072 × 512) and encoder bias, the same expert's decoder matrix (as 512 × 3072) and decoder bias — and stores one
  value over the whole result block: relu(x · We + be) · Wd + bd.  Read at row p and column q of the block, with the
  two matrix products opened as sums over the contraction index and the format changes the identity on extended
  reals, that value is row p of the image block through the expert's encoder and decoder (Cert.Moe.decRow).  The
  first part is that arithmetic; the second reads the result's staging buffer after the body: its one store covers
  the block, so the buffer holds the stored value.
-/
import proofs.«407060_j11527692222992_3_alg».proof.Proof.Iface
import proofs.«407060_j11527692222992_3_alg».proof.Proof.LibPlainDot
import Idealize.ShloMosaic.Lib.ValueLayout
import Idealize.ShloMosaic.Lib.Pipeline.Value
import Idealize.ShloMosaic.Lib.Tactic

set_option maxRecDepth 16384

noncomputable section

namespace Cert.KernelIdeal.Moe

open Cert.KernelIdeal Cert.KernelIdeal.Gen
open Idealize.ShloMosaic Idealize.ShloMosaic.TcCoe Idealize.ShloMosaic.ValueIdx Idealize.SL.Sem Idealize.ShloMosaic.Tactic

/-! ## The arithmetic at an index -/

/-- The dimension numbers of the two products are those of a plain M × K by K × N product. -/
theorem dot1_eq : dot_S256x3072_S3072x512_S256x512_1_0_0_1_n_n = DotDims.plain 256 3072 512 := rfl
theorem dot2_eq : dot_S256x512_S512x3072_S256x3072_1_0_0_1_n_n = DotDims.plain 256 512 3072 := rfl

/-- The code of row p at entry k: max((Σ_j x(p, j) · We(0, j, k)) + be(0, 0, k), 0). -/
theorem code_apply (x0 : FVec Ideal S256x3072 .bf16) (x1 : FVec Ideal S1x3072x512 .bf16) (x2 : FVec Ideal S1x1x512 .f32)
    (p : Fin 256) (k : Fin 512) :
    (truncf (F := Ideal) .bf16
      (maximumf
        (addf
          (matmul dot_S256x3072_S3072x512_S256x512_1_0_0_1_n_n none
            (shapeCast S256x3072 x0 shapeCasts_S256x3072_S256x3072 : FVec Ideal S256x3072 .bf16)
            (shapeCast S3072x512 x1 shapeCasts_S1x3072x512_S3072x512 : FVec Ideal S3072x512 .bf16)
            (constant S256x512 .f32 0x00000000#32))
          (broadcastTo S256x512 (shapeCast S1x512 x2 shapeCasts_S1x1x512_S1x512 : FVec Ideal S1x512 .f32)
            broadcasts_S1x512_S256x512 : FVec Ideal S256x512 .f32))
        (broadcast S256x512 (Scalar.ofBits (F := Ideal) .f32 0x00000000#32)))
      bitsLt_bf16_f32 : FVec Ideal S256x512 .bf16) (ix2 p k)
      = max ((∑ j : Fin 3072, x0 (ix2 p j) * x1 (ix3 0 j k)) + x2 (ix3 0 0 k)) 0 := by
  rw [truncf_apply, maximumf_apply, addf_apply, dot1_eq]
  refine congrArg₂ max (congrArg₂ (· + ·) ?_ ?_) ?_
  · refine (PlainDot.matmul_zero_apply 256 3072 512 none _ _ p k).trans ?_
    refine Finset.sum_congr rfl fun j _ => ?_
    rw [shapeCast_self, shapeCast_1ab_ab_apply]
  · rw [broadcastTo_1b_ab_apply, shapeCast_1ab_ab_apply]
  · exact Ideal.ofBits_zero_f32

/-- THE BODY'S VALUE at row p and column q of its block: row p of the image block through the encoder and the
    decoder whose blocks the body was handed. -/
theorem body_apply (x0 : Vec Ideal S256x3072 .bf16) (x1 : Vec Ideal S1x3072x512 .bf16) (x2 : Vec Ideal S1x1x512 .f32)
    (x3 : Vec Ideal S1x512x3072 .bf16) (x4 : Vec Ideal S1x1x3072 .f32) (p : Fin 256) (q : Fin 3072) :
    k0_pay1 (F := Ideal) x0 x1 x2 x3 x4 (ix2 p q)
      = Cert.Moe.decRow (fun j => x0 (ix2 p j)) (fun k j => x1 (ix3 0 j k)) (fun k => x2 (ix3 0 0 k))
          (fun q' k => x3 (ix3 0 k q')) (fun q' => x4 (ix3 0 0 q')) q := by
  unfold k0_pay1 Cert.Moe.decRow
  dsimp only
  refine (addf_apply _ _ _).trans ?_
  refine congrArg₂ (· + ·) ?_ ?_
  · refine (congrFun (congrArg (fun d => matmul d none _ _ _) dot2_eq) (ix2 p q)).trans ?_
    refine (PlainDot.matmul_zero_apply 256 512 3072 none _ _ p q).trans ?_
    refine Finset.sum_congr rfl fun k _ => ?_
    refine congrArg₂ (· * ·) (code_apply x0 x1 x2 p k) ?_
    exact shapeCast_1ab_ab_apply x3 _ k q
  · refine (broadcastTo_1b_ab_apply _ _ p q).trans ?_
    exact shapeCast_1ab_ab_apply x4 _ 0 q

/-- A decoded row depends on its row, matrices and biases entry by entry. -/
theorem decRow_congr {x x' : Fin 3072 → EReal} {We We' : Fin 512 → Fin 3072 → EReal} {be be' : Fin 512 → EReal}
    {Wd Wd' : Fin 3072 → Fin 512 → EReal} {bd bd' : Fin 3072 → EReal}
    (hx : ∀ j, x j = x' j) (hWe : ∀ k j, We k j = We' k j) (hbe : ∀ k, be k = be' k)
    (hWd : ∀ q k, Wd q k = Wd' q k) (hbd : ∀ q, bd q = bd' q) (q : Fin 3072) :
    Cert.Moe.decRow x We be Wd bd q = Cert.Moe.decRow x' We' be' Wd' bd' q := by
  obtain rfl : x = x' := funext hx
  obtain rfl : We = We' := funext fun k => funext (hWe k)
  obtain rfl : be = be' := funext hbe
  obtain rfl : Wd = Wd' := funext fun q => funext (hWd q)
  obtain rfl : bd = bd' := funext hbd
  rfl

/-! ## The result's staging buffer after the body -/

section Found
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the result's staging buffer: the payload of its one store, which covers the block, at the
    five input blocks it loaded whole. -/
theorem out_A (c : Dev nD) (i : grid0.Coords) (arg2 : Memref sig .tc .vmem S256x3072 .bf16) (harg2 : arg2.IsWhole)
    (arg3 : Memref sig .tc .vmem S1x3072x512 .bf16) (harg3 : arg3.IsWhole)
    (arg4 : Memref sig .tc .vmem S1x1x512 .f32) (harg4 : arg4.IsWhole)
    (arg5 : Memref sig .tc .vmem S1x512x3072 .bf16) (harg5 : arg5.IsWhole)
    (arg6 : Memref sig .tc .vmem S1x1x3072 .f32) (harg6 : arg6.IsWhole)
    (arg7 : Memref sig .tc .vmem S256x3072 .f32) (harg7 : arg7.IsWhole)
    (x0 : Vec F S256x3072 .bf16) (x1 : Vec F S1x3072x512 .bf16) (x2 : Vec F S1x1x512 .f32)
    (x3 : Vec F S1x512x3072 .bf16) (x4 : Vec F S1x1x3072 .f32) (xt0 : TbBuf0 (F := F) c tbM0_0) :
    out0_A_5 c i arg2 harg2 arg3 harg3 arg4 harg4 arg5 harg5 arg6 harg6 arg7 harg7 x0 x1 x2 x3 x4 xt0
      = k0_pay1 x0 x1 x2 x3 x4 := by
  unfold out0_A_5
  rw [View.read_writes_eq_canon _ _ _
    (cover0_A_5 c i arg2 harg2 arg3 harg3 arg4 harg4 arg5 harg5 arg6 harg6 arg7 harg7 x0 x1 x2 x3 x4 xt0)]
  unfold kernelRun0_A
  dsimp only
  sl_unfold_words
  rw [View.canon_unit_zero hz2]
  simp only [View.readAt_eq_ld, harg2.read_unread, harg3.read_unread, harg4.read_unread, harg5.read_unread,
    harg6.read_unread, View.ld_unit_zero (S := S256x3072) hz2, View.ld_unit_zero (S := S1x3072x512) hz3,
    View.ld_unit_zero (S := S1x1x512) hz3, View.ld_unit_zero (S := S1x512x3072) hz3,
    View.ld_unit_zero (S := S1x1x3072) hz3]

end Found

end Cert.KernelIdeal.Moe

end
-- ==== Proof.RegionBlocks.lean ====
/-
  Where the blocks of the six windows sit in their arrays.

  The grid has one axis of 40 points, one per tile of 256 rows.  At point t the image window and the result window
  are at block index (t, 0): rows 256 t … 256 t + 255 of the padded arrays.  The four weight windows are at block
  index (w, 0, 0), w the word the prefetched table holds at entry t — the expert of tile t —, so their blocks are
  that expert's slice of the stacked matrices and biases.  Each fact is proved for ANY admissible contents of the
  table, a variable, and used later at the contents the launch memory holds; the pipeline's side condition on the
  contents says every such w is below 8.  Last, every row of the result lies in the block of its tile, which is
  written back.
-/
import proofs.«407060_j11527692222992_3_alg».proof.Proof.Iface
import Idealize.ShloMosaic.Lib.Pipeline.Value

set_option maxRecDepth 16384

noncomputable section

namespace Cert.KernelIdeal.Moe

open Cert.KernelIdeal Cert.KernelIdeal.Gen
open Idealize.ShloMosaic Idealize.ShloMosaic.TcCoe Idealize.ShloMosaic.ValueIdx Idealize.SL.Sem

section Blocks
variable {F : FTy → Type} [FloatOps F]

/-- The coordinate of point t, as the index maps read it (a 32-bit word, cast to an index), is t. -/
theorem coord_val : ∀ t : Fin grid0.N, (Scalar.indexCast (BitVec.ofNat 32 (grid0.coords t 0).val)).toNat = t.val := by
  decide +kernel

theorem N_eq : grid0.N = 40 := by decide

/-- Entry t of the prefetched table (the expert of tile t), as a word. -/
def tw (pf : pre0.Contents (Elt F)) (t' : Fin 40) : BitVec 32 := pf 0 (ix1 t')

/-- The image block at point t is rows 256 t … 256 t + 255 of the padded image. -/
theorem read0 (a : (pcfg0 (F := F)).Adm) (t : Fin (cfg0 a).N) (c : Dev nD)
    (X : Buf (Elt F) ((c : Thread nD τ).loc main_v61)) (p : Fin 256) (j : Fin 3072) (r : Fin 10240)
    (hr : r.val = 256 * t.val + p.val) :
    (((cfg0 a).win 0).blk t).view.read (Elt F) X (ix2 p j) = X (ix2 r j) := by
  refine (View.read_apply (v := (((cfg0 a).win 0).blk t).view) X (ix2 p j)).trans ?_
  show X _ = X _
  refine congrArg X (funext fun ax => Fin.ext ?_)
  match ax with
  | ⟨0, _⟩ =>
    show (Scalar.indexCast (BitVec.ofNat 32 (grid0.coords t 0).val)).toNat * 256 + 1 * p.val = r.val
    rw [coord_val t, hr]; omega
  | ⟨1, _⟩ =>
    show 0 * 3072 + 1 * j.val = j.val
    omega

/-- The result's block at point t is rows 256 t … 256 t + 255 of the result array. -/
theorem read5 (a : (pcfg0 (F := F)).Adm) (t : Fin (cfg0 a).N) (c : Dev nD)
    (X : Buf (Elt F) ((c : Thread nD τ).loc main_v79)) (p : Fin 256) (q : Fin 3072) (r : Fin 10240)
    (hr : r.val = 256 * t.val + p.val) :
    (((cfg0 a).win 5).blk t).view.read (Elt F) X (ix2 p q) = X (ix2 r q) := by
  refine (View.read_apply (v := (((cfg0 a).win 5).blk t).view) X (ix2 p q)).trans ?_
  show X _ = X _
  refine congrArg X (funext fun ax => Fin.ext ?_)
  match ax with
  | ⟨0, _⟩ =>
    show (Scalar.indexCast (BitVec.ofNat 32 (grid0.coords t 0).val)).toNat * 256 + 1 * p.val = r.val
    rw [coord_val t, hr]; omega
  | ⟨1, _⟩ =>
    show 0 * 3072 + 1 * q.val = q.val
    omega

/-- The table word an index map loads at point t is entry t of the table. -/
theorem tbl_at (pf : pre0.Contents (Elt F)) (t : Fin grid0.N) (t' : Fin 40) (ht : t'.val = t.val) :
    pf.at 0 (Rect.unit (s := S40) ![(Scalar.indexCast (BitVec.ofNat 32 (grid0.coords t 0).val)).toNat] S1.size
      (k0_off1_inb (grid0.coords t))) numel1_S1 = tw pf t' := by
  show pf 0 _ = pf 0 _
  refine congrArg (pf 0) (funext fun ax => Fin.ext ?_)
  match ax with
  | ⟨0, _⟩ =>
    show (Scalar.indexCast (BitVec.ofNat 32 (grid0.coords t 0).val)).toNat + 1 * 0 = t'.val
    rw [coord_val t, ht]; omega

/-- The encoder-matrix block at point t is the slice of the stacked (transposed) encoder matrices at the expert the table names for tile t. -/
theorem read1 (a : (pcfg0 (F := F)).Adm) (t : Fin (cfg0 a).N) (c : Dev nD)
    (X : Buf (Elt F) ((c : Thread nD τ).loc main_v74)) (t' : Fin 40) (ht : t'.val = t.val) (e : Fin 8)
    (he : (tw a.1 t').toNat = e.val) (j : Fin 3072) (k : Fin 512) :
    (((cfg0 a).win 1).blk t).view.read (Elt F) X (ix3 (0 : Fin 1) j k) = X (ix3 e j k) := by
  refine (View.read_apply (v := (((cfg0 a).win 1).blk t).view) X (ix3 (0 : Fin 1) j k)).trans ?_
  show X _ = X _
  refine congrArg X (funext fun ax => Fin.ext ?_)
  match ax with
  | ⟨0, _⟩ =>
    show (a.1.at 0 (Rect.unit (s := S40) ![(Scalar.indexCast (BitVec.ofNat 32 (grid0.coords t 0).val)).toNat] S1.size
      (k0_off1_inb (grid0.coords t))) numel1_S1 : BitVec 32).toNat * 1 + 1 * 0 = e.val
    rw [tbl_at a.1 t t' ht, he]; omega
  | ⟨1, _⟩ => show 0 * 3072 + 1 * j.val = j.val; omega
  | ⟨2, _⟩ => show 0 * 512 + 1 * k.val = k.val; omega

/-- The encoder-bias block at point t is that expert's bias. -/
theorem read2 (a : (pcfg0 (F := F)).Adm) (t : Fin (cfg0 a).N) (c : Dev nD)
    (X : Buf (Elt F) ((c : Thread nD τ).loc main_v77)) (t' : Fin 40) (ht : t'.val = t.val) (e : Fin 8)
    (he : (tw a.1 t').toNat = e.val) (k : Fin 512) :
    (((cfg0 a).win 2).blk t).view.read (Elt F) X (ix3 (0 : Fin 1) (0 : Fin 1) k) = X (ix3 e (0 : Fin 1) k) := by
  refine (View.read_apply (v := (((cfg0 a).win 2).blk t).view) X (ix3 (0 : Fin 1) (0 : Fin 1) k)).trans ?_
  show X _ = X _
  refine congrArg X (funext fun ax => Fin.ext ?_)
  match ax with
  | ⟨0, _⟩ =>
    show (a.1.at 0 (Rect.unit (s := S40) ![(Scalar.indexCast (BitVec.ofNat 32 (grid0.coords t 0).val)).toNat] S1.size
      (k0_off1_inb (grid0.coords t))) numel1_S1 : BitVec 32).toNat * 1 + 1 * 0 = e.val
    rw [tbl_at a.1 t t' ht, he]; omega
  | ⟨1, _⟩ => show 0 * 1 + 1 * 0 = 0; omega
  | ⟨2, _⟩ => show 0 * 512 + 1 * k.val = k.val; omega

/-- The decoder-matrix block at point t is that expert's slice of the stacked (transposed) decoder matrices. -/
theorem read3 (a : (pcfg0 (F := F)).Adm) (t : Fin (cfg0 a).N) (c : Dev nD)
    (X : Buf (Elt F) ((c : Thread nD τ).loc main_v76)) (t' : Fin 40) (ht : t'.val = t.val) (e : Fin 8)
    (he : (tw a.1 t').toNat = e.val) (k : Fin 512) (q : Fin 3072) :
    (((cfg0 a).win 3).blk t).view.read (Elt F) X (ix3 (0 : Fin 1) k q) = X (ix3 e k q) := by
  refine (View.read_apply (v := (((cfg0 a).win 3).blk t).view) X (ix3 (0 : Fin 1) k q)).trans ?_
  show X _ = X _
  refine congrArg X (funext fun ax => Fin.ext ?_)
  match ax with
  | ⟨0, _⟩ =>
    show (a.1.at 0 (Rect.unit (s := S40) ![(Scalar.indexCast (BitVec.ofNat 32 (grid0.coords t 0).val)).toNat] S1.size
      (k0_off1_inb (grid0.coords t))) numel1_S1 : BitVec 32).toNat * 1 + 1 * 0 = e.val
    rw [tbl_at a.1 t t' ht, he]; omega
  | ⟨1, _⟩ => show 0 * 512 + 1 * k.val = k.val; omega
  | ⟨2, _⟩ => show 0 * 3072 + 1 * q.val = q.val; omega

/-- The decoder-bias block at point t is that expert's bias. -/
theorem read4 (a : (pcfg0 (F := F)).Adm) (t : Fin (cfg0 a).N) (c : Dev nD)
    (X : Buf (Elt F) ((c : Thread nD τ).loc main_v78)) (t' : Fin 40) (ht : t'.val = t.val) (e : Fin 8)
    (he : (tw a.1 t').toNat = e.val) (q : Fin 3072) :
    (((cfg0 a).win 4).blk t).view.read (Elt F) X (ix3 (0 : Fin 1) (0 : Fin 1) q) = X (ix3 e (0 : Fin 1) q) := by
  refine (View.read_apply (v := (((cfg0 a).win 4).blk t).view) X (ix3 (0 : Fin 1) (0 : Fin 1) q)).trans ?_
  show X _ = X _
  refine congrArg X (funext fun ax => Fin.ext ?_)
  match ax with
  | ⟨0, _⟩ =>
    show (a.1.at 0 (Rect.unit (s := S40) ![(Scalar.indexCast (BitVec.ofNat 32 (grid0.coords t 0).val)).toNat] S1.size
      (k0_off1_inb (grid0.coords t))) numel1_S1 : BitVec 32).toNat * 1 + 1 * 0 = e.val
    rw [tbl_at a.1 t t' ht, he]; omega
  | ⟨1, _⟩ => show 0 * 1 + 1 * 0 = 0; omega
  | ⟨2, _⟩ => show 0 * 3072 + 1 * q.val = q.val; omega

/-- Under the pipeline's side condition every table entry names an expert: the encoder-matrix block it selects lies
    inside the eight experts' array. -/
theorem tw_lt (pf : pre0.Contents (Elt F)) (h : ok0 pf) (t' : Fin 40) : (tw pf t').toNat < 8 := by
  have hN : t'.val < grid0.N := by rw [N_eq]; exact t'.isLt
  obtain ⟨hb, -⟩ := h.1 (grid0.coords ⟨t'.val, hN⟩)
  have h0 := hb ⟨0, by decide⟩
  have e : cc0_transform_1 k0_off1_inb numel1_S1 pf (grid0.coords ⟨t'.val, hN⟩) ⟨0, by decide⟩ = (tw pf t').toNat := by
    show (pf.at 0 (Rect.unit (s := S40) ![(Scalar.indexCast (BitVec.ofNat 32 (grid0.coords ⟨t'.val, hN⟩ 0).val)).toNat] S1.size
      (k0_off1_inb (grid0.coords ⟨t'.val, hN⟩))) numel1_S1 : BitVec 32).toNat = _
    rw [tbl_at pf ⟨t'.val, hN⟩ t' rfl]
  rw [e] at h0
  have h1 : ((tw pf t').toNat + 1) * 1 ≤ 8 := h0
  omega

/-- Every entry of the result array lies in the block of its row's tile, and every point writes its block back. -/
theorem cover5 (a : (pcfg0 (F := F)).Adm) (i : S10240x3072.Idx) :
    ∃ t : Fin (cfg0 a).N, ((cfg0 a).win 5).flush t = true ∧ i ∈ (((cfg0 a).win 5).blk t).view.set := by
  have hi0 : (i 0).val < 10240 := idx2_lt0 i
  have hi1 : (i 1).val < 3072 := idx2_lt1 i
  have hN : (i 0).val / 256 < grid0.N := by rw [N_eq]; omega
  refine ⟨⟨(i 0).val / 256, hN⟩, flush0_5 a _, ?_⟩
  refine (Finset.ext_iff.mp (View.set_slice_whole main_v79 (((cfg0 a).win 5).rect ⟨(i 0).val / 256, hN⟩)) i).mpr ?_
  refine Rect.mem_set_unit.mpr fun ax => ?_
  match ax with
  | ⟨0, _⟩ =>
    show (Scalar.indexCast (BitVec.ofNat 32 (grid0.coords ⟨(i 0).val / 256, hN⟩ 0).val)).toNat * 256 ≤ (i 0).val
      ∧ (i 0).val < (Scalar.indexCast (BitVec.ofNat 32 (grid0.coords ⟨(i 0).val / 256, hN⟩ 0).val)).toNat * 256 + 256
    rw [coord_val ⟨(i 0).val / 256, hN⟩]
    show (i 0).val / 256 * 256 ≤ (i 0).val ∧ (i 0).val < (i 0).val / 256 * 256 + 256
    omega
  | ⟨1, _⟩ =>
    show 0 * 3072 ≤ (i 1).val ∧ (i 1).val < 0 * 3072 + 3072
    omega

end Blocks

end Cert.KernelIdeal.Moe

end
-- ==== Proof.RegionFinal.lean ====
/-
  The array the region leaves: the padded decoded image.

  At grid point t the body is handed rows 256 t … 256 t + 255 of the padded image and the encoder and decoder blocks
  of ONE expert, the one the prefetched table names for tile t, and stores over its whole result block, at row p and
  column q, row 256 t + p of the padded image through that expert.  Every point writes its block back to rows
  256 t … 256 t + 255 of the result array, and these blocks tile it; so after the region the result array holds, at
  row r and column q, row r of the padded image through the expert of tile r / 256.
-/
import proofs.«407060_j11527692222992_3_alg».proof.Proof.RegionBody
import proofs.«407060_j11527692222992_3_alg».proof.Proof.RegionBlocks

set_option maxRecDepth 16384

noncomputable section

namespace Cert.KernelIdeal.Moe

open Cert.KernelIdeal Cert.KernelIdeal.Gen
open Idealize.ShloMosaic Idealize.ShloMosaic.TcCoe Idealize.ShloMosaic.ValueIdx Idealize.SL.Sem
open Idealize.ShloMosaic.Pipeline (Dat)

section Final

variable (m : (ℓ : Loc nD τ sig) → Buf (Elt Ideal) ℓ) (c : Dev nD)

/-- The tile of a row of the padded arrays. -/
def tileOf (r : Fin 10240) : Fin 40 := ⟨r.val / 256, by have := r.isLt; omega⟩

/-- The expert the table names for the tile of row r. -/
def eOf (r : Fin 10240) : Fin 8 := Cert.Moe.expert (tw (tbl m) (tileOf r))

/-- Row r of the padded image through the expert of its tile, at column q. -/
def paddedAt (r : Fin 10240) (q : Fin 3072) : EReal :=
  Cert.Moe.decRow (fun j => V m c main_v61 (ix2 r j)) (fun k j => V m c main_v74 (ix3 (eOf m r) j k))
    (fun k => V m c main_v77 (ix3 (eOf m r) 0 k)) (fun q' k => V m c main_v76 (ix3 (eOf m r) k q'))
    (fun q' => V m c main_v78 (ix3 (eOf m r) 0 q')) q

/-- The padded decoded image as an array. -/
def padded : S10240x3072.Idx → EReal := fun i => paddedAt m c (i 0) (i 1)

set_option maxHeartbeats 100000 in
/-- What the body leaves at point t, at row p and column q of the block: row 256 t + p of the padded image through
    the expert of tile t. -/
theorem outs_apply (hO : Ok m) (t : Fin (cfgM m hO).N) (p : Fin 256) (q : Fin 3072) (r : Fin 10240)
    (hr : r.val = 256 * t.val + p.val) :
    outsAt0 m hO c t (ix2 p q) = paddedAt m c r q := by
  have htile : (tileOf r).val = t.val := by show r.val / 256 = t.val; have := p.isLt; omega
  have he : (tw (adm m hO).1 (tileOf r)).toNat = (eOf m r).val :=
    (Nat.mod_eq_of_lt (tw_lt (tbl m) hO (tileOf r))).symm
  unfold outsAt0
  refine (congrFun (out_A (F := Ideal) c (grid0.coords t) (ms0_0 m hO t) (hs0_0 m hO t) (ms0_1 m hO t) (hs0_1 m hO t)
    (ms0_2 m hO t) (hs0_2 m hO t) (ms0_3 m hO t) (hs0_3 m hO t) (ms0_4 m hO t) (hs0_4 m hO t) (ms0_5 m hO t)
    (hs0_5 m hO t) (iblk m hO c 0 t) (iblk m hO c 1 t) (iblk m hO c 2 t) (iblk m hO c 3 t) (iblk m hO c 4 t)
    (tbl m 0)) (ix2 p q)).trans ?_
  refine (body_apply (iblk m hO c 0 t) (iblk m hO c 1 t) (iblk m hO c 2 t) (iblk m hO c 3 t) (iblk m hO c 4 t) p q).trans ?_
  unfold paddedAt
  refine decRow_congr (fun j => ?_) (fun k j => ?_) (fun k => ?_) (fun q' k => ?_) (fun q' => ?_) q
  · exact read0 (adm m hO) t c (V m c main_v61) p j r hr
  · exact read1 (adm m hO) t c (V m c main_v74) (tileOf r) htile (eOf m r) he j k
  · exact read2 (adm m hO) t c (V m c main_v77) (tileOf r) htile (eOf m r) he k
  · exact read3 (adm m hO) t c (V m c main_v76) (tileOf r) htile (eOf m r) he k q'
  · exact read4 (adm m hO) t c (V m c main_v78) (tileOf r) htile (eOf m r) he q'

set_option maxHeartbeats 100000 in
/-- What point t writes back is its block of the padded result. -/
theorem flushed_eq (hO : Ok m) (t : Fin (cfgM m hO).N) (_ : ((cfgM m hO).win 5).flush t = true) :
    (dats m hO 0 c).flushed 5 t = (((cfgM m hO).win 5).blk t).view.read (Elt Ideal) (padded m c) := by
  have ht40 : t.val < 40 := Nat.lt_of_lt_of_eq t.isLt N_eq
  show ((cfgM m hO).win 5).cut ((cfgM m hO).grid.coords t) ((dats m hO 0 c).after 5 t) = _
  rw [after0_5]
  refine funext fun (y : S256x3072.Idx) => ?_
  obtain ⟨p, q, rfl⟩ : ∃ (p : Fin 256) (q : Fin 3072), y = ix2 p q := ⟨y 0, y 1, eq_ix2 y⟩
  have hlt : 256 * t.val + p.val < 10240 := by have := p.isLt; omega
  refine Eq.trans ?_ (read5 (adm m hO) t c (padded m c) p q ⟨256 * t.val + p.val, hlt⟩ rfl).symm
  show outsAt0 m hO c t (ix2 p q) = paddedAt m c ⟨256 * t.val + p.val, hlt⟩ q
  exact outs_apply m c hO t p q ⟨256 * t.val + p.val, hlt⟩ rfl

/-- THE RESULT ARRAY after the region: the padded decoded image. -/
theorem arr_eq (hO : Ok m) : (dats m hO 0 c).arrAt 5 (cfgM m hO).N = padded m c :=
  (dats m hO 0 c).arrAt_eq_of_cover 5 (padded m c) (flushed_eq m c hO) (cover5 (adm m hO))

/-- THE REGION'S VALUE at row r and column q of the padded result: row r of the padded image through the expert e
    the table names for r's tile. -/
theorem out_padded (hO : Ok m) (r : Fin 10240) (q : Fin 3072) (e : Fin 8)
    (he : (tbl m 0 (ix1 (tileOf r))).toNat = e.val) :
    (dats m hO 0 c).arrAt 5 (cfgM m hO).N (ix2 r q)
      = Cert.Moe.decRow (fun j => V m c main_v61 (ix2 r j)) (fun k j => V m c main_v74 (ix3 e j k))
          (fun k => V m c main_v77 (ix3 e 0 k)) (fun q' k => V m c main_v76 (ix3 e k q'))
          (fun q' => V m c main_v78 (ix3 e 0 q')) q := by
  have hE : eOf m r = e := Fin.ext (by
    show (tbl m 0 (ix1 (tileOf r))).toNat % 8 = e.val
    rw [he]; exact Nat.mod_eq_of_lt e.isLt)
  refine (congrFun (arr_eq m c hO) (ix2 r q)).trans ?_
  show paddedAt m c r q = _
  unfold paddedAt
  rw [hE]

end Final

end Cert.KernelIdeal.Moe

end
-- ==== Proof.LibGatherRows.lean ====
/-
  A `stablehlo.gather` that takes whole rows: what `x[idx]` lowers to when `x` has two or three axes and `idx` is a
  list of positions on the first.  The start indices are the list as an [n × 1] column; the operand's first axis is
  collapsed and start-indexed, its other axes are offset axes taken whole.  Result row `j` is the operand's row at
  the `j`-th start index read as a signed integer and clamped into the rows that exist (StableHLO's clamp): a negative
  index reads row 0, one past the end reads the last row.
-/
import Idealize.ShloMosaic.Lib.ValueIdx

noncomputable section

namespace Cert.GatherRows

open Idealize.ShloMosaic Idealize.ShloMosaic.ValueIdx

/-- Rows of a matrix: `[N, C]` at `[n, 1]` start indices gives `[n, C]`; entry `(j, k)` is the operand's at
    (clamped start index `j`, `k`).  The hypotheses are the printed dimension numbers, each by `rfl`. -/
theorem gather_rows2 {α : Type} {N C n w : Nat} (hN : 0 < N)
    (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (j : Fin n) (k : Fin C) :
    Host.gather d x idx (ix2 j k)
      = x (ix2 ⟨min (idx (ix2 j (0 : Fin 1))).toInt.toNat (N - 1), by omega⟩ k) := by
  unfold Host.gather
  congr 1
  funext a
  refine Fin.ext ?_
  have hb : ∀ a : Fin 2, a ∉ d.operandBatchingDims := fun a => by rw [hob]; exact List.not_mem_nil
  -- the result's one batch axis is its first
  have hbd : d.batchDims = [0] := by
    show (List.finRange 2).filter (· ∉ d.offsetDims) = _
    rw [hoff]; rfl
  match a with
  | ⟨0, _⟩ =>
    -- the row axis: collapsed and start-indexed, so no offset or batching part, a slice of one row, and the start
    -- index clamped into the rows; the start index read is the column's entry at the result's row
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 j k) idx 0 + d.batchCoord (ix2 j k) 0 + d.offCoord (ix2 j k) 0 = _
    rw [GatherDims.batchCoord_eq_zero _ _ _ (hb 0), GatherDims.offCoord_eq_zero _ _ _ hk]
    simp only [Nat.add_zero]
    unfold GatherDims.start
    rw [dif_pos hm]
    have e : ∀ X : Fin 2, X ∈ d.batchDims → ((ix2 j k : (⟨2, ![n, C]⟩ : Shape).Idx) X).val = j.val := fun X hX => by
      rw [hbd] at hX
      obtain rfl := List.mem_singleton.mp hX
      rfl
    have hsi : d.siIdx (ix2 j k) ⟨List.idxOf (0 : Fin 2) d.startIndexMap, List.idxOf_lt_length_iff.2 hm⟩
        = ix2 j (0 : Fin 1) := by
      funext b
      refine Fin.ext ?_
      match b with
      | ⟨0, _⟩ =>
        unfold GatherDims.siIdx
        rw [dif_neg (by rw [hivd]; exact Nat.zero_ne_one)]
        unfold GatherDims.siCoord
        simp only [Fin.val_cast]
        exact e _ (List.getElem_mem _)
      | ⟨1, _⟩ =>
        unfold GatherDims.siIdx
        rw [dif_pos (by rw [hivd])]
        show List.idxOf (0 : Fin 2) d.startIndexMap = 0
        rw [hsim]; simp
    rw [hsi, hsl]
    rfl
  | ⟨1, _⟩ =>
    -- the column axis: an offset axis taken whole, so the start is 0 and the coordinate is the result's own
    have hk : (1 : Fin 2) ∈ d.sKept := by rw [GatherDims.mem_sKept, hcoll, hob]; simp
    have hm : (1 : Fin 2) ∉ d.startIndexMap := by rw [hsim]; simp
    show d.start (ix2 j k) idx 1 + d.batchCoord (ix2 j k) 1 + d.offCoord (ix2 j k) 1 = k.val
    rw [GatherDims.batchCoord_eq_zero _ _ _ (hb 1)]
    unfold GatherDims.start GatherDims.offCoord
    rw [dif_neg hm, dif_pos hk]
    simp only [Nat.add_zero, Nat.zero_add]
    have e : ∀ X : Fin 2, X ∈ d.offsetDims → ((ix2 j k : (⟨2, ![n, C]⟩ : Shape).Idx) X).val = k.val := fun X hX => by
      rw [hoff] at hX
      obtain rfl := List.mem_singleton.mp hX
      rfl
    exact e _ (List.getElem_mem _)

/-- Rows of a stack of matrices: `[N, L, C]` at `[n, 1]` start indices gives `[n, L, C]`; entry `(j, l, k)` is the
    operand's at (clamped start index `j`, `l`, `k`). -/
theorem gather_rows3 {α : Type} {N L C n w : Nat} (hN : 0 < N)
    (d : GatherDims ⟨3, ![N, L, C]⟩ ⟨2, ![n, 1]⟩ ⟨3, ![n, L, C]⟩)
    (hoff : d.offsetDims = [1, 2]) (hcoll : d.collapsedSliceDims = [0]) (hob : d.operandBatchingDims = [])
    (hsim : d.startIndexMap = [0]) (hivd : d.indexVectorDim = 1)
    (x : (⟨3, ![N, L, C]⟩ : Shape).Idx → α) (idx : IVec ⟨2, ![n, 1]⟩ w) (j : Fin n) (l : Fin L) (k : Fin C) :
    Host.gather d x idx (ix3 j l k)
      = x (ix3 ⟨min (idx (ix2 j (0 : Fin 1))).toInt.toNat (N - 1), by omega⟩ l k) := by
  unfold Host.gather
  congr 1
  funext a
  refine Fin.ext ?_
  have hb : ∀ a : Fin 3, a ∉ d.operandBatchingDims := fun a => by rw [hob]; exact List.not_mem_nil
  -- the result's one batch axis is its first; the operand's kept axes are its second and third
  have hbd : d.batchDims = [0] := by
    show (List.finRange 3).filter (· ∉ d.offsetDims) = _
    rw [hoff]; rfl
  have hsk : d.sKept = [1, 2] := by
    show (List.finRange 3).filter (· ∉ d.collapsedSliceDims ++ d.operandBatchingDims) = _
    rw [hcoll, hob]; rfl
  -- an operand axis that is kept and not start-indexed reads the result's coordinate on the offset axis in its position
  have hoffax : ∀ (a : Fin 3) (p : Nat) (hp : p < d.offsetDims.length), a ∈ d.sKept → a ∉ d.startIndexMap →
      d.sKept.idxOf a = p →
      d.start (ix3 j l k) idx a + d.batchCoord (ix3 j l k) a + d.offCoord (ix3 j l k) a
        = ((ix3 j l k : (⟨3, ![n, L, C]⟩ : Shape).Idx) (d.offsetDims[p]'hp)).val := by
    intro a p hp hk hm hidx
    subst hidx
    rw [GatherDims.batchCoord_eq_zero _ _ _ (hb a)]
    unfold GatherDims.start GatherDims.offCoord
    rw [dif_neg hm, dif_pos hk]
    simp only [Nat.add_zero, Nat.zero_add]
  match a with
  | ⟨0, _⟩ =>
    -- the row axis: collapsed and start-indexed, so no offset or batching part, a slice of one row, and the start
    -- index clamped into the rows; the start index read is the column's entry at the result's row
    have hk : (0 : Fin 3) ∉ d.sKept := by rw [GatherDims.mem_sKept, hcoll]; simp
    have hm : (0 : Fin 3) ∈ d.startIndexMap := by rw [hsim]; exact List.mem_singleton.mpr rfl
    have hsl : d.sliceSizes 0 = 1 := d.slice_collapsed 0 (by rw [hcoll]; exact List.mem_singleton.mpr rfl)
    show d.start (ix3 j l k) idx 0 + d.batchCoord (ix3 j l k) 0 + d.offCoord (ix3 j l k) 0 = _
    rw [GatherDims.batchCoord_eq_zero _ _ _ (hb 0), GatherDims.offCoord_eq_zero _ _ _ hk]
    simp only [Nat.add_zero]
    unfold GatherDims.start
    rw [dif_pos hm]
    have e : ∀ X : Fin 3, X ∈ d.batchDims → ((ix3 j l k : (⟨3, ![n, L, C]⟩ : Shape).Idx) X).val = j.val := fun X hX => by
      rw [hbd] at hX
      obtain rfl := List.mem_singleton.mp hX
      rfl
    have hsi : d.siIdx (ix3 j l k) ⟨List.idxOf (0 : Fin 3) d.startIndexMap, List.idxOf_lt_length_iff.2 hm⟩
        = ix2 j (0 : Fin 1) := by
      funext b
      refine Fin.ext ?_
      match b with
      | ⟨0, _⟩ =>
        unfold GatherDims.siIdx
        rw [dif_neg (by rw [hivd]; exact Nat.zero_ne_one)]
        unfold GatherDims.siCoord
        simp only [Fin.val_cast]
        exact e _ (List.getElem_mem _)
      | ⟨1, _⟩ =>
        unfold GatherDims.siIdx
        rw [dif_pos (by rw [hivd])]
        show List.idxOf (0 : Fin 3) d.startIndexMap = 0
        rw [hsim]; simp
    rw [hsi, hsl]
    rfl
  | ⟨1, _⟩ =>
    -- the second axis: the first of the two offset axes
    have hk : (1 : Fin 3) ∈ d.sKept := by rw [hsk]; simp
    have hm : (1 : Fin 3) ∉ d.startIndexMap := by rw [hsim]; simp
    have hp : 0 < d.offsetDims.length := by rw [hoff]; simp
    have h1 : d.offsetDims[0]'hp = 1 := by rw [List.getElem_of_eq hoff]; rfl
    show d.start (ix3 j l k) idx 1 + d.batchCoord (ix3 j l k) 1 + d.offCoord (ix3 j l k) 1 = l.val
    rw [hoffax 1 0 hp hk hm (by rw [hsk]; rfl), h1]
    rfl
  | ⟨2, _⟩ =>
    -- the third axis: the second of the two offset axes
    have hk : (2 : Fin 3) ∈ d.sKept := by rw [hsk]; simp
    have hm : (2 : Fin 3) ∉ d.startIndexMap := by rw [hsim]; simp
    have hp : 1 < d.offsetDims.length := by rw [hoff]; simp
    have h2 : d.offsetDims[1]'hp = 2 := by rw [List.getElem_of_eq hoff]; rfl
    show d.start (ix3 j l k) idx 2 + d.batchCoord (ix3 j l k) 2 + d.offCoord (ix3 j l k) 2 = k.val
    rw [hoffax 2 1 hp hk hm (by rw [hsk]; rfl), h2]
    rfl

end Cert.GatherRows

end
-- ==== Proof.TailRead.lean ====
/-
  The padded image the region reads, and the lines after the region.

  Before the region the image's rows are gathered along the sorting permutation and set into a zero array at their
  destination rows; after it the rows of the region's result are gathered back at the destinations and set into a
  zero array along the sorting permutation, and the loss is the mean squared difference to the image.  Both moves
  are "rows moved along an injective map": a gather whose start indices are the numbers f e reads row f e, and a
  scatter that sets rows at start indices f e, f injective, leaves update row e in row f e.  The start indices are
  small non-negative words, so the normalisation "add the extent when negative" and the gather's clamp do nothing.
-/
import proofs.«407060_j11527692222992_3_alg».proof.Proof.Iface
import proofs.«407060_j11527692222992_3_alg».proof.Proof.KRead
import proofs.«407060_j11527692222992_3_alg».proof.Proof.LibGatherRows
import proofs.«407060_j11527692222992_3_alg».proof.Proof.LibScatterRead
import proofs.«407060_j11527692222992_3_alg».proof.Proof.LibScatterRows
import Idealize.ShloMosaic.Lib.StableHlo.Predicate

set_option maxRecDepth 16384

noncomputable section

namespace Cert.KernelIdeal.Moe

open Cert.KernelIdeal Cert.KernelIdeal.Gen Idealize.ShloMosaic Idealize.ShloMosaic.TcCoe Idealize.ShloMosaic.ValueIdx Idealize.SL.Sem

/-! ## Rows moved along a map: general facts -/

/-- A word below 2^31 is not negative read signed, so the index normalisation "add the extent when negative" leaves
    it as it is. -/
theorem norm_small (a : Nat) (M : BitVec 32) (ha : a < 2 ^ 31) :
    Scalar.select (IntOp.cmpi .slt (BitVec.ofNat 32 a) 0#32) (IntOp.addi (BitVec.ofNat 32 a) M) (BitVec.ofNat 32 a)
      = BitVec.ofNat 32 a := by
  have h : (BitVec.ofNat 32 a).slt 0#32 = false := by
    rw [Bool.eq_false_iff]
    intro hlt
    have h0 : (0#32 : BitVec 32).toInt = 0 := by decide
    rw [BitVec.slt_iff_toInt_lt, StableHlo.Predicate.toInt_ofNat_small a ha, h0] at hlt
    omega
  show Scalar.select (BitVec.ofBool ((BitVec.ofNat 32 a).slt 0#32)) _ _ = _
  rw [h]
  exact select_zero _ _

/-- A vector kept as a one-column matrix reads, in row p, the vector at p. -/
theorem col_read {α : Type} {n : Nat} (h₁ : (⟨1, ![n]⟩ : Shape).BroadcastsInDim ⟨2, ![n, 1]⟩ ![0])
    (v : (⟨1, ![n]⟩ : Shape).Idx → α) (p : Fin n) :
    broadcastInDim ⟨2, ![n, 1]⟩ ![0] h₁ v (ix2 p (0 : Fin 1)) = v (ix1 p) := by
  unfold broadcastInDim
  refine congrArg v (funext fun a => ?_)
  match a with
  | ⟨0, _⟩ =>
    refine Fin.ext ?_
    have hp := p.isLt
    split
    · next h1 => change n = 1 at h1; show (0 : Nat) = p.val; omega
    · rfl

/-- The column of normalised start indices of a vector of words below 2^31, read signed, is the vector's numbers. -/
theorem normcol_toInt {n : Nat} (hc : (⟨1, ![n]⟩ : Shape).BroadcastsInDim ⟨2, ![n, 1]⟩ ![0])
    (h0 : (⟨0, ![]⟩ : Shape).BroadcastsInDim ⟨1, ![n]⟩ ![]) (w : IVec ⟨1, ![n]⟩ 32) (M : BitVec 32)
    (a : Fin n → Nat) (ha : ∀ e, a e < 2 ^ 31) (hw : ∀ e, w (ix1 e) = BitVec.ofNat 32 (a e)) (e : Fin n) :
    (broadcastInDim ⟨2, ![n, 1]⟩ ![0] hc
        (select (cmpi .slt w (broadcastInDim ⟨1, ![n]⟩ ![] h0 (constantI ⟨0, ![]⟩ 32 0#32)))
          (addi w (broadcastInDim ⟨1, ![n]⟩ ![] h0 (constantI ⟨0, ![]⟩ 32 M))) w) (ix2 e (0 : Fin 1))).toInt
      = (a e : ℤ) := by
  rw [col_read]
  show (Scalar.select (IntOp.cmpi .slt (w (ix1 e)) 0#32) (IntOp.addi (w (ix1 e)) M) (w (ix1 e))).toInt = _
  rw [hw, norm_small _ _ (ha e), StableHlo.Predicate.toInt_ofNat_small _ (ha e)]

/-- Rows gathered at start indices that are the numbers f e: result row e is the operand's row f e. -/
theorem gather_rows_at {α : Type} {N C n : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ 32) (f : Fin n → Fin N)
    (hidx : ∀ e, (idx (ix2 e (0 : Fin 1))).toInt = ((f e).val : ℤ)) (e : Fin n) (k : Fin C) :
    Host.gather d x idx (ix2 e k) = x (ix2 (f e) k) := by
  have hN : 0 < N := Nat.lt_of_le_of_lt (Nat.zero_le _) (f e).isLt
  rw [Cert.GatherRows.gather_rows2 hN d hoff hcoll hob hsim hivd]
  refine congrArg (fun r => x (ix2 r k)) (Fin.ext ?_)
  show min (idx (ix2 e (0 : Fin 1))).toInt.toNat (N - 1) = (f e).val
  rw [hidx, Int.toNat_natCast]
  have := (f e).isLt
  omega

/-- Rows set at start indices that are the numbers f e, f injective: the result's row f e is update row e (no other
    update lands there). -/
theorem scatter_rows_at {α : Type} {N C n : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (x : (⟨2, ![N, C]⟩ : Shape).Idx → α) (idx : IVec ⟨2, ![n, 1]⟩ 32)
    (upd : (⟨2, ![n, C]⟩ : Shape).Idx → α) (f : Fin n → Fin N) (hf : Function.Injective f)
    (hidx : ∀ e, (idx (ix2 e (0 : Fin 1))).toInt = ((f e).val : ℤ)) (e : Fin n) (k : Fin C) :
    Host.scatter d (fun _ b => b) x idx upd (ix2 (f e) k) = upd (ix2 e k) := by
  refine Cert.LibScatterRead.scatter_set_hit d x idx upd _ (ix2 e k) ?_ ?_
  · exact (Cert.ScatterRows.resultIdx?_rows2 d huw hiw hsd hivd idx e k (f e) k).2 ⟨hidx e, rfl⟩
  · intro j' hj'
    obtain ⟨p, q, rfl⟩ : ∃ (p : Fin n) (q : Fin C), j' = ix2 p q := ⟨j' 0, j' 1, eq_ix2 j'⟩
    obtain ⟨h0, h1⟩ := (Cert.ScatterRows.resultIdx?_rows2 d huw hiw hsd hivd idx p q (f e) k).1 hj'
    rw [hidx p] at h0
    have hpe : f p = f e := Fin.ext (by exact_mod_cast h0)
    rw [hf hpe, h1]

/-! ## The lines after the region -/

section Tail

variable (m : (ℓ : Loc nD τ sig) → Buf (Elt Ideal) ℓ) (c : Dev nD) (hO : Ok m)

/-- The contents after the lines that follow the region, from what the region leaves (its arrays at their final
    contents, every other buffer as the region found it). -/
local notation "𝕎" => Pipeline.afterTail pcfgs (fun _ => adm m hO) (dats m hO) 0 (V0 m) [hostOps1] c

/-- Each of the tail's operations read at its own buffer and skipped at the others. -/
local macro "tail_results" : tactic =>
  `(tactic| (unfold Pipeline.afterTail; simp only [List.flatten_cons, List.flatten_nil, List.append_nil]; after_results_simp))

/-- The tail does not write the argsort buffer, and it is no array of the region: it is as the region found it. -/
theorem w_v0 : 𝕎 main_v0 = V m c main_v0 := by
  tail_results
  exact Pipeline.withArrays_of_ne _ c (V0 m c) _ main_v0 (by exact (by decide : ∀ w, Pipeline.arrRef spec0 w ≠ main_v0))

/-- Likewise the destinations. -/
theorem w_v45 : 𝕎 main_v45 = V m c main_v45 := by
  tail_results
  exact Pipeline.withArrays_of_ne _ c (V0 m c) _ main_v45 (by exact (by decide : ∀ w, Pipeline.arrRef spec0 w ≠ main_v45))

/-- The region's result is its sixth array, at its final contents. -/
theorem w_v79 : 𝕎 main_v79 = (dats m hO 0 c).arrAt 5 (cfgM m hO).N := by
  tail_results
  exact Pipeline.withArrays_arr spec0 winFacts0.arr_inj c _ _ 5

/-- The column of start indices of the scatter back to the original rows: the argsort words, normalised. -/
theorem w_v93 : 𝕎 main_v93 = broadcastInDim S8192x1 ![0] bcast_S8192_S8192x1_0
    (select (cmpi .slt (𝕎 main_v0) (broadcastInDim S8192 ![] bcast_S_S8192 (constantI S_ 32 0#32)))
      (addi (𝕎 main_v0) (broadcastInDim S8192 ![] bcast_S_S8192 (constantI S_ 32 8192#32))) (𝕎 main_v0)) := by
  tail_results

/-- The column of start indices of the gather from the region's result: the destination words, normalised. -/
theorem w_v85 : 𝕎 main_v85 = broadcastInDim S8192x1 ![0] bcast_S8192_S8192x1_0
    (select (cmpi .slt (𝕎 main_v45) (broadcastInDim S8192 ![] bcast_S_S8192 (constantI S_ 32 0#32)))
      (addi (𝕎 main_v45) (broadcastInDim S8192 ![] bcast_S_S8192 (constantI S_ 32 10240#32))) (𝕎 main_v45)) := by
  tail_results

/-- The rows of the region's result gathered at the destinations. -/
theorem w_v86 : 𝕎 main_v86 = Host.gather gather_S10240x3072_S8192x1_S8192x3072_1_0_n_n_0_1_13072
    (𝕎 main_v79) (𝕎 main_v85) := by
  tail_results

/-- The decoded array: the gathered rows set into zeros along the sorting permutation. -/
theorem w_v94 : 𝕎 main_v94 = Host.scatter scatter_S8192x3072_S8192x1_S8192x3072_1_0_0_1 (fun _ b => b)
    (broadcastInDim S8192x3072 ![] bcast_S_S8192x3072 (constant (F := Ideal) S_ .f32 0x00000000#32))
    (𝕎 main_v93) (𝕎 main_v86) := by
  tail_results

/-- THE DECODED ROWS. Row σ j of the decoded array is the row of the region's result at the destination of sorted
    position j: the scatter sets it there (σ is injective), the gather took it from there. -/
theorem decoded_row (S : SortI m c) (D : DestI m c) (hlt : ∀ j, Cert.Moe.Dispatch.destN (lsN m c) j < 10240)
    (j : Fin 8192) (q : Fin 3072) :
    Pipeline.afterTail pcfgs (fun _ => adm m hO) (dats m hO) 0 (V0 m) [hostOps1] c main_v94 (ix2 (S.σ j) q)
      = (dats m hO 0 c).arrAt 5 (cfgM m hO).N (ix2 ⟨Cert.Moe.Dispatch.destN (lsN m c) j, hlt j⟩ q) := by
  rw [w_v94]
  refine (scatter_rows_at scatter_S8192x3072_S8192x1_S8192x3072_1_0_0_1 rfl rfl rfl rfl _ (𝕎 main_v93) (𝕎 main_v86)
    S.σ S.bij.1 ?_ j q).trans ?_
  · intro e
    rw [w_v93, w_v0]
    exact normcol_toInt bcast_S8192_S8192x1_0 bcast_S_S8192 (V m c main_v0) 8192#32
      (fun e => (S.σ e).val) (fun e => lt_trans (S.σ e).isLt (by norm_num)) S.v0_eq e
  · rw [w_v86]
    refine (gather_rows_at gather_S10240x3072_S8192x1_S8192x3072_1_0_n_n_0_1_13072 rfl rfl rfl rfl rfl _
      (𝕎 main_v85) (fun e => ⟨Cert.Moe.Dispatch.destN (lsN m c) e, hlt e⟩) ?_ j q).trans ?_
    · intro e
      rw [w_v85, w_v45]
      exact normcol_toInt bcast_S8192_S8192x1_0 bcast_S_S8192 (V m c main_v45) 10240#32
        (Cert.Moe.Dispatch.destN (lsN m c)) (fun e => lt_trans (hlt e) (by norm_num)) D.v45_eq e
    · rw [w_v79]

/-- THE LOSS. The last lines compute the loss of the decoded array against the image. -/
theorem loss_tail :
    Pipeline.afterTail pcfgs (fun _ => adm m hO) (dats m hO) 0 (V0 m) [hostOps1] c main_v98
      = Cert.Moe.lossOf reducesTo_S8192x3072_S_d0_1 h_S_
          (Pipeline.afterTail pcfgs (fun _ => adm m hO) (dats m hO) 0 (V0 m) [hostOps1] c main_v94)
          (m ((c : Thread nD τ).loc main_arg0)) := by
  rw [← W_main_arg0 m hO (dats m hO) c]
  unfold Cert.Moe.lossOf
  tail_results

end Tail

end Cert.KernelIdeal.Moe

end
-- ==== Proof.PaddedRead.lean ====
/-
  The padded image the region reads.

  In the ninth stretch of the lines before the region the image's rows are gathered along the sorting permutation
  and set into a zero array of 10240 rows at their destination rows.  The stretch is read in two halves: its first
  22 lines end with the destinations, and the buffers read here are written by its last 22 lines from the
  destinations, the argsort words and the image, so each read stops there.  The row of the padded image at the
  destination of sorted position j is then the image's row at the j-th row of the permutation.
-/
import proofs.«407060_j11527692222992_3_alg».proof.Proof.Iface
import proofs.«407060_j11527692222992_3_alg».proof.Proof.KRead
import proofs.«407060_j11527692222992_3_alg».proof.Proof.TailRead

set_option maxRecDepth 16384

noncomputable section

namespace Cert.KernelIdeal.Moe

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (c : Dev nD)

/-! ## The padded image: the second half of the ninth stretch -/

/-- The contents after the first 22 lines of the ninth stretch (they end with the destinations). -/
def U9a : Valuation τ sig (Elt Ideal) := StableHlo.after ((hostOps0_9 (F := Ideal)).take 22) (U8 m c)

/-- The ninth stretch run in two halves. -/
theorem U9_eq : U9 m c = StableHlo.after ((hostOps0_9 (F := Ideal)).drop 22) (U9a m c) := by
  unfold U9 U9a
  rw [← after_append, List.take_append_drop]

/-- From the contents the region finds down to the contents after the first half of the ninth stretch: each later
    line read at its own buffer and skipped at the others. -/
local macro "down_to_nine_a" : tactic =>
  `(tactic| (unfold U14; after_results_simp; unfold U13; after_results_simp; unfold U12; after_results_simp;
             unfold U11; after_results_simp; unfold U10; after_results_simp; rw [U9_eq];
             simp only [hostOps0_9, List.drop_succ_cons, List.drop_zero]; after_results_simp))

/-- The column of start indices of the gather of the image's rows: the argsort words, normalised. -/
theorem v52_read : V m c main_v52 = broadcastInDim S8192x1 ![0] bcast_S8192_S8192x1_0
    (select (cmpi .slt (V m c main_v0) (broadcastInDim S8192 ![] bcast_S_S8192 (constantI S_ 32 0#32)))
      (addi (V m c main_v0) (broadcastInDim S8192 ![] bcast_S_S8192 (constantI S_ 32 8192#32))) (V m c main_v0)) := by
  rw [V_eq m c main_v52, V_eq m c main_v0]
  down_to_nine_a

/-- The column of start indices of the scatter into the padded image: the destination words, normalised. -/
theorem v60_read : V m c main_v60 = broadcastInDim S8192x1 ![0] bcast_S8192_S8192x1_0
    (select (cmpi .slt (V m c main_v45) (broadcastInDim S8192 ![] bcast_S_S8192 (constantI S_ 32 0#32)))
      (addi (V m c main_v45) (broadcastInDim S8192 ![] bcast_S_S8192 (constantI S_ 32 10240#32))) (V m c main_v45)) := by
  rw [V_eq m c main_v60, V_eq m c main_v45]
  down_to_nine_a

/-- The image's rows (narrowed) gathered along the sorting permutation. -/
theorem v53_read : V m c main_v53 = Host.gather gather_S8192x3072_S8192x1_S8192x3072_1_0_n_n_0_1_13072
    (truncf (F := Ideal) .bf16 (V m c main_arg0) bitsLt_bf16_f32) (V m c main_v52) := by
  rw [V_eq m c main_v53, V_eq m c main_arg0, V_eq m c main_v52]
  down_to_nine_a

/-- The padded image: the gathered rows set into zeros at the destinations. -/
theorem v61_read : V m c main_v61 = Host.scatter scatter_S10240x3072_S8192x1_S8192x3072_1_0_0_1 (fun _ b => b)
    (broadcastInDim S10240x3072 ![] bcast_S_S10240x3072 (constant (F := Ideal) S_ .bf16 0x0000#16))
    (V m c main_v60) (V m c main_v53) := by
  rw [V_eq m c main_v61, V_eq m c main_v60, V_eq m c main_v53]
  down_to_nine_a

/-- THE PADDED IMAGE. The row of the padded image at the destination of sorted position j is the image's row at the
    j-th row of the sorting permutation: the scatter sets it there (the destinations are distinct), the gather took it
    from there, and narrowing is the identity on the ideal values. -/
theorem padded_row (S : SortI m c) (D : DestI m c) (hinj : Function.Injective (Cert.Moe.Dispatch.destN (lsN m c)))
    (hlt : ∀ j, Cert.Moe.Dispatch.destN (lsN m c) j < 10240) (j : Fin 8192) (k : Fin 3072) :
    V m c main_v61 (ix2 ⟨Cert.Moe.Dispatch.destN (lsN m c) j, hlt j⟩ k)
      = m ((c : Thread nD τ).loc main_arg0) (ix2 (S.σ j) k) := by
  rw [v61_read]
  refine (scatter_rows_at scatter_S10240x3072_S8192x1_S8192x3072_1_0_0_1 rfl rfl rfl rfl _ (V m c main_v60)
    (V m c main_v53) (fun e => ⟨Cert.Moe.Dispatch.destN (lsN m c) e, hlt e⟩) (fun a b h => hinj (Fin.mk.inj h)) ?_ j k).trans ?_
  · intro e
    rw [v60_read]
    exact normcol_toInt bcast_S8192_S8192x1_0 bcast_S_S8192 (V m c main_v45) 10240#32
      (Cert.Moe.Dispatch.destN (lsN m c)) (fun e => lt_trans (hlt e) (by norm_num)) D.v45_eq e
  · rw [v53_read]
    refine (gather_rows_at gather_S8192x3072_S8192x1_S8192x3072_1_0_n_n_0_1_13072 rfl rfl rfl rfl rfl _
      (V m c main_v52) S.σ ?_ j k).trans ?_
    · intro e
      rw [v52_read]
      exact normcol_toInt bcast_S8192_S8192x1_0 bcast_S_S8192 (V m c main_v0) 8192#32
        (fun e => (S.σ e).val) (fun e => lt_trans (S.σ e).isLt (by norm_num)) S.v0_eq e
    · rw [truncf_apply, V_main_arg0]

end Cert.KernelIdeal.Moe

end
-- ==== Proof.WeightsRead.lean ====
/-
  The four per-expert arrays the region reads, written by the last stretch of the host lines before it.

  The encoder weights [8, 512, 3072] are transposed per expert to [8, 3072, 512] and the decoder weights
  [8, 3072, 512] to [8, 512, 3072] (the cast that follows is the identity over the extended reals); the two bias
  matrices [8, n] get a unit middle axis.  Each result read at an index is the argument at the matching index, and
  an argument is found as launched, since no host line writes it.
-/
import proofs.«407060_j11527692222992_3_alg».proof.Proof.Iface
import proofs.«407060_j11527692222992_3_alg».proof.Proof.KRead
import Idealize.ShloMosaic.Lib.ValueLayout

set_option maxRecDepth 16384

noncomputable section

namespace Cert.KernelIdeal.Moe

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (c : Dev nD)

/-! ### The arguments before the last stretch: as launched (the last stretch writes none of them) -/

theorem U13_arg2 : U13 m c (Proc.devRef .tc main_arg2) = m ((c : Thread nD τ).loc main_arg2) := by
  rw [← V_main_arg2 m c, V_eq]; unfold U14; after_results

theorem U13_arg3 : U13 m c (Proc.devRef .tc main_arg3) = m ((c : Thread nD τ).loc main_arg3) := by
  rw [← V_main_arg3 m c, V_eq]; unfold U14; after_results

theorem U13_arg4 : U13 m c (Proc.devRef .tc main_arg4) = m ((c : Thread nD τ).loc main_arg4) := by
  rw [← V_main_arg4 m c, V_eq]; unfold U14; after_results

theorem U13_arg5 : U13 m c (Proc.devRef .tc main_arg5) = m ((c : Thread nD τ).loc main_arg5) := by
  rw [← V_main_arg5 m c, V_eq]; unfold U14; after_results

/-! ### The four arrays, one operation chain deep -/

theorem v74_read : V m c main_v74
    = (truncf .bf16 (transpose S8x3072x512 [0, 2, 1] (m ((c : Thread nD τ).loc main_arg2) : FVec Ideal S8x512x3072 .f32)
        transposes_S8x512x3072_S8x3072x512_0_2_1) bitsLt_bf16_f32 : FVec Ideal S8x3072x512 .bf16) := by
  rw [V_eq]; unfold U14; after_results; rw [U13_arg2]

theorem v76_read : V m c main_v76
    = (truncf .bf16 (transpose S8x512x3072 [0, 2, 1] (m ((c : Thread nD τ).loc main_arg4) : FVec Ideal S8x3072x512 .f32)
        transposes_S8x3072x512_S8x512x3072_0_2_1) bitsLt_bf16_f32 : FVec Ideal S8x512x3072 .bf16) := by
  rw [V_eq]; unfold U14; after_results; rw [U13_arg4]

theorem v77_read : V m c main_v77
    = shapeCast S8x1x512 (m ((c : Thread nD τ).loc main_arg3)) shapeCasts_S8x512_S8x1x512 := by
  rw [V_eq]; unfold U14; after_results; rw [U13_arg3]; rfl

theorem v78_read : V m c main_v78
    = shapeCast S8x1x3072 (m ((c : Thread nD τ).loc main_arg5)) shapeCasts_S8x3072_S8x1x3072 := by
  rw [V_eq]; unfold U14; after_results; rw [U13_arg5]; rfl

/-! ### Read at an index -/

/-- An [a, b] array given a unit middle axis reads, at (i, 0, j), the operand at (i, j): both sit at row-major
    position i · b + j. -/
theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- the transposed encoder weights of expert e at (j, k) are the encoder weights at (k, j) -/
theorem v74_at (e : Fin 8) (j : Fin 3072) (k : Fin 512) :
    V m c main_v74 (ix3 e j k) = m ((c : Thread nD τ).loc main_arg2) (ix3 e k j) := by
  rw [v74_read, truncf_apply]
  exact transpose_ix3_021_apply _ _ e j k

/-- the transposed decoder weights of expert e at (k, q) are the decoder weights at (q, k) -/
theorem v76_at (e : Fin 8) (k : Fin 512) (q : Fin 3072) :
    V m c main_v76 (ix3 e k q) = m ((c : Thread nD τ).loc main_arg4) (ix3 e q k) := by
  rw [v76_read, truncf_apply]
  exact transpose_ix3_021_apply _ _ e k q

/-- the encoder bias of expert e, as a one-row matrix -/
theorem v77_at (e : Fin 8) (k : Fin 512) :
    V m c main_v77 (ix3 e (0 : Fin 1) k) = m ((c : Thread nD τ).loc main_arg3) (ix2 e k) := by
  rw [v77_read]
  exact shapeCast_ab_a1b_apply _ _ e 0 k

/-- the decoder bias of expert e, as a one-row matrix -/
theorem v78_at (e : Fin 8) (q : Fin 3072) :
    V m c main_v78 (ix3 e (0 : Fin 1) q) = m ((c : Thread nD τ).loc main_arg5) (ix2 e q) := by
  rw [v78_read]
  exact shapeCast_ab_a1b_apply _ _ e 0 q

end Cert.KernelIdeal.Moe

end
-- ==== Proof.KernelSide.lean ====
/-
  The kernel's two results as functions of its arguments.

  Row p of the decoded array is the row the last scatter set at p = σ j; that row was gathered from the region's
  result at the destination row of j; the region's result at that row is the padded image's row there — the image's
  row σ j — through the expert of the row's tile; and the tile's expert is the sorted label of j, the label of row p.
  The loss is the shared closing chain applied to the decoded array and the image.
-/
import proofs.«407060_j11527692222992_3_alg».proof.Proof.Iface
import proofs.«407060_j11527692222992_3_alg».proof.Proof.OkIdeal
import proofs.«407060_j11527692222992_3_alg».proof.Proof.SortRead
import proofs.«407060_j11527692222992_3_alg».proof.Proof.CountsRead
import proofs.«407060_j11527692222992_3_alg».proof.Proof.CountsPad
import proofs.«407060_j11527692222992_3_alg».proof.Proof.CountsTiles
import proofs.«407060_j11527692222992_3_alg».proof.Proof.DestRead
import proofs.«407060_j11527692222992_3_alg».proof.Proof.RegionFinal
import proofs.«407060_j11527692222992_3_alg».proof.Proof.TailRead
import proofs.«407060_j11527692222992_3_alg».proof.Proof.PaddedRead
import proofs.«407060_j11527692222992_3_alg».proof.Proof.WeightsRead

set_option maxRecDepth 16384

noncomputable section

namespace Cert.KernelIdeal.Moe

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (c : Dev nD)

/-- The decoded array the program returns, entry by entry. -/
theorem kernel_decoded_at (hO : Ok m) (hlab : ∀ p : Fin 8192, (labW m c p).toNat < 8) (p : Fin 8192) (q : Fin 3072) :
    Pipeline.afterTail pcfgs (fun _ => adm m hO) (dats m hO) 0 (V0 m) [hostOps1] c main_v94 (ix2 p q)
      = Cert.Moe.decoded (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) p q := by
  -- the sort, and what it says of the sorted labels
  have S := sortI m c hlab
  have h7 : ∀ j : Fin 8192, lsN m c j = (labW m c (S.σ j)).toNat := fun j => by
    show (V m c main_v7 (ix1 j)).toNat = _
    rw [S.v7_eq]
  have hls : ∀ j : Fin 8192, lsN m c j < 8 := fun j => by rw [h7]; exact hlab _
  have hmono : ∀ i j : Fin 8192, i ≤ j → lsN m c i ≤ lsN m c j := fun i j hij => by
    rw [h7, h7]; exact S.mono i j hij
  have h24 := v24_at m c (v17_at m c hls)
  have C := countsI_of m c hls (v28_at m c h24 hls) (v63_at m c h24 hls)
  have D := destI m c C hls hmono
  have hinj := Cert.Moe.Dispatch.destN_inj (lsN m c) hmono hls
  have hlt := Cert.Moe.Dispatch.destN_lt (lsN m c) hmono hls
  -- row p is the sorted position j
  obtain ⟨j, rfl⟩ := S.bij.2 p
  rw [decoded_row m c hO S D hlt j q]
  -- the tile of the destination row belongs to the label of row σ j
  have hte : (tbl m 0 (ix1 (tileOf ⟨Cert.Moe.Dispatch.destN (lsN m c) j, hlt j⟩))).toNat
      = (Cert.Moe.expert (labW m c (S.σ j))).val := by
    rw [← V_pre m c 0]
    show (V m c main_v72 (ix1 (tileOf ⟨Cert.Moe.Dispatch.destN (lsN m c) j, hlt j⟩))).toNat = _
    rw [D.v72_eq]
    show (BitVec.ofNat 32 (Cert.Moe.Dispatch.teN (lsN m c) (Cert.Moe.Dispatch.destN (lsN m c) j / 256))).toNat = _
    rw [Cert.Moe.Dispatch.teN_dest (lsN m c) hmono hls j, BitVec.toNat_ofNat,
      Nat.mod_eq_of_lt (by have := hls j; omega), h7, Cert.Moe.expert_of_lt _ (hlab _)]
  rw [out_padded m c hO ⟨_, hlt j⟩ q (Cert.Moe.expert (labW m c (S.σ j))) hte]
  unfold Cert.Moe.decoded Cert.Moe.rowThrough
  exact decRow_congr (fun k => padded_row m c S D hinj hlt j k) (fun k k' => v74_at m c _ k' k)
    (fun k => v77_at m c _ k) (fun d k => v76_at m c _ k d) (fun d => v78_at m c _ d) q

/-- The decoded array the program returns. -/
theorem kernel_decoded (hO : Ok m) (hlab : ∀ p : Fin 8192, (labW m c p).toNat < 8) :
    Pipeline.afterTail pcfgs (fun _ => adm m hO) (dats m hO) 0 (V0 m) [hostOps1] c main_v94
      = Cert.Moe.decodedArr (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  funext i
  obtain ⟨p, q, rfl⟩ : ∃ (p : Fin 8192) (q : Fin 3072), i = ix2 p q := ⟨i 0, i 1, eq_ix2 i⟩
  exact kernel_decoded_at m c hO hlab p q

variable (ρ : Dev nD → PrngReg)

/-- The kernel's run: it terminates with the loss and the decoded array at their functions of the arguments, the
    arguments unchanged. -/
theorem kernel_run (hlab : ∀ (c : Dev nD) (p : Fin 8192), (labW m c p).toNat < 8) :
    θ_run defs (onTc (τ := τ) (main (F := Ideal))) ⟨m, fun _ => 0, ρ⟩ (fun r => ∀ c : Dev nD,
      r.2.mem ((c.tc : Thread nD τ).loc main_v98)
        = Cert.Moe.lossOf reducesTo_S8192x3072_S_d0_1 h_S_
            (Cert.Moe.decodedArr (m ((c : Thread nD τ).loc main_arg0)) (m ((c : Thread nD τ).loc main_arg1))
              (m ((c : Thread nD τ).loc main_arg2)) (m ((c : Thread nD τ).loc main_arg3))
              (m ((c : Thread nD τ).loc main_arg4)) (m ((c : Thread nD τ).loc main_arg5)))
            (m ((c : Thread nD τ).loc main_arg0))
      ∧ r.2.mem ((c.tc : Thread nD τ).loc main_v94)
        = Cert.Moe.decodedArr (m ((c : Thread nD τ).loc main_arg0)) (m ((c : Thread nD τ).loc main_arg1))
              (m ((c : Thread nD τ).loc main_arg2)) (m ((c : Thread nD τ).loc main_arg3))
              (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  have hO : Ok m := ok_all m
  refine (θ_run defs _ _).mono (fun _ h c => ?_) (run_main m ρ hO)
  have h98 := (h c).2 main_v98 (by decide : main_v98 ∈ Pipeline.restRefs sig spec0)
  have h94 := (h c).2 main_v94 (by decide : main_v94 ∈ Pipeline.restRefs sig spec0)
  refine ⟨?_, ?_,
    ((h c).2 main_arg0 (by decide : main_arg0 ∈ Pipeline.restRefs sig spec0)).trans (W_main_arg0 m hO (dats m hO) c),
    ((h c).2 main_arg1 (by decide : main_arg1 ∈ Pipeline.restRefs sig spec0)).trans (W_main_arg1 m hO (dats m hO) c),
    ((h c).2 main_arg2 (by decide : main_arg2 ∈ Pipeline.restRefs sig spec0)).trans (W_main_arg2 m hO (dats m hO) c),
    ((h c).2 main_arg3 (by decide : main_arg3 ∈ Pipeline.restRefs sig spec0)).trans (W_main_arg3 m hO (dats m hO) c),
    ((h c).2 main_arg4 (by decide : main_arg4 ∈ Pipeline.restRefs sig spec0)).trans (W_main_arg4 m hO (dats m hO) c),
    ((h c).2 main_arg5 (by decide : main_arg5 ∈ Pipeline.restRefs sig spec0)).trans (W_main_arg5 m hO (dats m hO) c)⟩
  · rw [h98, loss_tail m c hO, kernel_decoded m c hO (hlab c)]
  · rw [h94, kernel_decoded m c hO (hlab c)]

end Cert.KernelIdeal.Moe

end
-- ==== Proof.RefOps.lean ====
/-
  The reference program's @main as the list of its 224 host operations, in thirteen pieces: two opening operations,
  eight experts of 27 operations each (three of them in two parts, where the printed program's windows end), and six
  closing operations.  Each piece comes with what the run asks of it: every buffer it touches is a TensorCore reference,
  no operation leaves a result undetermined, and the list of the references it writes.  The printed @main is the
  sequence of the pieces, so every weakly fair execution ends with each buffer at the fold of the operations' results
  over the launch contents.
-/
import proofs.«407060_j11527692222992_3_alg».proof.Proof.Gen.ReferenceIdeal
import Idealize.ShloMosaic.Lib.StableHlo.Run

noncomputable section

namespace Cert.ReferenceIdeal.Moe

open Cert.ReferenceIdeal Cert.ReferenceIdeal.Gen Idealize.ShloMosaic Idealize.ShloMosaic.TcCoe Idealize.SL.Sem Idealize.ShloMosaic.StableHlo

variable {F : FTy → Type} [FloatOps F]

/-- A reference of a list, as a device buffer, is among the list's device buffers. -/
theorem single_sub_of_mem {W : List (Ref sig .tc)} {y : Ref sig .tc} (h : y ∈ W) :
    ({Proc.devRef .tc y} : Finset (DevRef τ sig)) ⊆ (W.map (Proc.devRef (τ := τ) .tc)).toFinset := by
  simp only [Finset.singleton_subset_iff, List.mem_toFinset]; exact List.mem_map_of_mem h

/-- The two opening operations: the zero constant and the all-zero array the selection starts from. (Operations 1 … 2 of 224.) -/
def c0 : List (HloOp τ sig (Elt F)) :=
  [ nullary main_cst (constant S_ .f32 0x00000000#32),
    unary main_cst main_v0 (broadcastInDim S8192x3072 ![] bcast_S_S8192x3072 : (⟨S_, .f32⟩ : BufTy).Contents (Elt F) → (⟨S8192x3072, .f32⟩ : BufTy).Contents (Elt F)) ]

theorem c0_sub : (c0 : List (HloOp τ sig (Elt F))).Forall fun op => op.bufs ⊆ tcRefs τ sig := by
  unfold c0
  exact ⟨nullary_bufs_sub .., unary_bufs_sub ..⟩

theorem c0_fresh : ∀ op ∈ (c0 : List (HloOp τ sig (Elt F))), op.fresh = ∅ := by
  unfold c0
  intro _ h; (repeat (cases h with | head => rfl | tail _ h => ?_)); exact nomatch h

/-- The references the piece writes. -/
abbrev c0_W : List (Ref sig .tc) := [main_cst, main_v0]

theorem c0_writes : (c0 : List (HloOp τ sig (Elt F))).Forall fun op => op.writes ⊆ (c0_W.map (Proc.devRef (τ := τ) .tc)).toFinset := by
  unfold c0
  exact ⟨single_sub_of_mem (by decide), single_sub_of_mem (by decide)⟩

/-- Expert 0: encode, rectify, decode, and select the rows whose label is 0. (Operations 3 … 29 of 224.) -/
def c1 : List (HloOp τ sig (Elt F)) :=
  [ unary main_arg2 main_v1 ((extractStridedSlice S1x512x3072 ![0, 0, 0] · slices_S8x512x3072_S1x512x3072_0_0_0) : (⟨S8x512x3072, .f32⟩ : BufTy).Contents (Elt F) → (⟨S1x512x3072, .f32⟩ : BufTy).Contents (Elt F)),
    reshape main_v1 main_v2 rfl shapeCasts_S1x512x3072_S512x3072,
    unary main_v2 main_v3 ((transpose S3072x512 [1, 0] · transposes_S512x3072_S3072x512_1_0) : (⟨S512x3072, .f32⟩ : BufTy).Contents (Elt F) → (⟨S3072x512, .f32⟩ : BufTy).Contents (Elt F)),
    binary main_arg0 main_v3 main_v4 ((fun l r => Host.dotGeneral dot_S8192x3072_S3072x512_S8192x512_1_0_0_1_n_n none l r) : (⟨S8192x3072, .f32⟩ : BufTy).Contents (Elt F) → (⟨S3072x512, .f32⟩ : BufTy).Contents (Elt F) → (⟨S8192x512, .f32⟩ : BufTy).Contents (Elt F)),
    unary main_arg3 main_v5 ((extractStridedSlice S1x512 ![0, 0] · slices_S8x512_S1x512_0_0) : (⟨S8x512, .f32⟩ : BufTy).Contents (Elt F) → (⟨S1x512, .f32⟩ : BufTy).Contents (Elt F)),
    reshape main_v5 main_v6 rfl shapeCasts_S1x512_S512,
    unary main_v6 main_v7 (broadcastInDim S1x512 ![1] bcast_S512_S1x512_1 : (⟨S512, .f32⟩ : BufTy).Contents (Elt F) → (⟨S1x512, .f32⟩ : BufTy).Contents (Elt F)),
    unary main_v7 main_v8 (broadcastInDim S8192x512 ![0, 1] bcast_S1x512_S8192x512_0_1 : (⟨S1x512, .f32⟩ : BufTy).Contents (Elt F) → (⟨S8192x512, .f32⟩ : BufTy).Contents (Elt F)),
    binary main_v4 main_v8 main_v9 (addf : (⟨S8192x512, .f32⟩ : BufTy).Contents (Elt F) → (⟨S8192x512, .f32⟩ : BufTy).Contents (Elt F) → (⟨S8192x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S8192x512, .f32⟩) main_call0_v0) (broadcastInDim S8192x512 ![] bcast_S_S8192x512),
    TRef.binary (TRef.of (T := ⟨S8192x512, .f32⟩) main_v9) (TRef.of (T := ⟨S8192x512, .f32⟩) main_call0_v0) (TRef.of (T := ⟨S8192x512, .f32⟩) main_v10) maximumf,
    unary main_arg4 main_v11 ((extractStridedSlice S1x3072x512 ![0, 0, 0] · slices_S8x3072x512_S1x3072x512_0_0_0) : (⟨S8x3072x512, .f32⟩ : BufTy).Contents (Elt F) → (⟨S1x3072x512, .f32⟩ : BufTy).Contents (Elt F)),
    reshape main_v11 main_v12 rfl shapeCasts_S1x3072x512_S3072x512,
    unary main_v12 main_v13 ((transpose S512x3072 [1, 0] · transposes_S3072x512_S512x3072_1_0) : (⟨S3072x512, .f32⟩ : BufTy).Contents (Elt F) → (⟨S512x3072, .f32⟩ : BufTy).Contents (Elt F)),
    binary main_v10 main_v13 main_v14 ((fun l r => Host.dotGeneral dot_S8192x512_S512x3072_S8192x3072_1_0_0_1_n_n none l r) : (⟨S8192x512, .f32⟩ : BufTy).Contents (Elt F) → (⟨S512x3072, .f32⟩ : BufTy).Contents (Elt F) → (⟨S8192x3072, .f32⟩ : BufTy).Contents (Elt F)),
    unary main_arg5 main_v15 ((extractStridedSlice S1x3072 ![0, 0] · slices_S8x3072_S1x3072_0_0) : (⟨S8x3072, .f32⟩ : BufTy).Contents (Elt F) → (⟨S1x3072, .f32⟩ : BufTy).Contents (Elt F)),
    reshape main_v15 main_v16 rfl shapeCasts_S1x3072_S3072,
    unary main_v16 main_v17 (broadcastInDim S1x3072 ![1] bcast_S3072_S1x3072_1 : (⟨S3072, .f32⟩ : BufTy).Contents (Elt F) → (⟨S1x3072, .f32⟩ : BufTy).Contents (Elt F)),
    unary main_v17 main_v18 (broadcastInDim S8192x3072 ![0, 1] bcast_S1x3072_S8192x3072_0_1 : (⟨S1x3072, .f32⟩ : BufTy).Contents (Elt F) → (⟨S8192x3072, .f32⟩ : BufTy).Contents (Elt F)),
    binary main_v14 main_v18 main_v19 (addf : (⟨S8192x3072, .f32⟩ : BufTy).Contents (Elt F) → (⟨S8192x3072, .f32⟩ : BufTy).Contents (Elt F) → (⟨S8192x3072, .f32⟩ : BufTy).Contents (Elt F)),
    nullary main_c (constantI S_ 32 0#32),
    unary main_c main_v20 (broadcastInDim S8192 ![] bcast_S_S8192 : (⟨S_, .i32⟩ : BufTy).Contents (Elt F) → (⟨S8192, .i32⟩ : BufTy).Contents (Elt F)),
    binary main_arg1 main_v20 main_v21 (cmpi .eq : (⟨S8192, .i32⟩ : BufTy).Contents (Elt F) → (⟨S8192, .i32⟩ : BufTy).Contents (Elt F) → (⟨S8192, .i1⟩ : BufTy).Contents (Elt F)),
    unary main_v21 main_v22 (broadcastInDim S8192x1 ![0] bcast_S8192_S8192x1_0 : (⟨S8192, .i1⟩ : BufTy).Contents (Elt F) → (⟨S8192x1, .i1⟩ : BufTy).Contents (Elt F)),
    TRef.unary (TRef.of (T := ⟨S8192x1, .i1⟩) main_v22) (TRef.of (T := ⟨S8192x3072, .i1⟩) main_call1_v0) (broadcastInDim S8192x3072 ![0, 1] bcast_S8192x1_S8192x3072_0_1),
    TRef.ternary (TRef.of (T := ⟨S8192x3072, .i1⟩) main_call1_v0) (TRef.of (T := ⟨S8192x3072, .f32⟩) main_v19) (TRef.of (T := ⟨S8192x3072, .f32⟩) main_v0) (TRef.of (T := ⟨S8192x3072, .f32⟩) main_v23) select ]

theorem c1_sub : (c1 : List (HloOp τ sig (Elt F))).Forall fun op => op.bufs ⊆ tcRefs τ sig := by
  unfold c1
  exact ⟨unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., ternary_bufs_sub ..⟩

theorem c1_fresh : ∀ op ∈ (c1 : List (HloOp τ sig (Elt F))), op.fresh = ∅ := by
  unfold c1
  intro _ h; (repeat (cases h with | head => rfl | tail _ h => ?_)); exact nomatch h

/-- The references the piece writes. -/
abbrev c1_W : List (Ref sig .tc) := [main_v1, main_v2, main_v3, main_v4, main_v5, main_v6, main_v7, main_v8, main_v9, main_call0_cst, main_call0_v0, main_v10, main_v11, main_v12, main_v13, main_v14, main_v15, main_v16, main_v17, main_v18, main_v19, main_c, main_v20, main_v21, main_v22, main_call1_v0, main_v23]

theorem c1_writes : (c1 : List (HloOp τ sig (Elt F))).Forall fun op => op.writes ⊆ (c1_W.map (Proc.devRef (τ := τ) .tc)).toFinset := by
  unfold c1
  exact ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- Expert 1: encode, rectify, decode, and select the rows whose label is 1. (Operations 30 … 56 of 224.) -/
def c2 : List (HloOp τ sig (Elt F)) :=
  [ unary main_arg2 main_v24 ((extractStridedSlice S1x512x3072 ![1, 0, 0] · slices_S8x512x3072_S1x512x3072_1_0_0) : (⟨S8x512x3072, .f32⟩ : BufTy).Contents (Elt F) → (⟨S1x512x3072, .f32⟩ : BufTy).Contents (Elt F)),
    reshape main_v24 main_v25 rfl shapeCasts_S1x512x3072_S512x3072,
    unary main_v25 main_v26 ((transpose S3072x512 [1, 0] · transposes_S512x3072_S3072x512_1_0) : (⟨S512x3072, .f32⟩ : BufTy).Contents (Elt F) → (⟨S3072x512, .f32⟩ : BufTy).Contents (Elt F)),
    binary main_arg0 main_v26 main_v27 ((fun l r => Host.dotGeneral dot_S8192x3072_S3072x512_S8192x512_1_0_0_1_n_n none l r) : (⟨S8192x3072, .f32⟩ : BufTy).Contents (Elt F) → (⟨S3072x512, .f32⟩ : BufTy).Contents (Elt F) → (⟨S8192x512, .f32⟩ : BufTy).Contents (Elt F)),
    unary main_arg3 main_v28 ((extractStridedSlice S1x512 ![1, 0] · slices_S8x512_S1x512_1_0) : (⟨S8x512, .f32⟩ : BufTy).Contents (Elt F) → (⟨S1x512, .f32⟩ : BufTy).Contents (Elt F)),
    reshape main_v28 main_v29 rfl shapeCasts_S1x512_S512,
    unary main_v29 main_v30 (broadcastInDim S1x512 ![1] bcast_S512_S1x512_1 : (⟨S512, .f32⟩ : BufTy).Contents (Elt F) → (⟨S1x512, .f32⟩ : BufTy).Contents (Elt F)),
    unary main_v30 main_v31 (broadcastInDim S8192x512 ![0, 1] bcast_S1x512_S8192x512_0_1 : (⟨S1x512, .f32⟩ : BufTy).Contents (Elt F) → (⟨S8192x512, .f32⟩ : BufTy).Contents (Elt F)),
    binary main_v27 main_v31 main_v32 (addf : (⟨S8192x512, .f32⟩ : BufTy).Contents (Elt F) → (⟨S8192x512, .f32⟩ : BufTy).Contents (Elt F) → (⟨S8192x512, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S8192x512, .f32⟩) main_call2_v0) (broadcastInDim S8192x512 ![] bcast_S_S8192x512),
    TRef.binary (TRef.of (T := ⟨S8192x512, .f32⟩) main_v32) (TRef.of (T := ⟨S8192x512, .f32⟩) main_call2_v0) (TRef.of (T := ⟨S8192x512, .f32⟩) main_v33) maximumf,
    unary main_arg4 main_v34 ((extractStridedSlice S1x3072x512 ![1, 0, 0] · slices_S8x3072x512_S1x3072x512_1_0_0) : (⟨S8x3072x512, .f32⟩ : BufTy).Contents (Elt F) → (⟨S1x3072x512, .f32⟩ : BufTy).Contents (Elt F)),
    reshape main_v34 main_v35 rfl shapeCasts_S1x3072x512_S3072x512,
    unary main_v35 main_v36 ((transpose S512x3072 [1, 0] · transposes_S3072x512_S512x3072_1_0) : (⟨S3072x512, .f32⟩ : BufTy).Contents (Elt F) → (⟨S512x3072, .f32⟩ : BufTy).Contents (Elt F)),
    binary main_v33 main_v36 main_v37 ((fun l r => Host.dotGeneral dot_S8192x512_S512x3072_S8192x3072_1_0_0_1_n_n none l r) : (⟨S8192x512, .f32⟩ : BufTy).Contents (Elt F) → (⟨S512x3072, .f32⟩ : BufTy).Contents (Elt F) → (⟨S8192x3072, .f32⟩ : BufTy).Contents (Elt F)),
    unary main_arg5 main_v38 ((extractStridedSlice S1x3072 ![1, 0] · slices_S8x3072_S1x3072_1_0) : (⟨S8x3072, .f32⟩ : BufTy).Contents (Elt F) → (⟨S1x3072, .f32⟩ : BufTy).Contents (Elt F)),
    reshape main_v38 main_v39 rfl shapeCasts_S1x3072_S3072,
    unary main_v39 main_v40 (broadcastInDim S1x3072 ![1] bcast_S3072_S1x3072_1 : (⟨S3072, .f32⟩ : BufTy).Contents (Elt F) → (⟨S1x3072, .f32⟩ : BufTy).Contents (Elt F)),
    unary main_v40 main_v41 (broadcastInDim S8192x3072 ![0, 1] bcast_S1x3072_S8192x3072_0_1 : (⟨S1x3072, .f32⟩ : BufTy).Contents (Elt F) → (⟨S8192x3072, .f32⟩ : BufTy).Contents (Elt F)),
    binary main_v37 main_v41 main_v42 (addf : (⟨S8192x3072, .f32⟩ : BufTy).Contents (Elt F) → (⟨S8192x3072, .f32⟩ : BufTy).Contents (Elt F) → (⟨S8192x3072, .f32⟩ : BufTy).Contents (Elt F)),
    nullary main_c_0 (constantI S_ 32 1#32),
    unary main_c_0 main_v43 (broadcastInDim S8192 ![] bcast_S_S8192 : (⟨S_, .i32⟩ : BufTy).Contents (Elt F) → (⟨S8192, .i32⟩ : BufTy).Contents (Elt F)),
    binary main_arg1 main_v43 main_v44 (cmpi .eq : (⟨S8192, .i32⟩ : BufTy).Contents (Elt F) → (⟨S8192, .i32⟩ : BufTy).Contents (Elt F) → (⟨S8192, .i1⟩ : BufTy).Contents (Elt F)),
    unary main_v44 main_v45 (broadcastInDim S8192x1 ![0] bcast_S8192_S8192x1_0 : (⟨S8192, .i1⟩ : BufTy).Contents (Elt F) → (⟨S8192x1, .i1⟩ : BufTy).Contents (Elt F)),
    TRef.unary (TRef.of (T := ⟨S8192x1, .i1⟩) main_v45) (TRef.of (T := ⟨S8192x3072, .i1⟩) main_call3_v0) (broadcastInDim S8192x3072 ![0, 1] bcast_S8192x1_S8192x3072_0_1),
    TRef.ternary (TRef.of (T := ⟨S8192x3072, .i1⟩) main_call3_v0) (TRef.of (T := ⟨S8192x3072, .f32⟩) main_v42) (TRef.of (T := ⟨S8192x3072, .f32⟩) main_v23) (TRef.of (T := ⟨S8192x3072, .f32⟩) main_v46) select ]

theorem c2_sub : (c2 : List (HloOp τ sig (Elt F))).Forall fun op => op.bufs ⊆ tcRefs τ sig := by
  unfold c2
  exact ⟨unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., ternary_bufs_sub ..⟩

theorem c2_fresh : ∀ op ∈ (c2 : List (HloOp τ sig (Elt F))), op.fresh = ∅ := by
  unfold c2
  intro _ h; (repeat (cases h with | head => rfl | tail _ h => ?_)); exact nomatch h

/-- The references the piece writes. -/
abbrev c2_W : List (Ref sig .tc) := [main_v24, main_v25, main_v26, main_v27, main_v28, main_v29, main_v30, main_v31, main_v32, main_call2_cst, main_call2_v0, main_v33, main_v34, main_v35, main_v36, main_v37, main_v38, main_v39, main_v40, main_v41, main_v42, main_c_0, main_v43, main_v44, main_v45, main_call3_v0, main_v46]

theorem c2_writes : (c2 : List (HloOp τ sig (Elt F))).Forall fun op => op.writes ⊆ (c2_W.map (Proc.devRef (τ := τ) .tc)).toFinset := by
  unfold c2
  exact ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- Expert 2, first part: the encoder's product, its bias and the rectification. (Operations 57 … 68 of 224.) -/
def c3 : List (HloOp τ sig (Elt F)) :=
  [ unary main_arg2 main_v47 ((extractStridedSlice S1x512x3072 ![2, 0, 0] · slices_S8x512x3072_S1x512x3072_2_0_0) : (⟨S8x512x3072, .f32⟩ : BufTy).Contents (Elt F) → (⟨S1x512x3072, .f32⟩ : BufTy).Contents (Elt F)),
    reshape main_v47 main_v48 rfl shapeCasts_S1x512x3072_S512x3072,
    unary main_v48 main_v49 ((transpose S3072x512 [1, 0] · transposes_S512x3072_S3072x512_1_0) : (⟨S512x3072, .f32⟩ : BufTy).Contents (Elt F) → (⟨S3072x512, .f32⟩ : BufTy).Contents (Elt F)),
    binary main_arg0 main_v49 main_v50 ((fun l r => Host.dotGeneral dot_S8192x3072_S3072x512_S8192x512_1_0_0_1_n_n none l r) : (⟨S8192x3072, .f32⟩ : BufTy).Contents (Elt F) → (⟨S3072x512, .f32⟩ : BufTy).Contents (Elt F) → (⟨S8192x512, .f32⟩ : BufTy).Contents (Elt F)),
    unary main_arg3 main_v51 ((extractStridedSlice S1x512 ![2, 0] · slices_S8x512_S1x512_2_0) : (⟨S8x512, .f32⟩ : BufTy).Contents (Elt F) → (⟨S1x512, .f32⟩ : BufTy).Contents (Elt F)),
    reshape main_v51 main_v52 rfl shapeCasts_S1x512_S512,
    unary main_v52 main_v53 (broadcastInDim S1x512 ![1] bcast_S512_S1x512_1 : (⟨S512, .f32⟩ : BufTy).Contents (Elt F) → (⟨S1x512, .f32⟩ : BufTy).Contents (Elt F)),
    unary main_v53 main_v54 (broadcastInDim S8192x512 ![0, 1] bcast_S1x512_S8192x512_0_1 : (⟨S1x512, .f32⟩ : BufTy).Contents (Elt F) → (⟨S8192x512, .f32⟩ : BufTy).Contents (Elt F)),
    binary main_v50 main_v54 main_v55 (addf : (⟨S8192x512, .f32⟩ : BufTy).Contents (Elt F) → (⟨S8192x512, .f32⟩ : BufTy).Contents (Elt F) → (⟨S8192x512, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S8192x512, .f32⟩) main_call4_v0) (broadcastInDim S8192x512 ![] bcast_S_S8192x512),
    TRef.binary (TRef.of (T := ⟨S8192x512, .f32⟩) main_v55) (TRef.of (T := ⟨S8192x512, .f32⟩) main_call4_v0) (TRef.of (T := ⟨S8192x512, .f32⟩) main_v56) maximumf ]

theorem c3_sub : (c3 : List (HloOp τ sig (Elt F))).Forall fun op => op.bufs ⊆ tcRefs τ sig := by
  unfold c3
  exact ⟨unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

theorem c3_fresh : ∀ op ∈ (c3 : List (HloOp τ sig (Elt F))), op.fresh = ∅ := by
  unfold c3
  intro _ h; (repeat (cases h with | head => rfl | tail _ h => ?_)); exact nomatch h

/-- The references the piece writes. -/
abbrev c3_W : List (Ref sig .tc) := [main_v47, main_v48, main_v49, main_v50, main_v51, main_v52, main_v53, main_v54, main_v55, main_call4_cst, main_call4_v0, main_v56]

theorem c3_writes : (c3 : List (HloOp τ sig (Elt F))).Forall fun op => op.writes ⊆ (c3_W.map (Proc.devRef (τ := τ) .tc)).toFinset := by
  unfold c3
  exact ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- Expert 2, second part: the decoder, and the selection of the rows whose label is 2. (Operations 69 … 83 of 224.) -/
def c4 : List (HloOp τ sig (Elt F)) :=
  [ unary main_arg4 main_v57 ((extractStridedSlice S1x3072x512 ![2, 0, 0] · slices_S8x3072x512_S1x3072x512_2_0_0) : (⟨S8x3072x512, .f32⟩ : BufTy).Contents (Elt F) → (⟨S1x3072x512, .f32⟩ : BufTy).Contents (Elt F)),
    reshape main_v57 main_v58 rfl shapeCasts_S1x3072x512_S3072x512,
    unary main_v58 main_v59 ((transpose S512x3072 [1, 0] · transposes_S3072x512_S512x3072_1_0) : (⟨S3072x512, .f32⟩ : BufTy).Contents (Elt F) → (⟨S512x3072, .f32⟩ : BufTy).Contents (Elt F)),
    binary main_v56 main_v59 main_v60 ((fun l r => Host.dotGeneral dot_S8192x512_S512x3072_S8192x3072_1_0_0_1_n_n none l r) : (⟨S8192x512, .f32⟩ : BufTy).Contents (Elt F) → (⟨S512x3072, .f32⟩ : BufTy).Contents (Elt F) → (⟨S8192x3072, .f32⟩ : BufTy).Contents (Elt F)),
    unary main_arg5 main_v61 ((extractStridedSlice S1x3072 ![2, 0] · slices_S8x3072_S1x3072_2_0) : (⟨S8x3072, .f32⟩ : BufTy).Contents (Elt F) → (⟨S1x3072, .f32⟩ : BufTy).Contents (Elt F)),
    reshape main_v61 main_v62 rfl shapeCasts_S1x3072_S3072,
    unary main_v62 main_v63 (broadcastInDim S1x3072 ![1] bcast_S3072_S1x3072_1 : (⟨S3072, .f32⟩ : BufTy).Contents (Elt F) → (⟨S1x3072, .f32⟩ : BufTy).Contents (Elt F)),
    unary main_v63 main_v64 (broadcastInDim S8192x3072 ![0, 1] bcast_S1x3072_S8192x3072_0_1 : (⟨S1x3072, .f32⟩ : BufTy).Contents (Elt F) → (⟨S8192x3072, .f32⟩ : BufTy).Contents (Elt F)),
    binary main_v60 main_v64 main_v65 (addf : (⟨S8192x3072, .f32⟩ : BufTy).Contents (Elt F) → (⟨S8192x3072, .f32⟩ : BufTy).Contents (Elt F) → (⟨S8192x3072, .f32⟩ : BufTy).Contents (Elt F)),
    nullary main_c_1 (constantI S_ 32 2#32),
    unary main_c_1 main_v66 (broadcastInDim S8192 ![] bcast_S_S8192 : (⟨S_, .i32⟩ : BufTy).Contents (Elt F) → (⟨S8192, .i32⟩ : BufTy).Contents (Elt F)),
    binary main_arg1 main_v66 main_v67 (cmpi .eq : (⟨S8192, .i32⟩ : BufTy).Contents (Elt F) → (⟨S8192, .i32⟩ : BufTy).Contents (Elt F) → (⟨S8192, .i1⟩ : BufTy).Contents (Elt F)),
    unary main_v67 main_v68 (broadcastInDim S8192x1 ![0] bcast_S8192_S8192x1_0 : (⟨S8192, .i1⟩ : BufTy).Contents (Elt F) → (⟨S8192x1, .i1⟩ : BufTy).Contents (Elt F)),
    TRef.unary (TRef.of (T := ⟨S8192x1, .i1⟩) main_v68) (TRef.of (T := ⟨S8192x3072, .i1⟩) main_call5_v0) (broadcastInDim S8192x3072 ![0, 1] bcast_S8192x1_S8192x3072_0_1),
    TRef.ternary (TRef.of (T := ⟨S8192x3072, .i1⟩) main_call5_v0) (TRef.of (T := ⟨S8192x3072, .f32⟩) main_v65) (TRef.of (T := ⟨S8192x3072, .f32⟩) main_v46) (TRef.of (T := ⟨S8192x3072, .f32⟩) main_v69) select ]

theorem c4_sub : (c4 : List (HloOp τ sig (Elt F))).Forall fun op => op.bufs ⊆ tcRefs τ sig := by
  unfold c4
  exact ⟨unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., ternary_bufs_sub ..⟩

theorem c4_fresh : ∀ op ∈ (c4 : List (HloOp τ sig (Elt F))), op.fresh = ∅ := by
  unfold c4
  intro _ h; (repeat (cases h with | head => rfl | tail _ h => ?_)); exact nomatch h

/-- The references the piece writes. -/
abbrev c4_W : List (Ref sig .tc) := [main_v57, main_v58, main_v59, main_v60, main_v61, main_v62, main_v63, main_v64, main_v65, main_c_1, main_v66, main_v67, main_v68, main_call5_v0, main_v69]

theorem c4_writes : (c4 : List (HloOp τ sig (Elt F))).Forall fun op => op.writes ⊆ (c4_W.map (Proc.devRef (τ := τ) .tc)).toFinset := by
  unfold c4
  exact ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- Expert 3: encode, rectify, decode, and select the rows whose label is 3. (Operations 84 … 110 of 224.) -/
def c5 : List (HloOp τ sig (Elt F)) :=
  [ unary main_arg2 main_v70 ((extractStridedSlice S1x512x3072 ![3, 0, 0] · slices_S8x512x3072_S1x512x3072_3_0_0) : (⟨S8x512x3072, .f32⟩ : BufTy).Contents (Elt F) → (⟨S1x512x3072, .f32⟩ : BufTy).Contents (Elt F)),
    reshape main_v70 main_v71 rfl shapeCasts_S1x512x3072_S512x3072,
    unary main_v71 main_v72 ((transpose S3072x512 [1, 0] · transposes_S512x3072_S3072x512_1_0) : (⟨S512x3072, .f32⟩ : BufTy).Contents (Elt F) → (⟨S3072x512, .f32⟩ : BufTy).Contents (Elt F)),
    binary main_arg0 main_v72 main_v73 ((fun l r => Host.dotGeneral dot_S8192x3072_S3072x512_S8192x512_1_0_0_1_n_n none l r) : (⟨S8192x3072, .f32⟩ : BufTy).Contents (Elt F) → (⟨S3072x512, .f32⟩ : BufTy).Contents (Elt F) → (⟨S8192x512, .f32⟩ : BufTy).Contents (Elt F)),
    unary main_arg3 main_v74 ((extractStridedSlice S1x512 ![3, 0] · slices_S8x512_S1x512_3_0) : (⟨S8x512, .f32⟩ : BufTy).Contents (Elt F) → (⟨S1x512, .f32⟩ : BufTy).Contents (Elt F)),
    reshape main_v74 main_v75 rfl shapeCasts_S1x512_S512,
    unary main_v75 main_v76 (broadcastInDim S1x512 ![1] bcast_S512_S1x512_1 : (⟨S512, .f32⟩ : BufTy).Contents (Elt F) → (⟨S1x512, .f32⟩ : BufTy).Contents (Elt F)),
    unary main_v76 main_v77 (broadcastInDim S8192x512 ![0, 1] bcast_S1x512_S8192x512_0_1 : (⟨S1x512, .f32⟩ : BufTy).Contents (Elt F) → (⟨S8192x512, .f32⟩ : BufTy).Contents (Elt F)),
    binary main_v73 main_v77 main_v78 (addf : (⟨S8192x512, .f32⟩ : BufTy).Contents (Elt F) → (⟨S8192x512, .f32⟩ : BufTy).Contents (Elt F) → (⟨S8192x512, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S8192x512, .f32⟩) main_call6_v0) (broadcastInDim S8192x512 ![] bcast_S_S8192x512),
    TRef.binary (TRef.of (T := ⟨S8192x512, .f32⟩) main_v78) (TRef.of (T := ⟨S8192x512, .f32⟩) main_call6_v0) (TRef.of (T := ⟨S8192x512, .f32⟩) main_v79) maximumf,
    unary main_arg4 main_v80 ((extractStridedSlice S1x3072x512 ![3, 0, 0] · slices_S8x3072x512_S1x3072x512_3_0_0) : (⟨S8x3072x512, .f32⟩ : BufTy).Contents (Elt F) → (⟨S1x3072x512, .f32⟩ : BufTy).Contents (Elt F)),
    reshape main_v80 main_v81 rfl shapeCasts_S1x3072x512_S3072x512,
    unary main_v81 main_v82 ((transpose S512x3072 [1, 0] · transposes_S3072x512_S512x3072_1_0) : (⟨S3072x512, .f32⟩ : BufTy).Contents (Elt F) → (⟨S512x3072, .f32⟩ : BufTy).Contents (Elt F)),
    binary main_v79 main_v82 main_v83 ((fun l r => Host.dotGeneral dot_S8192x512_S512x3072_S8192x3072_1_0_0_1_n_n none l r) : (⟨S8192x512, .f32⟩ : BufTy).Contents (Elt F) → (⟨S512x3072, .f32⟩ : BufTy).Contents (Elt F) → (⟨S8192x3072, .f32⟩ : BufTy).Contents (Elt F)),
    unary main_arg5 main_v84 ((extractStridedSlice S1x3072 ![3, 0] · slices_S8x3072_S1x3072_3_0) : (⟨S8x3072, .f32⟩ : BufTy).Contents (Elt F) → (⟨S1x3072, .f32⟩ : BufTy).Contents (Elt F)),
    reshape main_v84 main_v85 rfl shapeCasts_S1x3072_S3072,
    unary main_v85 main_v86 (broadcastInDim S1x3072 ![1] bcast_S3072_S1x3072_1 : (⟨S3072, .f32⟩ : BufTy).Contents (Elt F) → (⟨S1x3072, .f32⟩ : BufTy).Contents (Elt F)),
    unary main_v86 main_v87 (broadcastInDim S8192x3072 ![0, 1] bcast_S1x3072_S8192x3072_0_1 : (⟨S1x3072, .f32⟩ : BufTy).Contents (Elt F) → (⟨S8192x3072, .f32⟩ : BufTy).Contents (Elt F)),
    binary main_v83 main_v87 main_v88 (addf : (⟨S8192x3072, .f32⟩ : BufTy).Contents (Elt F) → (⟨S8192x3072, .f32⟩ : BufTy).Contents (Elt F) → (⟨S8192x3072, .f32⟩ : BufTy).Contents (Elt F)),
    nullary main_c_2 (constantI S_ 32 3#32),
    unary main_c_2 main_v89 (broadcastInDim S8192 ![] bcast_S_S8192 : (⟨S_, .i32⟩ : BufTy).Contents (Elt F) → (⟨S8192, .i32⟩ : BufTy).Contents (Elt F)),
    binary main_arg1 main_v89 main_v90 (cmpi .eq : (⟨S8192, .i32⟩ : BufTy).Contents (Elt F) → (⟨S8192, .i32⟩ : BufTy).Contents (Elt F) → (⟨S8192, .i1⟩ : BufTy).Contents (Elt F)),
    unary main_v90 main_v91 (broadcastInDim S8192x1 ![0] bcast_S8192_S8192x1_0 : (⟨S8192, .i1⟩ : BufTy).Contents (Elt F) → (⟨S8192x1, .i1⟩ : BufTy).Contents (Elt F)),
    TRef.unary (TRef.of (T := ⟨S8192x1, .i1⟩) main_v91) (TRef.of (T := ⟨S8192x3072, .i1⟩) main_call7_v0) (broadcastInDim S8192x3072 ![0, 1] bcast_S8192x1_S8192x3072_0_1),
    TRef.ternary (TRef.of (T := ⟨S8192x3072, .i1⟩) main_call7_v0) (TRef.of (T := ⟨S8192x3072, .f32⟩) main_v88) (TRef.of (T := ⟨S8192x3072, .f32⟩) main_v69) (TRef.of (T := ⟨S8192x3072, .f32⟩) main_v92) select ]

theorem c5_sub : (c5 : List (HloOp τ sig (Elt F))).Forall fun op => op.bufs ⊆ tcRefs τ sig := by
  unfold c5
  exact ⟨unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., ternary_bufs_sub ..⟩

theorem c5_fresh : ∀ op ∈ (c5 : List (HloOp τ sig (Elt F))), op.fresh = ∅ := by
  unfold c5
  intro _ h; (repeat (cases h with | head => rfl | tail _ h => ?_)); exact nomatch h

/-- The references the piece writes. -/
abbrev c5_W : List (Ref sig .tc) := [main_v70, main_v71, main_v72, main_v73, main_v74, main_v75, main_v76, main_v77, main_v78, main_call6_cst, main_call6_v0, main_v79, main_v80, main_v81, main_v82, main_v83, main_v84, main_v85, main_v86, main_v87, main_v88, main_c_2, main_v89, main_v90, main_v91, main_call7_v0, main_v92]

theorem c5_writes : (c5 : List (HloOp τ sig (Elt F))).Forall fun op => op.writes ⊆ (c5_W.map (Proc.devRef (τ := τ) .tc)).toFinset := by
  unfold c5
  exact ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- Expert 4, first part: encoder, rectification, decoder and the comparison of the labels with 4. (Operations 111 … 134 of 224.) -/
def c6 : List (HloOp τ sig (Elt F)) :=
  [ unary main_arg2 main_v93 ((extractStridedSlice S1x512x3072 ![4, 0, 0] · slices_S8x512x3072_S1x512x3072_4_0_0) : (⟨S8x512x3072, .f32⟩ : BufTy).Contents (Elt F) → (⟨S1x512x3072, .f32⟩ : BufTy).Contents (Elt F)),
    reshape main_v93 main_v94 rfl shapeCasts_S1x512x3072_S512x3072,
    unary main_v94 main_v95 ((transpose S3072x512 [1, 0] · transposes_S512x3072_S3072x512_1_0) : (⟨S512x3072, .f32⟩ : BufTy).Contents (Elt F) → (⟨S3072x512, .f32⟩ : BufTy).Contents (Elt F)),
    binary main_arg0 main_v95 main_v96 ((fun l r => Host.dotGeneral dot_S8192x3072_S3072x512_S8192x512_1_0_0_1_n_n none l r) : (⟨S8192x3072, .f32⟩ : BufTy).Contents (Elt F) → (⟨S3072x512, .f32⟩ : BufTy).Contents (Elt F) → (⟨S8192x512, .f32⟩ : BufTy).Contents (Elt F)),
    unary main_arg3 main_v97 ((extractStridedSlice S1x512 ![4, 0] · slices_S8x512_S1x512_4_0) : (⟨S8x512, .f32⟩ : BufTy).Contents (Elt F) → (⟨S1x512, .f32⟩ : BufTy).Contents (Elt F)),
    reshape main_v97 main_v98 rfl shapeCasts_S1x512_S512,
    unary main_v98 main_v99 (broadcastInDim S1x512 ![1] bcast_S512_S1x512_1 : (⟨S512, .f32⟩ : BufTy).Contents (Elt F) → (⟨S1x512, .f32⟩ : BufTy).Contents (Elt F)),
    unary main_v99 main_v100 (broadcastInDim S8192x512 ![0, 1] bcast_S1x512_S8192x512_0_1 : (⟨S1x512, .f32⟩ : BufTy).Contents (Elt F) → (⟨S8192x512, .f32⟩ : BufTy).Contents (Elt F)),
    binary main_v96 main_v100 main_v101 (addf : (⟨S8192x512, .f32⟩ : BufTy).Contents (Elt F) → (⟨S8192x512, .f32⟩ : BufTy).Contents (Elt F) → (⟨S8192x512, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S8192x512, .f32⟩) main_call8_v0) (broadcastInDim S8192x512 ![] bcast_S_S8192x512),
    TRef.binary (TRef.of (T := ⟨S8192x512, .f32⟩) main_v101) (TRef.of (T := ⟨S8192x512, .f32⟩) main_call8_v0) (TRef.of (T := ⟨S8192x512, .f32⟩) main_v102) maximumf,
    unary main_arg4 main_v103 ((extractStridedSlice S1x3072x512 ![4, 0, 0] · slices_S8x3072x512_S1x3072x512_4_0_0) : (⟨S8x3072x512, .f32⟩ : BufTy).Contents (Elt F) → (⟨S1x3072x512, .f32⟩ : BufTy).Contents (Elt F)),
    reshape main_v103 main_v104 rfl shapeCasts_S1x3072x512_S3072x512,
    unary main_v104 main_v105 ((transpose S512x3072 [1, 0] · transposes_S3072x512_S512x3072_1_0) : (⟨S3072x512, .f32⟩ : BufTy).Contents (Elt F) → (⟨S512x3072, .f32⟩ : BufTy).Contents (Elt F)),
    binary main_v102 main_v105 main_v106 ((fun l r => Host.dotGeneral dot_S8192x512_S512x3072_S8192x3072_1_0_0_1_n_n none l r) : (⟨S8192x512, .f32⟩ : BufTy).Contents (Elt F) → (⟨S512x3072, .f32⟩ : BufTy).Contents (Elt F) → (⟨S8192x3072, .f32⟩ : BufTy).Contents (Elt F)),
    unary main_arg5 main_v107 ((extractStridedSlice S1x3072 ![4, 0] · slices_S8x3072_S1x3072_4_0) : (⟨S8x3072, .f32⟩ : BufTy).Contents (Elt F) → (⟨S1x3072, .f32⟩ : BufTy).Contents (Elt F)),
    reshape main_v107 main_v108 rfl shapeCasts_S1x3072_S3072,
    unary main_v108 main_v109 (broadcastInDim S1x3072 ![1] bcast_S3072_S1x3072_1 : (⟨S3072, .f32⟩ : BufTy).Contents (Elt F) → (⟨S1x3072, .f32⟩ : BufTy).Contents (Elt F)),
    unary main_v109 main_v110 (broadcastInDim S8192x3072 ![0, 1] bcast_S1x3072_S8192x3072_0_1 : (⟨S1x3072, .f32⟩ : BufTy).Contents (Elt F) → (⟨S8192x3072, .f32⟩ : BufTy).Contents (Elt F)),
    binary main_v106 main_v110 main_v111 (addf : (⟨S8192x3072, .f32⟩ : BufTy).Contents (Elt F) → (⟨S8192x3072, .f32⟩ : BufTy).Contents (Elt F) → (⟨S8192x3072, .f32⟩ : BufTy).Contents (Elt F)),
    nullary main_c_3 (constantI S_ 32 4#32),
    unary main_c_3 main_v112 (broadcastInDim S8192 ![] bcast_S_S8192 : (⟨S_, .i32⟩ : BufTy).Contents (Elt F) → (⟨S8192, .i32⟩ : BufTy).Contents (Elt F)),
    binary main_arg1 main_v112 main_v113 (cmpi .eq : (⟨S8192, .i32⟩ : BufTy).Contents (Elt F) → (⟨S8192, .i32⟩ : BufTy).Contents (Elt F) → (⟨S8192, .i1⟩ : BufTy).Contents (Elt F)) ]

theorem c6_sub : (c6 : List (HloOp τ sig (Elt F))).Forall fun op => op.bufs ⊆ tcRefs τ sig := by
  unfold c6
  exact ⟨unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

theorem c6_fresh : ∀ op ∈ (c6 : List (HloOp τ sig (Elt F))), op.fresh = ∅ := by
  unfold c6
  intro _ h; (repeat (cases h with | head => rfl | tail _ h => ?_)); exact nomatch h

/-- The references the piece writes. -/
abbrev c6_W : List (Ref sig .tc) := [main_v93, main_v94, main_v95, main_v96, main_v97, main_v98, main_v99, main_v100, main_v101, main_call8_cst, main_call8_v0, main_v102, main_v103, main_v104, main_v105, main_v106, main_v107, main_v108, main_v109, main_v110, main_v111, main_c_3, main_v112, main_v113]

theorem c6_writes : (c6 : List (HloOp τ sig (Elt F))).Forall fun op => op.writes ⊆ (c6_W.map (Proc.devRef (τ := τ) .tc)).toFinset := by
  unfold c6
  exact ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- Expert 4, second part: the selection of the rows whose label is 4. (Operations 135 … 137 of 224.) -/
def c7 : List (HloOp τ sig (Elt F)) :=
  [ unary main_v113 main_v114 (broadcastInDim S8192x1 ![0] bcast_S8192_S8192x1_0 : (⟨S8192, .i1⟩ : BufTy).Contents (Elt F) → (⟨S8192x1, .i1⟩ : BufTy).Contents (Elt F)),
    TRef.unary (TRef.of (T := ⟨S8192x1, .i1⟩) main_v114) (TRef.of (T := ⟨S8192x3072, .i1⟩) main_call9_v0) (broadcastInDim S8192x3072 ![0, 1] bcast_S8192x1_S8192x3072_0_1),
    TRef.ternary (TRef.of (T := ⟨S8192x3072, .i1⟩) main_call9_v0) (TRef.of (T := ⟨S8192x3072, .f32⟩) main_v111) (TRef.of (T := ⟨S8192x3072, .f32⟩) main_v92) (TRef.of (T := ⟨S8192x3072, .f32⟩) main_v115) select ]

theorem c7_sub : (c7 : List (HloOp τ sig (Elt F))).Forall fun op => op.bufs ⊆ tcRefs τ sig := by
  unfold c7
  exact ⟨unary_bufs_sub .., unary_bufs_sub .., ternary_bufs_sub ..⟩

theorem c7_fresh : ∀ op ∈ (c7 : List (HloOp τ sig (Elt F))), op.fresh = ∅ := by
  unfold c7
  intro _ h; (repeat (cases h with | head => rfl | tail _ h => ?_)); exact nomatch h

/-- The references the piece writes. -/
abbrev c7_W : List (Ref sig .tc) := [main_v114, main_call9_v0, main_v115]

theorem c7_writes : (c7 : List (HloOp τ sig (Elt F))).Forall fun op => op.writes ⊆ (c7_W.map (Proc.devRef (τ := τ) .tc)).toFinset := by
  unfold c7
  exact ⟨single_sub_of_mem (by decide), single_sub_of_mem (by decide), single_sub_of_mem (by decide)⟩

/-- Expert 5: encode, rectify, decode, and select the rows whose label is 5. (Operations 138 … 164 of 224.) -/
def c8 : List (HloOp τ sig (Elt F)) :=
  [ unary main_arg2 main_v116 ((extractStridedSlice S1x512x3072 ![5, 0, 0] · slices_S8x512x3072_S1x512x3072_5_0_0) : (⟨S8x512x3072, .f32⟩ : BufTy).Contents (Elt F) → (⟨S1x512x3072, .f32⟩ : BufTy).Contents (Elt F)),
    reshape main_v116 main_v117 rfl shapeCasts_S1x512x3072_S512x3072,
    unary main_v117 main_v118 ((transpose S3072x512 [1, 0] · transposes_S512x3072_S3072x512_1_0) : (⟨S512x3072, .f32⟩ : BufTy).Contents (Elt F) → (⟨S3072x512, .f32⟩ : BufTy).Contents (Elt F)),
    binary main_arg0 main_v118 main_v119 ((fun l r => Host.dotGeneral dot_S8192x3072_S3072x512_S8192x512_1_0_0_1_n_n none l r) : (⟨S8192x3072, .f32⟩ : BufTy).Contents (Elt F) → (⟨S3072x512, .f32⟩ : BufTy).Contents (Elt F) → (⟨S8192x512, .f32⟩ : BufTy).Contents (Elt F)),
    unary main_arg3 main_v120 ((extractStridedSlice S1x512 ![5, 0] · slices_S8x512_S1x512_5_0) : (⟨S8x512, .f32⟩ : BufTy).Contents (Elt F) → (⟨S1x512, .f32⟩ : BufTy).Contents (Elt F)),
    reshape main_v120 main_v121 rfl shapeCasts_S1x512_S512,
    unary main_v121 main_v122 (broadcastInDim S1x512 ![1] bcast_S512_S1x512_1 : (⟨S512, .f32⟩ : BufTy).Contents (Elt F) → (⟨S1x512, .f32⟩ : BufTy).Contents (Elt F)),
    unary main_v122 main_v123 (broadcastInDim S8192x512 ![0, 1] bcast_S1x512_S8192x512_0_1 : (⟨S1x512, .f32⟩ : BufTy).Contents (Elt F) → (⟨S8192x512, .f32⟩ : BufTy).Contents (Elt F)),
    binary main_v119 main_v123 main_v124 (addf : (⟨S8192x512, .f32⟩ : BufTy).Contents (Elt F) → (⟨S8192x512, .f32⟩ : BufTy).Contents (Elt F) → (⟨S8192x512, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S8192x512, .f32⟩) main_call10_v0) (broadcastInDim S8192x512 ![] bcast_S_S8192x512),
    TRef.binary (TRef.of (T := ⟨S8192x512, .f32⟩) main_v124) (TRef.of (T := ⟨S8192x512, .f32⟩) main_call10_v0) (TRef.of (T := ⟨S8192x512, .f32⟩) main_v125) maximumf,
    unary main_arg4 main_v126 ((extractStridedSlice S1x3072x512 ![5, 0, 0] · slices_S8x3072x512_S1x3072x512_5_0_0) : (⟨S8x3072x512, .f32⟩ : BufTy).Contents (Elt F) → (⟨S1x3072x512, .f32⟩ : BufTy).Contents (Elt F)),
    reshape main_v126 main_v127 rfl shapeCasts_S1x3072x512_S3072x512,
    unary main_v127 main_v128 ((transpose S512x3072 [1, 0] · transposes_S3072x512_S512x3072_1_0) : (⟨S3072x512, .f32⟩ : BufTy).Contents (Elt F) → (⟨S512x3072, .f32⟩ : BufTy).Contents (Elt F)),
    binary main_v125 main_v128 main_v129 ((fun l r => Host.dotGeneral dot_S8192x512_S512x3072_S8192x3072_1_0_0_1_n_n none l r) : (⟨S8192x512, .f32⟩ : BufTy).Contents (Elt F) → (⟨S512x3072, .f32⟩ : BufTy).Contents (Elt F) → (⟨S8192x3072, .f32⟩ : BufTy).Contents (Elt F)),
    unary main_arg5 main_v130 ((extractStridedSlice S1x3072 ![5, 0] · slices_S8x3072_S1x3072_5_0) : (⟨S8x3072, .f32⟩ : BufTy).Contents (Elt F) → (⟨S1x3072, .f32⟩ : BufTy).Contents (Elt F)),
    reshape main_v130 main_v131 rfl shapeCasts_S1x3072_S3072,
    unary main_v131 main_v132 (broadcastInDim S1x3072 ![1] bcast_S3072_S1x3072_1 : (⟨S3072, .f32⟩ : BufTy).Contents (Elt F) → (⟨S1x3072, .f32⟩ : BufTy).Contents (Elt F)),
    unary main_v132 main_v133 (broadcastInDim S8192x3072 ![0, 1] bcast_S1x3072_S8192x3072_0_1 : (⟨S1x3072, .f32⟩ : BufTy).Contents (Elt F) → (⟨S8192x3072, .f32⟩ : BufTy).Contents (Elt F)),
    binary main_v129 main_v133 main_v134 (addf : (⟨S8192x3072, .f32⟩ : BufTy).Contents (Elt F) → (⟨S8192x3072, .f32⟩ : BufTy).Contents (Elt F) → (⟨S8192x3072, .f32⟩ : BufTy).Contents (Elt F)),
    nullary main_c_4 (constantI S_ 32 5#32),
    unary main_c_4 main_v135 (broadcastInDim S8192 ![] bcast_S_S8192 : (⟨S_, .i32⟩ : BufTy).Contents (Elt F) → (⟨S8192, .i32⟩ : BufTy).Contents (Elt F)),
    binary main_arg1 main_v135 main_v136 (cmpi .eq : (⟨S8192, .i32⟩ : BufTy).Contents (Elt F) → (⟨S8192, .i32⟩ : BufTy).Contents (Elt F) → (⟨S8192, .i1⟩ : BufTy).Contents (Elt F)),
    unary main_v136 main_v137 (broadcastInDim S8192x1 ![0] bcast_S8192_S8192x1_0 : (⟨S8192, .i1⟩ : BufTy).Contents (Elt F) → (⟨S8192x1, .i1⟩ : BufTy).Contents (Elt F)),
    TRef.unary (TRef.of (T := ⟨S8192x1, .i1⟩) main_v137) (TRef.of (T := ⟨S8192x3072, .i1⟩) main_call11_v0) (broadcastInDim S8192x3072 ![0, 1] bcast_S8192x1_S8192x3072_0_1),
    TRef.ternary (TRef.of (T := ⟨S8192x3072, .i1⟩) main_call11_v0) (TRef.of (T := ⟨S8192x3072, .f32⟩) main_v134) (TRef.of (T := ⟨S8192x3072, .f32⟩) main_v115) (TRef.of (T := ⟨S8192x3072, .f32⟩) main_v138) select ]

theorem c8_sub : (c8 : List (HloOp τ sig (Elt F))).Forall fun op => op.bufs ⊆ tcRefs τ sig := by
  unfold c8
  exact ⟨unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., ternary_bufs_sub ..⟩

theorem c8_fresh : ∀ op ∈ (c8 : List (HloOp τ sig (Elt F))), op.fresh = ∅ := by
  unfold c8
  intro _ h; (repeat (cases h with | head => rfl | tail _ h => ?_)); exact nomatch h

/-- The references the piece writes. -/
abbrev c8_W : List (Ref sig .tc) := [main_v116, main_v117, main_v118, main_v119, main_v120, main_v121, main_v122, main_v123, main_v124, main_call10_cst, main_call10_v0, main_v125, main_v126, main_v127, main_v128, main_v129, main_v130, main_v131, main_v132, main_v133, main_v134, main_c_4, main_v135, main_v136, main_v137, main_call11_v0, main_v138]

theorem c8_writes : (c8 : List (HloOp τ sig (Elt F))).Forall fun op => op.writes ⊆ (c8_W.map (Proc.devRef (τ := τ) .tc)).toFinset := by
  unfold c8
  exact ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- Expert 6: encode, rectify, decode, and select the rows whose label is 6. (Operations 165 … 191 of 224.) -/
def c9 : List (HloOp τ sig (Elt F)) :=
  [ unary main_arg2 main_v139 ((extractStridedSlice S1x512x3072 ![6, 0, 0] · slices_S8x512x3072_S1x512x3072_6_0_0) : (⟨S8x512x3072, .f32⟩ : BufTy).Contents (Elt F) → (⟨S1x512x3072, .f32⟩ : BufTy).Contents (Elt F)),
    reshape main_v139 main_v140 rfl shapeCasts_S1x512x3072_S512x3072,
    unary main_v140 main_v141 ((transpose S3072x512 [1, 0] · transposes_S512x3072_S3072x512_1_0) : (⟨S512x3072, .f32⟩ : BufTy).Contents (Elt F) → (⟨S3072x512, .f32⟩ : BufTy).Contents (Elt F)),
    binary main_arg0 main_v141 main_v142 ((fun l r => Host.dotGeneral dot_S8192x3072_S3072x512_S8192x512_1_0_0_1_n_n none l r) : (⟨S8192x3072, .f32⟩ : BufTy).Contents (Elt F) → (⟨S3072x512, .f32⟩ : BufTy).Contents (Elt F) → (⟨S8192x512, .f32⟩ : BufTy).Contents (Elt F)),
    unary main_arg3 main_v143 ((extractStridedSlice S1x512 ![6, 0] · slices_S8x512_S1x512_6_0) : (⟨S8x512, .f32⟩ : BufTy).Contents (Elt F) → (⟨S1x512, .f32⟩ : BufTy).Contents (Elt F)),
    reshape main_v143 main_v144 rfl shapeCasts_S1x512_S512,
    unary main_v144 main_v145 (broadcastInDim S1x512 ![1] bcast_S512_S1x512_1 : (⟨S512, .f32⟩ : BufTy).Contents (Elt F) → (⟨S1x512, .f32⟩ : BufTy).Contents (Elt F)),
    unary main_v145 main_v146 (broadcastInDim S8192x512 ![0, 1] bcast_S1x512_S8192x512_0_1 : (⟨S1x512, .f32⟩ : BufTy).Contents (Elt F) → (⟨S8192x512, .f32⟩ : BufTy).Contents (Elt F)),
    binary main_v142 main_v146 main_v147 (addf : (⟨S8192x512, .f32⟩ : BufTy).Contents (Elt F) → (⟨S8192x512, .f32⟩ : BufTy).Contents (Elt F) → (⟨S8192x512, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S8192x512, .f32⟩) main_call12_v0) (broadcastInDim S8192x512 ![] bcast_S_S8192x512),
    TRef.binary (TRef.of (T := ⟨S8192x512, .f32⟩) main_v147) (TRef.of (T := ⟨S8192x512, .f32⟩) main_call12_v0) (TRef.of (T := ⟨S8192x512, .f32⟩) main_v148) maximumf,
    unary main_arg4 main_v149 ((extractStridedSlice S1x3072x512 ![6, 0, 0] · slices_S8x3072x512_S1x3072x512_6_0_0) : (⟨S8x3072x512, .f32⟩ : BufTy).Contents (Elt F) → (⟨S1x3072x512, .f32⟩ : BufTy).Contents (Elt F)),
    reshape main_v149 main_v150 rfl shapeCasts_S1x3072x512_S3072x512,
    unary main_v150 main_v151 ((transpose S512x3072 [1, 0] · transposes_S3072x512_S512x3072_1_0) : (⟨S3072x512, .f32⟩ : BufTy).Contents (Elt F) → (⟨S512x3072, .f32⟩ : BufTy).Contents (Elt F)),
    binary main_v148 main_v151 main_v152 ((fun l r => Host.dotGeneral dot_S8192x512_S512x3072_S8192x3072_1_0_0_1_n_n none l r) : (⟨S8192x512, .f32⟩ : BufTy).Contents (Elt F) → (⟨S512x3072, .f32⟩ : BufTy).Contents (Elt F) → (⟨S8192x3072, .f32⟩ : BufTy).Contents (Elt F)),
    unary main_arg5 main_v153 ((extractStridedSlice S1x3072 ![6, 0] · slices_S8x3072_S1x3072_6_0) : (⟨S8x3072, .f32⟩ : BufTy).Contents (Elt F) → (⟨S1x3072, .f32⟩ : BufTy).Contents (Elt F)),
    reshape main_v153 main_v154 rfl shapeCasts_S1x3072_S3072,
    unary main_v154 main_v155 (broadcastInDim S1x3072 ![1] bcast_S3072_S1x3072_1 : (⟨S3072, .f32⟩ : BufTy).Contents (Elt F) → (⟨S1x3072, .f32⟩ : BufTy).Contents (Elt F)),
    unary main_v155 main_v156 (broadcastInDim S8192x3072 ![0, 1] bcast_S1x3072_S8192x3072_0_1 : (⟨S1x3072, .f32⟩ : BufTy).Contents (Elt F) → (⟨S8192x3072, .f32⟩ : BufTy).Contents (Elt F)),
    binary main_v152 main_v156 main_v157 (addf : (⟨S8192x3072, .f32⟩ : BufTy).Contents (Elt F) → (⟨S8192x3072, .f32⟩ : BufTy).Contents (Elt F) → (⟨S8192x3072, .f32⟩ : BufTy).Contents (Elt F)),
    nullary main_c_5 (constantI S_ 32 6#32),
    unary main_c_5 main_v158 (broadcastInDim S8192 ![] bcast_S_S8192 : (⟨S_, .i32⟩ : BufTy).Contents (Elt F) → (⟨S8192, .i32⟩ : BufTy).Contents (Elt F)),
    binary main_arg1 main_v158 main_v159 (cmpi .eq : (⟨S8192, .i32⟩ : BufTy).Contents (Elt F) → (⟨S8192, .i32⟩ : BufTy).Contents (Elt F) → (⟨S8192, .i1⟩ : BufTy).Contents (Elt F)),
    unary main_v159 main_v160 (broadcastInDim S8192x1 ![0] bcast_S8192_S8192x1_0 : (⟨S8192, .i1⟩ : BufTy).Contents (Elt F) → (⟨S8192x1, .i1⟩ : BufTy).Contents (Elt F)),
    TRef.unary (TRef.of (T := ⟨S8192x1, .i1⟩) main_v160) (TRef.of (T := ⟨S8192x3072, .i1⟩) main_call13_v0) (broadcastInDim S8192x3072 ![0, 1] bcast_S8192x1_S8192x3072_0_1),
    TRef.ternary (TRef.of (T := ⟨S8192x3072, .i1⟩) main_call13_v0) (TRef.of (T := ⟨S8192x3072, .f32⟩) main_v157) (TRef.of (T := ⟨S8192x3072, .f32⟩) main_v138) (TRef.of (T := ⟨S8192x3072, .f32⟩) main_v161) select ]

theorem c9_sub : (c9 : List (HloOp τ sig (Elt F))).Forall fun op => op.bufs ⊆ tcRefs τ sig := by
  unfold c9
  exact ⟨unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., ternary_bufs_sub ..⟩

theorem c9_fresh : ∀ op ∈ (c9 : List (HloOp τ sig (Elt F))), op.fresh = ∅ := by
  unfold c9
  intro _ h; (repeat (cases h with | head => rfl | tail _ h => ?_)); exact nomatch h

/-- The references the piece writes. -/
abbrev c9_W : List (Ref sig .tc) := [main_v139, main_v140, main_v141, main_v142, main_v143, main_v144, main_v145, main_v146, main_v147, main_call12_cst, main_call12_v0, main_v148, main_v149, main_v150, main_v151, main_v152, main_v153, main_v154, main_v155, main_v156, main_v157, main_c_5, main_v158, main_v159, main_v160, main_call13_v0, main_v161]

theorem c9_writes : (c9 : List (HloOp τ sig (Elt F))).Forall fun op => op.writes ⊆ (c9_W.map (Proc.devRef (τ := τ) .tc)).toFinset := by
  unfold c9
  exact ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- Expert 7, first part: the encoder's product, its bias and the rectification. (Operations 192 … 203 of 224.) -/
def c10 : List (HloOp τ sig (Elt F)) :=
  [ unary main_arg2 main_v162 ((extractStridedSlice S1x512x3072 ![7, 0, 0] · slices_S8x512x3072_S1x512x3072_7_0_0) : (⟨S8x512x3072, .f32⟩ : BufTy).Contents (Elt F) → (⟨S1x512x3072, .f32⟩ : BufTy).Contents (Elt F)),
    reshape main_v162 main_v163 rfl shapeCasts_S1x512x3072_S512x3072,
    unary main_v163 main_v164 ((transpose S3072x512 [1, 0] · transposes_S512x3072_S3072x512_1_0) : (⟨S512x3072, .f32⟩ : BufTy).Contents (Elt F) → (⟨S3072x512, .f32⟩ : BufTy).Contents (Elt F)),
    binary main_arg0 main_v164 main_v165 ((fun l r => Host.dotGeneral dot_S8192x3072_S3072x512_S8192x512_1_0_0_1_n_n none l r) : (⟨S8192x3072, .f32⟩ : BufTy).Contents (Elt F) → (⟨S3072x512, .f32⟩ : BufTy).Contents (Elt F) → (⟨S8192x512, .f32⟩ : BufTy).Contents (Elt F)),
    unary main_arg3 main_v166 ((extractStridedSlice S1x512 ![7, 0] · slices_S8x512_S1x512_7_0) : (⟨S8x512, .f32⟩ : BufTy).Contents (Elt F) → (⟨S1x512, .f32⟩ : BufTy).Contents (Elt F)),
    reshape main_v166 main_v167 rfl shapeCasts_S1x512_S512,
    unary main_v167 main_v168 (broadcastInDim S1x512 ![1] bcast_S512_S1x512_1 : (⟨S512, .f32⟩ : BufTy).Contents (Elt F) → (⟨S1x512, .f32⟩ : BufTy).Contents (Elt F)),
    unary main_v168 main_v169 (broadcastInDim S8192x512 ![0, 1] bcast_S1x512_S8192x512_0_1 : (⟨S1x512, .f32⟩ : BufTy).Contents (Elt F) → (⟨S8192x512, .f32⟩ : BufTy).Contents (Elt F)),
    binary main_v165 main_v169 main_v170 (addf : (⟨S8192x512, .f32⟩ : BufTy).Contents (Elt F) → (⟨S8192x512, .f32⟩ : BufTy).Contents (Elt F) → (⟨S8192x512, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S8192x512, .f32⟩) main_call14_v0) (broadcastInDim S8192x512 ![] bcast_S_S8192x512),
    TRef.binary (TRef.of (T := ⟨S8192x512, .f32⟩) main_v170) (TRef.of (T := ⟨S8192x512, .f32⟩) main_call14_v0) (TRef.of (T := ⟨S8192x512, .f32⟩) main_v171) maximumf ]

theorem c10_sub : (c10 : List (HloOp τ sig (Elt F))).Forall fun op => op.bufs ⊆ tcRefs τ sig := by
  unfold c10
  exact ⟨unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

theorem c10_fresh : ∀ op ∈ (c10 : List (HloOp τ sig (Elt F))), op.fresh = ∅ := by
  unfold c10
  intro _ h; (repeat (cases h with | head => rfl | tail _ h => ?_)); exact nomatch h

/-- The references the piece writes. -/
abbrev c10_W : List (Ref sig .tc) := [main_v162, main_v163, main_v164, main_v165, main_v166, main_v167, main_v168, main_v169, main_v170, main_call14_cst, main_call14_v0, main_v171]

theorem c10_writes : (c10 : List (HloOp τ sig (Elt F))).Forall fun op => op.writes ⊆ (c10_W.map (Proc.devRef (τ := τ) .tc)).toFinset := by
  unfold c10
  exact ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- Expert 7, second part: the decoder, and the selection of the rows whose label is 7. (Operations 204 … 218 of 224.) -/
def c11 : List (HloOp τ sig (Elt F)) :=
  [ unary main_arg4 main_v172 ((extractStridedSlice S1x3072x512 ![7, 0, 0] · slices_S8x3072x512_S1x3072x512_7_0_0) : (⟨S8x3072x512, .f32⟩ : BufTy).Contents (Elt F) → (⟨S1x3072x512, .f32⟩ : BufTy).Contents (Elt F)),
    reshape main_v172 main_v173 rfl shapeCasts_S1x3072x512_S3072x512,
    unary main_v173 main_v174 ((transpose S512x3072 [1, 0] · transposes_S3072x512_S512x3072_1_0) : (⟨S3072x512, .f32⟩ : BufTy).Contents (Elt F) → (⟨S512x3072, .f32⟩ : BufTy).Contents (Elt F)),
    binary main_v171 main_v174 main_v175 ((fun l r => Host.dotGeneral dot_S8192x512_S512x3072_S8192x3072_1_0_0_1_n_n none l r) : (⟨S8192x512, .f32⟩ : BufTy).Contents (Elt F) → (⟨S512x3072, .f32⟩ : BufTy).Contents (Elt F) → (⟨S8192x3072, .f32⟩ : BufTy).Contents (Elt F)),
    unary main_arg5 main_v176 ((extractStridedSlice S1x3072 ![7, 0] · slices_S8x3072_S1x3072_7_0) : (⟨S8x3072, .f32⟩ : BufTy).Contents (Elt F) → (⟨S1x3072, .f32⟩ : BufTy).Contents (Elt F)),
    reshape main_v176 main_v177 rfl shapeCasts_S1x3072_S3072,
    unary main_v177 main_v178 (broadcastInDim S1x3072 ![1] bcast_S3072_S1x3072_1 : (⟨S3072, .f32⟩ : BufTy).Contents (Elt F) → (⟨S1x3072, .f32⟩ : BufTy).Contents (Elt F)),
    unary main_v178 main_v179 (broadcastInDim S8192x3072 ![0, 1] bcast_S1x3072_S8192x3072_0_1 : (⟨S1x3072, .f32⟩ : BufTy).Contents (Elt F) → (⟨S8192x3072, .f32⟩ : BufTy).Contents (Elt F)),
    binary main_v175 main_v179 main_v180 (addf : (⟨S8192x3072, .f32⟩ : BufTy).Contents (Elt F) → (⟨S8192x3072, .f32⟩ : BufTy).Contents (Elt F) → (⟨S8192x3072, .f32⟩ : BufTy).Contents (Elt F)),
    nullary main_c_6 (constantI S_ 32 7#32),
    unary main_c_6 main_v181 (broadcastInDim S8192 ![] bcast_S_S8192 : (⟨S_, .i32⟩ : BufTy).Contents (Elt F) → (⟨S8192, .i32⟩ : BufTy).Contents (Elt F)),
    binary main_arg1 main_v181 main_v182 (cmpi .eq : (⟨S8192, .i32⟩ : BufTy).Contents (Elt F) → (⟨S8192, .i32⟩ : BufTy).Contents (Elt F) → (⟨S8192, .i1⟩ : BufTy).Contents (Elt F)),
    unary main_v182 main_v183 (broadcastInDim S8192x1 ![0] bcast_S8192_S8192x1_0 : (⟨S8192, .i1⟩ : BufTy).Contents (Elt F) → (⟨S8192x1, .i1⟩ : BufTy).Contents (Elt F)),
    TRef.unary (TRef.of (T := ⟨S8192x1, .i1⟩) main_v183) (TRef.of (T := ⟨S8192x3072, .i1⟩) main_call15_v0) (broadcastInDim S8192x3072 ![0, 1] bcast_S8192x1_S8192x3072_0_1),
    TRef.ternary (TRef.of (T := ⟨S8192x3072, .i1⟩) main_call15_v0) (TRef.of (T := ⟨S8192x3072, .f32⟩) main_v180) (TRef.of (T := ⟨S8192x3072, .f32⟩) main_v161) (TRef.of (T := ⟨S8192x3072, .f32⟩) main_v184) select ]

theorem c11_sub : (c11 : List (HloOp τ sig (Elt F))).Forall fun op => op.bufs ⊆ tcRefs τ sig := by
  unfold c11
  exact ⟨unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., ternary_bufs_sub ..⟩

theorem c11_fresh : ∀ op ∈ (c11 : List (HloOp τ sig (Elt F))), op.fresh = ∅ := by
  unfold c11
  intro _ h; (repeat (cases h with | head => rfl | tail _ h => ?_)); exact nomatch h

/-- The references the piece writes. -/
abbrev c11_W : List (Ref sig .tc) := [main_v172, main_v173, main_v174, main_v175, main_v176, main_v177, main_v178, main_v179, main_v180, main_c_6, main_v181, main_v182, main_v183, main_call15_v0, main_v184]

theorem c11_writes : (c11 : List (HloOp τ sig (Elt F))).Forall fun op => op.writes ⊆ (c11_W.map (Proc.devRef (τ := τ) .tc)).toFinset := by
  unfold c11
  exact ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- The closing operations: the difference from the input, its square, the sum of all entries and the division by their number. (Operations 219 … 224 of 224.) -/
def c12 : List (HloOp τ sig (Elt F)) :=
  [ binary main_v184 main_arg0 main_v185 (subf : (⟨S8192x3072, .f32⟩ : BufTy).Contents (Elt F) → (⟨S8192x3072, .f32⟩ : BufTy).Contents (Elt F) → (⟨S8192x3072, .f32⟩ : BufTy).Contents (Elt F)),
    binary main_v185 main_v185 main_v186 (mulf : (⟨S8192x3072, .f32⟩ : BufTy).Contents (Elt F) → (⟨S8192x3072, .f32⟩ : BufTy).Contents (Elt F) → (⟨S8192x3072, .f32⟩ : BufTy).Contents (Elt F)),
    nullary main_cst_7 (constant S_ .f32 0x00000000#32),
    binary main_v186 main_cst_7 main_v187 ((fun x v => Host.reduceAdd x v reducesTo_S8192x3072_S_d0_1 h_S_) : (⟨S8192x3072, .f32⟩ : BufTy).Contents (Elt F) → (⟨S_, .f32⟩ : BufTy).Contents (Elt F) → (⟨S_, .f32⟩ : BufTy).Contents (Elt F)),
    nullary main_cst_8 (constant S_ .f32 0x4BC00000#32),
    binary main_v187 main_cst_8 main_v188 (Host.divf : (⟨S_, .f32⟩ : BufTy).Contents (Elt F) → (⟨S_, .f32⟩ : BufTy).Contents (Elt F) → (⟨S_, .f32⟩ : BufTy).Contents (Elt F)) ]

theorem c12_sub : (c12 : List (HloOp τ sig (Elt F))).Forall fun op => op.bufs ⊆ tcRefs τ sig := by
  unfold c12
  exact ⟨binary_bufs_sub .., binary_bufs_sub .., nullary_bufs_sub .., binary_bufs_sub .., nullary_bufs_sub .., binary_bufs_sub ..⟩

theorem c12_fresh : ∀ op ∈ (c12 : List (HloOp τ sig (Elt F))), op.fresh = ∅ := by
  unfold c12
  intro _ h; (repeat (cases h with | head => rfl | tail _ h => ?_)); exact nomatch h

/-- The references the piece writes. -/
abbrev c12_W : List (Ref sig .tc) := [main_v185, main_v186, main_cst_7, main_v187, main_cst_8, main_v188]

theorem c12_writes : (c12 : List (HloOp τ sig (Elt F))).Forall fun op => op.writes ⊆ (c12_W.map (Proc.devRef (τ := τ) .tc)).toFinset := by
  unfold c12
  exact ⟨single_sub_of_mem (by decide), single_sub_of_mem (by decide), single_sub_of_mem (by decide), single_sub_of_mem (by decide), single_sub_of_mem (by decide), single_sub_of_mem (by decide)⟩

/-- @main's 224 operations, in order. -/
def ops : List (HloOp τ sig (Elt F)) :=
  c0 ++ (c1 ++ (c2 ++ (c3 ++ (c4 ++ (c5 ++ (c6 ++ (c7 ++ (c8 ++ (c9 ++ (c10 ++ (c11 ++ c12)))))))))))

set_option maxRecDepth 8192 in
set_option maxHeartbeats 4000000 in
/-- The first printed window is the first four pieces. -/
theorem main_part0_eq (c : Dev nD) : main_part0 (F := F) c = seq (c0 ++ (c1 ++ (c2 ++ c3))) := rfl

set_option maxRecDepth 8192 in
set_option maxHeartbeats 4000000 in
/-- The second printed window is the next three pieces. -/
theorem main_part1_eq (c : Dev nD) : main_part1 (F := F) c = seq (c4 ++ (c5 ++ c6)) := rfl

set_option maxRecDepth 8192 in
set_option maxHeartbeats 4000000 in
/-- The third printed window is the next four pieces. -/
theorem main_part2_eq (c : Dev nD) : main_part2 (F := F) c = seq (c7 ++ (c8 ++ (c9 ++ c10))) := rfl

set_option maxRecDepth 8192 in
set_option maxHeartbeats 4000000 in
/-- The last printed window is the last two pieces. -/
theorem main_part3_eq (c : Dev nD) : main_part3 (F := F) c = seq (c11 ++ c12) := rfl

/-- @main is its operations run in order: the windows one after the other, each the sequence of its pieces. -/
theorem main_eq (c : Dev nD) : main (F := F) c = seq ops := by
  have h : main (F := F) c
      = (main_part0 c >>= fun _ => main_part1 c >>= fun _ => main_part2 c >>= fun _ => main_part3 c) := rfl
  rw [h, main_part0_eq, main_part1_eq, main_part2_eq, main_part3_eq]
  unfold ops
  simp only [seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h
    exacts [List.forall_iff_forall_mem.mp c0_sub op h, List.forall_iff_forall_mem.mp c1_sub op h, List.forall_iff_forall_mem.mp c2_sub op h, List.forall_iff_forall_mem.mp c3_sub op h, List.forall_iff_forall_mem.mp c4_sub op h, List.forall_iff_forall_mem.mp c5_sub op h, List.forall_iff_forall_mem.mp c6_sub op h, List.forall_iff_forall_mem.mp c7_sub op h, List.forall_iff_forall_mem.mp c8_sub op h, List.forall_iff_forall_mem.mp c9_sub op h, List.forall_iff_forall_mem.mp c10_sub op h, List.forall_iff_forall_mem.mp c11_sub op h, List.forall_iff_forall_mem.mp c12_sub op h]

theorem ops_fresh : ∀ op ∈ (ops : List (HloOp τ sig (Elt F))), op.fresh = ∅ := by
  intro op h
  simp only [ops, List.mem_append] at h
  rcases h with h | h | h | h | h | h | h | h | h | h | h | h | h
  exacts [c0_fresh op h, c1_fresh op h, c2_fresh op h, c3_fresh op h, c4_fresh op h, c5_fresh op h, c6_fresh op h, c7_fresh op h, c8_fresh op h, c9_fresh op h, c10_fresh op h, c11_fresh op h, c12_fresh op h]

/-- On every device, for any float values, from any memory with zero counters: every weakly fair execution of @main
    terminates with each buffer at the fold of the operations' results over the launch contents. -/
theorem ref_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.Moe

end
-- ==== Proof.RefRun.lean ====
/-
  The reference program's run, read back.  The contents after each of the thirteen pieces of @main's operation list are
  named R0 … R12, each the next piece's operations run from the one before.  No piece writes an argument, so the
  arguments keep their launch contents throughout.  The only other value that passes from one expert's operations to
  the next is the running decoded array: all zeros to begin with, and after expert e the array that holds expert e's
  output on the rows labelled e and the previous array elsewhere.  Each is read off its own piece as the stage that the
  operation-by-operation reading of the program defines, given the same fact for the expert before; the closing
  operations then give the mean squared difference.  Every weakly fair execution therefore ends with the two results at
  their stages, as functions of the arguments' launch contents, and the arguments unchanged.
-/
import proofs.«407060_j11527692222992_3_alg».proof.Proof.RefOps
import proofs.«407060_j11527692222992_3_alg».proof.Proof.RefRead
import Idealize.ShloMosaic.Lib.StableHlo.Run

noncomputable section

namespace Cert.ReferenceIdeal.Moe

open Cert.ReferenceIdeal Cert.ReferenceIdeal.Gen Idealize.ShloMosaic Idealize.ShloMosaic.TcCoe Idealize.SL.Sem Idealize.ShloMosaic.StableHlo

variable {F : FTy → Type} [FloatOps F]

/-- Running two lists of operations one after the other is running their concatenation. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- @main's six arguments. -/
abbrev argRefs : List (Ref sig .tc) := [main_arg0, main_arg1, main_arg2, main_arg3, main_arg4, main_arg5]

variable (m : (ℓ : Loc nD τ sig) → Buf (Elt F) ℓ) (c : Dev nD)

/-! ## The contents after each piece -/

def R0 : Valuation τ sig (Elt F) := after c0 (launchContents m c)
def R1 : Valuation τ sig (Elt F) := after c1 (R0 m c)
def R2 : Valuation τ sig (Elt F) := after c2 (R1 m c)
def R3 : Valuation τ sig (Elt F) := after c3 (R2 m c)
def R4 : Valuation τ sig (Elt F) := after c4 (R3 m c)
def R5 : Valuation τ sig (Elt F) := after c5 (R4 m c)
def R6 : Valuation τ sig (Elt F) := after c6 (R5 m c)
def R7 : Valuation τ sig (Elt F) := after c7 (R6 m c)
def R8 : Valuation τ sig (Elt F) := after c8 (R7 m c)
def R9 : Valuation τ sig (Elt F) := after c9 (R8 m c)
def R10 : Valuation τ sig (Elt F) := after c10 (R9 m c)
def R11 : Valuation τ sig (Elt F) := after c11 (R10 m c)
def R12 : Valuation τ sig (Elt F) := after c12 (R11 m c)

/-- The contents after all 224 operations are the contents after the last piece. -/
theorem after_ops : after ops (launchContents m c) = R12 m c := by
  unfold R12 R11 R10 R9 R8 R7 R6 R5 R4 R3 R2 R1 R0 ops
  simp only [after_app]

/-! ## The arguments are never written -/

theorem R0_args : ∀ r ∈ argRefs, R0 m c (Proc.devRef .tc r) = launchContents m c (Proc.devRef .tc r) :=
  fun r hr => after_of_writes_sub c0 _ c0_writes ((by decide : ∀ r ∈ argRefs, r ∉ c0_W) r hr)
theorem R1_args : ∀ r ∈ argRefs, R1 m c (Proc.devRef .tc r) = launchContents m c (Proc.devRef .tc r) :=
  fun r hr => (after_of_writes_sub c1 _ c1_writes ((by decide : ∀ r ∈ argRefs, r ∉ c1_W) r hr)).trans (R0_args m c r hr)
theorem R2_args : ∀ r ∈ argRefs, R2 m c (Proc.devRef .tc r) = launchContents m c (Proc.devRef .tc r) :=
  fun r hr => (after_of_writes_sub c2 _ c2_writes ((by decide : ∀ r ∈ argRefs, r ∉ c2_W) r hr)).trans (R1_args m c r hr)
theorem R3_args : ∀ r ∈ argRefs, R3 m c (Proc.devRef .tc r) = launchContents m c (Proc.devRef .tc r) :=
  fun r hr => (after_of_writes_sub c3 _ c3_writes ((by decide : ∀ r ∈ argRefs, r ∉ c3_W) r hr)).trans (R2_args m c r hr)
theorem R4_args : ∀ r ∈ argRefs, R4 m c (Proc.devRef .tc r) = launchContents m c (Proc.devRef .tc r) :=
  fun r hr => (after_of_writes_sub c4 _ c4_writes ((by decide : ∀ r ∈ argRefs, r ∉ c4_W) r hr)).trans (R3_args m c r hr)
theorem R5_args : ∀ r ∈ argRefs, R5 m c (Proc.devRef .tc r) = launchContents m c (Proc.devRef .tc r) :=
  fun r hr => (after_of_writes_sub c5 _ c5_writes ((by decide : ∀ r ∈ argRefs, r ∉ c5_W) r hr)).trans (R4_args m c r hr)
theorem R6_args : ∀ r ∈ argRefs, R6 m c (Proc.devRef .tc r) = launchContents m c (Proc.devRef .tc r) :=
  fun r hr => (after_of_writes_sub c6 _ c6_writes ((by decide : ∀ r ∈ argRefs, r ∉ c6_W) r hr)).trans (R5_args m c r hr)
theorem R7_args : ∀ r ∈ argRefs, R7 m c (Proc.devRef .tc r) = launchContents m c (Proc.devRef .tc r) :=
  fun r hr => (after_of_writes_sub c7 _ c7_writes ((by decide : ∀ r ∈ argRefs, r ∉ c7_W) r hr)).trans (R6_args m c r hr)
theorem R8_args : ∀ r ∈ argRefs, R8 m c (Proc.devRef .tc r) = launchContents m c (Proc.devRef .tc r) :=
  fun r hr => (after_of_writes_sub c8 _ c8_writes ((by decide : ∀ r ∈ argRefs, r ∉ c8_W) r hr)).trans (R7_args m c r hr)
theorem R9_args : ∀ r ∈ argRefs, R9 m c (Proc.devRef .tc r) = launchContents m c (Proc.devRef .tc r) :=
  fun r hr => (after_of_writes_sub c9 _ c9_writes ((by decide : ∀ r ∈ argRefs, r ∉ c9_W) r hr)).trans (R8_args m c r hr)
theorem R10_args : ∀ r ∈ argRefs, R10 m c (Proc.devRef .tc r) = launchContents m c (Proc.devRef .tc r) :=
  fun r hr => (after_of_writes_sub c10 _ c10_writes ((by decide : ∀ r ∈ argRefs, r ∉ c10_W) r hr)).trans (R9_args m c r hr)
theorem R11_args : ∀ r ∈ argRefs, R11 m c (Proc.devRef .tc r) = launchContents m c (Proc.devRef .tc r) :=
  fun r hr => (after_of_writes_sub c11 _ c11_writes ((by decide : ∀ r ∈ argRefs, r ∉ c11_W) r hr)).trans (R10_args m c r hr)
theorem R12_args : ∀ r ∈ argRefs, R12 m c (Proc.devRef .tc r) = launchContents m c (Proc.devRef .tc r) :=
  fun r hr => (after_of_writes_sub c12 _ c12_writes ((by decide : ∀ r ∈ argRefs, r ∉ c12_W) r hr)).trans (R11_args m c r hr)

/-! ## The running decoded array, expert by expert -/

/-- Before the first expert the running array is all zeros. -/
theorem R0_v0 : R0 m c (Proc.devRef .tc main_v0) = ReadP.val_main_v0 (F := F) := by
  unfold R0 c0
  after_results_simp
  rfl

set_option maxHeartbeats 2000000 in
/-- After expert 0: its output on the rows labelled 0, the array before it elsewhere. -/
theorem R1_v23 : R1 m c (Proc.devRef .tc main_v23) = ReadP.val_main_v23 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold R1 c1
  after_results_simp
  rw [R0_v0 m c, R0_args m c main_arg0 (by decide), R0_args m c main_arg1 (by decide), R0_args m c main_arg2 (by decide), R0_args m c main_arg3 (by decide), R0_args m c main_arg4 (by decide), R0_args m c main_arg5 (by decide)]
  rfl

set_option maxHeartbeats 2000000 in
/-- After expert 1: its output on the rows labelled 1, the array before it elsewhere. -/
theorem R2_v46 : R2 m c (Proc.devRef .tc main_v46) = ReadP.val_main_v46 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold R2 c2
  after_results_simp
  rw [R1_v23 m c, R1_args m c main_arg0 (by decide), R1_args m c main_arg1 (by decide), R1_args m c main_arg2 (by decide), R1_args m c main_arg3 (by decide), R1_args m c main_arg4 (by decide), R1_args m c main_arg5 (by decide)]
  rfl

set_option maxHeartbeats 2000000 in
/-- After expert 2: its output on the rows labelled 2, the array before it elsewhere. -/
theorem R4_v69 : R4 m c (Proc.devRef .tc main_v69) = ReadP.val_main_v69 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold R4 R3 c4 c3
  after_results_simp
  rw [R2_v46 m c, R2_args m c main_arg0 (by decide), R2_args m c main_arg1 (by decide), R2_args m c main_arg2 (by decide), R2_args m c main_arg3 (by decide), R2_args m c main_arg4 (by decide), R2_args m c main_arg5 (by decide)]
  rfl

set_option maxHeartbeats 2000000 in
/-- After expert 3: its output on the rows labelled 3, the array before it elsewhere. -/
theorem R5_v92 : R5 m c (Proc.devRef .tc main_v92) = ReadP.val_main_v92 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold R5 c5
  after_results_simp
  rw [R4_v69 m c, R4_args m c main_arg0 (by decide), R4_args m c main_arg1 (by decide), R4_args m c main_arg2 (by decide), R4_args m c main_arg3 (by decide), R4_args m c main_arg4 (by decide), R4_args m c main_arg5 (by decide)]
  rfl

set_option maxHeartbeats 2000000 in
/-- After expert 4: its output on the rows labelled 4, the array before it elsewhere. -/
theorem R7_v115 : R7 m c (Proc.devRef .tc main_v115) = ReadP.val_main_v115 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold R7 R6 c7 c6
  after_results_simp
  rw [R5_v92 m c, R5_args m c main_arg0 (by decide), R5_args m c main_arg1 (by decide), R5_args m c main_arg2 (by decide), R5_args m c main_arg3 (by decide), R5_args m c main_arg4 (by decide), R5_args m c main_arg5 (by decide)]
  rfl

set_option maxHeartbeats 2000000 in
/-- After expert 5: its output on the rows labelled 5, the array before it elsewhere. -/
theorem R8_v138 : R8 m c (Proc.devRef .tc main_v138) = ReadP.val_main_v138 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold R8 c8
  after_results_simp
  rw [R7_v115 m c, R7_args m c main_arg0 (by decide), R7_args m c main_arg1 (by decide), R7_args m c main_arg2 (by decide), R7_args m c main_arg3 (by decide), R7_args m c main_arg4 (by decide), R7_args m c main_arg5 (by decide)]
  rfl

set_option maxHeartbeats 2000000 in
/-- After expert 6: its output on the rows labelled 6, the array before it elsewhere. -/
theorem R9_v161 : R9 m c (Proc.devRef .tc main_v161) = ReadP.val_main_v161 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold R9 c9
  after_results_simp
  rw [R8_v138 m c, R8_args m c main_arg0 (by decide), R8_args m c main_arg1 (by decide), R8_args m c main_arg2 (by decide), R8_args m c main_arg3 (by decide), R8_args m c main_arg4 (by decide), R8_args m c main_arg5 (by decide)]
  rfl

set_option maxHeartbeats 2000000 in
/-- After expert 7: its output on the rows labelled 7, the array before it elsewhere. -/
theorem R11_v184 : R11 m c (Proc.devRef .tc main_v184) = ReadP.val_main_v184 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold R11 R10 c11 c10
  after_results_simp
  rw [R9_v161 m c, R9_args m c main_arg0 (by decide), R9_args m c main_arg1 (by decide), R9_args m c main_arg2 (by decide), R9_args m c main_arg3 (by decide), R9_args m c main_arg4 (by decide), R9_args m c main_arg5 (by decide)]
  rfl

/-! ## The closing operations -/

/-- The closing operations do not write the decoded array. -/
theorem R12_v184 : R12 m c (Proc.devRef .tc main_v184) = ReadP.val_main_v184 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (after_of_writes_sub c12 _ c12_writes (by decide)).trans (R11_v184 m c)

set_option maxHeartbeats 2000000 in
/-- The mean over all entries of the squared difference between the decoded array and the input. -/
theorem R12_v188 : R12 m c (Proc.devRef .tc main_v188) = ReadP.val_main_v188 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold R12 c12
  after_results_simp
  rw [R11_v184 m c, R11_args m c main_arg0 (by decide)]
  rfl

/-! ## The run -/

/-- On every device, for any float values, from any memory with zero counters: every weakly fair execution of @main
    terminates with the mean squared difference and the decoded array at their stages of the arguments' launch
    contents, and the arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v188) = ReadP.val_main_v188 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v184) = ReadP.val_main_v184 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v188).trans (by rw [after_ops]; exact R12_v188 m c),
      (h c main_v184).trans (by rw [after_ops]; exact R12_v184 m c),
      (h c main_arg0).trans (by rw [after_ops]; exact R12_args m c main_arg0 (by decide)),
      (h c main_arg1).trans (by rw [after_ops]; exact R12_args m c main_arg1 (by decide)),
      (h c main_arg2).trans (by rw [after_ops]; exact R12_args m c main_arg2 (by decide)),
      (h c main_arg3).trans (by rw [after_ops]; exact R12_args m c main_arg3 (by decide)),
      (h c main_arg4).trans (by rw [after_ops]; exact R12_args m c main_arg4 (by decide)),
      (h c main_arg5).trans (by rw [after_ops]; exact R12_args m c main_arg5 (by decide))⟩)
    (ref_after m ρ)

end Cert.ReferenceIdeal.Moe

end
-- ==== Proof.RefValue.lean ====
/-
  The value of the reference program.

  The reference makes eight passes e = 0 … 7 over the whole batch. Pass e takes slice e of the encoder weights,
  reshapes and transposes it, multiplies the image by it, adds row e of the encoder bias, takes the maximum with zero,
  multiplies by the transposed slice e of the decoder weights and adds row e of the decoder bias; a select then keeps
  the pass's row wherever the label equals e and the earlier value elsewhere, starting from zeros. The eight passes are
  the same operations at eight slice offsets, so the pass is stated once for an offset n below 8 (`iterVal`), read at
  an index once (`iterVal_apply`: at (p, q) it is row p through expert n at column q, `Cert.Moe.rowThrough`), and each of
  the eight generated stages is that form at a literal n by unfolding its definitions. A row's label is one word
  below 8, so exactly one of the eight selects takes its pass's value and the later ones pass it on (`select_chain`):
  the decoded array at (p, q) is row p through the expert its label names (`ref_decoded`). The loss is the mean of the
  squared differences between that array and the image (`ref_loss`).
-/
import proofs.«407060_j11527692222992_3_alg».proof.Proof.RefRead
import proofs.«407060_j11527692222992_3_alg».proof.Proof.Spec
import proofs.«407060_j11527692222992_3_alg».proof.Proof.LibPlainDot
import Idealize.ShloMosaic.Lib.StableHlo.Predicate
import Mathlib.Tactic.IntervalCases

set_option maxRecDepth 16384

noncomputable section

namespace Cert.ReferenceIdeal.Moe

open Cert.ReferenceIdeal Cert.ReferenceIdeal.Gen Idealize.ShloMosaic Idealize.ShloMosaic.TcCoe Idealize.ShloMosaic.ValueIdx
  Idealize.SL.Sem Idealize.ShloMosaic.StableHlo

/-! ## The layout chains of one expert, generic in the expert's number n -/

section Layout
variable (n : Nat) (hn : n < 8)

/-- Slice n of the encoder weights, reshaped to 512 × 3072 and transposed: at (j, k) it is W_enc(n, k, j). -/
theorem encW_apply (x2 : FVec Ideal S8x512x3072 .f32) (h : S8x512x3072.Slices ![n, 0, 0] S1x512x3072)
    (j : Fin 3072) (k : Fin 512) :
    transpose S3072x512 [1, 0]
        (shapeCast S512x3072 (extractStridedSlice S1x512x3072 ![n, 0, 0] x2 h) shapeCasts_S1x512x3072_S512x3072)
        transposes_S512x3072_S3072x512_1_0 (ix2 j k)
      = x2 (ix3 ⟨n, hn⟩ k j) := by
  refine (transpose_apply [1, 0] _ transposes_S512x3072_S3072x512_1_0 (ix2 j k) (ix2 k j) (fun b => match b with
    | ⟨0, _⟩ => rfl
    | ⟨1, _⟩ => rfl)).trans ?_
  refine (shapeCast_apply _ shapeCasts_S1x512x3072_S512x3072 (ix2 k j) (ix3 ⟨0, Nat.one_pos⟩ k j) ?_).trans ?_
  · rewrite [Shape.rowMajor_val_three, Shape.rowMajor_val_two]
    show (0 * 512 + k.val) * 3072 + j.val = k.val * 3072 + j.val
    omega
  exact extractStridedSlice_apply ![n, 0, 0] x2 h (ix3 ⟨0, Nat.one_pos⟩ k j) (ix3 ⟨n, hn⟩ k j) (fun a => match a with
    | ⟨0, _⟩ => by show n = n + 0; omega
    | ⟨1, _⟩ => by show k.val = 0 + k.val; omega
    | ⟨2, _⟩ => by show j.val = 0 + j.val; omega)

/-- Slice n of the decoder weights, reshaped to 3072 × 512 and transposed: at (k, d) it is W_dec(n, d, k). -/
theorem decW_apply (x4 : FVec Ideal S8x3072x512 .f32) (h : S8x3072x512.Slices ![n, 0, 0] S1x3072x512)
    (k : Fin 512) (d : Fin 3072) :
    transpose S512x3072 [1, 0]
        (shapeCast S3072x512 (extractStridedSlice S1x3072x512 ![n, 0, 0] x4 h) shapeCasts_S1x3072x512_S3072x512)
        transposes_S3072x512_S512x3072_1_0 (ix2 k d)
      = x4 (ix3 ⟨n, hn⟩ d k) := by
  refine (transpose_apply [1, 0] _ transposes_S3072x512_S512x3072_1_0 (ix2 k d) (ix2 d k) (fun b => match b with
    | ⟨0, _⟩ => rfl
    | ⟨1, _⟩ => rfl)).trans ?_
  refine (shapeCast_apply _ shapeCasts_S1x3072x512_S3072x512 (ix2 d k) (ix3 ⟨0, Nat.one_pos⟩ d k) ?_).trans ?_
  · rewrite [Shape.rowMajor_val_three, Shape.rowMajor_val_two]
    show (0 * 3072 + d.val) * 512 + k.val = d.val * 512 + k.val
    omega
  exact extractStridedSlice_apply ![n, 0, 0] x4 h (ix3 ⟨0, Nat.one_pos⟩ d k) (ix3 ⟨n, hn⟩ d k) (fun a => match a with
    | ⟨0, _⟩ => by show n = n + 0; omega
    | ⟨1, _⟩ => by show d.val = 0 + d.val; omega
    | ⟨2, _⟩ => by show k.val = 0 + k.val; omega)

/-- Row n of the encoder bias, broadcast down the 8192 rows: at (p, k) it is b_enc(n, k). -/
theorem encB_apply (x3 : FVec Ideal S8x512 .f32) (h : S8x512.Slices ![n, 0] S1x512) (p : Fin 8192) (k : Fin 512) :
    broadcastInDim S8192x512 ![0, 1] bcast_S1x512_S8192x512_0_1
        (broadcastInDim S1x512 ![1] bcast_S512_S1x512_1
          (shapeCast S512 (extractStridedSlice S1x512 ![n, 0] x3 h) shapeCasts_S1x512_S512)) (ix2 p k)
      = x3 (ix2 ⟨n, hn⟩ k) := by
  refine (broadcastInDim_apply _ bcast_S1x512_S8192x512_0_1 _ (ix2 p k) (ix2 ⟨0, Nat.one_pos⟩ k) (fun a => match a with
    | ⟨0, _⟩ => by show 0 = if (1 : Nat) = 1 then 0 else p.val; rw [if_pos rfl]
    | ⟨1, _⟩ => by show k.val = if (512 : Nat) = 1 then 0 else k.val; rw [if_neg (by decide)])).trans ?_
  refine (broadcastInDim_apply _ bcast_S512_S1x512_1 _ (ix2 ⟨0, Nat.one_pos⟩ k) (ix1 k) (fun a => match a with
    | ⟨0, _⟩ => by show k.val = if (512 : Nat) = 1 then 0 else k.val; rw [if_neg (by decide)])).trans ?_
  refine (shapeCast_apply _ shapeCasts_S1x512_S512 (ix1 k) (ix2 ⟨0, Nat.one_pos⟩ k) ?_).trans ?_
  · rewrite [Shape.rowMajor_val_two, Shape.rowMajor_val_one]
    show 0 * 512 + k.val = k.val
    omega
  exact extractStridedSlice_apply ![n, 0] x3 h (ix2 ⟨0, Nat.one_pos⟩ k) (ix2 ⟨n, hn⟩ k) (fun a => match a with
    | ⟨0, _⟩ => by show n = n + 0; omega
    | ⟨1, _⟩ => by show k.val = 0 + k.val; omega)

/-- Row n of the decoder bias, broadcast down the 8192 rows: at (p, d) it is b_dec(n, d). -/
theorem decB_apply (x5 : FVec Ideal S8x3072 .f32) (h : S8x3072.Slices ![n, 0] S1x3072) (p : Fin 8192) (d : Fin 3072) :
    broadcastInDim S8192x3072 ![0, 1] bcast_S1x3072_S8192x3072_0_1
        (broadcastInDim S1x3072 ![1] bcast_S3072_S1x3072_1
          (shapeCast S3072 (extractStridedSlice S1x3072 ![n, 0] x5 h) shapeCasts_S1x3072_S3072)) (ix2 p d)
      = x5 (ix2 ⟨n, hn⟩ d) := by
  refine (broadcastInDim_apply _ bcast_S1x3072_S8192x3072_0_1 _ (ix2 p d) (ix2 ⟨0, Nat.one_pos⟩ d) (fun a => match a with
    | ⟨0, _⟩ => by show 0 = if (1 : Nat) = 1 then 0 else p.val; rw [if_pos rfl]
    | ⟨1, _⟩ => by show d.val = if (3072 : Nat) = 1 then 0 else d.val; rw [if_neg (by decide)])).trans ?_
  refine (broadcastInDim_apply _ bcast_S3072_S1x3072_1 _ (ix2 ⟨0, Nat.one_pos⟩ d) (ix1 d) (fun a => match a with
    | ⟨0, _⟩ => by show d.val = if (3072 : Nat) = 1 then 0 else d.val; rw [if_neg (by decide)])).trans ?_
  refine (shapeCast_apply _ shapeCasts_S1x3072_S3072 (ix1 d) (ix2 ⟨0, Nat.one_pos⟩ d) ?_).trans ?_
  · rewrite [Shape.rowMajor_val_two, Shape.rowMajor_val_one]
    show 0 * 3072 + d.val = d.val
    omega
  exact extractStridedSlice_apply ![n, 0] x5 h (ix2 ⟨0, Nat.one_pos⟩ d) (ix2 ⟨n, hn⟩ d) (fun a => match a with
    | ⟨0, _⟩ => by show n = n + 0; omega
    | ⟨1, _⟩ => by show d.val = 0 + d.val; omega)

end Layout

/-! ## One expert's pass over the whole batch -/

/-- The reference's eight-operation arithmetic for expert n, over the four slices' side conditions:
    relu(img · W_enc[n]ᵀ + b_enc[n]) · W_dec[n]ᵀ + b_dec[n], as the host operations compute it. -/
def iterVal (n : Nat) (h2 : S8x512x3072.Slices ![n, 0, 0] S1x512x3072) (h3 : S8x512.Slices ![n, 0] S1x512)
    (h4 : S8x3072x512.Slices ![n, 0, 0] S1x3072x512) (h5 : S8x3072.Slices ![n, 0] S1x3072)
    (x0 : FVec Ideal S8192x3072 .f32) (x2 : FVec Ideal S8x512x3072 .f32) (x3 : FVec Ideal S8x512 .f32)
    (x4 : FVec Ideal S8x3072x512 .f32) (x5 : FVec Ideal S8x3072 .f32) : FVec Ideal S8192x3072 .f32 :=
  addf
    (Host.dotGeneral dot_S8192x512_S512x3072_S8192x3072_1_0_0_1_n_n none
      (maximumf
        (addf
          (Host.dotGeneral dot_S8192x3072_S3072x512_S8192x512_1_0_0_1_n_n none x0
            (transpose S3072x512 [1, 0]
              (shapeCast S512x3072 (extractStridedSlice S1x512x3072 ![n, 0, 0] x2 h2) shapeCasts_S1x512x3072_S512x3072)
              transposes_S512x3072_S3072x512_1_0))
          (broadcastInDim S8192x512 ![0, 1] bcast_S1x512_S8192x512_0_1
            (broadcastInDim S1x512 ![1] bcast_S512_S1x512_1
              (shapeCast S512 (extractStridedSlice S1x512 ![n, 0] x3 h3) shapeCasts_S1x512_S512))))
        (broadcastInDim S8192x512 ![] bcast_S_S8192x512 (constant (F := Ideal) S_ .f32 0x00000000#32)))
      (transpose S512x3072 [1, 0]
        (shapeCast S3072x512 (extractStridedSlice S1x3072x512 ![n, 0, 0] x4 h4) shapeCasts_S1x3072x512_S3072x512)
        transposes_S3072x512_S512x3072_1_0))
    (broadcastInDim S8192x3072 ![0, 1] bcast_S1x3072_S8192x3072_0_1
      (broadcastInDim S1x3072 ![1] bcast_S3072_S1x3072_1
        (shapeCast S3072 (extractStridedSlice S1x3072 ![n, 0] x5 h5) shapeCasts_S1x3072_S3072)))

/-- The zero the relu compares with, read anywhere. -/
theorem zero512_apply (i : S8192x512.Idx) :
    broadcastInDim S8192x512 ![] bcast_S_S8192x512 (constant (F := Ideal) S_ .f32 0x00000000#32) i = (0 : EReal) :=
  (broadcastInDim_apply _ bcast_S_S8192x512 _ i (fun a => a.elim0) (fun a => a.elim0)).trans Ideal.ofBits_zero_f32

/-- Expert n's pass at (p, q) is row p through expert n at column q. -/
theorem iterVal_apply (n : Nat) (hn : n < 8) (h2 : S8x512x3072.Slices ![n, 0, 0] S1x512x3072) (h3 : S8x512.Slices ![n, 0] S1x512)
    (h4 : S8x3072x512.Slices ![n, 0, 0] S1x3072x512) (h5 : S8x3072.Slices ![n, 0] S1x3072)
    (x0 : FVec Ideal S8192x3072 .f32) (x2 : FVec Ideal S8x512x3072 .f32) (x3 : FVec Ideal S8x512 .f32)
    (x4 : FVec Ideal S8x3072x512 .f32) (x5 : FVec Ideal S8x3072 .f32) (p : Fin 8192) (q : Fin 3072) :
    iterVal n h2 h3 h4 h5 x0 x2 x3 x4 x5 (ix2 p q) = Cert.Moe.rowThrough x0 x2 x3 x4 x5 ⟨n, hn⟩ p q := by
  unfold iterVal Cert.Moe.rowThrough Cert.Moe.decRow
  refine congrArg₂ (· + ·) ?_ (decB_apply n hn x5 h5 p q)
  refine (PlainDot.dotGeneral_apply 8192 512 3072 none (φ₁ := .f32) (φ₂ := .f32) _ _ p q).trans ?_
  refine Finset.sum_congr rfl fun k _ => ?_
  refine congrArg₂ (· * ·) ?_ (decW_apply n hn x4 h4 k q)
  refine congrArg₂ max ?_ (zero512_apply (ix2 p k))
  refine congrArg₂ (· + ·) ?_ (encB_apply n hn x3 h3 p k)
  refine (PlainDot.dotGeneral_apply 8192 3072 512 none (φ₁ := .f32) (φ₂ := .f32) x0 _ p k).trans ?_
  exact Finset.sum_congr rfl fun j _ => congrArg (x0 (ix2 p j) * ·) (encW_apply n hn x2 h2 j k)

/-! ## The select on "label = n" -/

/-- The mask of one select: the label compared with the word cw, spread along the columns. -/
def mask (x1 : IVec S8192 32) (cw : BitVec 32) : IVec S8192x3072 1 :=
  broadcastInDim S8192x3072 ![0, 1] bcast_S8192x1_S8192x3072_0_1
    (broadcastInDim S8192x1 ![0] bcast_S8192_S8192x1_0
      (cmpi .eq x1 (broadcastInDim S8192 ![] bcast_S_S8192 (constantI S_ 32 cw))))

/-- At (p, q) the mask is the comparison of row p's label with cw. -/
theorem mask_apply (x1 : IVec S8192 32) (cw : BitVec 32) (p : Fin 8192) (q : Fin 3072) :
    mask x1 cw (ix2 p q) = IntOp.cmpi .eq (x1 (ix1 p)) cw := by
  unfold mask
  refine (broadcastInDim_apply _ bcast_S8192x1_S8192x3072_0_1 _ (ix2 p q) (ix2 p ⟨0, Nat.one_pos⟩) (fun a => match a with
    | ⟨0, _⟩ => by show p.val = if (8192 : Nat) = 1 then 0 else p.val; rw [if_neg (by decide)]
    | ⟨1, _⟩ => by show 0 = if (1 : Nat) = 1 then 0 else q.val; rw [if_pos rfl])).trans ?_
  refine (broadcastInDim_apply _ bcast_S8192_S8192x1_0 _ (ix2 p ⟨0, Nat.one_pos⟩) (ix1 p) (fun a => match a with
    | ⟨0, _⟩ => by show p.val = if (8192 : Nat) = 1 then 0 else p.val; rw [if_neg (by decide)])).trans ?_
  exact congrArg (IntOp.cmpi .eq (x1 (ix1 p)))
    (broadcastInDim_apply _ bcast_S_S8192 (constantI S_ 32 cw) (ix1 p) (fun a => a.elim0) (fun a => a.elim0))

/-- One select of the chain at (p, q): expert n's row where the label is n, the earlier value elsewhere. -/
theorem sel_apply (n : Nat) (hn : n < 8) (h2 : S8x512x3072.Slices ![n, 0, 0] S1x512x3072) (h3 : S8x512.Slices ![n, 0] S1x512)
    (h4 : S8x3072x512.Slices ![n, 0, 0] S1x3072x512) (h5 : S8x3072.Slices ![n, 0] S1x3072)
    (x0 : FVec Ideal S8192x3072 .f32) (x1 : IVec S8192 32) (x2 : FVec Ideal S8x512x3072 .f32) (x3 : FVec Ideal S8x512 .f32)
    (x4 : FVec Ideal S8x3072x512 .f32) (x5 : FVec Ideal S8x3072 .f32) (prev : FVec Ideal S8192x3072 .f32)
    (p : Fin 8192) (q : Fin 3072) :
    select (mask x1 (BitVec.ofNat 32 n)) (iterVal n h2 h3 h4 h5 x0 x2 x3 x4 x5) prev (ix2 p q)
      = Scalar.select (IntOp.cmpi .eq (x1 (ix1 p)) (BitVec.ofNat 32 n))
          (Cert.Moe.rowThrough x0 x2 x3 x4 x5 ⟨n, hn⟩ p q) (prev (ix2 p q)) := by
  rw [select_apply, mask_apply, iterVal_apply n hn]

/-- Eight nested selects on "the word is n", n = 0 … 7, pick the entry the word names when the word is below 8. -/
theorem select_chain (w : BitVec 32) (hw : w.toNat < 8) (r : Fin 8 → EReal) (z : EReal) :
    Scalar.select (IntOp.cmpi .eq w (BitVec.ofNat 32 7)) (r ⟨7, by decide⟩)
      (Scalar.select (IntOp.cmpi .eq w (BitVec.ofNat 32 6)) (r ⟨6, by decide⟩)
        (Scalar.select (IntOp.cmpi .eq w (BitVec.ofNat 32 5)) (r ⟨5, by decide⟩)
          (Scalar.select (IntOp.cmpi .eq w (BitVec.ofNat 32 4)) (r ⟨4, by decide⟩)
            (Scalar.select (IntOp.cmpi .eq w (BitVec.ofNat 32 3)) (r ⟨3, by decide⟩)
              (Scalar.select (IntOp.cmpi .eq w (BitVec.ofNat 32 2)) (r ⟨2, by decide⟩)
                (Scalar.select (IntOp.cmpi .eq w (BitVec.ofNat 32 1)) (r ⟨1, by decide⟩)
                  (Scalar.select (IntOp.cmpi .eq w (BitVec.ofNat 32 0)) (r ⟨0, by decide⟩) z)))))))
      = r (Cert.Moe.expert w) := by
  obtain ⟨n, hn, rfl⟩ : ∃ n, n < 8 ∧ w = BitVec.ofNat 32 n := ⟨w.toNat, hw, BitVec.eq_of_toNat_eq (by rw [BitVec.toNat_ofNat, Nat.mod_eq_of_lt w.isLt])⟩
  interval_cases n <;> rfl

/-! ## The reference's stages are these forms -/

section Stages
variable (x0 : (⟨S8192x3072, .f32⟩ : BufTy).Contents (Elt Ideal)) (x1 : (⟨S8192, .i32⟩ : BufTy).Contents (Elt Ideal))
  (x2 : (⟨S8x512x3072, .f32⟩ : BufTy).Contents (Elt Ideal)) (x3 : (⟨S8x512, .f32⟩ : BufTy).Contents (Elt Ideal))
  (x4 : (⟨S8x3072x512, .f32⟩ : BufTy).Contents (Elt Ideal)) (x5 : (⟨S8x3072, .f32⟩ : BufTy).Contents (Elt Ideal))
  (p : Fin 8192) (q : Fin 3072)

/-- The array the selects start from is zero. -/
theorem v0_at : ReadP.val_main_v0 (F := Ideal) (ix2 p q) = (0 : EReal) :=
  (broadcastInDim_apply _ bcast_S_S8192x3072 _ (ix2 p q) (fun a => a.elim0) (fun a => a.elim0)).trans Ideal.ofBits_zero_f32

/-- The select after expert 0's pass, at (p, q). -/
theorem v23_at :
    ReadP.val_main_v23 (F := Ideal) x0 x1 x2 x3 x4 x5 (ix2 p q)
      = Scalar.select (IntOp.cmpi .eq (x1 (ix1 p)) (BitVec.ofNat 32 0)) (Cert.Moe.rowThrough x0 x2 x3 x4 x5 ⟨0, by decide⟩ p q)
          (ReadP.val_main_v0 (F := Ideal) (ix2 p q)) :=
  sel_apply 0 (by decide) slices_S8x512x3072_S1x512x3072_0_0_0 slices_S8x512_S1x512_0_0 slices_S8x3072x512_S1x3072x512_0_0_0
    slices_S8x3072_S1x3072_0_0 x0 x1 x2 x3 x4 x5 (ReadP.val_main_v0 (F := Ideal)) p q

/-- The select after expert 1's pass, at (p, q). -/
theorem v46_at :
    ReadP.val_main_v46 (F := Ideal) x0 x1 x2 x3 x4 x5 (ix2 p q)
      = Scalar.select (IntOp.cmpi .eq (x1 (ix1 p)) (BitVec.ofNat 32 1)) (Cert.Moe.rowThrough x0 x2 x3 x4 x5 ⟨1, by decide⟩ p q)
          (ReadP.val_main_v23 (F := Ideal) x0 x1 x2 x3 x4 x5 (ix2 p q)) :=
  sel_apply 1 (by decide) slices_S8x512x3072_S1x512x3072_1_0_0 slices_S8x512_S1x512_1_0 slices_S8x3072x512_S1x3072x512_1_0_0
    slices_S8x3072_S1x3072_1_0 x0 x1 x2 x3 x4 x5 (ReadP.val_main_v23 (F := Ideal) x0 x1 x2 x3 x4 x5) p q

/-- The select after expert 2's pass, at (p, q). -/
theorem v69_at :
    ReadP.val_main_v69 (F := Ideal) x0 x1 x2 x3 x4 x5 (ix2 p q)
      = Scalar.select (IntOp.cmpi .eq (x1 (ix1 p)) (BitVec.ofNat 32 2)) (Cert.Moe.rowThrough x0 x2 x3 x4 x5 ⟨2, by decide⟩ p q)
          (ReadP.val_main_v46 (F := Ideal) x0 x1 x2 x3 x4 x5 (ix2 p q)) :=
  sel_apply 2 (by decide) slices_S8x512x3072_S1x512x3072_2_0_0 slices_S8x512_S1x512_2_0 slices_S8x3072x512_S1x3072x512_2_0_0
    slices_S8x3072_S1x3072_2_0 x0 x1 x2 x3 x4 x5 (ReadP.val_main_v46 (F := Ideal) x0 x1 x2 x3 x4 x5) p q

/-- The select after expert 3's pass, at (p, q). -/
theorem v92_at :
    ReadP.val_main_v92 (F := Ideal) x0 x1 x2 x3 x4 x5 (ix2 p q)
      = Scalar.select (IntOp.cmpi .eq (x1 (ix1 p)) (BitVec.ofNat 32 3)) (Cert.Moe.rowThrough x0 x2 x3 x4 x5 ⟨3, by decide⟩ p q)
          (ReadP.val_main_v69 (F := Ideal) x0 x1 x2 x3 x4 x5 (ix2 p q)) :=
  sel_apply 3 (by decide) slices_S8x512x3072_S1x512x3072_3_0_0 slices_S8x512_S1x512_3_0 slices_S8x3072x512_S1x3072x512_3_0_0
    slices_S8x3072_S1x3072_3_0 x0 x1 x2 x3 x4 x5 (ReadP.val_main_v69 (F := Ideal) x0 x1 x2 x3 x4 x5) p q

/-- The select after expert 4's pass, at (p, q). -/
theorem v115_at :
    ReadP.val_main_v115 (F := Ideal) x0 x1 x2 x3 x4 x5 (ix2 p q)
      = Scalar.select (IntOp.cmpi .eq (x1 (ix1 p)) (BitVec.ofNat 32 4)) (Cert.Moe.rowThrough x0 x2 x3 x4 x5 ⟨4, by decide⟩ p q)
          (ReadP.val_main_v92 (F := Ideal) x0 x1 x2 x3 x4 x5 (ix2 p q)) :=
  sel_apply 4 (by decide) slices_S8x512x3072_S1x512x3072_4_0_0 slices_S8x512_S1x512_4_0 slices_S8x3072x512_S1x3072x512_4_0_0
    slices_S8x3072_S1x3072_4_0 x0 x1 x2 x3 x4 x5 (ReadP.val_main_v92 (F := Ideal) x0 x1 x2 x3 x4 x5) p q

/-- The select after expert 5's pass, at (p, q). -/
theorem v138_at :
    ReadP.val_main_v138 (F := Ideal) x0 x1 x2 x3 x4 x5 (ix2 p q)
      = Scalar.select (IntOp.cmpi .eq (x1 (ix1 p)) (BitVec.ofNat 32 5)) (Cert.Moe.rowThrough x0 x2 x3 x4 x5 ⟨5, by decide⟩ p q)
          (ReadP.val_main_v115 (F := Ideal) x0 x1 x2 x3 x4 x5 (ix2 p q)) :=
  sel_apply 5 (by decide) slices_S8x512x3072_S1x512x3072_5_0_0 slices_S8x512_S1x512_5_0 slices_S8x3072x512_S1x3072x512_5_0_0
    slices_S8x3072_S1x3072_5_0 x0 x1 x2 x3 x4 x5 (ReadP.val_main_v115 (F := Ideal) x0 x1 x2 x3 x4 x5) p q

/-- The select after expert 6's pass, at (p, q). -/
theorem v161_at :
    ReadP.val_main_v161 (F := Ideal) x0 x1 x2 x3 x4 x5 (ix2 p q)
      = Scalar.select (IntOp.cmpi .eq (x1 (ix1 p)) (BitVec.ofNat 32 6)) (Cert.Moe.rowThrough x0 x2 x3 x4 x5 ⟨6, by decide⟩ p q)
          (ReadP.val_main_v138 (F := Ideal) x0 x1 x2 x3 x4 x5 (ix2 p q)) :=
  sel_apply 6 (by decide) slices_S8x512x3072_S1x512x3072_6_0_0 slices_S8x512_S1x512_6_0 slices_S8x3072x512_S1x3072x512_6_0_0
    slices_S8x3072_S1x3072_6_0 x0 x1 x2 x3 x4 x5 (ReadP.val_main_v138 (F := Ideal) x0 x1 x2 x3 x4 x5) p q

/-- The select after expert 7's pass, at (p, q). -/
theorem v184_at :
    ReadP.val_main_v184 (F := Ideal) x0 x1 x2 x3 x4 x5 (ix2 p q)
      = Scalar.select (IntOp.cmpi .eq (x1 (ix1 p)) (BitVec.ofNat 32 7)) (Cert.Moe.rowThrough x0 x2 x3 x4 x5 ⟨7, by decide⟩ p q)
          (ReadP.val_main_v161 (F := Ideal) x0 x1 x2 x3 x4 x5 (ix2 p q)) :=
  sel_apply 7 (by decide) slices_S8x512x3072_S1x512x3072_7_0_0 slices_S8x512_S1x512_7_0 slices_S8x3072x512_S1x3072x512_7_0_0
    slices_S8x3072_S1x3072_7_0 x0 x1 x2 x3 x4 x5 (ReadP.val_main_v161 (F := Ideal) x0 x1 x2 x3 x4 x5) p q

end Stages

/-! ## The two results -/

/-- The reference's decoded array at (p, q), for labels below 8: row p through the expert its label names. -/
theorem ref_decoded (x0 : (⟨S8192x3072, .f32⟩ : BufTy).Contents (Elt Ideal)) (x1 : (⟨S8192, .i32⟩ : BufTy).Contents (Elt Ideal))
    (x2 : (⟨S8x512x3072, .f32⟩ : BufTy).Contents (Elt Ideal)) (x3 : (⟨S8x512, .f32⟩ : BufTy).Contents (Elt Ideal))
    (x4 : (⟨S8x3072x512, .f32⟩ : BufTy).Contents (Elt Ideal)) (x5 : (⟨S8x3072, .f32⟩ : BufTy).Contents (Elt Ideal))
    (hlab : ∀ p : Fin 8192, (x1 (ix1 p)).toNat < 8) (p : Fin 8192) (q : Fin 3072) :
    Cert.ReferenceIdeal.ReadP.val_main_v184 (F := Ideal) x0 x1 x2 x3 x4 x5 (ix2 p q) = Cert.Moe.decoded x0 x1 x2 x3 x4 x5 p q := by
  rw [v184_at, v161_at, v138_at, v115_at, v92_at, v69_at, v46_at, v23_at, v0_at]
  exact select_chain (x1 (ix1 p)) (hlab p) (fun e => Cert.Moe.rowThrough x0 x2 x3 x4 x5 e p q) 0

/-- The reference's loss is the mean squared difference between its decoded array and the image. -/
theorem ref_loss (x0 : (⟨S8192x3072, .f32⟩ : BufTy).Contents (Elt Ideal)) (x1 : (⟨S8192, .i32⟩ : BufTy).Contents (Elt Ideal))
    (x2 : (⟨S8x512x3072, .f32⟩ : BufTy).Contents (Elt Ideal)) (x3 : (⟨S8x512, .f32⟩ : BufTy).Contents (Elt Ideal))
    (x4 : (⟨S8x3072x512, .f32⟩ : BufTy).Contents (Elt Ideal)) (x5 : (⟨S8x3072, .f32⟩ : BufTy).Contents (Elt Ideal)) :
    Cert.ReferenceIdeal.ReadP.val_main_v188 (F := Ideal) x0 x1 x2 x3 x4 x5
      = Cert.Moe.lossOf reducesTo_S8192x3072_S_d0_1 h_S_ (Cert.ReferenceIdeal.ReadP.val_main_v184 (F := Ideal) x0 x1 x2 x3 x4 x5) x0 := by
  unfold ReadP.val_main_v188 ReadP.val_main_v187 ReadP.val_main_v186 ReadP.val_main_v185 ReadP.val_main_cst_7 ReadP.val_main_cst_8
    Cert.Moe.lossOf
  rfl

end Cert.ReferenceIdeal.Moe

end
-- ==== Proof.RefSide.lean ====
/-
  The reference's two results as the specification's functions of its arguments: its run ends with every buffer at
  its stage of the arguments; the decoded array's stage is the specification's decoded array entry by entry (the
  select chain keeps the pass of the row's own label), and the loss's stage is the closing chain on it.
-/
import proofs.«407060_j11527692222992_3_alg».proof.Proof.RefRun
import proofs.«407060_j11527692222992_3_alg».proof.Proof.RefValue

noncomputable section

namespace Cert.ReferenceIdeal.Moe

open Cert.ReferenceIdeal Cert.ReferenceIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The decoded array's stage is the specification's decoded array, labels in range. -/
theorem ref_decodedArr (c : Dev nD) (hlab : ∀ p : Fin 8192, (m ((c.tc : Thread nD τ).loc main_arg1) (ix1 p)).toNat < 8) :
    Cert.ReferenceIdeal.ReadP.val_main_v184 (F := Ideal) (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
      = Cert.Moe.decodedArr (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) := by
  funext i
  obtain ⟨p, q, rfl⟩ : ∃ (p : Fin 8192) (q : Fin 3072), i = ix2 p q := ⟨i 0, i 1, eq_ix2 i⟩
  exact ref_decoded _ _ _ _ _ _ hlab p q

/-- The reference's run over the specification. -/
theorem ref_spec_run (hlab : ∀ (c : Dev nD) (p : Fin 8192), (m ((c.tc : Thread nD τ).loc main_arg1) (ix1 p)).toNat < 8) :
    θ_run defs (onTc (τ := τ) (main (F := Ideal))) ⟨m, fun _ => 0, ρ⟩ (fun r => ∀ c : Dev nD,
      r.2.mem ((c.tc : Thread nD τ).loc main_v188)
        = Cert.Moe.lossOf reducesTo_S8192x3072_S_d0_1 h_S_
            (Cert.Moe.decodedArr (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5)))
            (m ((c.tc : Thread nD τ).loc main_arg0))
      ∧ r.2.mem ((c.tc : Thread nD τ).loc main_v184)
        = Cert.Moe.decodedArr (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun _ h c => ?_) (ref_run (F := Ideal) m ρ)
  obtain ⟨h188, h184, hargs⟩ := h c
  refine ⟨?_, ?_, hargs⟩
  · rw [h188, ref_loss, ref_decodedArr m c (hlab c)]
  · rw [h184, ref_decodedArr m c (hlab c)]

end Cert.ReferenceIdeal.Moe

end
-- ==== Proof.lean ====
/-
  The certificate of the label-routed mixture of eight experts: a sorted, tile-padded dispatch kernel against the
  loop over the experts with a select by label.

  Under the precondition (finite floats, labels in [0, 8)) both idealized programs return, for row p, the row's image
  through the ONE expert its label names — relu(x · W_enc[e]ᵀ + b_enc[e]) · W_dec[e]ᵀ + b_dec[e] — and the same mean
  squared difference to the image.  The reference computes every expert on every row and keeps the one whose index
  equals the label; the kernel sorts the rows by label, pads every expert's group to whole tiles of 256 rows, runs
  each tile through its expert (a table of tile → expert read by the pipeline's index maps) and scatters the rows back.
  The frames: the kernel's pipeline reads the per-expert arrays at the table's words, which are clipped into [0, 7] by
  the program itself, so its side condition holds of every memory; the reference is a straight line of host
  operations, run chunk by chunk.  The idealization rewrote nothing, so `preserves` has nothing to state.
-/
import proofs.«407060_j11527692222992_3_alg».proof.Defs
import proofs.«407060_j11527692222992_3_alg».proof.Proof.Gen.Kernel.Frame
import proofs.«407060_j11527692222992_3_alg».proof.Proof.Gen.KernelIdeal.Frame
import proofs.«407060_j11527692222992_3_alg».proof.Proof.Gen.ReferenceIdeal
import proofs.«407060_j11527692222992_3_alg».proof.Proof.Gen.Pre_finite_inputs
import proofs.«407060_j11527692222992_3_alg».proof.Proof.OkBits
import proofs.«407060_j11527692222992_3_alg».proof.Proof.OkIdeal
import proofs.«407060_j11527692222992_3_alg».proof.Proof.PreLabel
import proofs.«407060_j11527692222992_3_alg».proof.Proof.KernelSide
import proofs.«407060_j11527692222992_3_alg».proof.Proof.RefSide
import Idealize.ShloMosaic.Adequacy
import Idealize.ShloMosaic.Init

noncomputable section

namespace Cert.Proof

open Idealize.ShloMosaic Idealize.ShloMosaic.ValueIdx Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level kernel's frame: the generated frame, its side condition holding of every memory. -/
theorem frame_k : Cert.frame_Kernel := fun m ρ _ => Cert.Kernel.Gen.frame m ρ (Cert.Kernel.Moe.ok_all m)

/-- The idealized kernel's frame, likewise. -/
theorem frame_ki : Cert.frame_KernelIdeal := fun m ρ _ => Cert.KernelIdeal.Gen.frame m ρ (Cert.KernelIdeal.Moe.ok_all m)

/-- The reference's frame: its run with the results dropped. -/
theorem frame_ri : Cert.frame_ReferenceIdeal := fun m ρ _ =>
  (θ_run Cert.ReferenceIdeal.defs _ _).mono (fun _ h c => (h c).2.2) (Cert.ReferenceIdeal.Moe.ref_run m ρ)

/-- The ideal pass rewrote no operation. -/
theorem preserves : Cert.preserves_Kernel_KernelIdeal := trivial

/-- Both programs return the loss and the decoded array of the specification. -/
theorem algebraic : Cert.algebraic_KernelIdeal_ReferenceIdeal := by
  intro m ρ m' ρ' hpre hagree
  have hlab : ∀ (c : Dev Cert.KernelIdeal.nD) (p : Fin 8192), (Cert.KernelIdeal.Moe.labW m c p).toNat < 8 :=
    fun c p => Cert.Moe.label_lt_of_pre _ _ _ _ _ _ (hpre c) p
  have hlab' : ∀ (c : Dev Cert.ReferenceIdeal.nD) (p : Fin 8192),
      (m' ((c.tc : Thread Cert.ReferenceIdeal.nD Cert.ReferenceIdeal.τ).loc Cert.ReferenceIdeal.main_arg1) (ix1 p)).toNat < 8 :=
    fun c p => by rw [(hagree c).2.1]; exact hlab c p
  refine ⟨_, _, Cert.KernelIdeal.Moe.kernel_run m ρ hlab, ?_⟩
  refine (θ_run Cert.ReferenceIdeal.defs _ _).mono (fun _ h c => ?_) (Cert.ReferenceIdeal.Moe.ref_spec_run m' ρ' hlab')
  obtain ⟨h188, h184, hargs⟩ := h c
  obtain ⟨e0, e1, e2, e3, e4, e5⟩ := hagree c
  refine ⟨?_, ?_, hargs⟩
  · rw [h188, e0, e1, e2, e3, e4, e5]
  · rw [h184, e0, e1, e2, e3, e4, e5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
